-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x4096x2048 : Shape := ⟨3, ![1, 4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel

variable [Facts]

def fn {F : FTy → Type} [FloatOps F] (main_arg0 : FVec F S1x4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  main_v3
-- ==== Pre_finite_inputs_ReferenceIdeal.lean ====
abbrev S2x4096x2048 : Shape := ⟨3, ![2, 4096, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  main_v3
-- ==== Kernel.lean ====
abbrev S1x4096x2048 : Shape := ⟨3, ![1, 4096, 2048]⟩
abbrev S4096x1024 : Shape := ⟨2, ![4096, 1024]⟩
abbrev S2048x1024 : Shape := ⟨2, ![2048, 1024]⟩
abbrev S32 : Shape := ⟨1, ![32]⟩
abbrev S_ : Shape := ⟨0, ![]⟩
abbrev S1 : Shape := ⟨1, ![1]⟩
abbrev S64x1024 : Shape := ⟨2, ![64, 1024]⟩
abbrev S1x64x1024 : Shape := ⟨3, ![1, 64, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 192 → Bool
  | ⟨i, _⟩ => dmaSemScopedAt i

abbrev sig : RefSig :=
  (ofTc nBuf bufTy 1 192 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_14 : BitVec 32) : Fin 3 → Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v21 : BitVec 32 := Scalar.addi v17 c0_i32_14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v18 : BitVec 32 := Scalar.muli v5 c1024_i32
  ![0, v21.toNat, v18.toNat]
def k0_off2 (d0 : Dev nD) (c0_i32_14 : BitVec 32) : Fin 3 → Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v21 : BitVec 32 := Scalar.addi v17 c0_i32_14
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_12 v5
  let c1024_i32_13 : BitVec 32 := 1024#32
  let v20 : BitVec 32 := Scalar.muli v19 c1024_i32_13
  ![0, v21.toNat, v20.toNat]
def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v27 : BitVec 32 := Scalar.muli v2 c2_i32_22
  let v28 : BitVec 32 := Scalar.addi c0_i32_23 v27
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v29 : BitVec 32 := Scalar.muli v6 c1_i32_24
  let v30 : BitVec 32 := Scalar.addi v28 v29
  v30.toNat
def k0_dev4 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v44 : BitVec 32 := Scalar.muli v2 c2_i32_34
  let v45 : BitVec 32 := Scalar.addi c0_i32_35 v44
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v46 : BitVec 32 := Scalar.muli v6 c1_i32_36
  let v47 : BitVec 32 := Scalar.addi v45 v46
  v47.toNat
def k0_dev5 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v61 : BitVec 32 := Scalar.muli v2 c2_i32_46
  let v62 : BitVec 32 := Scalar.addi c0_i32_47 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_48 : BitVec 32 := 1#32
  let v63 : BitVec 32 := Scalar.muli v6 c1_i32_48
  let v64 : BitVec 32 := Scalar.addi v62 v63
  v64.toNat
def k0_dev6 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v78 : BitVec 32 := Scalar.muli v2 c2_i32_57
  let v79 : BitVec 32 := Scalar.addi c0_i32_58 v78
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v80 : BitVec 32 := Scalar.muli v6 c1_i32_59
  let v81 : BitVec 32 := Scalar.addi v79 v80
  v81.toNat
def k0_dev7 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v95 : BitVec 32 := Scalar.muli v2 c2_i32_68
  let v96 : BitVec 32 := Scalar.addi c0_i32_69 v95
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v97 : BitVec 32 := Scalar.muli v6 c1_i32_70
  let v98 : BitVec 32 := Scalar.addi v96 v97
  v98.toNat
def k0_dev8 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v112 : BitVec 32 := Scalar.muli v2 c2_i32_79
  let v113 : BitVec 32 := Scalar.addi c0_i32_80 v112
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_81 : BitVec 32 := 1#32
  let v114 : BitVec 32 := Scalar.muli v6 c1_i32_81
  let v115 : BitVec 32 := Scalar.addi v113 v114
  v115.toNat
def k0_dev9 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v129 : BitVec 32 := Scalar.muli v2 c2_i32_90
  let v130 : BitVec 32 := Scalar.addi c0_i32_91 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_92 : BitVec 32 := 1#32
  let v131 : BitVec 32 := Scalar.muli v6 c1_i32_92
  let v132 : BitVec 32 := Scalar.addi v130 v131
  v132.toNat
def k0_dev10 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v146 : BitVec 32 := Scalar.muli v2 c2_i32_101
  let v147 : BitVec 32 := Scalar.addi c0_i32_102 v146
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v148 : BitVec 32 := Scalar.muli v6 c1_i32_103
  let v149 : BitVec 32 := Scalar.addi v147 v148
  v149.toNat
def k0_dev11 (d0 : Dev nD) : Nat :=
  let c0_i32_113 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_112 : BitVec 32 := 2#32
  let v163 : BitVec 32 := Scalar.muli v2 c2_i32_112
  let v164 : BitVec 32 := Scalar.addi c0_i32_113 v163
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_114 : BitVec 32 := 1#32
  let v165 : BitVec 32 := Scalar.muli v6 c1_i32_114
  let v166 : BitVec 32 := Scalar.addi v164 v165
  v166.toNat
def k0_dev12 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_123 : BitVec 32 := 2#32
  let v180 : BitVec 32 := Scalar.muli v2 c2_i32_123
  let v181 : BitVec 32 := Scalar.addi c0_i32_124 v180
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_125 : BitVec 32 := 1#32
  let v182 : BitVec 32 := Scalar.muli v6 c1_i32_125
  let v183 : BitVec 32 := Scalar.addi v181 v182
  v183.toNat
def k0_dev13 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v197 : BitVec 32 := Scalar.muli v2 c2_i32_134
  let v198 : BitVec 32 := Scalar.addi c0_i32_135 v197
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v199 : BitVec 32 := Scalar.muli v6 c1_i32_136
  let v200 : BitVec 32 := Scalar.addi v198 v199
  v200.toNat
def k0_dev14 (d0 : Dev nD) : Nat :=
  let c0_i32_146 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_145 : BitVec 32 := 2#32
  let v214 : BitVec 32 := Scalar.muli v2 c2_i32_145
  let v215 : BitVec 32 := Scalar.addi c0_i32_146 v214
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_147 : BitVec 32 := 1#32
  let v216 : BitVec 32 := Scalar.muli v6 c1_i32_147
  let v217 : BitVec 32 := Scalar.addi v215 v216
  v217.toNat
def k0_dev15 (d0 : Dev nD) : Nat :=
  let c0_i32_157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_156 : BitVec 32 := 2#32
  let v231 : BitVec 32 := Scalar.muli v2 c2_i32_156
  let v232 : BitVec 32 := Scalar.addi c0_i32_157 v231
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_158 : BitVec 32 := 1#32
  let v233 : BitVec 32 := Scalar.muli v6 c1_i32_158
  let v234 : BitVec 32 := Scalar.addi v232 v233
  v234.toNat
def k0_dev16 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v248 : BitVec 32 := Scalar.muli v2 c2_i32_167
  let v249 : BitVec 32 := Scalar.addi c0_i32_168 v248
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v250 : BitVec 32 := Scalar.muli v6 c1_i32_169
  let v251 : BitVec 32 := Scalar.addi v249 v250
  v251.toNat
def k0_dev17 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v265 : BitVec 32 := Scalar.muli v2 c2_i32_178
  let v266 : BitVec 32 := Scalar.addi c0_i32_179 v265
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_180 : BitVec 32 := 1#32
  let v267 : BitVec 32 := Scalar.muli v6 c1_i32_180
  let v268 : BitVec 32 := Scalar.addi v266 v267
  v268.toNat
def k0_dev18 (d0 : Dev nD) : Nat :=
  let c0_i32_190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_189 : BitVec 32 := 2#32
  let v282 : BitVec 32 := Scalar.muli v2 c2_i32_189
  let v283 : BitVec 32 := Scalar.addi c0_i32_190 v282
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_191 : BitVec 32 := 1#32
  let v284 : BitVec 32 := Scalar.muli v6 c1_i32_191
  let v285 : BitVec 32 := Scalar.addi v283 v284
  v285.toNat
def k0_dev19 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v299 : BitVec 32 := Scalar.muli v2 c2_i32_201
  let v300 : BitVec 32 := Scalar.addi c0_i32_202 v299
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_203 : BitVec 32 := 1#32
  let v301 : BitVec 32 := Scalar.muli v6 c1_i32_203
  let v302 : BitVec 32 := Scalar.addi v300 v301
  v302.toNat
def k0_dev20 (d0 : Dev nD) : Nat :=
  let c0_i32_213 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_212 : BitVec 32 := 2#32
  let v316 : BitVec 32 := Scalar.muli v2 c2_i32_212
  let v317 : BitVec 32 := Scalar.addi c0_i32_213 v316
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_214 : BitVec 32 := 1#32
  let v318 : BitVec 32 := Scalar.muli v6 c1_i32_214
  let v319 : BitVec 32 := Scalar.addi v317 v318
  v319.toNat
def k0_dev21 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_223 : BitVec 32 := 2#32
  let v333 : BitVec 32 := Scalar.muli v2 c2_i32_223
  let v334 : BitVec 32 := Scalar.addi c0_i32_224 v333
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_225 : BitVec 32 := 1#32
  let v335 : BitVec 32 := Scalar.muli v6 c1_i32_225
  let v336 : BitVec 32 := Scalar.addi v334 v335
  v336.toNat
def k0_dev22 (d0 : Dev nD) : Nat :=
  let c0_i32_235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_234 : BitVec 32 := 2#32
  let v350 : BitVec 32 := Scalar.muli v2 c2_i32_234
  let v351 : BitVec 32 := Scalar.addi c0_i32_235 v350
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_236 : BitVec 32 := 1#32
  let v352 : BitVec 32 := Scalar.muli v6 c1_i32_236
  let v353 : BitVec 32 := Scalar.addi v351 v352
  v353.toNat
def k0_dev23 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v367 : BitVec 32 := Scalar.muli v2 c2_i32_245
  let v368 : BitVec 32 := Scalar.addi c0_i32_246 v367
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_247 : BitVec 32 := 1#32
  let v369 : BitVec 32 := Scalar.muli v6 c1_i32_247
  let v370 : BitVec 32 := Scalar.addi v368 v369
  v370.toNat
def k0_dev24 (d0 : Dev nD) : Nat :=
  let c0_i32_257 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_256 : BitVec 32 := 2#32
  let v384 : BitVec 32 := Scalar.muli v2 c2_i32_256
  let v385 : BitVec 32 := Scalar.addi c0_i32_257 v384
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_258 : BitVec 32 := 1#32
  let v386 : BitVec 32 := Scalar.muli v6 c1_i32_258
  let v387 : BitVec 32 := Scalar.addi v385 v386
  v387.toNat
def k0_dev25 (d0 : Dev nD) : Nat :=
  let c0_i32_268 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_267 : BitVec 32 := 2#32
  let v401 : BitVec 32 := Scalar.muli v2 c2_i32_267
  let v402 : BitVec 32 := Scalar.addi c0_i32_268 v401
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_269 : BitVec 32 := 1#32
  let v403 : BitVec 32 := Scalar.muli v6 c1_i32_269
  let v404 : BitVec 32 := Scalar.addi v402 v403
  v404.toNat
def k0_dev26 (d0 : Dev nD) : Nat :=
  let c0_i32_279 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_278 : BitVec 32 := 2#32
  let v418 : BitVec 32 := Scalar.muli v2 c2_i32_278
  let v419 : BitVec 32 := Scalar.addi c0_i32_279 v418
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_280 : BitVec 32 := 1#32
  let v420 : BitVec 32 := Scalar.muli v6 c1_i32_280
  let v421 : BitVec 32 := Scalar.addi v419 v420
  v421.toNat
def k0_dev27 (d0 : Dev nD) : Nat :=
  let c0_i32_290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_289 : BitVec 32 := 2#32
  let v435 : BitVec 32 := Scalar.muli v2 c2_i32_289
  let v436 : BitVec 32 := Scalar.addi c0_i32_290 v435
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_291 : BitVec 32 := 1#32
  let v437 : BitVec 32 := Scalar.muli v6 c1_i32_291
  let v438 : BitVec 32 := Scalar.addi v436 v437
  v438.toNat
def k0_dev28 (d0 : Dev nD) : Nat :=
  let c0_i32_301 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_300 : BitVec 32 := 2#32
  let v452 : BitVec 32 := Scalar.muli v2 c2_i32_300
  let v453 : BitVec 32 := Scalar.addi c0_i32_301 v452
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_302 : BitVec 32 := 1#32
  let v454 : BitVec 32 := Scalar.muli v6 c1_i32_302
  let v455 : BitVec 32 := Scalar.addi v453 v454
  v455.toNat
def k0_dev29 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v469 : BitVec 32 := Scalar.muli v2 c2_i32_311
  let v470 : BitVec 32 := Scalar.addi c0_i32_312 v469
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_313 : BitVec 32 := 1#32
  let v471 : BitVec 32 := Scalar.muli v6 c1_i32_313
  let v472 : BitVec 32 := Scalar.addi v470 v471
  v472.toNat
def k0_dev30 (d0 : Dev nD) : Nat :=
  let c0_i32_323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_322 : BitVec 32 := 2#32
  let v486 : BitVec 32 := Scalar.muli v2 c2_i32_322
  let v487 : BitVec 32 := Scalar.addi c0_i32_323 v486
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_324 : BitVec 32 := 1#32
  let v488 : BitVec 32 := Scalar.muli v6 c1_i32_324
  let v489 : BitVec 32 := Scalar.addi v487 v488
  v489.toNat
def k0_dev31 (d0 : Dev nD) : Nat :=
  let c0_i32_334 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_333 : BitVec 32 := 2#32
  let v503 : BitVec 32 := Scalar.muli v2 c2_i32_333
  let v504 : BitVec 32 := Scalar.addi c0_i32_334 v503
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_335 : BitVec 32 := 1#32
  let v505 : BitVec 32 := Scalar.muli v6 c1_i32_335
  let v506 : BitVec 32 := Scalar.addi v504 v505
  v506.toNat
def k0_dev32 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v520 : BitVec 32 := Scalar.muli v2 c2_i32_344
  let v521 : BitVec 32 := Scalar.addi c0_i32_345 v520
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_346 : BitVec 32 := 1#32
  let v522 : BitVec 32 := Scalar.muli v6 c1_i32_346
  let v523 : BitVec 32 := Scalar.addi v521 v522
  v523.toNat
def k0_dev33 (d0 : Dev nD) : Nat :=
  let c0_i32_356 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_355 : BitVec 32 := 2#32
  let v537 : BitVec 32 := Scalar.muli v2 c2_i32_355
  let v538 : BitVec 32 := Scalar.addi c0_i32_356 v537
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_357 : BitVec 32 := 1#32
  let v539 : BitVec 32 := Scalar.muli v6 c1_i32_357
  let v540 : BitVec 32 := Scalar.addi v538 v539
  v540.toNat
def k0_dev34 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v554 : BitVec 32 := Scalar.muli v2 c2_i32_366
  let v555 : BitVec 32 := Scalar.addi c0_i32_367 v554
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_368 : BitVec 32 := 1#32
  let v556 : BitVec 32 := Scalar.muli v6 c1_i32_368
  let v557 : BitVec 32 := Scalar.addi v555 v556
  v557.toNat
def k0_off3 (d0 : Dev nD) (c0_i32_371 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v565 : BitVec 32 := Scalar.addi v17 c0_i32_371
  let c0_i32_394 : BitVec 32 := 0#32
  ![v565.toNat, 0]
def k0_dev35 (d0 : Dev nD) : Nat :=
  let c0_i32_392 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_391 : BitVec 32 := 2#32
  let v586 : BitVec 32 := Scalar.muli v7 c2_i32_391
  let v587 : BitVec 32 := Scalar.addi c0_i32_392 v586
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_393 : BitVec 32 := 1#32
  let v588 : BitVec 32 := Scalar.muli v5 c1_i32_393
  let v589 : BitVec 32 := Scalar.addi v587 v588
  v589.toNat
def k0_dev36 (d0 : Dev nD) : Nat :=
  let c0_i32_422 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_421 : BitVec 32 := 2#32
  let v621 : BitVec 32 := Scalar.muli v7 c2_i32_421
  let v622 : BitVec 32 := Scalar.addi c0_i32_422 v621
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_423 : BitVec 32 := 1#32
  let v623 : BitVec 32 := Scalar.muli v5 c1_i32_423
  let v624 : BitVec 32 := Scalar.addi v622 v623
  v624.toNat
def k0_dev37 (d0 : Dev nD) : Nat :=
  let c0_i32_452 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_451 : BitVec 32 := 2#32
  let v656 : BitVec 32 := Scalar.muli v7 c2_i32_451
  let v657 : BitVec 32 := Scalar.addi c0_i32_452 v656
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_453 : BitVec 32 := 1#32
  let v658 : BitVec 32 := Scalar.muli v5 c1_i32_453
  let v659 : BitVec 32 := Scalar.addi v657 v658
  v659.toNat
def k0_dev38 (d0 : Dev nD) : Nat :=
  let c0_i32_482 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_481 : BitVec 32 := 2#32
  let v691 : BitVec 32 := Scalar.muli v7 c2_i32_481
  let v692 : BitVec 32 := Scalar.addi c0_i32_482 v691
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_483 : BitVec 32 := 1#32
  let v693 : BitVec 32 := Scalar.muli v5 c1_i32_483
  let v694 : BitVec 32 := Scalar.addi v692 v693
  v694.toNat
def k0_dev39 (d0 : Dev nD) : Nat :=
  let c0_i32_512 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_511 : BitVec 32 := 2#32
  let v726 : BitVec 32 := Scalar.muli v7 c2_i32_511
  let v727 : BitVec 32 := Scalar.addi c0_i32_512 v726
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_513 : BitVec 32 := 1#32
  let v728 : BitVec 32 := Scalar.muli v5 c1_i32_513
  let v729 : BitVec 32 := Scalar.addi v727 v728
  v729.toNat
def k0_dev40 (d0 : Dev nD) : Nat :=
  let c0_i32_542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_541 : BitVec 32 := 2#32
  let v761 : BitVec 32 := Scalar.muli v7 c2_i32_541
  let v762 : BitVec 32 := Scalar.addi c0_i32_542 v761
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_543 : BitVec 32 := 1#32
  let v763 : BitVec 32 := Scalar.muli v5 c1_i32_543
  let v764 : BitVec 32 := Scalar.addi v762 v763
  v764.toNat
def k0_dev41 (d0 : Dev nD) : Nat :=
  let c0_i32_572 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_571 : BitVec 32 := 2#32
  let v796 : BitVec 32 := Scalar.muli v7 c2_i32_571
  let v797 : BitVec 32 := Scalar.addi c0_i32_572 v796
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_573 : BitVec 32 := 1#32
  let v798 : BitVec 32 := Scalar.muli v5 c1_i32_573
  let v799 : BitVec 32 := Scalar.addi v797 v798
  v799.toNat
def k0_dev42 (d0 : Dev nD) : Nat :=
  let c0_i32_602 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_601 : BitVec 32 := 2#32
  let v831 : BitVec 32 := Scalar.muli v7 c2_i32_601
  let v832 : BitVec 32 := Scalar.addi c0_i32_602 v831
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_603 : BitVec 32 := 1#32
  let v833 : BitVec 32 := Scalar.muli v5 c1_i32_603
  let v834 : BitVec 32 := Scalar.addi v832 v833
  v834.toNat
def k0_dev43 (d0 : Dev nD) : Nat :=
  let c0_i32_632 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_631 : BitVec 32 := 2#32
  let v866 : BitVec 32 := Scalar.muli v7 c2_i32_631
  let v867 : BitVec 32 := Scalar.addi c0_i32_632 v866
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_633 : BitVec 32 := 1#32
  let v868 : BitVec 32 := Scalar.muli v5 c1_i32_633
  let v869 : BitVec 32 := Scalar.addi v867 v868
  v869.toNat
def k0_dev44 (d0 : Dev nD) : Nat :=
  let c0_i32_662 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_661 : BitVec 32 := 2#32
  let v901 : BitVec 32 := Scalar.muli v7 c2_i32_661
  let v902 : BitVec 32 := Scalar.addi c0_i32_662 v901
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_663 : BitVec 32 := 1#32
  let v903 : BitVec 32 := Scalar.muli v5 c1_i32_663
  let v904 : BitVec 32 := Scalar.addi v902 v903
  v904.toNat
def k0_dev45 (d0 : Dev nD) : Nat :=
  let c0_i32_692 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_691 : BitVec 32 := 2#32
  let v936 : BitVec 32 := Scalar.muli v7 c2_i32_691
  let v937 : BitVec 32 := Scalar.addi c0_i32_692 v936
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_693 : BitVec 32 := 1#32
  let v938 : BitVec 32 := Scalar.muli v5 c1_i32_693
  let v939 : BitVec 32 := Scalar.addi v937 v938
  v939.toNat
def k0_dev46 (d0 : Dev nD) : Nat :=
  let c0_i32_722 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_721 : BitVec 32 := 2#32
  let v971 : BitVec 32 := Scalar.muli v7 c2_i32_721
  let v972 : BitVec 32 := Scalar.addi c0_i32_722 v971
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_723 : BitVec 32 := 1#32
  let v973 : BitVec 32 := Scalar.muli v5 c1_i32_723
  let v974 : BitVec 32 := Scalar.addi v972 v973
  v974.toNat
def k0_dev47 (d0 : Dev nD) : Nat :=
  let c0_i32_752 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_751 : BitVec 32 := 2#32
  let v1006 : BitVec 32 := Scalar.muli v7 c2_i32_751
  let v1007 : BitVec 32 := Scalar.addi c0_i32_752 v1006
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_753 : BitVec 32 := 1#32
  let v1008 : BitVec 32 := Scalar.muli v5 c1_i32_753
  let v1009 : BitVec 32 := Scalar.addi v1007 v1008
  v1009.toNat
def k0_dev48 (d0 : Dev nD) : Nat :=
  let c0_i32_782 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_781 : BitVec 32 := 2#32
  let v1041 : BitVec 32 := Scalar.muli v7 c2_i32_781
  let v1042 : BitVec 32 := Scalar.addi c0_i32_782 v1041
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_783 : BitVec 32 := 1#32
  let v1043 : BitVec 32 := Scalar.muli v5 c1_i32_783
  let v1044 : BitVec 32 := Scalar.addi v1042 v1043
  v1044.toNat
def k0_dev49 (d0 : Dev nD) : Nat :=
  let c0_i32_812 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_811 : BitVec 32 := 2#32
  let v1076 : BitVec 32 := Scalar.muli v7 c2_i32_811
  let v1077 : BitVec 32 := Scalar.addi c0_i32_812 v1076
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_813 : BitVec 32 := 1#32
  let v1078 : BitVec 32 := Scalar.muli v5 c1_i32_813
  let v1079 : BitVec 32 := Scalar.addi v1077 v1078
  v1079.toNat
def k0_dev50 (d0 : Dev nD) : Nat :=
  let c0_i32_842 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_841 : BitVec 32 := 2#32
  let v1111 : BitVec 32 := Scalar.muli v7 c2_i32_841
  let v1112 : BitVec 32 := Scalar.addi c0_i32_842 v1111
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_843 : BitVec 32 := 1#32
  let v1113 : BitVec 32 := Scalar.muli v5 c1_i32_843
  let v1114 : BitVec 32 := Scalar.addi v1112 v1113
  v1114.toNat
def k0_dev51 (d0 : Dev nD) : Nat :=
  let c0_i32_872 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_871 : BitVec 32 := 2#32
  let v1146 : BitVec 32 := Scalar.muli v7 c2_i32_871
  let v1147 : BitVec 32 := Scalar.addi c0_i32_872 v1146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_873 : BitVec 32 := 1#32
  let v1148 : BitVec 32 := Scalar.muli v5 c1_i32_873
  let v1149 : BitVec 32 := Scalar.addi v1147 v1148
  v1149.toNat
def k0_dev52 (d0 : Dev nD) : Nat :=
  let c0_i32_902 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_901 : BitVec 32 := 2#32
  let v1181 : BitVec 32 := Scalar.muli v7 c2_i32_901
  let v1182 : BitVec 32 := Scalar.addi c0_i32_902 v1181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_903 : BitVec 32 := 1#32
  let v1183 : BitVec 32 := Scalar.muli v5 c1_i32_903
  let v1184 : BitVec 32 := Scalar.addi v1182 v1183
  v1184.toNat
def k0_dev53 (d0 : Dev nD) : Nat :=
  let c0_i32_932 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_931 : BitVec 32 := 2#32
  let v1216 : BitVec 32 := Scalar.muli v7 c2_i32_931
  let v1217 : BitVec 32 := Scalar.addi c0_i32_932 v1216
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_933 : BitVec 32 := 1#32
  let v1218 : BitVec 32 := Scalar.muli v5 c1_i32_933
  let v1219 : BitVec 32 := Scalar.addi v1217 v1218
  v1219.toNat
def k0_dev54 (d0 : Dev nD) : Nat :=
  let c0_i32_962 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_961 : BitVec 32 := 2#32
  let v1251 : BitVec 32 := Scalar.muli v7 c2_i32_961
  let v1252 : BitVec 32 := Scalar.addi c0_i32_962 v1251
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_963 : BitVec 32 := 1#32
  let v1253 : BitVec 32 := Scalar.muli v5 c1_i32_963
  let v1254 : BitVec 32 := Scalar.addi v1252 v1253
  v1254.toNat
def k0_dev55 (d0 : Dev nD) : Nat :=
  let c0_i32_992 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_991 : BitVec 32 := 2#32
  let v1286 : BitVec 32 := Scalar.muli v7 c2_i32_991
  let v1287 : BitVec 32 := Scalar.addi c0_i32_992 v1286
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_993 : BitVec 32 := 1#32
  let v1288 : BitVec 32 := Scalar.muli v5 c1_i32_993
  let v1289 : BitVec 32 := Scalar.addi v1287 v1288
  v1289.toNat
def k0_dev56 (d0 : Dev nD) : Nat :=
  let c0_i32_1022 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1021 : BitVec 32 := 2#32
  let v1321 : BitVec 32 := Scalar.muli v7 c2_i32_1021
  let v1322 : BitVec 32 := Scalar.addi c0_i32_1022 v1321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1023 : BitVec 32 := 1#32
  let v1323 : BitVec 32 := Scalar.muli v5 c1_i32_1023
  let v1324 : BitVec 32 := Scalar.addi v1322 v1323
  v1324.toNat
def k0_dev57 (d0 : Dev nD) : Nat :=
  let c0_i32_1052 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1051 : BitVec 32 := 2#32
  let v1356 : BitVec 32 := Scalar.muli v7 c2_i32_1051
  let v1357 : BitVec 32 := Scalar.addi c0_i32_1052 v1356
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1053 : BitVec 32 := 1#32
  let v1358 : BitVec 32 := Scalar.muli v5 c1_i32_1053
  let v1359 : BitVec 32 := Scalar.addi v1357 v1358
  v1359.toNat
def k0_dev58 (d0 : Dev nD) : Nat :=
  let c0_i32_1082 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1081 : BitVec 32 := 2#32
  let v1391 : BitVec 32 := Scalar.muli v7 c2_i32_1081
  let v1392 : BitVec 32 := Scalar.addi c0_i32_1082 v1391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1083 : BitVec 32 := 1#32
  let v1393 : BitVec 32 := Scalar.muli v5 c1_i32_1083
  let v1394 : BitVec 32 := Scalar.addi v1392 v1393
  v1394.toNat
def k0_dev59 (d0 : Dev nD) : Nat :=
  let c0_i32_1112 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1111 : BitVec 32 := 2#32
  let v1426 : BitVec 32 := Scalar.muli v7 c2_i32_1111
  let v1427 : BitVec 32 := Scalar.addi c0_i32_1112 v1426
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1113 : BitVec 32 := 1#32
  let v1428 : BitVec 32 := Scalar.muli v5 c1_i32_1113
  let v1429 : BitVec 32 := Scalar.addi v1427 v1428
  v1429.toNat
def k0_dev60 (d0 : Dev nD) : Nat :=
  let c0_i32_1142 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1141 : BitVec 32 := 2#32
  let v1461 : BitVec 32 := Scalar.muli v7 c2_i32_1141
  let v1462 : BitVec 32 := Scalar.addi c0_i32_1142 v1461
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1143 : BitVec 32 := 1#32
  let v1463 : BitVec 32 := Scalar.muli v5 c1_i32_1143
  let v1464 : BitVec 32 := Scalar.addi v1462 v1463
  v1464.toNat
def k0_dev61 (d0 : Dev nD) : Nat :=
  let c0_i32_1172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1171 : BitVec 32 := 2#32
  let v1496 : BitVec 32 := Scalar.muli v7 c2_i32_1171
  let v1497 : BitVec 32 := Scalar.addi c0_i32_1172 v1496
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1173 : BitVec 32 := 1#32
  let v1498 : BitVec 32 := Scalar.muli v5 c1_i32_1173
  let v1499 : BitVec 32 := Scalar.addi v1497 v1498
  v1499.toNat
def k0_dev62 (d0 : Dev nD) : Nat :=
  let c0_i32_1202 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1201 : BitVec 32 := 2#32
  let v1531 : BitVec 32 := Scalar.muli v7 c2_i32_1201
  let v1532 : BitVec 32 := Scalar.addi c0_i32_1202 v1531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1203 : BitVec 32 := 1#32
  let v1533 : BitVec 32 := Scalar.muli v5 c1_i32_1203
  let v1534 : BitVec 32 := Scalar.addi v1532 v1533
  v1534.toNat
def k0_dev63 (d0 : Dev nD) : Nat :=
  let c0_i32_1232 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1231 : BitVec 32 := 2#32
  let v1566 : BitVec 32 := Scalar.muli v7 c2_i32_1231
  let v1567 : BitVec 32 := Scalar.addi c0_i32_1232 v1566
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1233 : BitVec 32 := 1#32
  let v1568 : BitVec 32 := Scalar.muli v5 c1_i32_1233
  let v1569 : BitVec 32 := Scalar.addi v1567 v1568
  v1569.toNat
def k0_dev64 (d0 : Dev nD) : Nat :=
  let c0_i32_1262 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1261 : BitVec 32 := 2#32
  let v1601 : BitVec 32 := Scalar.muli v7 c2_i32_1261
  let v1602 : BitVec 32 := Scalar.addi c0_i32_1262 v1601
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1263 : BitVec 32 := 1#32
  let v1603 : BitVec 32 := Scalar.muli v5 c1_i32_1263
  let v1604 : BitVec 32 := Scalar.addi v1602 v1603
  v1604.toNat
def k0_dev65 (d0 : Dev nD) : Nat :=
  let c0_i32_1292 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1291 : BitVec 32 := 2#32
  let v1636 : BitVec 32 := Scalar.muli v7 c2_i32_1291
  let v1637 : BitVec 32 := Scalar.addi c0_i32_1292 v1636
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1293 : BitVec 32 := 1#32
  let v1638 : BitVec 32 := Scalar.muli v5 c1_i32_1293
  let v1639 : BitVec 32 := Scalar.addi v1637 v1638
  v1639.toNat
def k0_dev66 (d0 : Dev nD) : Nat :=
  let c0_i32_1322 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1321 : BitVec 32 := 2#32
  let v1671 : BitVec 32 := Scalar.muli v7 c2_i32_1321
  let v1672 : BitVec 32 := Scalar.addi c0_i32_1322 v1671
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1323 : BitVec 32 := 1#32
  let v1673 : BitVec 32 := Scalar.muli v5 c1_i32_1323
  let v1674 : BitVec 32 := Scalar.addi v1672 v1673
  v1674.toNat

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S2048x1024_S64x1024_0_0 : ∀ a, (![0, 0] : Fin 2 → Nat) a + S64x1024.size a ≤ S2048x1024.size a
  squeezes_S1x64x1024_S64x1024 : S1x64x1024.Squeezes S64x1024
  inb_S32_S1_1 : ∀ a, (![1] : Fin 1 → Nat) a + S1.size a ≤ S32.size a
  inb_S2048x1024_S64x1024_64_0 : ∀ a, (![64, 0] : Fin 2 → Nat) a + S64x1024.size a ≤ S2048x1024.size a
  inb_S32_S1_2 : ∀ a, (![2] : Fin 1 → Nat) a + S1.size a ≤ S32.size a
  inb_S2048x1024_S64x1024_128_0 : ∀ a, (![128, 0] : Fin 2 → Nat) a + S64x1024.size a ≤ S2048x1024.size a
  inb_S32_S1_3 : ∀ a, (![3] : Fin 1 → Nat) a + S1.size a ≤ S32.size a
  inb_S2048x1024_S64x1024_192_0 : ∀ a, (![192, 0] : Fin 2 → Nat) a + S64x1024.size a ≤ S2048x1024.size a
  inb_S32_S1_4 : ∀ a, (![4] : Fin 1 → Nat) a + S1.size a ≤ S32.size a
  inb_S2048x1024_S64x1024_256_0 : ∀ a, (![256, 0] : Fin 2 → Nat) a + S64x1024.size a ≤ S2048x1024.size a
  inb_S32_S1_5 : ∀ a, (![5] : Fin 1 → Nat) a + S1.size a ≤ S32.size a
  inb_S2048x1024_S64x1024_320_0 : ∀ a, (![320, 0] : Fin 2 → Nat) a + S64x1024.size a ≤ S2048x1024.size a
  inb_S32_S1_6 : ∀ a, (![6] : Fin 1 → Nat) a + S1.size a ≤ S32.size a
  inb_S2048x1024_S64x1024_384_0 : ∀ a, (![384, 0] : Fin 2 → Nat) a + S64x1024.size a ≤ S2048x1024.size a
  inb_S32_S1_7 : ∀ a, (![7] : Fin 1 → Nat) a + S1.size a ≤ S32.size a
  inb_S2048x1024_S64x1024_448_0 : ∀ a, (![448, 0] : Fin 2 → Nat) a + S64x1024.size a ≤ S2048x1024.size a
  inb_S32_S1_8 : ∀ a, (![8] : Fin 1 → Nat) a + S1.size a ≤ S32.size a
  inb_S2048x1024_S64x1024_512_0 : ∀ a, (![512, 0] : Fin 2 → Nat) a + S64x1024.size a ≤ S2048x1024.size a
  inb_S32_S1_9 : ∀ a, (![9] : Fin 1 → Nat) a + S1.size a ≤ S32.size a
  inb_S2048x1024_S64x1024_576_0 : ∀ a, (![576, 0] : Fin 2 → Nat) a + S64x1024.size a ≤ S2048x1024.size a
  inb_S32_S1_10 : ∀ a, (![10] : Fin 1 → Nat) a + S1.size a ≤ S32.size a
  inb_S2048x1024_S64x1024_640_0 : ∀ a, (![640, 0] : Fin 2 → Nat) a + S64x1024.size a ≤ S2048x1024.size a
  inb_S32_S1_11 : ∀ a, (![11] : Fin 1 → Nat) a + S1.size a ≤ S32.size a
  inb_S2048x1024_S64x1024_704_0 : ∀ a, (![704, 0] : Fin 2 → Nat) a + S64x1024.size a ≤ S2048x1024.size a
  inb_S32_S1_12 : ∀ a, (![12] : Fin 1 → Nat) a + S1.size a ≤ S32.size a
  inb_S2048x1024_S64x1024_768_0 : ∀ a, (![768, 0] : Fin 2 → Nat) a + S64x1024.size a ≤ S2048x1024.size a
  inb_S32_S1_13 : ∀ a, (![13] : Fin 1 → Nat) a + S1.size a ≤ S32.size a
  inb_S2048x1024_S64x1024_832_0 : ∀ a, (![832, 0] : Fin 2 → Nat) a + S64x1024.size a ≤ S2048x1024.size a
  inb_S32_S1_14 : ∀ a, (![14] : Fin 1 → Nat) a + S1.size a ≤ S32.size a
  inb_S2048x1024_S64x1024_896_0 : ∀ a, (![896, 0] : Fin 2 → Nat) a + S64x1024.size a ≤ S2048x1024.size a
  inb_S32_S1_15 : ∀ a, (![15] : Fin 1 → Nat) a + S1.size a ≤ S32.size a
  inb_S2048x1024_S64x1024_960_0 : ∀ a, (![960, 0] : Fin 2 → Nat) a + S64x1024.size a ≤ S2048x1024.size a
  inb_S32_S1_16 : ∀ a, (![16] : Fin 1 → Nat) a + S1.size a ≤ S32.size a
  inb_S2048x1024_S64x1024_1024_0 : ∀ a, (![1024, 0] : Fin 2 → Nat) a + S64x1024.size a ≤ S2048x1024.size a
  inb_S32_S1_17 : ∀ a, (![17] : Fin 1 → Nat) a + S1.size a ≤ S32.size a
  inb_S2048x1024_S64x1024_1088_0 : ∀ a, (![1088, 0] : Fin 2 → Nat) a + S64x1024.size a ≤ S2048x1024.size a
  inb_S32_S1_18 : ∀ a, (![18] : Fin 1 → Nat) a + S1.size a ≤ S32.size a
  inb_S2048x1024_S64x1024_1152_0 : ∀ a, (![1152, 0] : Fin 2 → Nat) a + S64x1024.size a ≤ S2048x1024.size a
  inb_S32_S1_19 : ∀ a, (![19] : Fin 1 → Nat) a + S1.size a ≤ S32.size a
  inb_S2048x1024_S64x1024_1216_0 : ∀ a, (![1216, 0] : Fin 2 → Nat) a + S64x1024.size a ≤ S2048x1024.size a
  inb_S32_S1_20 : ∀ a, (![20] : Fin 1 → Nat) a + S1.size a ≤ S32.size a
  inb_S2048x1024_S64x1024_1280_0 : ∀ a, (![1280, 0] : Fin 2 → Nat) a + S64x1024.size a ≤ S2048x1024.size a
  inb_S32_S1_21 : ∀ a, (![21] : Fin 1 → Nat) a + S1.size a ≤ S32.size a
  inb_S2048x1024_S64x1024_1344_0 : ∀ a, (![1344, 0] : Fin 2 → Nat) a + S64x1024.size a ≤ S2048x1024.size a
  inb_S32_S1_22 : ∀ a, (![22] : Fin 1 → Nat) a + S1.size a ≤ S32.size a
  inb_S2048x1024_S64x1024_1408_0 : ∀ a, (![1408, 0] : Fin 2 → Nat) a + S64x1024.size a ≤ S2048x1024.size a
  inb_S32_S1_23 : ∀ a, (![23] : Fin 1 → Nat) a + S1.size a ≤ S32.size a
  inb_S2048x1024_S64x1024_1472_0 : ∀ a, (![1472, 0] : Fin 2 → Nat) a + S64x1024.size a ≤ S2048x1024.size a
  inb_S32_S1_24 : ∀ a, (![24] : Fin 1 → Nat) a + S1.size a ≤ S32.size a
  inb_S2048x1024_S64x1024_1536_0 : ∀ a, (![1536, 0] : Fin 2 → Nat) a + S64x1024.size a ≤ S2048x1024.size a
  inb_S32_S1_25 : ∀ a, (![25] : Fin 1 → Nat) a + S1.size a ≤ S32.size a
  inb_S2048x1024_S64x1024_1600_0 : ∀ a, (![1600, 0] : Fin 2 → Nat) a + S64x1024.size a ≤ S2048x1024.size a
  inb_S32_S1_26 : ∀ a, (![26] : Fin 1 → Nat) a + S1.size a ≤ S32.size a
  inb_S2048x1024_S64x1024_1664_0 : ∀ a, (![1664, 0] : Fin 2 → Nat) a + S64x1024.size a ≤ S2048x1024.size a
  inb_S32_S1_27 : ∀ a, (![27] : Fin 1 → Nat) a + S1.size a ≤ S32.size a
  inb_S2048x1024_S64x1024_1728_0 : ∀ a, (![1728, 0] : Fin 2 → Nat) a + S64x1024.size a ≤ S2048x1024.size a
  inb_S32_S1_28 : ∀ a, (![28] : Fin 1 → Nat) a + S1.size a ≤ S32.size a
  inb_S2048x1024_S64x1024_1792_0 : ∀ a, (![1792, 0] : Fin 2 → Nat) a + S64x1024.size a ≤ S2048x1024.size a
  inb_S32_S1_29 : ∀ a, (![29] : Fin 1 → Nat) a + S1.size a ≤ S32.size a
  inb_S2048x1024_S64x1024_1856_0 : ∀ a, (![1856, 0] : Fin 2 → Nat) a + S64x1024.size a ≤ S2048x1024.size a
  inb_S32_S1_30 : ∀ a, (![30] : Fin 1 → Nat) a + S1.size a ≤ S32.size a
  inb_S2048x1024_S64x1024_1920_0 : ∀ a, (![1920, 0] : Fin 2 → Nat) a + S64x1024.size a ≤ S2048x1024.size a
  inb_S32_S1_31 : ∀ a, (![31] : Fin 1 → Nat) a + S1.size a ≤ S32.size a
  inb_S2048x1024_S64x1024_1984_0 : ∀ a, (![1984, 0] : Fin 2 → Nat) a + S64x1024.size a ≤ S2048x1024.size a
  h_S64x1024 : 0 < S64x1024.numel
  shapeCasts_S64x1024_S64x1024 : S64x1024.ShapeCasts S64x1024
  hcc0_scratch3 : 0 + S32.numel ≤ 192
  hcc0_scratch4 : 32 + S32.numel ≤ 192
  hcc0_scratch5 : 64 + S32.numel ≤ 192
  hcc0_scratch6 : 96 + S32.numel ≤ 192
  hcc0_scratch7 : 128 + S32.numel ≤ 192
  hcc0_scratch8 : 160 + S32.numel ≤ 192
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (64 * r.val))) a + S1x64x1024.size a ≤ S1x4096x2048.size a
  k0_off2_inb : ∀ d0 : Dev nD, ∀ (r : Fin 32), ∀ a, (k0_off2 d0 (BitVec.ofNat 32 (64 * r.val))) a + S1x64x1024.size a ≤ S1x4096x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ (r : Fin 32), ∀ a, (k0_off3 d0 (BitVec.ofNat 32 (64 * r.val))) a + S64x1024.size a ≤ S4096x1024.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD

variable [Facts₀]

abbrev cc0_scratch3 : DmaSems sig S32 := SemArray.consecutive 0 S32 hcc0_scratch3
abbrev cc0_scratch4 : DmaSems sig S32 := SemArray.consecutive 32 S32 hcc0_scratch4
abbrev cc0_scratch5 : DmaSems sig S32 := SemArray.consecutive 64 S32 hcc0_scratch5
abbrev cc0_scratch6 : DmaSems sig S32 := SemArray.consecutive 96 S32 hcc0_scratch6
abbrev cc0_scratch7 : DmaSems sig S32 := SemArray.consecutive 128 S32 hcc0_scratch7
abbrev cc0_scratch8 : DmaSems sig S32 := SemArray.consecutive 160 S32 hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x4096x2048_S4096x2048_d0 : S2x4096x2048.ReducesTo [0] S4096x2048
  h_S_ : 0 < S_.numel

variable [Facts₀]

class Facts : Prop extends Facts₀ where

variable [Facts]
-- ==== Proof.Cells.lean ====
/-
  The chunk-indexed views of the reduce-scatter kernel. The kernel moves its data in 32 chunks of 64 rows; chunk
  `k` of a 2048-row scratch buffer is the rows `[64 k, 64 k + 64)`, chunk `k` of the device's own row half of its
  argument block the rows `[2048 x + 64 k, …)` in its own column half (what it sums locally) or in the other column
  half (what it sends to the device of the other mesh column), and chunk `k` of its row half of the result the rows
  `[2048 x + 64 k, …)`. Each of the six semaphore arrays has one semaphore per chunk.
-/
import proofs.«900309_g7700000000000310_dist_rs_v7x_xy2x2_y_m4096_n1024_f32_1_alg».proof.KernelIdeal
import proofs.«900309_g7700000000000310_dist_rs_v7x_xy2x2_y_m4096_n1024_f32_1_alg».proof.Proof.Gen.KernelIdeal

noncomputable section

namespace Cert.KernelIdeal.RS

open Cert.KernelIdeal Cert.KernelIdeal.Gen
open Idealize.ShloMosaic Idealize.ShloMosaic.TcCoe

/-! ## The five buffers, whole -/

abbrev argM : Memref sig .tc .hbm S1x4096x2048 .f32 := Memref.whole main_arg0
abbrev outM : Memref sig .tc .hbm S4096x1024 .f32 := Memref.whole main_v1
abbrev commM : Memref sig .tc .vmem S2048x1024 .f32 := Memref.whole cc0_scratch0
abbrev linM : Memref sig .tc .vmem S2048x1024 .f32 := Memref.whole cc0_scratch1
abbrev partM : Memref sig .tc .vmem S2048x1024 .f32 := Memref.whole cc0_scratch2

/-! ## Chunk `k` of a scratch buffer: rows `[64 k, 64 k + 64)`, all 1024 columns -/

theorem inb_chunk (k : Fin 32) : ∀ a, (![64 * k.val, 0] : Fin 2 → Nat) a + S64x1024.size a ≤ S2048x1024.size a := by
  intro a
  have hk := k.isLt
  match a with
  | ⟨0, _⟩ => show 64 * k.val + 64 ≤ 2048; omega
  | ⟨1, _⟩ => show 0 + 1024 ≤ 1024; omega

abbrev chunkR (k : Fin 32) : Rect S2048x1024 := Rect.unit (s := S2048x1024) ![64 * k.val, 0] S64x1024.size (inb_chunk k)

abbrev commSl (k : Fin 32) : Memref sig .tc .vmem S64x1024 .f32 := commM.slice (chunkR k) (fun _ => rfl)
abbrev linSl (k : Fin 32) : Memref sig .tc .vmem S64x1024 .f32 := linM.slice (chunkR k) (fun _ => rfl)
abbrev partSl (k : Fin 32) : Memref sig .tc .vmem S64x1024 .f32 := partM.slice (chunkR k) (fun _ => rfl)

/-! ## Chunk `k` of device `c`'s argument block and of its result, through the printed offset functions -/

/-- Rows `[2048 x(c) + 64 k, …)`, device `c`'s own column half: what `c` copies into its own `lin` buffer. -/
abbrev argOwnSl (c : Dev nD) (k : Fin 32) : Memref sig .tc .hbm S64x1024 .f32 :=
  (argM.slice (Rect.unit (s := S1x4096x2048) (k0_off1 c (BitVec.ofNat 32 (64 * k.val))) S1x64x1024.size (k0_off1_inb c k)) (fun _ => rfl)).squeeze
    S64x1024 squeezes_S1x64x1024_S64x1024
/-- The same rows, the other column half: what `c` sends into the `comm` buffer of the device of the other column. -/
abbrev argPeerSl (c : Dev nD) (k : Fin 32) : Memref sig .tc .hbm S64x1024 .f32 :=
  (argM.slice (Rect.unit (s := S1x4096x2048) (k0_off2 c (BitVec.ofNat 32 (64 * k.val))) S1x64x1024.size (k0_off2_inb c k)) (fun _ => rfl)).squeeze
    S64x1024 squeezes_S1x64x1024_S64x1024
/-- Rows `[2048 x(c) + 64 k, …)` of a result buffer: where `c`'s chunk `k` of partial sums goes, on `c` itself and on
    the device of the other mesh row. -/
abbrev outSl (c : Dev nD) (k : Fin 32) : Memref sig .tc .hbm S64x1024 .f32 :=
  outM.slice (Rect.unit (s := S4096x1024) (k0_off3 c (BitVec.ofNat 32 (64 * k.val))) S64x1024.size (k0_off3_inb c k)) (fun _ => rfl)

/-! ## The semaphores: one per chunk in each of the six arrays -/

theorem inb_sem (k : Fin 32) : ∀ a, (![k.val] : Fin 1 → Nat) a + S1.size a ≤ S32.size a := by
  intro a
  have hk := k.isLt
  match a with
  | ⟨0, _⟩ => show k.val + 1 ≤ 32; omega

abbrev semAt (A : DmaSems sig S32) (k : Fin 32) : DmaSems sig S_ :=
  (A.slice (Rect.unit (s := S32) ![k.val] S1.size (inb_sem k))).squeeze S_ squeezes_S1_S_

/-- send and receive semaphores of the transfers between the two mesh columns (`y`), -/
abbrev ySendS (k : Fin 32) : DmaSem sig := (semAt cc0_scratch3 k).sem
abbrev yRecvS (k : Fin 32) : DmaSem sig := (semAt cc0_scratch4 k).sem
/-- of the transfers between the two mesh rows (`x`), -/
abbrev xSendS (k : Fin 32) : DmaSem sig := (semAt cc0_scratch5 k).sem
abbrev xRecvS (k : Fin 32) : DmaSem sig := (semAt cc0_scratch6 k).sem
/-- of the local copies into `lin` and out of `part`. -/
abbrev linS (k : Fin 32) : DmaSem sig := (semAt cc0_scratch7 k).sem
abbrev outS (k : Fin 32) : DmaSem sig := (semAt cc0_scratch8 k).sem

/-- The runtime's barrier semaphore of the kernel's collective id. -/
abbrev barS : Sem sig := (SemArray.scalar (sig.barrier 0 rfl) : Sems sig S_).sem

/-! The chunk-indexed views at a literal chunk are the printed ones. -/

example : linSl 3 = (Memref.whole cc0_scratch1 : Memref sig .tc .vmem S2048x1024 .f32).slice
    (Rect.unit (s := S2048x1024) ![192, 0] S64x1024.size inb_S2048x1024_S64x1024_192_0) (fun _ => rfl) := rfl
example (c : Dev nD) : argOwnSl c 3 = ((Memref.whole main_arg0 : Memref sig .tc .hbm S1x4096x2048 .f32).slice
    (Rect.unit (s := S1x4096x2048) (k0_off1 c 192#32) S1x64x1024.size (k0_off1_inb c 3)) (fun _ => rfl)).squeeze S64x1024 squeezes_S1x64x1024_S64x1024 := rfl
example : linS 3 = ((cc0_scratch7.slice (Rect.unit (s := S32) ![3] S1.size inb_S32_S1_3)).squeeze S_ squeezes_S1_S_).sem := rfl

end Cert.KernelIdeal.RS

end
-- ==== Proof.Mesh.lean ====
/- The 2×2 mesh: device `c` sits at position (x, y) = (c / 2, c % 2).  Two involutions move along one
   axis: `ypeer` keeps x and flips y, `xpeer` keeps y and flips x.  Every printed device chain of the
   program evaluates to one of the two, and the printed offset chains at a peer are the device's own
   with one coordinate flipped. -/
import proofs.«900309_g7700000000000310_dist_rs_v7x_xy2x2_y_m4096_n1024_f32_1_alg».proof.KernelIdeal
import proofs.«900309_g7700000000000310_dist_rs_v7x_xy2x2_y_m4096_n1024_f32_1_alg».proof.Proof.Gen.KernelIdeal

namespace Cert.KernelIdeal.RS

open Cert.KernelIdeal Cert.KernelIdeal.Gen Idealize.ShloMosaic

/-- Same x, other y: position (c / 2, 1 - c % 2). -/
def ypeer (c : Dev nD) : Dev nD := ⟨(2 * (c.val / 2) + 1) - (c.val % 2), by revert c; decide⟩

/-- Other x, same y: position (1 - c / 2, c % 2). -/
def xpeer (c : Dev nD) : Dev nD := ⟨((c.val % 2) + 2) - 2 * (c.val / 2), by revert c; decide⟩

theorem ypeer_ypeer (c : Dev nD) : ypeer (ypeer c) = c := by revert c; decide
theorem xpeer_xpeer (c : Dev nD) : xpeer (xpeer c) = c := by revert c; decide
theorem xpeer_ypeer (c : Dev nD) : xpeer (ypeer c) = ypeer (xpeer c) := by revert c; decide
theorem ypeer_ne (c : Dev nD) : ypeer c ≠ c := by revert c; decide
theorem xpeer_ne (c : Dev nD) : xpeer c ≠ c := by revert c; decide
theorem ypeer_ne_xpeer (c : Dev nD) : ypeer c ≠ xpeer c := by revert c; decide

theorem ypeer_val_mod (c : Dev nD) : (ypeer c).val % 2 = 1 - c.val % 2 := by revert c; decide
theorem ypeer_val_div (c : Dev nD) : (ypeer c).val / 2 = c.val / 2 := by revert c; decide
theorem xpeer_val_mod (c : Dev nD) : (xpeer c).val % 2 = c.val % 2 := by revert c; decide
theorem xpeer_val_div (c : Dev nD) : (xpeer c).val / 2 = 1 - c.val / 2 := by revert c; decide

/-- The first barrier signal goes to the y-peer. -/
theorem dev1_eq (c : Dev nD) : (⟨k0_dev1 c, k0_dev1_lt c⟩ : Dev nD) = ypeer c :=
  Fin.ext (k0_dev1_eq c)

/-- The second barrier signal goes to the x-peer. -/
theorem dev2_eq (c : Dev nD) : (⟨k0_dev2 c, k0_dev2_lt c⟩ : Dev nD) = xpeer c :=
  Fin.ext (k0_dev2_eq c)

/-- The target of the transfer of row chunk `k` along the y axis, as printed. -/
def ydev (c : Dev nD) : Fin 32 → Dev nD
  | 0 => ⟨k0_dev3 c, k0_dev3_lt c⟩
  | 1 => ⟨k0_dev4 c, k0_dev4_lt c⟩
  | 2 => ⟨k0_dev5 c, k0_dev5_lt c⟩
  | 3 => ⟨k0_dev6 c, k0_dev6_lt c⟩
  | 4 => ⟨k0_dev7 c, k0_dev7_lt c⟩
  | 5 => ⟨k0_dev8 c, k0_dev8_lt c⟩
  | 6 => ⟨k0_dev9 c, k0_dev9_lt c⟩
  | 7 => ⟨k0_dev10 c, k0_dev10_lt c⟩
  | 8 => ⟨k0_dev11 c, k0_dev11_lt c⟩
  | 9 => ⟨k0_dev12 c, k0_dev12_lt c⟩
  | 10 => ⟨k0_dev13 c, k0_dev13_lt c⟩
  | 11 => ⟨k0_dev14 c, k0_dev14_lt c⟩
  | 12 => ⟨k0_dev15 c, k0_dev15_lt c⟩
  | 13 => ⟨k0_dev16 c, k0_dev16_lt c⟩
  | 14 => ⟨k0_dev17 c, k0_dev17_lt c⟩
  | 15 => ⟨k0_dev18 c, k0_dev18_lt c⟩
  | 16 => ⟨k0_dev19 c, k0_dev19_lt c⟩
  | 17 => ⟨k0_dev20 c, k0_dev20_lt c⟩
  | 18 => ⟨k0_dev21 c, k0_dev21_lt c⟩
  | 19 => ⟨k0_dev22 c, k0_dev22_lt c⟩
  | 20 => ⟨k0_dev23 c, k0_dev23_lt c⟩
  | 21 => ⟨k0_dev24 c, k0_dev24_lt c⟩
  | 22 => ⟨k0_dev25 c, k0_dev25_lt c⟩
  | 23 => ⟨k0_dev26 c, k0_dev26_lt c⟩
  | 24 => ⟨k0_dev27 c, k0_dev27_lt c⟩
  | 25 => ⟨k0_dev28 c, k0_dev28_lt c⟩
  | 26 => ⟨k0_dev29 c, k0_dev29_lt c⟩
  | 27 => ⟨k0_dev30 c, k0_dev30_lt c⟩
  | 28 => ⟨k0_dev31 c, k0_dev31_lt c⟩
  | 29 => ⟨k0_dev32 c, k0_dev32_lt c⟩
  | 30 => ⟨k0_dev33 c, k0_dev33_lt c⟩
  | 31 => ⟨k0_dev34 c, k0_dev34_lt c⟩
  | ⟨n + 32, h⟩ => absurd h (by omega)

/-- The target of the transfer of row chunk `k` along the x axis, as printed. -/
def xdev (c : Dev nD) : Fin 32 → Dev nD
  | 0 => ⟨k0_dev35 c, k0_dev35_lt c⟩
  | 1 => ⟨k0_dev36 c, k0_dev36_lt c⟩
  | 2 => ⟨k0_dev37 c, k0_dev37_lt c⟩
  | 3 => ⟨k0_dev38 c, k0_dev38_lt c⟩
  | 4 => ⟨k0_dev39 c, k0_dev39_lt c⟩
  | 5 => ⟨k0_dev40 c, k0_dev40_lt c⟩
  | 6 => ⟨k0_dev41 c, k0_dev41_lt c⟩
  | 7 => ⟨k0_dev42 c, k0_dev42_lt c⟩
  | 8 => ⟨k0_dev43 c, k0_dev43_lt c⟩
  | 9 => ⟨k0_dev44 c, k0_dev44_lt c⟩
  | 10 => ⟨k0_dev45 c, k0_dev45_lt c⟩
  | 11 => ⟨k0_dev46 c, k0_dev46_lt c⟩
  | 12 => ⟨k0_dev47 c, k0_dev47_lt c⟩
  | 13 => ⟨k0_dev48 c, k0_dev48_lt c⟩
  | 14 => ⟨k0_dev49 c, k0_dev49_lt c⟩
  | 15 => ⟨k0_dev50 c, k0_dev50_lt c⟩
  | 16 => ⟨k0_dev51 c, k0_dev51_lt c⟩
  | 17 => ⟨k0_dev52 c, k0_dev52_lt c⟩
  | 18 => ⟨k0_dev53 c, k0_dev53_lt c⟩
  | 19 => ⟨k0_dev54 c, k0_dev54_lt c⟩
  | 20 => ⟨k0_dev55 c, k0_dev55_lt c⟩
  | 21 => ⟨k0_dev56 c, k0_dev56_lt c⟩
  | 22 => ⟨k0_dev57 c, k0_dev57_lt c⟩
  | 23 => ⟨k0_dev58 c, k0_dev58_lt c⟩
  | 24 => ⟨k0_dev59 c, k0_dev59_lt c⟩
  | 25 => ⟨k0_dev60 c, k0_dev60_lt c⟩
  | 26 => ⟨k0_dev61 c, k0_dev61_lt c⟩
  | 27 => ⟨k0_dev62 c, k0_dev62_lt c⟩
  | 28 => ⟨k0_dev63 c, k0_dev63_lt c⟩
  | 29 => ⟨k0_dev64 c, k0_dev64_lt c⟩
  | 30 => ⟨k0_dev65 c, k0_dev65_lt c⟩
  | 31 => ⟨k0_dev66 c, k0_dev66_lt c⟩
  | ⟨n + 32, h⟩ => absurd h (by omega)

/-- Every transfer along the y axis goes to the y-peer. -/
theorem ydev_eq (c : Dev nD) : ∀ k : Fin 32, ydev c k = ypeer c
  | 0 => Fin.ext (k0_dev3_eq c)
  | 1 => Fin.ext (k0_dev4_eq c)
  | 2 => Fin.ext (k0_dev5_eq c)
  | 3 => Fin.ext (k0_dev6_eq c)
  | 4 => Fin.ext (k0_dev7_eq c)
  | 5 => Fin.ext (k0_dev8_eq c)
  | 6 => Fin.ext (k0_dev9_eq c)
  | 7 => Fin.ext (k0_dev10_eq c)
  | 8 => Fin.ext (k0_dev11_eq c)
  | 9 => Fin.ext (k0_dev12_eq c)
  | 10 => Fin.ext (k0_dev13_eq c)
  | 11 => Fin.ext (k0_dev14_eq c)
  | 12 => Fin.ext (k0_dev15_eq c)
  | 13 => Fin.ext (k0_dev16_eq c)
  | 14 => Fin.ext (k0_dev17_eq c)
  | 15 => Fin.ext (k0_dev18_eq c)
  | 16 => Fin.ext (k0_dev19_eq c)
  | 17 => Fin.ext (k0_dev20_eq c)
  | 18 => Fin.ext (k0_dev21_eq c)
  | 19 => Fin.ext (k0_dev22_eq c)
  | 20 => Fin.ext (k0_dev23_eq c)
  | 21 => Fin.ext (k0_dev24_eq c)
  | 22 => Fin.ext (k0_dev25_eq c)
  | 23 => Fin.ext (k0_dev26_eq c)
  | 24 => Fin.ext (k0_dev27_eq c)
  | 25 => Fin.ext (k0_dev28_eq c)
  | 26 => Fin.ext (k0_dev29_eq c)
  | 27 => Fin.ext (k0_dev30_eq c)
  | 28 => Fin.ext (k0_dev31_eq c)
  | 29 => Fin.ext (k0_dev32_eq c)
  | 30 => Fin.ext (k0_dev33_eq c)
  | 31 => Fin.ext (k0_dev34_eq c)
  | ⟨n + 32, h⟩ => absurd h (by omega)

/-- Every transfer along the x axis goes to the x-peer. -/
theorem xdev_eq (c : Dev nD) : ∀ k : Fin 32, xdev c k = xpeer c
  | 0 => Fin.ext (k0_dev35_eq c)
  | 1 => Fin.ext (k0_dev36_eq c)
  | 2 => Fin.ext (k0_dev37_eq c)
  | 3 => Fin.ext (k0_dev38_eq c)
  | 4 => Fin.ext (k0_dev39_eq c)
  | 5 => Fin.ext (k0_dev40_eq c)
  | 6 => Fin.ext (k0_dev41_eq c)
  | 7 => Fin.ext (k0_dev42_eq c)
  | 8 => Fin.ext (k0_dev43_eq c)
  | 9 => Fin.ext (k0_dev44_eq c)
  | 10 => Fin.ext (k0_dev45_eq c)
  | 11 => Fin.ext (k0_dev46_eq c)
  | 12 => Fin.ext (k0_dev47_eq c)
  | 13 => Fin.ext (k0_dev48_eq c)
  | 14 => Fin.ext (k0_dev49_eq c)
  | 15 => Fin.ext (k0_dev50_eq c)
  | 16 => Fin.ext (k0_dev51_eq c)
  | 17 => Fin.ext (k0_dev52_eq c)
  | 18 => Fin.ext (k0_dev53_eq c)
  | 19 => Fin.ext (k0_dev54_eq c)
  | 20 => Fin.ext (k0_dev55_eq c)
  | 21 => Fin.ext (k0_dev56_eq c)
  | 22 => Fin.ext (k0_dev57_eq c)
  | 23 => Fin.ext (k0_dev58_eq c)
  | 24 => Fin.ext (k0_dev59_eq c)
  | 25 => Fin.ext (k0_dev60_eq c)
  | 26 => Fin.ext (k0_dev61_eq c)
  | 27 => Fin.ext (k0_dev62_eq c)
  | 28 => Fin.ext (k0_dev63_eq c)
  | 29 => Fin.ext (k0_dev64_eq c)
  | 30 => Fin.ext (k0_dev65_eq c)
  | 31 => Fin.ext (k0_dev66_eq c)
  | ⟨n + 32, h⟩ => absurd h (by omega)

/-- The y-peer's other column half is the device's own column half, at the same rows (x is shared). -/
theorem off2_ypeer (c : Dev nD) (k : Fin 32) :
    k0_off2 (ypeer c) (BitVec.ofNat 32 (64 * k.val)) = k0_off1 c (BitVec.ofNat 32 (64 * k.val)) := by
  rw [k0_off2_eq, k0_off1_eq, ypeer_val_div, ypeer_val_mod]
  have h : 1024 - 1024 * (1 - c.val % 2) = 1024 * (c.val % 2) := by omega
  rw [h]

/-- The x-peer's row block starts at the other half of the rows. -/
theorem off3_xpeer_val (c : Dev nD) (k : Fin 32) :
    k0_off3 (xpeer c) (BitVec.ofNat 32 (64 * k.val)) = ![2048 * (1 - c.val / 2) + 64 * k.val, 0] := by
  rw [k0_off3_eq, xpeer_val_div]

/-- info: 'Cert.KernelIdeal.RS.ydev_eq' depends on axioms: [propext, Quot.sound] -/
#guard_msgs in #print axioms ydev_eq

/-- info: 'Cert.KernelIdeal.RS.off2_ypeer' depends on axioms: [propext, Classical.choice, Quot.sound] -/
#guard_msgs in #print axioms off2_ypeer

end Cert.KernelIdeal.RS
-- ==== Proof.Sched.lean ====
/-
  The protocol of the reduce-scatter kernel under the rounds discipline: one round per cell.
  A device's barrier cell has two duties of one unit: `false`, paid by its neighbour in the other mesh column,
  hands it that neighbour's 32 chunks of `comm` (to write into) and that the neighbour's 32 receive cells stand at round
  0; `true`, paid by its neighbour in the other mesh row, hands it the 32 chunks of that neighbour's result at the
  device's own row half, likewise. Every DMA cell has the one duty `false` of a chunk's credit:
  a send cell's hands back the source share; the receive cell of the column transfers hands the device chunk `k` of
  `comm` holding the neighbour's other-column-half rows; the receive cell of the row transfers chunk `k` of the
  neighbour's row half of the result holding the neighbour's partial sums; a local copy's cell hands the destination
  written and the source share.
-/
import proofs.«900309_g7700000000000310_dist_rs_v7x_xy2x2_y_m4096_n1024_f32_1_alg».proof.Proof.Cells
import proofs.«900309_g7700000000000310_dist_rs_v7x_xy2x2_y_m4096_n1024_f32_1_alg».proof.Proof.Mesh
import proofs.«900309_g7700000000000310_dist_rs_v7x_xy2x2_y_m4096_n1024_f32_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev ySendCell (c : Dev nD) (k : Fin 32) : GSem nD τ sig := ((c : Thread nD τ), .dma (ySendS k))
abbrev yRecvCell (c : Dev nD) (k : Fin 32) : GSem nD τ sig := ((c : Thread nD τ), .dma (yRecvS k))
abbrev xSendCell (c : Dev nD) (k : Fin 32) : GSem nD τ sig := ((c : Thread nD τ), .dma (xSendS k))
abbrev xRecvCell (c : Dev nD) (k : Fin 32) : GSem nD τ sig := ((c : Thread nD τ), .dma (xRecvS k))
abbrev linCell (c : Dev nD) (k : Fin 32) : GSem nD τ sig := ((c : Thread nD τ), .dma (linS k))
abbrev outCell (c : Dev nD) (k : Fin 32) : GSem nD τ sig := ((c : Thread nD τ), .dma (outS k))

/-- A chunk's credit: every transfer of the kernel moves 64 × 1024 words. -/
abbrev N : ℕ := (linSl 0 : Memref sig .tc .vmem S64x1024 .f32).view.dmaCredit
theorem N_pos : 0 < N := View.dmaCredit_pos _ (by decide)

/-- The array a DMA semaphore belongs to (0 column-send, 1 column-receive, 2 row-send, 3 row-receive, 4 copy in,
    5 copy out) and its chunk: the six arrays are consecutive blocks of 32. -/
def arrOf (i : DmaSem sig) : ℕ := i.val / 32
def chunkOf (i : DmaSem sig) : Fin 32 := ⟨i.val % 32, Nat.mod_lt _ (by decide)⟩

/-! ## Contents -/

/-- Device `c`'s argument block as launched. -/
abbrev argBuf (c : Dev nD) : Buf (Elt F) ((c : Thread nD τ).loc main_arg0) := m ((c : Thread nD τ).loc main_arg0)

/-- Chunk `k` of `c`'s own row half, own column half; -/
def ownChunk (c : Dev nD) (k : Fin 32) : Vec F S64x1024 .f32 := (argOwnSl c k).view.read (Elt F) (argBuf m c)
/-- other column half: what `c` sends across the columns. -/
def peerChunk (c : Dev nD) (k : Fin 32) : Vec F S64x1024 .f32 := (argPeerSl c k).view.read (Elt F) (argBuf m c)
/-- Chunk `k` of `c`'s partial sums: its own chunk plus the one the neighbour in the other column sent. -/
def partChunk (c : Dev nD) (k : Fin 32) : Vec F S64x1024 .f32 := k0_pay1 (ownChunk m c k) (peerChunk m (ypeer c) k)

/-- A share of chunk `k` of the argument block's own column half, at the launch contents; -/
def argOwnPts (c : Dev nD) (k : Fin 32) (q : PosShare TreeShare) : sProp 𝕄 :=
  (argOwnSl c k).view.loc (c : Thread nD τ) ↦[(argOwnSl c k).view.set]{q} argBuf m c
/-- of the other column half. -/
def argPeerPts (c : Dev nD) (k : Fin 32) (q : PosShare TreeShare) : sProp 𝕄 :=
  (argPeerSl c k).view.loc (c : Thread nD τ) ↦[(argPeerSl c k).view.set]{q} argBuf m c
/-- A slice on device `c` at some contents. -/
def anyPts {sp : Space} (c : Dev nD) (v : Memref sig .tc sp S64x1024 .f32) (q : PosShare TreeShare) : sProp 𝕄 :=
  iprop(∃ f, v.view.loc (c : Thread nD τ) ↦[v.view.set]{q} f)

/-! ## The payloads -/

def ySendPay (c : Dev nD) (k : Fin 32) : sProp 𝕄 := argPeerPts m c k fullShare
def yRecvPay (c : Dev nD) (k : Fin 32) : sProp 𝕄 := owns (c : Thread nD τ) (commSl k) fullShare (peerChunk m (ypeer c) k)
def xSendPay (c : Dev nD) (k : Fin 32) : sProp 𝕄 := anyPts (F := F) c (partSl k) fullShare.left
def xRecvPay (c : Dev nD) (k : Fin 32) : sProp 𝕄 := owns (c : Thread nD τ) (outSl (xpeer c) k) fullShare (partChunk m (xpeer c) k)
def linPay (c : Dev nD) (k : Fin 32) : sProp 𝕄 :=
  iprop(owns (c : Thread nD τ) (linSl k) fullShare (ownChunk m c k) ∗ argOwnPts m c k fullShare)
def outPay (c : Dev nD) (k : Fin 32) : sProp 𝕄 :=
  iprop(owns (c : Thread nD τ) (outSl c k) fullShare (partChunk m c k) ∗ anyPts (F := F) c (partSl k) fullShare.right)

/-- What the neighbour in the other column hands device `o` with its barrier unit; -/
def barPayY (o : Dev nD) : sProp 𝕄 :=
  bigSep Finset.univ fun k : Fin 32 => iprop(anyPts (F := F) (ypeer o) (commSl k) fullShare ∗ reached ER (yRecvCell (ypeer o) k) 0)
/-- what the neighbour in the other row does. -/
def barPayX (o : Dev nD) : sProp 𝕄 :=
  bigSep Finset.univ fun k : Fin 32 => iprop(anyPts (F := F) (xpeer o) (outSl o k) fullShare ∗ reached ER (xRecvCell (xpeer o) k) 0)

def dmaPay (c : Dev nD) (a : ℕ) (k : Fin 32) : sProp 𝕄 :=
  match a with
  | 0 => ySendPay m c k
  | 1 => yRecvPay m c k
  | 2 => xSendPay (F := F) c k
  | 3 => xRecvPay m c k
  | 4 => linPay m c k
  | _ => outPay m c k

/-! ## The schedule: one round, round 0 -/

def rsRd : Rounds.Schedule (GSem nD τ sig) Bool 𝕄 where
  duties g r :=
    if r = 0 ∧ g.1.2 = .tc then
      (match g.2 with
        | .reg s => if s = barS then Finset.univ else ∅
        | .dma _ => {false})
    else ∅
  unitless _ := False
  amount g _ _ := match g.2 with
    | .reg _ => 1
    | .dma _ => N
  payload g _ d := match g.2 with
    | .reg _ => if d then barPayX (F := F) g.1.1 else barPayY (F := F) g.1.1
    | .dma i => dmaPay m g.1.1 (arrOf i) (chunkOf i)
  amount_pos g _ _ _ := by
    cases g.2 with
    | reg _ => exact Nat.one_pos
    | dma _ => exact N_pos

end Cert.KernelIdeal.RS

end
-- ==== Proof.Ops.lean ====
/-
  The kernel's body as a program over the chunk-indexed views: the entry handshake on the barrier semaphore (one unit
  to each of the two neighbours, a wait for two), then three passes over the 32 chunks.
  Pass 1, chunk `k`: start the local copy of the device's own column half of the chunk's rows into `lin`, and the
  transfer of the other column half into the `comm` buffer of the neighbour in the other mesh column.
  Pass 2, chunk `k`: wait for the neighbour's chunk to land in `comm` and for the local copy; store their sum into
  `part`; start the transfer of that chunk of `part` into the result of the neighbour in the other mesh row, and its
  local copy into the device's own result, both at the rows of the device's own row half.
  Pass 3, chunk `k`: wait for both transfers' send sides, for the neighbour's chunk to land in the result, and for
  the local copy out.
  The printed body is this program: the printer's cut into parts and its per-chunk names unfold to it.
-/
import proofs.«900309_g7700000000000310_dist_rs_v7x_xy2x2_y_m4096_n1024_f32_1_alg».proof.Proof.Cells
import proofs.«900309_g7700000000000310_dist_rs_v7x_xy2x2_y_m4096_n1024_f32_1_alg».proof.Proof.Mesh
import proofs.«900309_g7700000000000310_dist_rs_v7x_xy2x2_y_m4096_n1024_f32_1_alg».proof.Proof.Gen.KernelIdeal.Skeleton
import proofs.«900309_g7700000000000310_dist_rs_v7x_xy2x2_y_m4096_n1024_f32_1_alg».proof.Proof.Gen.KernelIdeal.Points
import proofs.«900309_g7700000000000310_dist_rs_v7x_xy2x2_y_m4096_n1024_f32_1_alg».proof.Proof.Gen.KernelIdeal.Launch

noncomputable section

namespace Cert.KernelIdeal.RS

open Cert.KernelIdeal Cert.KernelIdeal.Gen
open Idealize.ShloMosaic Idealize.ShloMosaic.TcCoe Idealize.SL.Sem

variable {F : FTy → Type} [FloatOps F]

abbrev P (F : FTy → Type) [FloatOps F] (α : Type) : Type 1 := Prog (TpuEff nD τ sig (Elt F) Λ₀ .tc) α

/-- Pass 1 at chunk `k`. -/
def pass1 (c : Dev nD) (k : Fin 32) (rest : P F PUnit) : P F PUnit := do
  Prog.lift (.enqueueDma (argOwnSl c k) (.here (linSl k)) (.dma (linS k)) ((View.wordExact_bits rfl).reshape _ _) (View.wordExact_bits rfl) ⟨Or.inl rfl, trivial⟩)
  Prog.lift (.enqueueDma (argPeerSl c k) (.remote (Dev.tc (ydev c k)) (commSl k) (.dma (ySendS k))) (.dma (yRecvS k)) ((View.wordExact_bits rfl).reshape _ _) (View.wordExact_bits rfl) ⟨⟨rfl, Or.inl rfl⟩, trivial⟩)
  rest

/-- Pass 2 at chunk `k`. -/
def pass2 (c : Dev nD) (k : Fin 32) (rest : P F PUnit) : P F PUnit := do
  Prog.lift (.waitDma2 (yRecvS k) (argPeerSl c k) (commSl k) ((View.wordExact_bits rfl).reshape _ _) (View.wordExact_bits rfl))
  Prog.lift (.waitDma2 (linS k) (argOwnSl c k) (linSl k) ((View.wordExact_bits rfl).reshape _ _) (View.wordExact_bits rfl))
  let vl : Vec F S64x1024 .f32 ← Prog.lift (.load linM (chunkR k).toLoadRect (View.loadsAt_vmem h_S64x1024))
  let vc : Vec F S64x1024 .f32 ← Prog.lift (.load commM (chunkR k).toLoadRect (View.loadsAt_vmem h_S64x1024))
  let _vp : Vec F S64x1024 .f32 ← Prog.lift (.load partM (chunkR k).toLoadRect (View.loadsAt_vmem h_S64x1024))
  Prog.lift (.store partM (chunkR k) (k0_pay1 vl vc) Finset.univ (View.stores_vmem_bits_univ h_S64x1024 rfl) (.inl rfl))
  Prog.lift (.enqueueDma (partSl k) (.remote (Dev.tc (xdev c k)) (outSl c k) (.dma (xSendS k))) (.dma (xRecvS k)) (View.wordExact_bits rfl) (View.wordExact_bits rfl) ⟨⟨rfl, Or.inl rfl⟩, trivial⟩)
  Prog.lift (.enqueueDma (partSl k) (.here (outSl c k)) (.dma (outS k)) (View.wordExact_bits rfl) (View.wordExact_bits rfl) ⟨Or.inl rfl, trivial⟩)
  rest

/-- Pass 3 at chunk `k`. -/
def pass3 (c : Dev nD) (k : Fin 32) (rest : P F PUnit) : P F PUnit := do
  Prog.lift (.waitDma2 (ySendS k) (commSl k) (argPeerSl c k) (View.wordExact_bits rfl) ((View.wordExact_bits rfl).reshape _ _))
  Prog.lift (.waitDma2 (xSendS k) (outSl c k) (partSl k) (View.wordExact_bits rfl) (View.wordExact_bits rfl))
  Prog.lift (.waitDma2 (xRecvS k) (partSl k) (outSl c k) (View.wordExact_bits rfl) (View.wordExact_bits rfl))
  Prog.lift (.waitDma2 (outS k) (partSl k) (outSl c k) (View.wordExact_bits rfl) (View.wordExact_bits rfl))
  rest

/-- One pass over a list of chunks, in order, then `rest`. -/
def overChunks (f : Fin 32 → P F PUnit → P F PUnit) : List (Fin 32) → P F PUnit → P F PUnit
  | [], rest => rest
  | k :: ks, rest => f k (overChunks f ks rest)

/-- The 32 chunks in order. -/
def chunks : List (Fin 32) :=
  [0, 1, 2, 3, 4, 5, 6, 7, 8, 9, 10, 11, 12, 13, 14, 15, 16, 17, 18, 19, 20, 21, 22, 23, 24, 25, 26, 27, 28, 29, 30, 31]

/-- The entry handshake: one unit to each of the two neighbours' barrier semaphores, then a wait for two. -/
def entry (c : Dev nD) (rest : P F PUnit) : P F PUnit := do
  semSignalWord (⟨k0_dev1 c, k0_dev1_lt c⟩ : Dev nD) barS 1#32 hamt_1
  semSignalWord (⟨k0_dev2 c, k0_dev2_lt c⟩ : Dev nD) barS 1#32 hamt_1
  semWaitWord barS 2#32 hamt_2
  rest

/-- The body on device `c` after it has read its device id. -/
def bodyAt (c : Dev nD) : P F PUnit :=
  entry c (overChunks (pass1 c) chunks (overChunks (pass2 c) chunks (overChunks (pass3 c) chunks (pure ⟨⟩))))

/-- The body: read the device id, then `bodyAt`. -/
def bodyProg : P F PUnit := do
  let d0 : Dev nD ← Prog.lift .deviceId
  bodyAt d0

set_option maxRecDepth 1000000 in
set_option maxHeartbeats 4000000 in
/-- The printed body, called on the whole buffers and the six semaphore arrays, is `bodyProg`. -/
theorem body_eq : bodyAt0 (F := F) t0_0 = bodyProg (F := F) := rfl

end Cert.KernelIdeal.RS

end
-- ==== Proof.State.lean ====
/-
  What a device holds between the steps of the protocol, and the rule each step obeys.
  A device owes, at launch, one unit to each neighbour's barrier cell and a chunk's credit to each of the 32 receive
  cells of its column neighbour and of its row neighbour; the sums over the chunks still to be sent shrink as the passes
  run. Levels: the barrier cells stand below the column receive cells, these below the row receive cells, and every
  other cell at the bottom, so that each wait is below everything the waiter still owes.
  Per chunk and pass: what the pass takes (`T`) and what it leaves (`D`).
-/
import proofs.«900309_g7700000000000310_dist_rs_v7x_xy2x2_y_m4096_n1024_f32_1_alg».proof.Proof.Sched
import proofs.«900309_g7700000000000310_dist_rs_v7x_xy2x2_y_m4096_n1024_f32_1_alg».proof.Proof.Ops

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What is owed, and the levels -/

/-- The credits device `c` still owes its column neighbour's receive cells, over the chunks `S` not yet sent; -/
def Oy (c : Dev nD) (S : Finset (Fin 32)) : CellTallies nD τ sig Unit := ∑ k ∈ S, tallyAt (yRecvCell (ypeer c) k) () N
/-- its row neighbour's. -/
def Ox (c : Dev nD) (S : Finset (Fin 32)) : CellTallies nD τ sig Unit := ∑ k ∈ S, tallyAt (xRecvCell (xpeer c) k) () N
/-- After the handshake: every chunk of both. -/
def O₁ (c : Dev nD) : CellTallies nD τ sig Unit := Oy c Finset.univ + Ox c Finset.univ
/-- At launch: those and one unit to each neighbour's barrier cell (the column neighbour's is signalled first). -/
def O₀ (c : Dev nD) : CellTallies nD τ sig Unit := O₁ c + tallyAt (barCell (xpeer c)) () 1 + tallyAt (barCell (ypeer c)) () 1

def L (g : GSem nD τ sig) : Finset Unit := if g.1.2 = .tc then {()} else ∅
def lv (g : GSem nD τ sig) (_ : Unit) : ℕ :=
  match g.2 with
  | .reg _ => 1
  | .dma i => if arrOf i = 1 then 2 else if arrOf i = 3 then 3 else 0

/-- What a device owes, the record of its past waits left open. -/
def owesAny (c : Dev nD) (O : CellTallies nD τ sig Unit) : sProp 𝕄 := iprop(∃ W, owes (c : Thread nD τ) O W)

/-! ## What a device knows for good: the invariants of the cells it touches, at the names `K`, and that each stands at round 0 -/

def known (K : Dev nD → SemLoc sig → ℕ) (c : Dev nD) : sProp 𝕄 :=
  iprop((cellInv ER (rsRd m) (K c (.reg barS)) (barCell c) ∗ cellInv ER (rsRd m) (K (ypeer c) (.reg barS)) (barCell (ypeer c))
      ∗ cellInv ER (rsRd m) (K (xpeer c) (.reg barS)) (barCell (xpeer c))
      ∗ reached ER (barCell (ypeer c)) 0 ∗ reached ER (barCell (xpeer c)) 0)
    ∗ bigSep Finset.univ fun k : Fin 32 => iprop(
        (cellInv ER (rsRd m) (K c (.dma (ySendS k))) (ySendCell c k) ∗ cellInv ER (rsRd m) (K c (.dma (yRecvS k))) (yRecvCell c k)
          ∗ cellInv ER (rsRd m) (K c (.dma (xSendS k))) (xSendCell c k) ∗ cellInv ER (rsRd m) (K c (.dma (xRecvS k))) (xRecvCell c k)
          ∗ cellInv ER (rsRd m) (K c (.dma (linS k))) (linCell c k) ∗ cellInv ER (rsRd m) (K c (.dma (outS k))) (outCell c k)
          ∗ cellInv ER (rsRd m) (K (ypeer c) (.dma (yRecvS k))) (yRecvCell (ypeer c) k)
          ∗ cellInv ER (rsRd m) (K (xpeer c) (.dma (xRecvS k))) (xRecvCell (xpeer c) k))
        ∗ (reached ER (ySendCell c k) 0 ∗ reached ER (yRecvCell c k) 0 ∗ reached ER (xSendCell c k) 0 ∗ reached ER (xRecvCell c k) 0
          ∗ reached ER (linCell c k) 0 ∗ reached ER (outCell c k) 0
          ∗ reached ER (yRecvCell (ypeer c) k) 0 ∗ reached ER (xRecvCell (xpeer c) k) 0)))

instance known_persistent (K : Dev nD → SemLoc sig → ℕ) (c : Dev nD) : BI.Persistent (known m K c) := by unfold known; infer_instance

/-! ## The handshake -/

/-- Before: the two tokens it pays the neighbours' barrier cells with, what it hands them (its 32 chunks of `comm`; the
    32 chunks of its result at the row neighbour's row half), its own barrier cell's two units of credit and position. -/
def E0 (c : Dev nD) : sProp 𝕄 :=
  iprop(dutyTok ER (barCell (ypeer c)) 0 false ∗ dutyTok ER (barCell (xpeer c)) 0 true
    ∗ (bigSep Finset.univ fun k : Fin 32 => anyPts (F := F) c (commSl k) fullShare)
    ∗ (bigSep Finset.univ fun k : Fin 32 => anyPts (F := F) c (outSl (xpeer c) k) fullShare)
    ∗ cred (tallyAt (barCell c) () 2) ∗ atPos ER (barCell c) 0 ∅ 0)
/-- After: the column neighbour's 32 chunks of `comm` and the row neighbour's 32 chunks of result at its own row half. -/
def E1 (c : Dev nD) : sProp 𝕄 :=
  iprop((bigSep Finset.univ fun k : Fin 32 => anyPts (F := F) (ypeer c) (commSl k) fullShare)
    ∗ (bigSep Finset.univ fun k : Fin 32 => anyPts (F := F) (xpeer c) (outSl c k) fullShare)
    ∗ atPos ER (barCell c) 1 ∅ 0)

/-! ## Pass 1, chunk `k` -/

def T1 (c : Dev nD) (k : Fin 32) : sProp 𝕄 :=
  iprop(argOwnPts m c k fullShare ∗ argPeerPts m c k fullShare ∗ anyPts (F := F) c (linSl k) fullShare
    ∗ anyPts (F := F) (ypeer c) (commSl k) fullShare
    ∗ dutyTok ER (linCell c k) 0 false ∗ dutyTok ER (ySendCell c k) 0 false ∗ dutyTok ER (yRecvCell (ypeer c) k) 0 false)
def D1 (c : Dev nD) (k : Fin 32) : sProp 𝕄 :=
  iprop(cred (tallyAt (linCell c k) () N) ∗ cred (tallyAt (ySendCell c k) () N))

/-! ## Pass 2, chunk `k` -/

def T2 (c : Dev nD) (k : Fin 32) : sProp 𝕄 :=
  iprop(cred (tallyAt (linCell c k) () N) ∗ cred (tallyAt (yRecvCell c k) () N)
    ∗ atPos ER (linCell c k) 0 ∅ 0 ∗ atPos ER (yRecvCell c k) 0 ∅ 0
    ∗ anyPts (F := F) c (partSl k) fullShare ∗ anyPts (F := F) (xpeer c) (outSl c k) fullShare ∗ anyPts (F := F) c (outSl c k) fullShare
    ∗ dutyTok ER (xSendCell c k) 0 false ∗ dutyTok ER (xRecvCell (xpeer c) k) 0 false ∗ dutyTok ER (outCell c k) 0 false)
def D2 (c : Dev nD) (k : Fin 32) : sProp 𝕄 :=
  iprop(anyPts (F := F) c (linSl k) fullShare ∗ anyPts (F := F) c (commSl k) fullShare ∗ argOwnPts m c k fullShare
    ∗ atPos ER (linCell c k) 1 ∅ 0 ∗ atPos ER (yRecvCell c k) 1 ∅ 0
    ∗ cred (tallyAt (xSendCell c k) () N) ∗ cred (tallyAt (outCell c k) () N))

/-! ## Pass 3, chunk `k` -/

def T3 (c : Dev nD) (k : Fin 32) : sProp 𝕄 :=
  iprop(cred (tallyAt (ySendCell c k) () N) ∗ cred (tallyAt (xSendCell c k) () N) ∗ cred (tallyAt (xRecvCell c k) () N)
    ∗ cred (tallyAt (outCell c k) () N)
    ∗ atPos ER (ySendCell c k) 0 ∅ 0 ∗ atPos ER (xSendCell c k) 0 ∅ 0 ∗ atPos ER (xRecvCell c k) 0 ∅ 0 ∗ atPos ER (outCell c k) 0 ∅ 0)
def D3 (c : Dev nD) (k : Fin 32) : sProp 𝕄 :=
  iprop(argPeerPts m c k fullShare ∗ anyPts (F := F) c (partSl k) fullShare
    ∗ owns (c : Thread nD τ) (outSl c k) fullShare (partChunk m c k)
    ∗ owns (c : Thread nD τ) (outSl (xpeer c) k) fullShare (partChunk m (xpeer c) k)
    ∗ atPos ER (ySendCell c k) 1 ∅ 0 ∗ atPos ER (xSendCell c k) 1 ∅ 0 ∗ atPos ER (xRecvCell c k) 1 ∅ 0 ∗ atPos ER (outCell c k) 1 ∅ 0)

/-- The six cells of chunk `k`, each past its one round. -/
def atEnd (c : Dev nD) (k : Fin 32) : sProp 𝕄 :=
  iprop(atPos ER (ySendCell c k) 1 ∅ 0 ∗ atPos ER (yRecvCell c k) 1 ∅ 0 ∗ atPos ER (xSendCell c k) 1 ∅ 0
    ∗ atPos ER (xRecvCell c k) 1 ∅ 0 ∗ atPos ER (linCell c k) 1 ∅ 0 ∗ atPos ER (outCell c k) 1 ∅ 0)
/-- Their counters at zero, the device's again. -/
def zeros (c : Dev nD) (k : Fin 32) : sProp 𝕄 :=
  iprop(semVal (ySendCell c k) 0 ∗ semVal (yRecvCell c k) 0 ∗ semVal (xSendCell c k) 0
    ∗ semVal (xRecvCell c k) 0 ∗ semVal (linCell c k) 0 ∗ semVal (outCell c k) 0)

end Cert.KernelIdeal.RS

end
-- ==== Proof.Vals.lean ====
/-
  The result of the reduce-scatter on a 2 × 2 mesh, as a pure function of the devices'
  argument buffers.

  Device `c` sits at mesh position (row, column) = (c / 2, c % 2). Its argument buffer holds a
  1 × 4096 × 2048 array; its result buffer is 4096 × 1024. Row `i` of the result belongs to mesh
  row `a = i / 2048`. Entry (i, j) of device `c`'s result is the sum of two argument entries at
  the same place (0, i, 1024·(c % 2) + j): the one held by the device of mesh row `a` in `c`'s own
  column, and the one held by that device's neighbour in the other column.
-/
import proofs.«900309_g7700000000000310_dist_rs_v7x_xy2x2_y_m4096_n1024_f32_1_alg».proof.KernelIdeal
import Idealize.ShloMosaic.Lib.ValueIdx

noncomputable section

namespace Cert.KernelIdeal.RS

open Idealize.ShloMosaic Idealize.SL.Sem
open Idealize.ShloMosaic.TcCoe
open Idealize.ShloMosaic.ValueIdx

variable {F : FTy → Type} [FloatOps F]

/-- The device of mesh row `a` in `c`'s own mesh column. -/
def colDev (c : Dev nD) (a : ℕ) (ha : a < 2) : Dev nD :=
  ⟨2 * a + c.val % 2, by show 2 * a + c.val % 2 < 4; omega⟩

/-- The device of mesh row `a` in the other mesh column. -/
def colDev' (c : Dev nD) (a : ℕ) (ha : a < 2) : Dev nD :=
  ⟨2 * a + (1 - c.val % 2), by show 2 * a + (1 - c.val % 2) < 4; omega⟩

@[simp] theorem colDev_val (c : Dev nD) (a : ℕ) (ha : a < 2) : (colDev c a ha).val = 2 * a + c.val % 2 := rfl
@[simp] theorem colDev'_val (c : Dev nD) (a : ℕ) (ha : a < 2) : (colDev' c a ha).val = 2 * a + (1 - c.val % 2) := rfl

/-- The place (0, i, 1024·(c % 2) + j) of an argument buffer: row `i`, and column `j` of the
    half of the columns that device `c`'s result covers. -/
def argIdx (c : Dev nD) (i : Fin 4096) (j : Fin 1024) : S1x4096x2048.Idx :=
  ix3 (n0 := 1) (n1 := 4096) (n2 := 2048) 0 i
    ⟨1024 * (c.val % 2) + j.val, by have := j.isLt; omega⟩

@[simp] theorem argIdx_val0 (c : Dev nD) (i : Fin 4096) (j : Fin 1024) : (argIdx c i j 0).val = 0 := rfl
@[simp] theorem argIdx_val1 (c : Dev nD) (i : Fin 4096) (j : Fin 1024) : (argIdx c i j 1).val = i.val := rfl
@[simp] theorem argIdx_val2 (c : Dev nD) (i : Fin 4096) (j : Fin 1024) :
    (argIdx c i j 2).val = 1024 * (c.val % 2) + j.val := rfl

theorem row_half (i : Fin 4096) : i.val / 2048 < 2 := by have := i.isLt; omega

variable (m : (ℓ : Loc nD τ sig) → Buf (Elt F) ℓ)

/-- Device `d`'s argument buffer, read as an array of floats. -/
def argAt (d : Dev nD) : S1x4096x2048.Idx → F .f32 :=
  m ((d : Thread nD τ).loc main_arg0)

/-- The result as a function on pairs of coordinates. -/
def outFn (c : Dev nD) (i : Fin 4096) (j : Fin 1024) : F .f32 :=
  FloatOps.addf (φ := .f32)
    (argAt m (colDev c (i.val / 2048) (row_half i)) (argIdx c i j))
    (argAt m (colDev' c (i.val / 2048) (row_half i)) (argIdx c i j))

/-- What the kernel leaves in device `c`'s result buffer. -/
def outVal (c : Dev nD) : Buf (Elt F) ((c : Thread nD τ).loc main_v1) :=
  fun (idx : S4096x1024.Idx) => outFn m c ⟨(idx 0).val, idx2_lt0 idx⟩ ⟨(idx 1).val, idx2_lt1 idx⟩

/-- The result at any index, through the index's two coordinates. -/
theorem outVal_at (c : Dev nD) (idx : S4096x1024.Idx) :
    outVal m c idx = outFn m c ⟨(idx 0).val, idx2_lt0 idx⟩ ⟨(idx 1).val, idx2_lt1 idx⟩ := rfl

/-- Entry (i, j) of device `c`'s result: the two argument entries at (0, i, 1024·(c % 2) + j),
    of the device of mesh row `i / 2048` in `c`'s column and of its neighbour in the other column,
    added. -/
theorem outVal_apply (c : Dev nD) (i : Fin 4096) (j : Fin 1024) :
    outVal m c (ix2 i j) =
      FloatOps.addf (φ := .f32)
        (m ((colDev c (i.val / 2048) (row_half i) : Thread nD τ).loc main_arg0) (argIdx c i j))
        (m ((colDev' c (i.val / 2048) (row_half i) : Thread nD τ).loc main_arg0) (argIdx c i j)) := rfl

end Cert.KernelIdeal.RS

end
-- ==== Proof.Phi.lean ====
/-
  The proof data of the one launch: what device `c` holds before the body and after it.
  Before: the ghost state of the protocol at some names (its knowledge, its positions at round 0 of its 193 cells, the tokens of
  the duties it pays), the launch credit of its barrier cell and of its 64 receive cells, the level facts, its argument block
  at the launch contents and its result at any, and the three scratch buffers at any contents.
  After: the scratch buffers at any contents, the 192 own semaphores' counters at zero, the argument block unchanged and the result
  holding `outVal`: on its own row half its partial sums, on the other the row neighbour's.
-/
import proofs.«900309_g7700000000000310_dist_rs_v7x_xy2x2_y_m4096_n1024_f32_1_alg».proof.Proof.State
import proofs.«900309_g7700000000000310_dist_rs_v7x_xy2x2_y_m4096_n1024_f32_1_alg».proof.Proof.Vals

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens of the duties device `c` pays. -/
def payToks (c : Dev nD) : sProp 𝕄 :=
  iprop(dutyTok ER (barCell (ypeer c)) 0 false ∗ dutyTok ER (barCell (xpeer c)) 0 true
    ∗ bigSep Finset.univ fun k : Fin 32 => iprop(dutyTok ER (ySendCell c k) 0 false ∗ dutyTok ER (yRecvCell (ypeer c) k) 0 false
        ∗ dutyTok ER (xSendCell c k) 0 false ∗ dutyTok ER (xRecvCell (xpeer c) k) 0 false
        ∗ dutyTok ER (linCell c k) 0 false ∗ dutyTok ER (outCell c k) 0 false))

/-- Its positions: round 0 of its barrier cell and of the six cells of every chunk. -/
def positions (c : Dev nD) : sProp 𝕄 :=
  iprop(atPos ER (barCell c) 0 ∅ 0
    ∗ bigSep Finset.univ fun k : Fin 32 => iprop(atPos ER (ySendCell c k) 0 ∅ 0 ∗ atPos ER (yRecvCell c k) 0 ∅ 0
        ∗ atPos ER (xSendCell c k) 0 ∅ 0 ∗ atPos ER (xRecvCell c k) 0 ∅ 0 ∗ atPos ER (linCell c k) 0 ∅ 0 ∗ atPos ER (outCell c k) 0 ∅ 0))

def ghost (K : Dev nD → SemLoc sig → ℕ) (c : Dev nD) : sProp 𝕄 := iprop(known m K c ∗ positions (F := F) c ∗ payToks (F := F) c)

/-- The launch credit of `c`'s cells. -/
def credits (c : Dev nD) : sProp 𝕄 :=
  iprop(cred (tallyAt (barCell c) () 2)
    ∗ bigSep Finset.univ fun k : Fin 32 => iprop(cred (tallyAt (yRecvCell c k) () N) ∗ cred (tallyAt (xRecvCell c k) () N)))

/-- A whole buffer of device `c` at some contents. -/
def anyBuf (c : Dev nD) (b : Ref sig .tc) : sProp 𝕄 := iprop(∃ f : Buf (Elt F) ((c : Thread nD τ).loc b), ((c : Thread nD τ).loc b) ↦{fullShare} f)

/-- What the body starts from, the scratch buffers apart. -/
def start (c : Dev nD) : sProp 𝕄 :=
  iprop((∃ K, ghost m K c) ∗ credits (F := F) c ∗ levAts L lv
    ∗ (((c : Thread nD τ).loc main_arg0) ↦{fullShare} argBuf m c) ∗ anyBuf (F := F) c main_v1)

def Φ₀ (c : Dev nD) : sProp 𝕄 :=
  iprop(start m c ∗ anyBuf (F := F) c cc0_scratch0 ∗ anyBuf (F := F) c cc0_scratch1 ∗ anyBuf (F := F) c cc0_scratch2)

def Φ₁ (c : Dev nD) : sProp 𝕄 :=
  iprop((anyBuf (F := F) c cc0_scratch0 ∗ anyBuf (F := F) c cc0_scratch1 ∗ anyBuf (F := F) c cc0_scratch2)
    ∗ (bigSep Finset.univ fun k : Fin 32 => zeros (F := F) c k)
    ∗ (((c : Thread nD τ).loc main_arg0) ↦{fullShare} argBuf m c)
    ∗ (((c : Thread nD τ).loc main_v1) ↦{fullShare} outVal m c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.RS

end
-- ==== Proof.SemFacts.lean ====
/-
  The 192 DMA semaphores of a core are six consecutive arrays of 32, one semaphore per chunk: the semaphore of
  chunk `k` in array `a` has number `32 a + k`. Hence a semaphore is determined by its array and its chunk, the
  six families are injective in the chunk and pairwise disjoint, and together they are all the DMA semaphores.
-/
import proofs.«900309_g7700000000000310_dist_rs_v7x_xy2x2_y_m4096_n1024_f32_1_alg».proof.Proof.Sched

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The number of each semaphore -/

theorem ySendS_val (k : Fin 32) : (ySendS k).val = k.val := by revert k; decide +kernel
theorem yRecvS_val (k : Fin 32) : (yRecvS k).val = 32 + k.val := by revert k; decide +kernel
theorem xSendS_val (k : Fin 32) : (xSendS k).val = 64 + k.val := by revert k; decide +kernel
theorem xRecvS_val (k : Fin 32) : (xRecvS k).val = 96 + k.val := by revert k; decide +kernel
theorem linS_val (k : Fin 32) : (linS k).val = 128 + k.val := by revert k; decide +kernel
theorem outS_val (k : Fin 32) : (outS k).val = 160 + k.val := by revert k; decide +kernel

/-! ## Array and chunk of each -/

@[simp] theorem arrOf_ySendS (k : Fin 32) : arrOf (ySendS k) = 0 := by
  have := k.isLt; unfold arrOf; rw [ySendS_val]; omega
@[simp] theorem arrOf_yRecvS (k : Fin 32) : arrOf (yRecvS k) = 1 := by
  have := k.isLt; unfold arrOf; rw [yRecvS_val]; omega
@[simp] theorem arrOf_xSendS (k : Fin 32) : arrOf (xSendS k) = 2 := by
  have := k.isLt; unfold arrOf; rw [xSendS_val]; omega
@[simp] theorem arrOf_xRecvS (k : Fin 32) : arrOf (xRecvS k) = 3 := by
  have := k.isLt; unfold arrOf; rw [xRecvS_val]; omega
@[simp] theorem arrOf_linS (k : Fin 32) : arrOf (linS k) = 4 := by
  have := k.isLt; unfold arrOf; rw [linS_val]; omega
@[simp] theorem arrOf_outS (k : Fin 32) : arrOf (outS k) = 5 := by
  have := k.isLt; unfold arrOf; rw [outS_val]; omega

@[simp] theorem chunkOf_ySendS (k : Fin 32) : chunkOf (ySendS k) = k := by
  have := k.isLt; apply Fin.ext; show (ySendS k).val % 32 = k.val; rw [ySendS_val]; omega
@[simp] theorem chunkOf_yRecvS (k : Fin 32) : chunkOf (yRecvS k) = k := by
  have := k.isLt; apply Fin.ext; show (yRecvS k).val % 32 = k.val; rw [yRecvS_val]; omega
@[simp] theorem chunkOf_xSendS (k : Fin 32) : chunkOf (xSendS k) = k := by
  have := k.isLt; apply Fin.ext; show (xSendS k).val % 32 = k.val; rw [xSendS_val]; omega
@[simp] theorem chunkOf_xRecvS (k : Fin 32) : chunkOf (xRecvS k) = k := by
  have := k.isLt; apply Fin.ext; show (xRecvS k).val % 32 = k.val; rw [xRecvS_val]; omega
@[simp] theorem chunkOf_linS (k : Fin 32) : chunkOf (linS k) = k := by
  have := k.isLt; apply Fin.ext; show (linS k).val % 32 = k.val; rw [linS_val]; omega
@[simp] theorem chunkOf_outS (k : Fin 32) : chunkOf (outS k) = k := by
  have := k.isLt; apply Fin.ext; show (outS k).val % 32 = k.val; rw [outS_val]; omega

/-! ## A semaphore is its array and its chunk -/

theorem dmaSem_eq_iff (i j : DmaSem sig) : i = j ↔ arrOf i = arrOf j ∧ chunkOf i = chunkOf j := by
  constructor
  · rintro rfl; exact ⟨rfl, rfl⟩
  · rintro ⟨ha, hk⟩
    have hk' : i.val % 32 = j.val % 32 := congrArg Fin.val hk
    unfold arrOf at ha
    apply Fin.ext
    omega

theorem dmaSem_ne_of_arrOf {i j : DmaSem sig} (h : arrOf i ≠ arrOf j) : i ≠ j := fun e => h (e ▸ rfl)

theorem ySendS_inj {k k' : Fin 32} : ySendS k = ySendS k' ↔ k = k' := by
  rw [dmaSem_eq_iff]; simp
theorem yRecvS_inj {k k' : Fin 32} : yRecvS k = yRecvS k' ↔ k = k' := by
  rw [dmaSem_eq_iff]; simp
theorem xSendS_inj {k k' : Fin 32} : xSendS k = xSendS k' ↔ k = k' := by
  rw [dmaSem_eq_iff]; simp
theorem xRecvS_inj {k k' : Fin 32} : xRecvS k = xRecvS k' ↔ k = k' := by
  rw [dmaSem_eq_iff]; simp
theorem linS_inj {k k' : Fin 32} : linS k = linS k' ↔ k = k' := by
  rw [dmaSem_eq_iff]; simp
theorem outS_inj {k k' : Fin 32} : outS k = outS k' ↔ k = k' := by
  rw [dmaSem_eq_iff]; simp

/-! ## Semaphores of different arrays differ -/

theorem ySendS_ne_yRecvS (k k' : Fin 32) : ySendS k ≠ yRecvS k' := dmaSem_ne_of_arrOf (by simp)
theorem ySendS_ne_xSendS (k k' : Fin 32) : ySendS k ≠ xSendS k' := dmaSem_ne_of_arrOf (by simp)
theorem ySendS_ne_xRecvS (k k' : Fin 32) : ySendS k ≠ xRecvS k' := dmaSem_ne_of_arrOf (by simp)
theorem ySendS_ne_linS (k k' : Fin 32) : ySendS k ≠ linS k' := dmaSem_ne_of_arrOf (by simp)
theorem ySendS_ne_outS (k k' : Fin 32) : ySendS k ≠ outS k' := dmaSem_ne_of_arrOf (by simp)
theorem yRecvS_ne_xSendS (k k' : Fin 32) : yRecvS k ≠ xSendS k' := dmaSem_ne_of_arrOf (by simp)
theorem yRecvS_ne_xRecvS (k k' : Fin 32) : yRecvS k ≠ xRecvS k' := dmaSem_ne_of_arrOf (by simp)
theorem yRecvS_ne_linS (k k' : Fin 32) : yRecvS k ≠ linS k' := dmaSem_ne_of_arrOf (by simp)
theorem yRecvS_ne_outS (k k' : Fin 32) : yRecvS k ≠ outS k' := dmaSem_ne_of_arrOf (by simp)
theorem xSendS_ne_xRecvS (k k' : Fin 32) : xSendS k ≠ xRecvS k' := dmaSem_ne_of_arrOf (by simp)
theorem xSendS_ne_linS (k k' : Fin 32) : xSendS k ≠ linS k' := dmaSem_ne_of_arrOf (by simp)
theorem xSendS_ne_outS (k k' : Fin 32) : xSendS k ≠ outS k' := dmaSem_ne_of_arrOf (by simp)
theorem xRecvS_ne_linS (k k' : Fin 32) : xRecvS k ≠ linS k' := dmaSem_ne_of_arrOf (by simp)
theorem xRecvS_ne_outS (k k' : Fin 32) : xRecvS k ≠ outS k' := dmaSem_ne_of_arrOf (by simp)
theorem linS_ne_outS (k k' : Fin 32) : linS k ≠ outS k' := dmaSem_ne_of_arrOf (by simp)

/-! ## The six families are all the DMA semaphores -/

theorem dma_cases (i : DmaSem sig) :
    (∃ k, i = ySendS k) ∨ (∃ k, i = yRecvS k) ∨ (∃ k, i = xSendS k) ∨ (∃ k, i = xRecvS k) ∨
      (∃ k, i = linS k) ∨ (∃ k, i = outS k) := by
  have hlt : i.val < 192 := i.isLt
  have ha : arrOf i = 0 ∨ arrOf i = 1 ∨ arrOf i = 2 ∨ arrOf i = 3 ∨ arrOf i = 4 ∨ arrOf i = 5 := by
    unfold arrOf; omega
  rcases ha with h | h | h | h | h | h
  · exact .inl ⟨chunkOf i, (dmaSem_eq_iff _ _).2 ⟨by rw [h, arrOf_ySendS], by rw [chunkOf_ySendS]⟩⟩
  · exact .inr (.inl ⟨chunkOf i, (dmaSem_eq_iff _ _).2 ⟨by rw [h, arrOf_yRecvS], by rw [chunkOf_yRecvS]⟩⟩)
  · exact .inr (.inr (.inl ⟨chunkOf i, (dmaSem_eq_iff _ _).2 ⟨by rw [h, arrOf_xSendS], by rw [chunkOf_xSendS]⟩⟩))
  · exact .inr (.inr (.inr (.inl ⟨chunkOf i, (dmaSem_eq_iff _ _).2 ⟨by rw [h, arrOf_xRecvS], by rw [chunkOf_xRecvS]⟩⟩)))
  · exact .inr (.inr (.inr (.inr (.inl ⟨chunkOf i, (dmaSem_eq_iff _ _).2 ⟨by rw [h, arrOf_linS], by rw [chunkOf_linS]⟩⟩))))
  · exact .inr (.inr (.inr (.inr (.inr ⟨chunkOf i, (dmaSem_eq_iff _ _).2 ⟨by rw [h, arrOf_outS], by rw [chunkOf_outS]⟩⟩))))

end Cert.KernelIdeal.RS

end
-- ==== Proof.Levels.lean ====
/-
  The levels make every wait sit below what the waiter still owes: at the barrier wait a device owes receive credits only
  (levels 2 and 3 against the barrier's 1); at a column receive wait and at a local copy's wait of pass 2 it owes row receive
  credits only (level 3 against 2 and 0); in pass 3 it owes nothing. And the sums of what the four devices owe a cell at
  launch are that cell's launch credit.
-/
import proofs.«900309_g7700000000000310_dist_rs_v7x_xy2x2_y_m4096_n1024_f32_1_alg».proof.Proof.State
import proofs.«900309_g7700000000000310_dist_rs_v7x_xy2x2_y_m4096_n1024_f32_1_alg».proof.Proof.SemFacts

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
theorem Oy_erase (c : Dev nD) (S : Finset (Fin 32)) (k : Fin 32) (hk : k ∈ S) :
    Oy c S = Oy c (S.erase k) + tallyAt (yRecvCell (ypeer c) k) () N :=
  (Finset.sum_erase_add S (fun k => (tallyAt (yRecvCell (ypeer c) k) () N : CellTallies nD τ sig Unit)) hk).symm
omit [FloatOps F] in
theorem Ox_erase (c : Dev nD) (S : Finset (Fin 32)) (k : Fin 32) (hk : k ∈ S) :
    Ox c S = Ox c (S.erase k) + tallyAt (xRecvCell (xpeer c) k) () N :=
  (Finset.sum_erase_add S (fun k => (tallyAt (xRecvCell (xpeer c) k) () N : CellTallies nD τ sig Unit)) hk).symm
omit [FloatOps F] in
theorem Oy_empty (c : Dev nD) : Oy c ∅ = 0 := Finset.sum_empty
omit [FloatOps F] in
theorem Ox_empty (c : Dev nD) : Ox c ∅ = 0 := Finset.sum_empty

omit [FloatOps F] in
/-- A column tally is positive only at a column receive cell of the column neighbour, at a chunk still to be sent; -/
theorem Oy_pos {c : Dev nD} {S : Finset (Fin 32)} {g : GSem nD τ sig} {u : Unit} (h : 0 < Oy c S g u) :
    ∃ k ∈ S, g = yRecvCell (ypeer c) k := by
  obtain ⟨k, hk, hp⟩ := Pipeline.sum_pos_exists (s := S) (D := fun k => tallyAt (yRecvCell (ypeer c) k) () N) h
  exact ⟨k, hk, (Pipeline.tallyAt_pos hp).1⟩
omit [FloatOps F] in
/-- a row tally only at a row receive cell of the row neighbour. -/
theorem Ox_pos {c : Dev nD} {S : Finset (Fin 32)} {g : GSem nD τ sig} {u : Unit} (h : 0 < Ox c S g u) :
    ∃ k ∈ S, g = xRecvCell (xpeer c) k := by
  obtain ⟨k, hk, hp⟩ := Pipeline.sum_pos_exists (s := S) (D := fun k => tallyAt (xRecvCell (xpeer c) k) () N) h
  exact ⟨k, hk, (Pipeline.tallyAt_pos hp).1⟩

/-! The levels of the cells that are waited on or owed to. -/
theorem lv_bar (c : Dev nD) : lv (barCell c) () = 1 := rfl
theorem lv_yRecv (c : Dev nD) (k : Fin 32) : lv (yRecvCell c k) () = 2 := by
  show (if arrOf (yRecvS k) = 1 then 2 else if arrOf (yRecvS k) = 3 then 3 else 0) = 2
  rw [arrOf_yRecvS]; rfl
theorem lv_xRecv (c : Dev nD) (k : Fin 32) : lv (xRecvCell c k) () = 3 := by
  show (if arrOf (xRecvS k) = 1 then 2 else if arrOf (xRecvS k) = 3 then 3 else 0) = 3
  rw [arrOf_xRecvS]; rfl
theorem lv_lin (c : Dev nD) (k : Fin 32) : lv (linCell c k) () = 0 := by
  show (if arrOf (linS k) = 1 then 2 else if arrOf (linS k) = 3 then 3 else 0) = 0
  rw [arrOf_linS]; rfl

theorem unit_mem_L (c : Dev nD) (sm : SemLoc sig) (u : Unit) : u ∈ L ((c : Thread nD τ), sm) := by
  rw [L_tc]; exact Finset.mem_singleton_self _

omit [FloatOps F] in
/-- A wait on a cell below level 3 is allowed while only row receive credits are owed. -/
theorem mayWait_Ox (c : Dev nD) (sm : SemLoc sig) (S : Finset (Fin 32)) (hlv : lv ((c : Thread nD τ), sm) () < 3) :
    (levAts L lv : sProp 𝕄) ⊢ MayWait (c : Thread nD τ) sm () (Ox c S) := by
  refine Pipeline.mayWait_of_levAts (unit_mem_L c sm ()) fun g u hg => ?_
  obtain ⟨k, -, rfl⟩ := Ox_pos hg
  exact ⟨unit_mem_L _ _ u, by rw [lv_xRecv]; exact hlv⟩

omit [FloatOps F] in
/-- At its barrier wait a device owes receive credits only. -/
theorem mayWait_bar (c : Dev nD) : (levAts L lv : sProp 𝕄) ⊢ MayWait (c : Thread nD τ) (.reg barS) () (O₁ c) := by
  refine Pipeline.mayWait_of_levAts (unit_mem_L c (.reg barS) ()) fun g u hg => ?_
  have hg' : 0 < (Oy c Finset.univ + Ox c Finset.univ) g u := hg
  rcases Pipeline.add_pos_cases hg' with h | h
  · obtain ⟨k, -, rfl⟩ := Oy_pos h
    exact ⟨unit_mem_L _ _ u, by rw [lv_yRecv]; exact (by decide : (1 : ℕ) < 2)⟩
  · obtain ⟨k, -, rfl⟩ := Ox_pos h
    exact ⟨unit_mem_L _ _ u, by rw [lv_xRecv]; exact (by decide : (1 : ℕ) < 3)⟩
omit [FloatOps F] in
/-- At a column receive wait of pass 2 it owes row receive credits only. -/
theorem mayWait_yRecv (c : Dev nD) (k : Fin 32) (S : Finset (Fin 32)) :
    (levAts L lv : sProp 𝕄) ⊢ MayWait (c : Thread nD τ) (.dma (yRecvS k)) () (Ox c S) :=
  mayWait_Ox c (.dma (yRecvS k)) S (by rw [lv_yRecv]; decide)
omit [FloatOps F] in
/-- Likewise at the wait for its local copy into `lin`. -/
theorem mayWait_lin (c : Dev nD) (k : Fin 32) (S : Finset (Fin 32)) :
    (levAts L lv : sProp 𝕄) ⊢ MayWait (c : Thread nD τ) (.dma (linS k)) () (Ox c S) :=
  mayWait_Ox c (.dma (linS k)) S (by rw [lv_lin]; decide)

omit [FloatOps F] in
/-- The launch credit of a device's cells: two units on its barrier cell, a chunk's credit on each receive cell. -/
theorem creds (c : Dev nD) :
    (Pipeline.launchCred O₀ c : sProp 𝕄) ⊢ iprop(cred (tallyAt (barCell c) () 2)
      ∗ bigSep Finset.univ fun k : Fin 32 => iprop(cred (tallyAt (yRecvCell c k) () N) ∗ cred (tallyAt (xRecvCell c k) () N))) := by
  -- the launch tallies are a sum of four families; the launch credit splits along the sum
  have h1 : (Pipeline.launchCred O₀ c : sProp 𝕄)
      = iprop(Pipeline.launchCred (fun d => O₁ d + tallyAt (barCell (xpeer d)) () 1) c
          ∗ Pipeline.launchCred (fun d => tallyAt (barCell (ypeer d)) () 1) c) :=
    Pipeline.launchCred_add (fun d => O₁ d + tallyAt (barCell (xpeer d)) () 1) (fun d => tallyAt (barCell (ypeer d)) () 1) c
  have h2 : (Pipeline.launchCred (fun d => O₁ d + tallyAt (barCell (xpeer d)) () 1) c : sProp 𝕄)
      = iprop(Pipeline.launchCred O₁ c ∗ Pipeline.launchCred (fun d => tallyAt (barCell (xpeer d)) () 1) c) :=
    Pipeline.launchCred_add O₁ (fun d => tallyAt (barCell (xpeer d)) () 1) c
  have h3 : (Pipeline.launchCred O₁ c : sProp 𝕄)
      = iprop(Pipeline.launchCred (fun d => Oy d Finset.univ) c ∗ Pipeline.launchCred (fun d => Ox d Finset.univ) c) :=
    Pipeline.launchCred_add (fun d => Oy d Finset.univ) (fun d => Ox d Finset.univ) c
  have h4 : (Pipeline.launchCred (fun d => Oy d Finset.univ) c : sProp 𝕄)
      = bigSep Finset.univ fun k : Fin 32 => Pipeline.launchCred (fun d => tallyAt (yRecvCell (ypeer d) k) () N) c :=
    Pipeline.launchCred_sum Finset.univ (fun (k : Fin 32) d => tallyAt (yRecvCell (ypeer d) k) () N) c
  have h5 : (Pipeline.launchCred (fun d => Ox d Finset.univ) c : sProp 𝕄)
      = bigSep Finset.univ fun k : Fin 32 => Pipeline.launchCred (fun d => tallyAt (xRecvCell (xpeer d) k) () N) c :=
    Pipeline.launchCred_sum Finset.univ (fun (k : Fin 32) d => tallyAt (xRecvCell (xpeer d) k) () N) c
  -- each family is one tally per device at a cell of its neighbour; both neighbour maps are involutions
  have hy (k : Fin 32) : (Pipeline.launchCred (fun d => tallyAt (yRecvCell (ypeer d) k) () N) c : sProp 𝕄)
      ⊢ cred (tallyAt (yRecvCell c k) () N) :=
    Pipeline.launchCred_tallyAt (.dma (yRecvS k)) ypeer ypeer ypeer_ypeer ypeer_ypeer () N c
  have hx (k : Fin 32) : (Pipeline.launchCred (fun d => tallyAt (xRecvCell (xpeer d) k) () N) c : sProp 𝕄)
      ⊢ cred (tallyAt (xRecvCell c k) () N) :=
    Pipeline.launchCred_tallyAt (.dma (xRecvS k)) xpeer xpeer xpeer_xpeer xpeer_xpeer () N c
  have hbx : (Pipeline.launchCred (fun d => tallyAt (barCell (xpeer d)) () 1) c : sProp 𝕄) ⊢ cred (tallyAt (barCell c) () 1) :=
    Pipeline.launchCred_tallyAt (.reg barS) xpeer xpeer xpeer_xpeer xpeer_xpeer () 1 c
  have hby : (Pipeline.launchCred (fun d => tallyAt (barCell (ypeer d)) () 1) c : sProp 𝕄) ⊢ cred (tallyAt (barCell c) () 1) :=
    Pipeline.launchCred_tallyAt (.reg barS) ypeer ypeer ypeer_ypeer ypeer_ypeer () 1 c
  have e2 : (tallyAt (barCell c) () 2 : CellTallies nD τ sig Unit) = tallyAt (barCell c) () 1 + tallyAt (barCell c) () 1 :=
    (tallyAt_add (barCell c) () 1 1).symm
  rw [h1, h2, h3, h4, h5, e2, bigSep_sep']
  refine (sep_mono (sep_mono (sep_mono (bigSep_mono fun k _ => hy k) (bigSep_mono fun k _ => hx k)) hbx) hby).trans ?_
  iintro ⟨⟨⟨HA, HB⟩, HX⟩, HY⟩
  isplitl [HX HY]
  · iapply (cred_add _ _).2
    isplitl [HX]
    · iexact HX
    · iexact HY
  · isplitl [HA]
    · iexact HA
    · iexact HB

/-- info: 'Cert.KernelIdeal.RS.creds' depends on axioms: [propext, Classical.choice, Quot.sound] -/
#guard_msgs in #print axioms creds

/-- info: 'Cert.KernelIdeal.RS.mayWait_bar' depends on axioms: [propext, Classical.choice, Quot.sound] -/
#guard_msgs in #print axioms mayWait_bar

/-- info: 'Cert.KernelIdeal.RS.mayWait_Ox' depends on axioms: [propext, Classical.choice, Quot.sound] -/
#guard_msgs in #print axioms mayWait_Ox

end Cert.KernelIdeal.RS

end
-- ==== Proof.SchedLemmas.lean ====
/-
  The schedule read cell by cell: every cell has the one round 0. A DMA cell's round is the one duty `false` of a
  chunk's credit, whose payload is the cell kind's; the barrier cell's round is the two duties of one unit each, the
  column neighbour's and the row neighbour's. Every payload is made of points-to assertions, round facts and big
  separating conjunctions of them, so it can be stored in a cell's invariant.
-/
import proofs.«900309_g7700000000000310_dist_rs_v7x_xy2x2_y_m4096_n1024_f32_1_alg».proof.Proof.SemFacts

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A chunk's credit does not depend on the buffer -/

theorem amount_linSl (k : Fin 32) (i : DmaSem sig) : (linSl k).view.amount (.dma i) = N := rfl
theorem amount_commSl (k : Fin 32) (i : DmaSem sig) : (commSl k).view.amount (.dma i) = N := rfl
theorem amount_partSl (k : Fin 32) (i : DmaSem sig) : (partSl k).view.amount (.dma i) = N := rfl
theorem amount_outSl (c : Dev nD) (k : Fin 32) (i : DmaSem sig) : (outSl c k).view.amount (.dma i) = N := rfl

/-! ## The payloads can be stored -/

instance anyPts_storable {sp : Space} (c : Dev nD) (v : Memref sig .tc sp S64x1024 .f32) (q : PosShare TreeShare) :
    BI.Storable (upEmb : UEmb _ 𝕄) (anyPts (F := F) c v q) := by unfold anyPts; infer_instance
instance argOwnPts_storable (c : Dev nD) (k : Fin 32) (q : PosShare TreeShare) :
    BI.Storable (upEmb : UEmb _ 𝕄) (argOwnPts m c k q) := by unfold argOwnPts; infer_instance
instance argPeerPts_storable (c : Dev nD) (k : Fin 32) (q : PosShare TreeShare) :
    BI.Storable (upEmb : UEmb _ 𝕄) (argPeerPts m c k q) := by unfold argPeerPts; infer_instance
instance ySendPay_storable (c : Dev nD) (k : Fin 32) : BI.Storable (upEmb : UEmb _ 𝕄) (ySendPay m c k) := by
  unfold ySendPay; infer_instance
instance yRecvPay_storable (c : Dev nD) (k : Fin 32) : BI.Storable (upEmb : UEmb _ 𝕄) (yRecvPay m c k) := by
  unfold yRecvPay owns; infer_instance
instance xSendPay_storable (c : Dev nD) (k : Fin 32) : BI.Storable (upEmb : UEmb _ 𝕄) (xSendPay (F := F) c k) := by
  unfold xSendPay; infer_instance
instance xRecvPay_storable (c : Dev nD) (k : Fin 32) : BI.Storable (upEmb : UEmb _ 𝕄) (xRecvPay m c k) := by
  unfold xRecvPay owns; infer_instance
instance linPay_storable (c : Dev nD) (k : Fin 32) : BI.Storable (upEmb : UEmb _ 𝕄) (linPay m c k) := by
  unfold linPay owns; infer_instance
instance outPay_storable (c : Dev nD) (k : Fin 32) : BI.Storable (upEmb : UEmb _ 𝕄) (outPay m c k) := by
  unfold outPay owns; infer_instance
instance dmaPay_storable (c : Dev nD) (a : ℕ) (k : Fin 32) : BI.Storable (upEmb : UEmb _ 𝕄) (dmaPay m c a k) := by
  unfold dmaPay; split <;> infer_instance

instance rsRd_payload_storable (g : GSem nD τ sig) (r : ℕ) (d : Bool) :
    BI.Storable (upEmb : UEmb _ 𝕄) ((rsRd (F := F) m).payload g r d) := by
  obtain ⟨t, s⟩ := g
  cases s with
  | reg s =>
    show BI.Storable upEmb (if d then barPayX (F := F) t.1 else barPayY (F := F) t.1)
    unfold barPayX barPayY
    split <;> infer_instance
  | dma i =>
    show BI.Storable upEmb (dmaPay m t.1 (arrOf i) (chunkOf i))
    infer_instance

section Sched
variable (c : Dev nD) (k : Fin 32)

/-! ## The send cell of the transfers between the columns -/

theorem duties_ySend : (rsRd (F := F) m).duties (ySendCell c k) 0 = {false} := by
  dsimp only [rsRd]; exact if_pos ⟨rfl, rfl⟩
theorem amount_ySend (d : Bool) : (rsRd (F := F) m).amount (ySendCell c k) 0 d = N := rfl
theorem expect_ySend : (rsRd (F := F) m).expect (ySendCell c k) 0 = N := by
  unfold Schedule.expect Schedule.amountOf; rw [duties_ySend, Finset.sum_singleton, amount_ySend]
theorem payload_ySend (d : Bool) : (rsRd (F := F) m).payload (ySendCell c k) 0 d = ySendPay m c k := by
  show dmaPay m c (arrOf (ySendS k)) (chunkOf (ySendS k)) = _
  rw [arrOf_ySendS, chunkOf_ySendS]; rfl
theorem rest_ySend : bigSep ((rsRd (F := F) m).duties (ySendCell c k) 0 \ ∅) (fun d => (rsRd (F := F) m).payload (ySendCell c k) 0 d)
    = ySendPay m c k := by
  rw [Finset.sdiff_empty, duties_ySend, bigSep_singleton, payload_ySend]

/-! ## Their receive cell -/

theorem duties_yRecv : (rsRd (F := F) m).duties (yRecvCell c k) 0 = {false} := by
  dsimp only [rsRd]; exact if_pos ⟨rfl, rfl⟩
theorem amount_yRecv (d : Bool) : (rsRd (F := F) m).amount (yRecvCell c k) 0 d = N := rfl
theorem expect_yRecv : (rsRd (F := F) m).expect (yRecvCell c k) 0 = N := by
  unfold Schedule.expect Schedule.amountOf; rw [duties_yRecv, Finset.sum_singleton, amount_yRecv]
theorem payload_yRecv (d : Bool) : (rsRd (F := F) m).payload (yRecvCell c k) 0 d = yRecvPay m c k := by
  show dmaPay m c (arrOf (yRecvS k)) (chunkOf (yRecvS k)) = _
  rw [arrOf_yRecvS, chunkOf_yRecvS]; rfl
theorem rest_yRecv : bigSep ((rsRd (F := F) m).duties (yRecvCell c k) 0 \ ∅) (fun d => (rsRd (F := F) m).payload (yRecvCell c k) 0 d)
    = yRecvPay m c k := by
  rw [Finset.sdiff_empty, duties_yRecv, bigSep_singleton, payload_yRecv]

/-! ## The send cell of the transfers between the rows -/

theorem duties_xSend : (rsRd (F := F) m).duties (xSendCell c k) 0 = {false} := by
  dsimp only [rsRd]; exact if_pos ⟨rfl, rfl⟩
theorem amount_xSend (d : Bool) : (rsRd (F := F) m).amount (xSendCell c k) 0 d = N := rfl
theorem expect_xSend : (rsRd (F := F) m).expect (xSendCell c k) 0 = N := by
  unfold Schedule.expect Schedule.amountOf; rw [duties_xSend, Finset.sum_singleton, amount_xSend]
theorem payload_xSend (d : Bool) : (rsRd (F := F) m).payload (xSendCell c k) 0 d = xSendPay (F := F) c k := by
  show dmaPay m c (arrOf (xSendS k)) (chunkOf (xSendS k)) = _
  rw [arrOf_xSendS, chunkOf_xSendS]; rfl
theorem rest_xSend : bigSep ((rsRd (F := F) m).duties (xSendCell c k) 0 \ ∅) (fun d => (rsRd (F := F) m).payload (xSendCell c k) 0 d)
    = xSendPay (F := F) c k := by
  rw [Finset.sdiff_empty, duties_xSend, bigSep_singleton, payload_xSend]

/-! ## Their receive cell -/

theorem duties_xRecv : (rsRd (F := F) m).duties (xRecvCell c k) 0 = {false} := by
  dsimp only [rsRd]; exact if_pos ⟨rfl, rfl⟩
theorem amount_xRecv (d : Bool) : (rsRd (F := F) m).amount (xRecvCell c k) 0 d = N := rfl
theorem expect_xRecv : (rsRd (F := F) m).expect (xRecvCell c k) 0 = N := by
  unfold Schedule.expect Schedule.amountOf; rw [duties_xRecv, Finset.sum_singleton, amount_xRecv]
theorem payload_xRecv (d : Bool) : (rsRd (F := F) m).payload (xRecvCell c k) 0 d = xRecvPay m c k := by
  show dmaPay m c (arrOf (xRecvS k)) (chunkOf (xRecvS k)) = _
  rw [arrOf_xRecvS, chunkOf_xRecvS]; rfl
theorem rest_xRecv : bigSep ((rsRd (F := F) m).duties (xRecvCell c k) 0 \ ∅) (fun d => (rsRd (F := F) m).payload (xRecvCell c k) 0 d)
    = xRecvPay m c k := by
  rw [Finset.sdiff_empty, duties_xRecv, bigSep_singleton, payload_xRecv]

/-! ## The cell of the local copy in -/

theorem duties_lin : (rsRd (F := F) m).duties (linCell c k) 0 = {false} := by
  dsimp only [rsRd]; exact if_pos ⟨rfl, rfl⟩
theorem amount_lin (d : Bool) : (rsRd (F := F) m).amount (linCell c k) 0 d = N := rfl
theorem expect_lin : (rsRd (F := F) m).expect (linCell c k) 0 = N := by
  unfold Schedule.expect Schedule.amountOf; rw [duties_lin, Finset.sum_singleton, amount_lin]
theorem payload_lin (d : Bool) : (rsRd (F := F) m).payload (linCell c k) 0 d = linPay m c k := by
  show dmaPay m c (arrOf (linS k)) (chunkOf (linS k)) = _
  rw [arrOf_linS, chunkOf_linS]; rfl
theorem rest_lin : bigSep ((rsRd (F := F) m).duties (linCell c k) 0 \ ∅) (fun d => (rsRd (F := F) m).payload (linCell c k) 0 d)
    = linPay m c k := by
  rw [Finset.sdiff_empty, duties_lin, bigSep_singleton, payload_lin]

/-! ## The cell of the local copy out -/

theorem duties_out : (rsRd (F := F) m).duties (outCell c k) 0 = {false} := by
  dsimp only [rsRd]; exact if_pos ⟨rfl, rfl⟩
theorem amount_out (d : Bool) : (rsRd (F := F) m).amount (outCell c k) 0 d = N := rfl
theorem expect_out : (rsRd (F := F) m).expect (outCell c k) 0 = N := by
  unfold Schedule.expect Schedule.amountOf; rw [duties_out, Finset.sum_singleton, amount_out]
theorem payload_out (d : Bool) : (rsRd (F := F) m).payload (outCell c k) 0 d = outPay m c k := by
  show dmaPay m c (arrOf (outS k)) (chunkOf (outS k)) = _
  rw [arrOf_outS, chunkOf_outS]; rfl
theorem rest_out : bigSep ((rsRd (F := F) m).duties (outCell c k) 0 \ ∅) (fun d => (rsRd (F := F) m).payload (outCell c k) 0 d)
    = outPay m c k := by
  rw [Finset.sdiff_empty, duties_out, bigSep_singleton, payload_out]

/-! ## The barrier cell -/

theorem duties_bar : (rsRd (F := F) m).duties (barCell c) 0 = Finset.univ := by
  dsimp only [rsRd]; rw [if_pos ⟨rfl, rfl⟩]; exact if_pos rfl
theorem amount_bar (d : Bool) : (rsRd (F := F) m).amount (barCell c) 0 d = 1 := rfl
theorem expect_bar : (rsRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem payload_bar_false : (rsRd (F := F) m).payload (barCell c) 0 false = barPayY (F := F) c := rfl
theorem payload_bar_true : (rsRd (F := F) m).payload (barCell c) 0 true = barPayX (F := F) c := rfl
theorem rest_bar : bigSep ((rsRd (F := F) m).duties (barCell c) 0 \ ∅) (fun d => (rsRd (F := F) m).payload (barCell c) 0 d)
    = iprop(barPayY (F := F) c ∗ barPayX (F := F) c) := by
  rw [Finset.sdiff_empty, duties_bar, bigSep_univ_eq_bigSepL [false, true] (by decide) (by decide), bigSepL_cons_cons, bigSepL_singleton,
    payload_bar_false, payload_bar_true]
  rfl

/-! ## No cell has a later round -/

theorem duties_later (g : GSem nD τ sig) : ∀ r, 1 ≤ r → (rsRd (F := F) m).duties g r = ∅ :=
  fun r hr => by dsimp only [rsRd]; rw [if_neg fun h => by omega]

end Sched

end Cert.KernelIdeal.RS

end
-- ==== Proof.StepEntry.lean ====
/-
  The entry handshake: a device pays one unit to the barrier cell of its neighbour in the other mesh column, handing over its
  32 chunks of `comm`, and one to the barrier cell of its neighbour in the other mesh row, handing over the 32 chunks of its
  result at that neighbour's row half; then it waits for the two units of its own barrier cell, which bring the column
  neighbour's chunks of `comm` and the row neighbour's chunks of result at its own row half.
-/
import proofs.«900309_g7700000000000310_dist_rs_v7x_xy2x2_y_m4096_n1024_f32_1_alg».proof.Proof.State
import proofs.«900309_g7700000000000310_dist_rs_v7x_xy2x2_y_m4096_n1024_f32_1_alg».proof.Proof.Levels
import proofs.«900309_g7700000000000310_dist_rs_v7x_xy2x2_y_m4096_n1024_f32_1_alg».proof.Proof.SchedLemmas

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the two signals hand over, and what the wait brings -/

section
variable (K : Dev nD → SemLoc sig → ℕ) (c : Dev nD)

/-- The column neighbour's barrier duty: the device's chunks of `comm`, and that its column receive cells stand at round 0. -/
private theorem payY_intro :
    iprop(known m K c ∗ bigSep Finset.univ fun k : Fin 32 => anyPts (F := F) c (commSl k) fullShare)
      ⊢ barPayY (F := F) (ypeer c) := by
  unfold barPayY
  rw [ypeer_ypeer]
  refine bigSep_with_persistent (fun k _ => ?_)
  iintro ⟨#Hk, H⟩
  isplitl [H]; · iexact H
  unfold known
  rw [bigSep_univ_at _ k]
  icases Hk with ⟨-, ⟨-, -, Hr, -⟩, -⟩
  iexact Hr

/-- The row neighbour's: the chunks of the device's result at the neighbour's row half, and its row receive cells at round 0. -/
private theorem payX_intro :
    iprop(known m K c ∗ bigSep Finset.univ fun k : Fin 32 => anyPts (F := F) c (outSl (xpeer c) k) fullShare)
      ⊢ barPayX (F := F) (xpeer c) := by
  unfold barPayX
  rw [xpeer_xpeer]
  refine bigSep_with_persistent (fun k _ => ?_)
  iintro ⟨#Hk, H⟩
  isplitl [H]; · iexact H
  unfold known
  rw [bigSep_univ_at _ k]
  icases Hk with ⟨-, ⟨-, -, -, -, Hr, -⟩, -⟩
  iexact Hr

private theorem payY_elim :
    barPayY (F := F) c ⊢ bigSep Finset.univ fun k : Fin 32 => anyPts (F := F) (ypeer c) (commSl k) fullShare := by
  unfold barPayY
  exact bigSep_mono (fun k _ => sep_and.trans and_elimL)

private theorem payX_elim :
    barPayX (F := F) c ⊢ bigSep Finset.univ fun k : Fin 32 => anyPts (F := F) (xpeer c) (outSl c k) fullShare := by
  unfold barPayX
  exact bigSep_mono (fun k _ => sep_and.trans and_elimL)

/-- The two payloads of the barrier cell's round. -/
private theorem bar_pays :
    bigSep (Finset.univ : Finset Bool) (fun d => (rsRd m).payload (barCell c) 0 d) = iprop(barPayY (F := F) c ∗ barPayX (F := F) c) := by
  have h := rest_bar m c
  rwa [duties_bar, Finset.sdiff_empty] at h

/-! ## The rule -/

attribute [local sl_rounds] expect_bar rest_bar duties_bar amount_bar payload_bar_false payload_bar_true

theorem wp_entry (rest : P F PUnit) (Kt : PUnit → sProp 𝕄) :
    iprop(known m K c ∗ levAts L lv ∗ E0 (F := F) c ∗ owesAny (F := F) c (O₀ c)
        ∗ ((E1 (F := F) c ∗ owesAny (F := F) c (O₁ c)) -∗ wp frame (wpE (defs₀ (F := F)) 𝒱₀ c none) Set.univ rest Kt))
      ⊢ wp frame (wpE (defs₀ (F := F)) 𝒱₀ c none) Set.univ (entry c rest) Kt := by
  unfold entry
  simp only [semSignalWord, semWaitWord, Prog.lift, Prog.bind_op, Prog.bind_ret, Prog.pure_eq_ret, dev1_eq c, dev2_eq c,
    show (1#32 : BitVec 32).toNat = 1 from rfl, show (2#32 : BitVec 32).toNat = 2 from rfl]
  iintro ⟨#Hk, Hlev, HE0, HO, Hrest⟩
  unfold E0
  icases HE0 with ⟨HtY, HtX, Hcomm, Hout, Hcr, Hat⟩
  ihave HpY := (payY_intro m K c) $$ [Hcomm]
  · isplitr; · iexact Hk
    iexact Hcomm
  ihave HpX := (payX_intro m K c) $$ [Hout]
  · isplitr; · iexact Hk
    iexact Hout
  unfold owesAny
  icases HO with ⟨%W, HO⟩
  unfold known
  icases Hk with ⟨⟨#Ibar, #IbarY, #IbarX, #rBY, #rBX⟩, -⟩
  unfold O₀
  ihave HMW := (mayWait_bar (F := F) c) $$ Hlev
  -- the two signals and the wait: each cell's invariant, the duty's token and payload, the reached round, what is owed, the
  -- credit, the position and the level evidence are at hand
  sl_exec
  ihave Hp := (Entails.of_eq (bar_pays m c)) $$ Hat_pay1
  icases Hp with ⟨HY, HX⟩
  iapply Hrest
  isplitr [HO]
  · unfold E1
    isplitl [HY]; · iapply (payY_elim c); iexact HY
    isplitl [HX]; · iapply (payX_elim c); iexact HX
    iexact Hat
  · iexists _; iexact HO

end

/-- info: 'Cert.KernelIdeal.RS.wp_entry' depends on axioms: [propext, Classical.choice, Quot.sound] -/
#guard_msgs in #print axioms wp_entry

end Cert.KernelIdeal.RS

end
-- ==== Proof.Step1.lean ====
/-
  Pass 1 of the protocol at a chunk `k`. The device starts two copies of the chunk's 64 rows of its own row half of its
  argument block: its own column half goes into chunk `k` of `lin` by a local copy, which pays the one duty of the copy's cell
  with `lin`'s chunk holding those rows and the source share; the other column half goes into chunk `k` of `comm` on the
  neighbour in the other mesh column, which pays the send cell's duty with the source share and the neighbour's receive cell's
  duty with `comm`'s chunk holding the rows sent. The chunk's credit on the neighbour's receive cell comes off what the device
  owes; the credits on the copy's cell and on the send cell are what the pass leaves for the later waits.
-/
import proofs.«900309_g7700000000000310_dist_rs_v7x_xy2x2_y_m4096_n1024_f32_1_alg».proof.Proof.State
import proofs.«900309_g7700000000000310_dist_rs_v7x_xy2x2_y_m4096_n1024_f32_1_alg».proof.Proof.Levels
import proofs.«900309_g7700000000000310_dist_rs_v7x_xy2x2_y_m4096_n1024_f32_1_alg».proof.Proof.SchedLemmas

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Pass 1 at chunk `k`: the local copy into `lin` and the transfer into the column neighbour's `comm` -/

/-- A slice rewritten everywhere with `w` is owned at `w`. -/
theorem landed_owns {sp : Space} (t : Dev nD) (v : Memref sig .tc sp S64x1024 .f32)
    (fd : Buf (Elt F) (v.view.loc (t : Thread nD τ))) (w : Vec F S64x1024 .f32) :
    (v.view.loc (t : Thread nD τ) ↦[v.view.set]{fullShare} (v.view.write (Elt F) fd w Finset.univ) : sProp 𝕄)
      ⊢ owns (t : Thread nD τ) v fullShare w := by
  have h := owns_intro (Val := Elt F) (Ix := Unit) (Name := ℕ) (U := UU) (Lvl := ℕ) (t : Thread nD τ) v fullShare (v.view.write (Elt F) fd w Finset.univ)
  rwa [View.read_write_univ] at h

section Step1
variable (K : Dev nD → SemLoc sig → ℕ) (c : Dev nD)

/-- What pass 1 at chunk `k` uses of the standing facts: the invariants of the three cells it pays, each at round 0. -/
theorem known_pass1 (k : Fin 32) :
    known m K c ⊢ iprop(cellInv ER (rsRd m) (K c (.dma (linS k))) (linCell c k) ∗ reached ER (linCell c k) 0
      ∗ cellInv ER (rsRd m) (K c (.dma (ySendS k))) (ySendCell c k) ∗ reached ER (ySendCell c k) 0
      ∗ cellInv ER (rsRd m) (K (ypeer c) (.dma (yRecvS k))) (yRecvCell (ypeer c) k) ∗ reached ER (yRecvCell (ypeer c) k) 0) := by
  have hel : ∀ Φ : Fin 32 → sProp 𝕄, bigSep Finset.univ Φ ⊢ Φ k := fun Φ => bigSep_elim (Finset.mem_univ k)
  unfold known
  iintro ⟨_, Hb⟩
  ihave Hk := hel _ $$ Hb
  icases Hk with ⟨⟨#Is, _, _, _, #Il, _, #Ir, _⟩, ⟨#Rs, _, _, _, #Rl, _, #Rr, _⟩⟩
  isplit; · iexact Il
  isplit; · iexact Rl
  isplit; · iexact Is
  isplit; · iexact Rs
  isplit; · iexact Ir
  iexact Rr

/-- The local copy of chunk `k` of the device's own column half into `lin`: it pays the one duty of the copy's cell,
    whose payload is `lin`'s chunk holding the argument's and the source share back. -/
theorem wp_copy_lin (k : Fin 32) {hsrc : (argOwnSl c k).view.WordExact} {hdst : (linSl k).view.WordExact}
    {hsem : DmaTarget.Typed (nD := nD) (τ := τ) (p := (c : Thread nD τ).2) .hbm (.dma (linS k)) (.here (linSl k))}
    {α : Type} {Q : α → sProp 𝕄} {kk : PUnit → Prog (TpuEff nD τ sig (Elt F) Λ₀ .tc) α}
    (fd : Buf (Elt F) ((linSl k).view.loc (c : Thread nD τ))) :
    iprop(cellInv ER (rsRd m) (K c (.dma (linS k))) (linCell c k) ∗ argOwnPts m c k fullShare
        ∗ ((linSl k).view.loc (c : Thread nD τ) ↦[(linSl k).view.set]{fullShare} fd)
        ∗ dutyTok ER (linCell c k) 0 false ∗ reached ER (linCell c k) 0)
      ⊢ iprop((cred (tallyAt (linCell c k) () N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (argOwnSl c k) (.here (linSl k)) (.dma (linS k)) hsrc hdst hsem) kk) Q) := by
  unfold argOwnPts
  exact Rounds.wp_copy_pointsTo 𝒱₀ ER (rsRd m) (c : Thread nD τ) none (src := argOwnSl c k) (dst := linSl k)
    (q := fullShare) (fs := argBuf m c) (fd := fd) (r := 0) (d := false) (κ := K c (.dma (linS k)))
    (by rw [duties_lin]; exact Finset.mem_singleton_self _) () N (amount_linSl k (linS k)) (amount_lin m c k false)
    (by rw [payload_lin]; unfold linPay argOwnPts; exact sep_mono_left (landed_owns c (linSl k) fd _))

/-- The transfer of chunk `k` of the other column half into the column neighbour's `comm`, addressed to `n`, which is
    that neighbour: it pays the send cell's duty with the source share and the neighbour's receive cell's with `comm`'s chunk
    holding the rows sent, and takes the chunk's credit off what the device owes. -/
theorem wp_send_comm (k : Fin 32) (n : Dev nD) (hn : n = ypeer c)
    {hsc : (commSl k : Memref sig (Dev.tc n : Thread nD τ).2.kind .vmem S64x1024 .f32).view.ref.isScScratch = false}
    {hsrc : (argPeerSl c k).view.WordExact} {hdst : (commSl k).view.WordExact}
    {hsem : DmaTarget.Typed .hbm (.dma (yRecvS k)) (.remote (Dev.tc n : Thread nD τ) (commSl k : Memref sig .tc .vmem S64x1024 .f32) (.dma (ySendS k)) hsc)}
    {α : Type} {Q : α → sProp 𝕄} {kk : PUnit → Prog (TpuEff nD τ sig (Elt F) Λ₀ .tc) α}
    (fd : Buf (Elt F) ((commSl k).view.loc (ypeer c : Thread nD τ))) {O₀ : CellTallies nD τ sig Unit} (O : CellTallies nD τ sig Unit)
    (hO : O₀ = O + tallyAt (yRecvCell (ypeer c) k) () N) (W : Waits sig Unit) :
    iprop(cellInv ER (rsRd m) (K c (.dma (ySendS k))) (ySendCell c k)
        ∗ cellInv ER (rsRd m) (K (ypeer c) (.dma (yRecvS k))) (yRecvCell (ypeer c) k)
        ∗ argPeerPts m c k fullShare
        ∗ ((commSl k).view.loc (ypeer c : Thread nD τ) ↦[(commSl k).view.set]{fullShare} fd)
        ∗ owes (c : Thread nD τ) O₀ W
        ∗ dutyTok ER (ySendCell c k) 0 false ∗ reached ER (ySendCell c k) 0
        ∗ dutyTok ER (yRecvCell (ypeer c) k) 0 false ∗ reached ER (yRecvCell (ypeer c) k) 0)
      ⊢ iprop(((cred (tallyAt (ySendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (argPeerSl c k) (.remote (Dev.tc n : Thread nD τ) (commSl k) (.dma (ySendS k)) hsc) (.dma (yRecvS k)) hsrc hdst hsem) kk) Q) := by
  subst hn
  unfold argPeerPts
  exact Rounds.wp_send_pointsTo 𝒱₀ ER (rsRd m) (c : Thread nD τ) none (c' := (ypeer c : Thread nD τ))
    (src := argPeerSl c k) (dst := commSl k) (q := fullShare) (fs := argBuf m c) (fd := fd)
    (κ₁ := K c (.dma (ySendS k))) (κ₂ := K (ypeer c) (.dma (yRecvS k))) (r₁ := 0) (r₂ := 0) (d₁ := false) (d₂ := false)
    (by rw [duties_ySend]; exact Finset.mem_singleton_self _) (by rw [duties_yRecv]; exact Finset.mem_singleton_self _)
    () () N (amount_commSl k (yRecvS k)) (amount_ySend m c k false) (amount_yRecv m (ypeer c) k false) O hO (W := W)
    (by rw [payload_ySend]; unfold ySendPay argPeerPts; exact BI.Entails.refl _)
    (by rw [payload_yRecv]; unfold yRecvPay; rw [ypeer_ypeer]; exact landed_owns (ypeer c) (commSl k) fd _)

theorem wp_pass1 (k : Fin 32) (S : Finset (Fin 32)) (hk : k ∈ S) (R : CellTallies nD τ sig Unit) (rest : P F PUnit) (Kt : PUnit → sProp 𝕄) :
    iprop(known m K c ∗ T1 m c k ∗ owesAny (F := F) c (Oy c S + R)
        ∗ ((D1 (F := F) c k ∗ owesAny (F := F) c (Oy c (S.erase k) + R)) -∗ wp frame (wpE (defs₀ (F := F)) 𝒱₀ c none) Set.univ rest Kt))
      ⊢ wp frame (wpE (defs₀ (F := F)) 𝒱₀ c none) Set.univ (pass1 c k rest) Kt := by
  have hO : Oy c S + R = (Oy c (S.erase k) + R) + tallyAt (yRecvCell (ypeer c) k) () N := by
    rw [Oy_erase c S k hk]; exact add_right_comm _ _ _
  unfold T1 D1 owesAny anyPts
  simp only [pass1, Prog.lift, Prog.bind_op, Prog.bind_ret, Prog.pure_eq_ret]
  iintro ⟨#Hkn, ⟨Hown, Hpeer, ⟨%fl, Hlin⟩, ⟨%fc, Hcomm⟩, Htl, Hts, Htr⟩, ⟨%W, HO⟩, Hk⟩
  ihave Hc := known_pass1 m K c k $$ Hkn
  icases Hc with ⟨#Il, #Rl, #Is, #Rs, #Ir, #Rr⟩
  iapply (wp_copy_lin m K c k fl) $$ [Hown Hlin Htl]
  · isplitr; · iexact Il
    isplitl [Hown]; · iexact Hown
    isplitl [Hlin]; · iexact Hlin
    isplitl [Htl]; · iexact Htl
    iexact Rl
  iintro Hcl
  iapply (wp_send_comm m K c k (ydev c k) (ydev_eq c k) fc (Oy c (S.erase k) + R) hO W) $$ [Hpeer Hcomm HO Hts Htr]
  · isplitr; · iexact Is
    isplitr; · iexact Ir
    isplitl [Hpeer]; · iexact Hpeer
    isplitl [Hcomm]; · iexact Hcomm
    isplitl [HO]; · iexact HO
    isplitl [Hts]; · iexact Hts
    isplitr; · iexact Rs
    isplitl [Htr]; · iexact Htr
    iexact Rr
  iintro ⟨Hcs, HO'⟩
  iapply Hk
  isplitl [Hcl Hcs]
  · isplitl [Hcl]; · iexact Hcl
    iexact Hcs
  iexists W; iexact HO'

end Step1

/-- info: 'Cert.KernelIdeal.RS.wp_pass1' depends on axioms: [propext, Classical.choice, Quot.sound] -/
#guard_msgs in #print axioms wp_pass1

end Cert.KernelIdeal.RS

end
-- ==== Proof.ViewFacts.lean ====
/-
  Small facts about views and shares. A points-to over a view's elements at contents that read, through the view, as
  `X` is `owns … X`; what a transfer or a store writes through a view reads back as the payload. Chunk `k` of a whole
  scratch buffer is the buffer accessed at the chunk's rectangle: the same elements, the same read and write. A full
  share is its two halves, and two halves held at different contents agree and join.
-/
import proofs.«900309_g7700000000000310_dist_rs_v7x_xy2x2_y_m4096_n1024_f32_1_alg».proof.Proof.Sched

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents read through a view -/

/-- A view's elements at contents that read as `X` are owned at `X`. -/
theorem owns_of_pts {c : Thread nD τ} {sp : Space} {sh : Shape} {e : EltTy} (v : Memref sig c.2.kind sp sh e)
    (q : PosShare TreeShare) (f : Buf (Elt F) (v.view.loc c)) {X : sh.Idx → Elt F e} (hX : v.view.read (Elt F) f = X) :
    (v.view.loc c ↦[v.view.set]{q} f : sProp 𝕄) ⊢ owns c v q X := by
  subst hX; exact owns_intro c v q f

/-- What was written through a view on every index reads back as the payload. -/
theorem owns_of_landed {c : Thread nD τ} {sp : Space} {sh : Shape} {e : EltTy} (dst : Memref sig c.2.kind sp sh e)
    (q : PosShare TreeShare) (fd : Buf (Elt F) (dst.view.loc c)) (X : sh.Idx → Elt F e) :
    (dst.view.loc c ↦[dst.view.set]{q} dst.view.write (Elt F) fd X Finset.univ : sProp 𝕄) ⊢ owns c dst q X :=
  owns_of_pts dst q _ (View.read_write_univ fd X)

/-- Forgetting the contents. -/
theorem anyPts_of_pts {sp : Space} (c : Dev nD) (v : Memref sig .tc sp S64x1024 .f32) (q : PosShare TreeShare)
    (f : Buf (Elt F) (v.view.loc (c : Thread nD τ))) :
    (v.view.loc (c : Thread nD τ) ↦[v.view.set]{q} f : sProp 𝕄) ⊢ anyPts c v q := by
  unfold anyPts; iintro H; iexists f; iexact H

theorem anyPts_of_owns {sp : Space} (c : Dev nD) (v : Memref sig .tc sp S64x1024 .f32) (q : PosShare TreeShare)
    (X : S64x1024.Idx → Elt F .f32) :
    (owns (c : Thread nD τ) v q X : sProp 𝕄) ⊢ anyPts c v q := by
  unfold owns anyPts; iintro ⟨%f, -, H⟩; iexists f; iexact H

/-! ## Chunk `k` of a whole scratch buffer `M`: the slice's view is `M` accessed at the chunk's rectangle -/

section Chunk

variable (M : Memref sig .tc .vmem S2048x1024 .f32) (k : Fin 32)

theorem view_chunk : (M.slice (chunkR k) (fun _ => rfl)).view = M.access (chunkR k) := rfl

/-- The elements a load of `M` at the chunk's rectangle reads are the slice's. -/
theorem load_chunk_sub : M.view.setOn (chunkR k).toLoadRect.set ⊆ (M.slice (chunkR k) (fun _ => rfl)).view.set := by
  show M.view.setOn (chunkR k).set ⊆ (M.view.slice (chunkR k)).set
  rw [View.set_slice]; exact Finset.Subset.refl _

/-- Such a load reads what the slice's view reads. -/
theorem readAt_chunk (f : M.view.ty.Contents (Elt F)) :
    M.view.readAt (Elt F) (chunkR k).toLoadRect f = (M.slice (chunkR k) (fun _ => rfl)).view.read (Elt F) f := rfl

/-- The elements an unmasked store to `M` at the chunk's rectangle writes are the slice's. -/
theorem store_chunk_sub : (M.access (chunkR k)).setOn Finset.univ ⊆ (M.slice (chunkR k) (fun _ => rfl)).view.set :=
  Finset.Subset.refl _

/-- What it writes reads back, through the slice, as the payload. -/
theorem read_store_chunk (f : M.view.ty.Contents (Elt F)) (w : S64x1024.Idx → Elt F .f32) :
    (M.slice (chunkR k) (fun _ => rfl)).view.read (Elt F) ((M.access (chunkR k)).write (Elt F) f w Finset.univ) = w :=
  View.read_write_univ (v := M.access (chunkR k)) f w

/-- After the store the chunk is owned at the payload. -/
theorem owns_of_stored (c : Dev nD) (f : Buf (Elt F) ((M.access (chunkR k)).loc (c : Thread nD τ))) (w : S64x1024.Idx → Elt F .f32) :
    ((M.access (chunkR k)).loc (c : Thread nD τ) ↦[(M.slice (chunkR k) (fun _ => rfl)).view.set]{fullShare}
        (M.access (chunkR k)).write (Elt F) f w Finset.univ : sProp 𝕄)
      ⊢ owns (c : Thread nD τ) (M.slice (chunkR k) (fun _ => rfl)) fullShare w :=
  owns_of_landed (c := (c : Thread nD τ)) (M.slice (chunkR k) (fun _ => rfl)) fullShare f w

end Chunk

/-! ## Shares -/

section Shares

variable {ℓ : Loc nD τ sig} (S : Finset (Idx ℓ)) (f g : Buf (Elt F) ℓ)

/-- A full share is its two halves. -/
theorem pts_split_half :
    (ℓ ↦[S]{fullShare} f : sProp 𝕄) ⊣⊢ iprop((ℓ ↦[S]{fullShare.left} f) ∗ ℓ ↦[S]{fullShare.right} f) :=
  pointsTo_share (PosShare.mem_left_op_right fullShare)

/-- Two halves, whatever contents each was held at, agree on the elements and join to the full share. -/
theorem pts_join_half :
    iprop((ℓ ↦[S]{fullShare.left} f) ∗ ℓ ↦[S]{fullShare.right} g) ⊢ (ℓ ↦[S]{fullShare} f : sProp 𝕄) := by
  refine pure_elim _ (pointsTo_agree (I := S) (J := S) (q₁ := fullShare.left) (q₂ := fullShare.right) (f := f) (g := g)) fun hag => ?_
  rw [← pointsTo_congr (q := fullShare.right) (I := S) (f := f) (g := g) fun i hi => (hag i (Finset.mem_inter.mpr ⟨hi, hi⟩)).1]
  exact (pts_split_half S f).2

end Shares

/-- The two halves of a slice, each at some contents, are the slice at some contents. -/
theorem anyPts_join_half {sp : Space} (c : Dev nD) (v : Memref sig .tc sp S64x1024 .f32) :
    (iprop(anyPts (F := F) c v fullShare.left ∗ anyPts (F := F) c v fullShare.right) : sProp 𝕄) ⊢ anyPts c v fullShare := by
  unfold anyPts
  iintro ⟨⟨%f, Hl⟩, ⟨%g, Hr⟩⟩
  iexists f
  iapply (pts_join_half (F := F) v.view.set f g)
  isplitl [Hl]
  · iexact Hl
  · iexact Hr

theorem anyPts_split_half {sp : Space} (c : Dev nD) (v : Memref sig .tc sp S64x1024 .f32) :
    (anyPts (F := F) c v fullShare : sProp 𝕄) ⊢ iprop(anyPts (F := F) c v fullShare.left ∗ anyPts (F := F) c v fullShare.right) := by
  unfold anyPts
  iintro ⟨%f, H⟩
  ihave H2 := (pts_split_half (F := F) v.view.set f).1 $$ H
  icases H2 with ⟨Hl, Hr⟩
  isplitl [Hl]
  · iexists f; iexact Hl
  · iexists f; iexact Hr

/-- Owning a view at the full share is owning it at the two halves, at the same contents. -/
theorem owns_split_half {c : Thread nD τ} {sp : Space} {sh : Shape} {e : EltTy} (v : Memref sig c.2.kind sp sh e) (X : sh.Idx → Elt F e) :
    (owns c v fullShare X : sProp 𝕄) ⊢ iprop(owns c v fullShare.left X ∗ owns c v fullShare.right X) := by
  unfold owns
  iintro ⟨%f, %hX, H⟩
  ihave H2 := (pts_split_half (F := F) v.view.set f).1 $$ H
  icases H2 with ⟨Hl, Hr⟩
  isplitl [Hl]
  · iexists f; isplitr
    · ipureintro; exact hX
    · iexact Hl
  · iexists f; isplitr
    · ipureintro; exact hX
    · iexact Hr

/-- info: 'Cert.KernelIdeal.RS.anyPts_join_half' depends on axioms: [propext, Classical.choice, Quot.sound] -/
#guard_msgs in #print axioms anyPts_join_half

/-- info: 'Cert.KernelIdeal.RS.owns_of_stored' depends on axioms: [propext, Classical.choice, Quot.sound] -/
#guard_msgs in #print axioms owns_of_stored

/-- info: 'Cert.KernelIdeal.RS.owns_split_half' depends on axioms: [propext, Classical.choice, Quot.sound] -/
#guard_msgs in #print axioms owns_split_half

end Cert.KernelIdeal.RS

end
-- ==== Proof.Step2b.lean ====
/-
  The tail of pass 2 at a chunk `k`, after the partial sums have been stored into chunk `k` of `part`. The device holds
  that chunk whole; it splits the share in two halves. With the left half it sends the chunk into its own row half of
  the result on the neighbour in the other mesh row: this pays the send cell's duty with the half share and the
  neighbour's receive cell's with the neighbour's result rows holding the device's partial sums, and the chunk's
  credit on that receive cell comes off what the device owes. With the right half it copies the chunk into the same
  rows of its own result: this pays the copy's cell with the result rows holding the partial sums and the half share.
  The credits on the send cell and on the copy's cell are what the tail leaves for the waits of pass 3.
-/
import proofs.«900309_g7700000000000310_dist_rs_v7x_xy2x2_y_m4096_n1024_f32_1_alg».proof.Proof.State
import proofs.«900309_g7700000000000310_dist_rs_v7x_xy2x2_y_m4096_n1024_f32_1_alg».proof.Proof.Levels
import proofs.«900309_g7700000000000310_dist_rs_v7x_xy2x2_y_m4096_n1024_f32_1_alg».proof.Proof.SchedLemmas
import proofs.«900309_g7700000000000310_dist_rs_v7x_xy2x2_y_m4096_n1024_f32_1_alg».proof.Proof.ViewFacts

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tail of pass 2 at chunk `k` after the store: the row transfer and the local copy of the partial sums. -/
def pass2b (c : Dev nD) (k : Fin 32) (rest : P F PUnit) : P F PUnit := do
  Prog.lift (.enqueueDma (partSl k) (.remote (Dev.tc (xdev c k)) (outSl c k) (.dma (xSendS k))) (.dma (xRecvS k)) (View.wordExact_bits rfl) (View.wordExact_bits rfl) ⟨⟨rfl, Or.inl rfl⟩, trivial⟩)
  Prog.lift (.enqueueDma (partSl k) (.here (outSl c k)) (.dma (outS k)) (View.wordExact_bits rfl) (View.wordExact_bits rfl) ⟨Or.inl rfl, trivial⟩)
  rest

section Step2b
variable (K : Dev nD → SemLoc sig → ℕ) (c : Dev nD)

/-- What the tail uses of the standing facts: the invariants of the three cells it pays, each at round 0. -/
theorem known_pass2b (k : Fin 32) :
    known m K c ⊢ iprop(cellInv ER (rsRd m) (K c (.dma (xSendS k))) (xSendCell c k) ∗ reached ER (xSendCell c k) 0
      ∗ cellInv ER (rsRd m) (K (xpeer c) (.dma (xRecvS k))) (xRecvCell (xpeer c) k) ∗ reached ER (xRecvCell (xpeer c) k) 0
      ∗ cellInv ER (rsRd m) (K c (.dma (outS k))) (outCell c k) ∗ reached ER (outCell c k) 0) := by
  have hel : ∀ Φ : Fin 32 → sProp 𝕄, bigSep Finset.univ Φ ⊢ Φ k := fun Φ => bigSep_elim (Finset.mem_univ k)
  unfold known
  iintro ⟨_, Hb⟩
  ihave Hk := hel _ $$ Hb
  icases Hk with ⟨⟨_, _, #Ixs, _, _, #Io, _, #Ixr⟩, ⟨_, _, #Rxs, _, _, #Ro, _, #Rxr⟩⟩
  isplit; · iexact Ixs
  isplit; · iexact Rxs
  isplit; · iexact Ixr
  isplit; · iexact Rxr
  isplit; · iexact Io
  iexact Ro

/-- The transfer of chunk `k` of the partial sums, held at the left half share, into the row neighbour's result at the
    device's own row half, addressed to `n`, which is that neighbour. -/
theorem wp_send_part (k : Fin 32) (n : Dev nD) (hn : n = xpeer c)
    {hsc : (outSl c k : Memref sig (Dev.tc n : Thread nD τ).2.kind .hbm S64x1024 .f32).view.ref.isScScratch = false}
    {hsrc : (partSl k).view.WordExact} {hdst : (outSl c k).view.WordExact}
    {hsem : DmaTarget.Typed .vmem (.dma (xRecvS k)) (.remote (Dev.tc n : Thread nD τ) (outSl c k : Memref sig .tc .hbm S64x1024 .f32) (.dma (xSendS k)) hsc)}
    {α : Type} {Q : α → sProp 𝕄} {kk : PUnit → Prog (TpuEff nD τ sig (Elt F) Λ₀ .tc) α}
    (fs : Buf (Elt F) ((partSl k).view.loc (c : Thread nD τ))) (hread : (partSl k).view.read (Elt F) fs = partChunk m c k)
    (fd : Buf (Elt F) ((outSl c k).view.loc (xpeer c : Thread nD τ))) {O₀ : CellTallies nD τ sig Unit} (O : CellTallies nD τ sig Unit)
    (hO : O₀ = O + tallyAt (xRecvCell (xpeer c) k) () N) (W : Waits sig Unit) :
    iprop(cellInv ER (rsRd m) (K c (.dma (xSendS k))) (xSendCell c k)
        ∗ cellInv ER (rsRd m) (K (xpeer c) (.dma (xRecvS k))) (xRecvCell (xpeer c) k)
        ∗ ((partSl k).view.loc (c : Thread nD τ) ↦[(partSl k).view.set]{fullShare.left} fs)
        ∗ ((outSl c k).view.loc (xpeer c : Thread nD τ) ↦[(outSl c k).view.set]{fullShare} fd)
        ∗ owes (c : Thread nD τ) O₀ W
        ∗ dutyTok ER (xSendCell c k) 0 false ∗ reached ER (xSendCell c k) 0
        ∗ dutyTok ER (xRecvCell (xpeer c) k) 0 false ∗ reached ER (xRecvCell (xpeer c) k) 0)
      ⊢ iprop(((cred (tallyAt (xSendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (partSl k) (.remote (Dev.tc n : Thread nD τ) (outSl c k) (.dma (xSendS k)) hsc) (.dma (xRecvS k)) hsrc hdst hsem) kk) Q) := by
  subst hn
  exact Rounds.wp_send_pointsTo 𝒱₀ ER (rsRd m) (c : Thread nD τ) none (c' := (xpeer c : Thread nD τ))
    (src := partSl k) (dst := outSl c k) (q := fullShare.left) (fs := fs) (fd := fd)
    (κ₁ := K c (.dma (xSendS k))) (κ₂ := K (xpeer c) (.dma (xRecvS k))) (r₁ := 0) (r₂ := 0) (d₁ := false) (d₂ := false)
    (by rw [duties_xSend]; exact Finset.mem_singleton_self _) (by rw [duties_xRecv]; exact Finset.mem_singleton_self _)
    () () N (amount_outSl c k (xRecvS k)) (amount_xSend m c k false) (amount_xRecv m (xpeer c) k false) O hO (W := W)
    (by rw [payload_xSend]; unfold xSendPay; exact anyPts_of_pts c (partSl k) fullShare.left fs)
    (by rw [payload_xRecv]; unfold xRecvPay; rw [xpeer_xpeer, ← hread]
        exact owns_of_landed (c := (xpeer c : Thread nD τ)) (outSl c k) fullShare fd _)

/-- The local copy of chunk `k` of the partial sums, held at the right half share, into the device's own result. -/
theorem wp_copy_out (k : Fin 32) {hsrc : (partSl k).view.WordExact} {hdst : (outSl c k).view.WordExact}
    {hsem : DmaTarget.Typed (nD := nD) (τ := τ) (p := (c : Thread nD τ).2) .vmem (.dma (outS k)) (.here (outSl c k))}
    {α : Type} {Q : α → sProp 𝕄} {kk : PUnit → Prog (TpuEff nD τ sig (Elt F) Λ₀ .tc) α}
    (fs : Buf (Elt F) ((partSl k).view.loc (c : Thread nD τ))) (hread : (partSl k).view.read (Elt F) fs = partChunk m c k)
    (fd : Buf (Elt F) ((outSl c k).view.loc (c : Thread nD τ))) :
    iprop(cellInv ER (rsRd m) (K c (.dma (outS k))) (outCell c k)
        ∗ ((partSl k).view.loc (c : Thread nD τ) ↦[(partSl k).view.set]{fullShare.right} fs)
        ∗ ((outSl c k).view.loc (c : Thread nD τ) ↦[(outSl c k).view.set]{fullShare} fd)
        ∗ dutyTok ER (outCell c k) 0 false ∗ reached ER (outCell c k) 0)
      ⊢ iprop((cred (tallyAt (outCell c k) () N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (partSl k) (.here (outSl c k)) (.dma (outS k)) hsrc hdst hsem) kk) Q) :=
  Rounds.wp_copy_pointsTo 𝒱₀ ER (rsRd m) (c : Thread nD τ) none (src := partSl k) (dst := outSl c k)
    (q := fullShare.right) (fs := fs) (fd := fd) (r := 0) (d := false) (κ := K c (.dma (outS k)))
    (by rw [duties_out]; exact Finset.mem_singleton_self _) () N (amount_outSl c k (outS k)) (amount_out m c k false)
    (by rw [payload_out]; unfold outPay; rw [← hread]
        exact Idealize.SL.BI.sep_mono (owns_of_landed (c := (c : Thread nD τ)) (outSl c k) fullShare fd _) (anyPts_of_pts c (partSl k) fullShare.right fs))

theorem wp_pass2b (k : Fin 32) (S : Finset (Fin 32)) (hk : k ∈ S) (rest : P F PUnit) (Kt : PUnit → sProp 𝕄) :
    iprop(known m K c ∗ owns (c : Thread nD τ) (partSl k) fullShare (partChunk m c k)
        ∗ anyPts (F := F) (xpeer c) (outSl c k) fullShare ∗ anyPts (F := F) c (outSl c k) fullShare
        ∗ dutyTok ER (xSendCell c k) 0 false ∗ dutyTok ER (xRecvCell (xpeer c) k) 0 false ∗ dutyTok ER (outCell c k) 0 false
        ∗ owesAny (F := F) c (Ox c S)
        ∗ ((cred (tallyAt (xSendCell c k) () N) ∗ cred (tallyAt (outCell c k) () N) ∗ owesAny (F := F) c (Ox c (S.erase k)))
            -∗ wp frame (wpE (defs₀ (F := F)) 𝒱₀ c none) Set.univ rest Kt))
      ⊢ wp frame (wpE (defs₀ (F := F)) 𝒱₀ c none) Set.univ (pass2b c k rest) Kt := by
  unfold owesAny anyPts owns
  simp only [pass2b, Prog.lift, Prog.bind_op, Prog.bind_ret, Prog.pure_eq_ret]
  iintro ⟨#Hkn, ⟨%fs, %hread, Hpart⟩, ⟨%fx, Hox⟩, ⟨%fo, Hoc⟩, Ttx, Ttr, Tto, ⟨%W, HO⟩, Hk⟩
  ihave Hc := known_pass2b m K c k $$ Hkn
  icases Hc with ⟨#Ixs, #Rxs, #Ixr, #Rxr, #Io, #Ro⟩
  ihave Hh := (pts_split_half (F := F) (partSl k).view.set fs).1 $$ Hpart
  icases Hh with ⟨Hl, Hr⟩
  iapply (wp_send_part m K c k (xdev c k) (xdev_eq c k) fs hread fx (Ox c (S.erase k)) (Ox_erase c S k hk) W) $$ [Hl Hox HO Ttx Ttr]
  · isplitr; · iexact Ixs
    isplitr; · iexact Ixr
    isplitl [Hl]; · iexact Hl
    isplitl [Hox]; · iexact Hox
    isplitl [HO]; · iexact HO
    isplitl [Ttx]; · iexact Ttx
    isplitr; · iexact Rxs
    isplitl [Ttr]; · iexact Ttr
    iexact Rxr
  iintro ⟨Hcs, HO'⟩
  iapply (wp_copy_out m K c k fs hread fo) $$ [Hr Hoc Tto]
  · isplitr; · iexact Io
    isplitl [Hr]; · iexact Hr
    isplitl [Hoc]; · iexact Hoc
    isplitl [Tto]; · iexact Tto
    iexact Ro
  iintro Hco
  iapply Hk
  isplitl [Hcs]; · iexact Hcs
  isplitl [Hco]; · iexact Hco
  iexists W; iexact HO'

end Step2b

/-- info: 'Cert.KernelIdeal.RS.wp_pass2b' depends on axioms: [propext, Classical.choice, Quot.sound] -/
#guard_msgs in #print axioms wp_pass2b

end Cert.KernelIdeal.RS

end
-- ==== Proof.Step2.lean ====
/-
  Pass 2 at a chunk: the two waits hand the device its column neighbour's chunk in `comm` and its own chunk in `lin`;
  the three loads read them (and the old chunk of `part`, unused); the store leaves their sum in chunk `k` of `part`;
  that chunk, split into two half shares, is the source of the transfer into the row neighbour's result and of the
  local copy into the device's own result, both at the rows of the device's own row half.
-/
import proofs.«900309_g7700000000000310_dist_rs_v7x_xy2x2_y_m4096_n1024_f32_1_alg».proof.Proof.State
import proofs.«900309_g7700000000000310_dist_rs_v7x_xy2x2_y_m4096_n1024_f32_1_alg».proof.Proof.Levels
import proofs.«900309_g7700000000000310_dist_rs_v7x_xy2x2_y_m4096_n1024_f32_1_alg».proof.Proof.SchedLemmas
import proofs.«900309_g7700000000000310_dist_rs_v7x_xy2x2_y_m4096_n1024_f32_1_alg».proof.Proof.Step2b

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] expect_yRecv rest_yRecv duties_yRecv expect_lin rest_lin duties_lin

section Rules
variable (K : Dev nD → SemLoc sig → ℕ) (c : Dev nD)

/-- Of what a device knows for good, the invariants of the two cells pass 2 waits on at chunk `k`. -/
theorem known_chunk2 (k : Fin 32) :
    known m K c ⊢ iprop(cellInv ER (rsRd m) (K c (.dma (yRecvS k))) (yRecvCell c k)
      ∗ cellInv ER (rsRd m) (K c (.dma (linS k))) (linCell c k)) := by
  unfold known
  rw [bigSep_univ_at _ k]
  iintro ⟨-, ⟨⟨-, #IyRecv, -, -, #Ilin, -, -, -⟩, -⟩, -⟩
  isplitr; · iexact IyRecv
  iexact Ilin

/-- What a device owes, with the record of its waits named; -/
theorem owesAny_open (O : CellTallies nD τ sig Unit) :
    owesAny (F := F) c O ⊢ iprop(∃ W, owes (c : Thread nD τ) O W) := .rfl
/-- and forgotten again. -/
theorem owesAny_of_owes (O : CellTallies nD τ sig Unit) (W : Waits sig Unit) :
    (owes (c : Thread nD τ) O W : sProp 𝕄) ⊢ owesAny (F := F) c O := by
  unfold owesAny; iintro H; iexists W; iexact H

/-- A slice at some contents, the contents named. -/
theorem anyPts_open {sp : Space} (v : Memref sig .tc sp S64x1024 .f32) (q : PosShare TreeShare) :
    anyPts (F := F) c v q ⊢ iprop(∃ f, v.view.loc (c : Thread nD τ) ↦[v.view.set]{q} f) := .rfl

/-- What the column receive cell's duty hands over: chunk `k` of `comm`, read as the column neighbour's chunk. -/
theorem pay_yRecv_open (k : Fin 32) :
    (rsRd (F := F) m).payload (yRecvCell c k) 0 false
      ⊢ iprop(∃ f, ⌜(commSl k).view.read (Elt F) f = peerChunk m (ypeer c) k⌝
          ∗ ((commSl k).view.loc (c : Thread nD τ) ↦[(commSl k).view.set]{fullShare} f)) := by
  rw [payload_yRecv]; exact .rfl

/-- What the duty of the local copy in hands over: chunk `k` of `lin`, read as the device's own chunk, and the source share. -/
theorem pay_lin_open (k : Fin 32) :
    (rsRd (F := F) m).payload (linCell c k) 0 false
      ⊢ iprop((∃ f, ⌜(linSl k).view.read (Elt F) f = ownChunk m c k⌝
          ∗ ((linSl k).view.loc (c : Thread nD τ) ↦[(linSl k).view.set]{fullShare} f)) ∗ argOwnPts m c k fullShare) := by
  rw [payload_lin]; exact .rfl

/-- A slice just written whole with `w` is owned at `w`. -/
theorem stored_owns {sp : Space} (v : Memref sig .tc sp S64x1024 .f32) (f : Buf (Elt F) (v.view.loc (c : Thread nD τ)))
    (w X : Vec F S64x1024 .f32) (h : w = X) :
    (v.view.loc (c : Thread nD τ) ↦[v.view.set]{fullShare} (v.view.write (Elt F) f w Finset.univ) : sProp 𝕄)
      ⊢ owns (c : Thread nD τ) v fullShare X := by
  subst h
  unfold owns
  iintro H
  iexists (v.view.write (Elt F) f w Finset.univ)
  isplitr
  · ipureintro; exact View.read_write_univ f w
  iexact H

set_option maxHeartbeats 1000000 in
theorem wp_pass2 (k : Fin 32) (S : Finset (Fin 32)) (hk : k ∈ S) (rest : P F PUnit) (Kt : PUnit → sProp 𝕄) :
    iprop(known m K c ∗ levAts L lv ∗ T2 (F := F) c k ∗ owesAny (F := F) c (Ox c S)
        ∗ ((D2 m c k ∗ owesAny (F := F) c (Ox c (S.erase k))) -∗ wp frame (wpE (defs₀ (F := F)) 𝒱₀ c none) Set.univ rest Kt))
      ⊢ wp frame (wpE (defs₀ (F := F)) 𝒱₀ c none) Set.univ (pass2 c k rest) Kt := by
  have htail := wp_pass2b m K c k S hk rest Kt
  simp only [pass2b, Prog.lift, Prog.bind_op, Prog.bind_ret, Prog.pure_eq_ret] at htail
  unfold T2 D2
  iintro ⟨#Hkn, #Hlev, HT, HOA, Hk⟩
  ihave Hch := (known_chunk2 m K c k) $$ Hkn
  icases Hch with ⟨#IyRecv, #Ilin⟩
  icases HT with ⟨Clin, CyRecv, Plin, PyRecv, Apart, AoutX, Aout, TxSend, TxRecv, Tout⟩
  ihave HO' := (owesAny_open c (Ox c S)) $$ HOA
  icases HO' with ⟨%W, HO⟩
  -- what the device still owes sits above both cells it waits on
  ihave HM1 : MayWait (c : Thread nD τ) (.dma (yRecvS k)) () (Ox c S) $$ []
  · iapply (mayWait_yRecv c k S); iexact Hlev
  ihave HM2 : MayWait (c : Thread nD τ) (.dma (linS k)) () (Ox c S) $$ []
  · iapply (mayWait_lin c k S); iexact Hlev
  simp only [pass2, Prog.lift, Prog.bind_op, Prog.bind_ret, Prog.pure_eq_ret]
  -- the two waits, each for the whole of its cell's one round
  sl_exec
  ihave Hpc := (pay_yRecv_open m c k) $$ PyRecv_pay1
  icases Hpc with ⟨%fc, %hfc, Hcomm⟩
  ihave Hpl := (pay_lin_open m c k) $$ Plin_pay1
  icases Hpl with ⟨⟨%fl, %hfl, Hlin⟩, HargOwn⟩
  ihave Hp' := (anyPts_open c (partSl k) fullShare) $$ Apart
  icases Hp' with ⟨%fp, Hpart⟩
  -- the three loads
  iapply (wp_load_rect (defs := defs₀ (F := F)) 𝒱₀ (c : Thread nD τ) none Set.univ (m := linM) (r := chunkR k)
      (S := (linSl k).view.set) (q := fullShare) (f := fl) (Finset.Subset.refl _)) $$ Hlin
  iintro Hlin
  iapply (wp_load_rect (defs := defs₀ (F := F)) 𝒱₀ (c : Thread nD τ) none Set.univ (m := commM) (r := chunkR k)
      (S := (commSl k).view.set) (q := fullShare) (f := fc) (Finset.Subset.refl _)) $$ Hcomm
  iintro Hcomm
  iapply (wp_load_rect (defs := defs₀ (F := F)) 𝒱₀ (c : Thread nD τ) none Set.univ (m := partM) (r := chunkR k)
      (S := (partSl k).view.set) (q := fullShare) (f := fp) (Finset.Subset.refl _)) $$ Hpart
  iintro Hpart
  -- the store of the sum: chunk `k` of `part` now reads the device's partial sums
  iapply (wp_store (defs := defs₀ (F := F)) 𝒱₀ (c : Thread nD τ) none Set.univ (m := partM) (r := chunkR k)
      (S := (partSl k).view.set) (f := fp) (Finset.Subset.refl _)) $$ Hpart
  iintro Hpart
  have hsum : k0_pay1 ((linM.access (chunkR k)).read (Elt F) fl) ((commM.access (chunkR k)).read (Elt F) fc) = partChunk m c k := by
    unfold partChunk; exact congrArg₂ _ hfl hfc
  ihave Hown := (stored_owns c (partSl k) fp _ (partChunk m c k) hsum) $$ Hpart
  -- the transfer into the row neighbour's result and the local copy into the device's own
  iapply htail
  isplitr; · iexact Hkn
  isplitl [Hown]; · iexact Hown
  isplitl [AoutX]; · iexact AoutX
  isplitl [Aout]; · iexact Aout
  isplitl [TxSend]; · iexact TxSend
  isplitl [TxRecv]; · iexact TxRecv
  isplitl [Tout]; · iexact Tout
  isplitl [HO]; · iapply (owesAny_of_owes c (Ox c S) _); iexact HO
  iintro ⟨CxSend, Cout, HOA⟩
  iapply Hk
  isplitr [HOA]
  · isplitl [Hlin]; · iapply (anyPts_of_pts c (linSl k) fullShare fl); iexact Hlin
    isplitl [Hcomm]; · iapply (anyPts_of_pts c (commSl k) fullShare fc); iexact Hcomm
    isplitl [HargOwn]; · iexact HargOwn
    isplitl [Plin]; · iexact Plin
    isplitl [PyRecv]; · iexact PyRecv
    isplitl [CxSend]; · iexact CxSend
    iexact Cout
  iexact HOA

end Rules

/-- info: 'Cert.KernelIdeal.RS.wp_pass2' depends on axioms: [propext, Classical.choice, Quot.sound] -/
#guard_msgs in #print axioms wp_pass2

end Cert.KernelIdeal.RS

end
-- ==== Proof.Step3.lean ====
/-
  Pass 3 of the protocol at a chunk: the four waits that end the chunk's four transfers, after which the device holds
  its argument's sent rows again, its chunk of partial sums whole, and the two chunks of the result written.
-/
import proofs.«900309_g7700000000000310_dist_rs_v7x_xy2x2_y_m4096_n1024_f32_1_alg».proof.Proof.State
import proofs.«900309_g7700000000000310_dist_rs_v7x_xy2x2_y_m4096_n1024_f32_1_alg».proof.Proof.Levels
import proofs.«900309_g7700000000000310_dist_rs_v7x_xy2x2_y_m4096_n1024_f32_1_alg».proof.Proof.SchedLemmas

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A chunk's credit is the same on every buffer of the kernel -/

theorem credit_argPeerSl (c : Dev nD) (k : Fin 32) : (argPeerSl c k).view.dmaCredit = N := rfl
theorem credit_partSl (k : Fin 32) : (partSl k).view.dmaCredit = N := rfl
theorem credit_outSl (c : Dev nD) (k : Fin 32) : (outSl c k).view.dmaCredit = N := rfl

/-! ## Two half shares of one slice, at whatever contents, are the full share at one contents -/

/-- The two holders agree on the slice's elements, so the second half can be restated at the first half's contents,
    and the halves of one share at one contents are that share. -/
theorem anyPts_join {sp : Space} (c : Dev nD) (v : Memref sig .tc sp S64x1024 .f32) :
    iprop(anyPts (F := F) c v fullShare.left ∗ anyPts (F := F) c v fullShare.right) ⊢ anyPts (F := F) c v fullShare := by
  unfold anyPts
  iintro ⟨⟨%f, Hf⟩, ⟨%g, Hg⟩⟩
  ihave H := (persistent_entails_right Region.is_agree) $$ [Hf Hg]
  · isplitl [Hf] <;> iassumption
  icases H with ⟨%h, Hf, Hg⟩
  have e : (v.view.loc (c : Thread nD τ) ↦[v.view.set]{fullShare.right} g : sProp 𝕄)
      = (v.view.loc (c : Thread nD τ) ↦[v.view.set]{fullShare.right} f) :=
    Region.is_congr fun i hi => ((h i (Finset.mem_inter.mpr ⟨hi, hi⟩)).1).symm
  ihave Hg' := (Entails.of_eq e) $$ Hg
  iexists f
  iapply (Region.is_share (PosShare.mem_left_op_right fullShare)).2
  isplitl [Hf] <;> iassumption

/-! ## Pass 3 at chunk `k` -/

attribute [local sl_rounds] expect_ySend rest_ySend expect_xSend rest_xSend expect_xRecv rest_xRecv expect_out rest_out
  duties_ySend duties_xSend duties_xRecv duties_out

section Rules
variable (K : Dev nD → SemLoc sig → ℕ) (c : Dev nD)

/-- Of what a device knows for good, the invariants of its own six cells of chunk `k`. -/
theorem known_cells (k : Fin 32) : known m K c ⊢ iprop(
    cellInv ER (rsRd m) (K c (.dma (ySendS k))) (ySendCell c k) ∗ cellInv ER (rsRd m) (K c (.dma (yRecvS k))) (yRecvCell c k)
      ∗ cellInv ER (rsRd m) (K c (.dma (xSendS k))) (xSendCell c k) ∗ cellInv ER (rsRd m) (K c (.dma (xRecvS k))) (xRecvCell c k)
      ∗ cellInv ER (rsRd m) (K c (.dma (linS k))) (linCell c k) ∗ cellInv ER (rsRd m) (K c (.dma (outS k))) (outCell c k)) := by
  unfold known
  rw [bigSep_univ_at _ k]
  iintro ⟨-, ⟨⟨I1, I2, I3, I4, I5, I6, -, -⟩, -⟩, -⟩
  isplitl [I1]; · iexact I1
  isplitl [I2]; · iexact I2
  isplitl [I3]; · iexact I3
  isplitl [I4]; · iexact I4
  isplitl [I5]; · iexact I5
  iexact I6

/-- Pass 3 is four waits, each for the whole of its cell's one round; the device owes nothing any more, so each wait
    is allowed. The send cell of the column transfer gives the source share back; the send cell of the row transfer and
    the cell of the local copy out give back the two halves of the chunk of partial sums; the receive cell of the row
    transfer and the cell of the copy out give the two chunks of the result written. -/
theorem wp_pass3 (k : Fin 32) (rest : P F PUnit) (Kt : PUnit → sProp 𝕄) :
    iprop(known m K c ∗ T3 (F := F) c k ∗ owesAny (F := F) c 0
        ∗ ((D3 m c k ∗ owesAny (F := F) c 0) -∗ wp frame (wpE (defs₀ (F := F)) 𝒱₀ c none) Set.univ rest Kt))
      ⊢ wp frame (wpE (defs₀ (F := F)) 𝒱₀ c none) Set.univ (pass3 c k rest) Kt := by
  iintro ⟨Hk, HT, HO, Hrest⟩
  ihave Hc := (known_cells m K c k) $$ Hk
  icases Hc with ⟨#IyS, -, #IxS, #IxR, -, #Io⟩
  unfold T3
  icases HT with ⟨HcYS, HcXS, HcXR, HcO, HaYS, HaXS, HaXR, HaO⟩
  unfold owesAny
  icases HO with ⟨%W, HO⟩
  -- the device owes nothing any more, so each of the four waits is allowed
  ihave HM1 : MayWait (c : Thread nD τ) (.dma (ySendS k)) () (0 : CellTallies nD τ sig Unit) $$ []
  · rw [MayWait_zero]; iempintro
  ihave HM2 : MayWait (c : Thread nD τ) (.dma (xSendS k)) () (0 : CellTallies nD τ sig Unit) $$ []
  · rw [MayWait_zero]; iempintro
  ihave HM3 : MayWait (c : Thread nD τ) (.dma (xRecvS k)) () (0 : CellTallies nD τ sig Unit) $$ []
  · rw [MayWait_zero]; iempintro
  ihave HM4 : MayWait (c : Thread nD τ) (.dma (outS k)) () (0 : CellTallies nD τ sig Unit) $$ []
  · rw [MayWait_zero]; iempintro
  simp only [pass3, Prog.lift, Prog.bind_op, Prog.bind_ret, Prog.pure_eq_ret]
  -- the four waits, each for the whole of its cell's one round
  sl_exec
  ihave HpY := (Entails.of_eq (payload_ySend m c k false)) $$ HaYS_pay1
  ihave HpXS := (Entails.of_eq (payload_xSend m c k false)) $$ HaXS_pay1
  ihave HpXR := (Entails.of_eq (payload_xRecv m c k false)) $$ HaXR_pay1
  ihave HpO := (Entails.of_eq (payload_out m c k false)) $$ HaO_pay1
  unfold ySendPay xSendPay xRecvPay outPay
  icases HpO with ⟨Hown, HpR⟩
  ihave Hpart := (anyPts_join (F := F) c (partSl k)) $$ [HpXS HpR]
  · isplitl [HpXS] <;> iassumption
  iapply Hrest
  isplitr [HO]
  · unfold D3
    isplitl [HpY]; · iexact HpY
    isplitl [Hpart]; · iexact Hpart
    isplitl [Hown]; · iexact Hown
    isplitl [HpXR]; · iexact HpXR
    isplitl [HaYS]; · iexact HaYS
    isplitl [HaXS]; · iexact HaXS
    isplitl [HaXR]; · iexact HaXR
    iexact HaO
  · iexists _
    iexact HO

end Rules

/-- info: 'Cert.KernelIdeal.RS.wp_pass3' depends on axioms: [propext, Classical.choice, Quot.sound] -/
#guard_msgs in #print axioms wp_pass3

end Cert.KernelIdeal.RS

end
-- ==== Proof.StepClose.lean ====
/-
  The end of a chunk: each of its six cells stands past its one round with nothing taken of a later one, and no later
  round has a duty, so the cell closes and its counter, at zero, is the device's again.
-/
import proofs.«900309_g7700000000000310_dist_rs_v7x_xy2x2_y_m4096_n1024_f32_1_alg».proof.Proof.State
import proofs.«900309_g7700000000000310_dist_rs_v7x_xy2x2_y_m4096_n1024_f32_1_alg».proof.Proof.Levels
import proofs.«900309_g7700000000000310_dist_rs_v7x_xy2x2_y_m4096_n1024_f32_1_alg».proof.Proof.SchedLemmas
import proofs.«900309_g7700000000000310_dist_rs_v7x_xy2x2_y_m4096_n1024_f32_1_alg».proof.Proof.Step3

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing chunk `k`'s cells -/

section Rules
variable (K : Dev nD → SemLoc sig → ℕ) (c : Dev nD)

/-- Past its one round, a cell closes: its counter at zero comes back. -/
theorem close_chunk (k : Fin 32) : iprop(known m K c ∗ atEnd (F := F) c k) ⊢ |={Set.univ}=> zeros (F := F) c k := by
  iintro ⟨#Hk, HE⟩
  ihave Hc := (known_cells m K c k) $$ Hk
  icases Hc with ⟨#IyS, #IyR, #IxS, #IxR, #Il, #Io⟩
  unfold atEnd
  icases HE with ⟨HaYS, HaYR, HaXS, HaXR, HaL, HaO⟩
  -- no round after the first has a duty, so each cell, standing past its one round with nothing taken, closes
  imod (Rounds.cell_close ER (rsRd m) (Set.mem_univ (K c (.dma (ySendS k)))) (fun h => h) (R := 0 + 1) (duties_later m (ySendCell c k))) $$ [HaYS] with HzYS
  · isplitr; · iexact IyS
    iexact HaYS
  imod (Rounds.cell_close ER (rsRd m) (Set.mem_univ (K c (.dma (yRecvS k)))) (fun h => h) (R := 0 + 1) (duties_later m (yRecvCell c k))) $$ [HaYR] with HzYR
  · isplitr; · iexact IyR
    iexact HaYR
  imod (Rounds.cell_close ER (rsRd m) (Set.mem_univ (K c (.dma (xSendS k)))) (fun h => h) (R := 0 + 1) (duties_later m (xSendCell c k))) $$ [HaXS] with HzXS
  · isplitr; · iexact IxS
    iexact HaXS
  imod (Rounds.cell_close ER (rsRd m) (Set.mem_univ (K c (.dma (xRecvS k)))) (fun h => h) (R := 0 + 1) (duties_later m (xRecvCell c k))) $$ [HaXR] with HzXR
  · isplitr; · iexact IxR
    iexact HaXR
  imod (Rounds.cell_close ER (rsRd m) (Set.mem_univ (K c (.dma (linS k)))) (fun h => h) (R := 0 + 1) (duties_later m (linCell c k))) $$ [HaL] with HzL
  · isplitr; · iexact Il
    iexact HaL
  imod (Rounds.cell_close ER (rsRd m) (Set.mem_univ (K c (.dma (outS k)))) (fun h => h) (R := 0 + 1) (duties_later m (outCell c k))) $$ [HaO] with HzO
  · isplitr; · iexact Io
    iexact HaO
  imodintro
  unfold zeros
  isplitl [HzYS]; · iexact HzYS
  isplitl [HzYR]; · iexact HzYR
  isplitl [HzXS]; · iexact HzXS
  isplitl [HzXR]; · iexact HzXR
  isplitl [HzL]; · iexact HzL
  iexact HzO

end Rules

/-- info: 'Cert.KernelIdeal.RS.close_chunk' depends on axioms: [propext, Classical.choice, Quot.sound] -/
#guard_msgs in #print axioms close_chunk

end Cert.KernelIdeal.RS

end
-- ==== Proof.OutVal.lean ====
/-
  The result array, chunk by chunk. The kernel moves data in 32 chunks of 64 rows. Chunk `k` of
  the partial sums of a device `c'` is, entry by entry, its own rows [2048·x(c') + 64k, … + 64)
  in its own column half plus the same rows of its neighbour in the other mesh column, read in
  that same column half. The rows [2048·x(c') + 64k, … + 64) of the result of any device `c` of
  the same mesh column as `c'` hold exactly those sums: for `c' = c` this is `c`'s own row half,
  for the neighbour in the other mesh row the other half.
-/
import proofs.«900309_g7700000000000310_dist_rs_v7x_xy2x2_y_m4096_n1024_f32_1_alg».proof.Proof.Vals
import proofs.«900309_g7700000000000310_dist_rs_v7x_xy2x2_y_m4096_n1024_f32_1_alg».proof.Proof.Sched
import Idealize.ShloMosaic.Lib.Pipeline.Value
import Idealize.ShloMosaic.Lib.ValueIdx

noncomputable section

namespace Cert.KernelIdeal.RS

open Cert.KernelIdeal Cert.KernelIdeal.Gen
open Idealize.ShloMosaic Idealize.ShloMosaic.TcCoe
open Idealize.ShloMosaic.ValueIdx

variable {F : FTy → Type} [FloatOps F]

theorem row_lt (c : Dev nD) (k : Fin 32) (a : Fin 64) : 2048 * (c.val / 2) + 64 * k.val + a.val < 4096 := by
  have hc : c.val < 4 := c.isLt
  have := k.isLt; have := a.isLt; omega

/-- The place of an argument buffer that entry (a, b) of chunk `k` of device `c`'s own row half and
    own column half is read from: (0, 2048·x(c) + 64k + a, 1024·y(c) + b). -/
def rowIdx (c : Dev nD) (k : Fin 32) (a : Fin 64) (b : Fin 1024) : S1x4096x2048.Idx :=
  ix3 (n0 := 1) (n1 := 4096) (n2 := 2048) 0
    ⟨2048 * (c.val / 2) + 64 * k.val + a.val, row_lt c k a⟩
    ⟨1024 * (c.val % 2) + b.val, by have := b.isLt; omega⟩

/-- The rectangle of chunk `k` of the own column half, placed in the argument buffer. -/
theorem own_idx (c : Dev nD) (k : Fin 32) (a : Fin 64) (b : Fin 1024) :
    (Rect.unit (s := S1x4096x2048) (k0_off1 c (BitVec.ofNat 32 (64 * k.val))) S1x64x1024.size (k0_off1_inb c k)).toLoadRect.idx
        (ix3 (n0 := 1) (n1 := 64) (n2 := 1024) 0 a b) = rowIdx c k a b := by
  funext d
  refine Fin.ext ?_
  have h := k0_off1_eq c k
  match d with
  | ⟨0, _⟩ =>
    show k0_off1 c (BitVec.ofNat 32 (64 * k.val)) 0 + 1 * 0 = 0
    rw [h]; rfl
  | ⟨1, _⟩ =>
    show k0_off1 c (BitVec.ofNat 32 (64 * k.val)) 1 + 1 * a.val = 2048 * (c.val / 2) + 64 * k.val + a.val
    rw [h]
    show 2048 * (c.val / 2) + 64 * k.val + 1 * a.val = _
    omega
  | ⟨2, _⟩ =>
    show k0_off1 c (BitVec.ofNat 32 (64 * k.val)) 2 + 1 * b.val = 1024 * (c.val % 2) + b.val
    rw [h]
    show 1024 * (c.val % 2) + 1 * b.val = _
    omega

/-- The rectangle of chunk `k` of the other column half, on the neighbour in the other mesh column:
    the same place. -/
theorem peer_idx (c : Dev nD) (k : Fin 32) (a : Fin 64) (b : Fin 1024) :
    (Rect.unit (s := S1x4096x2048) (k0_off2 (ypeer c) (BitVec.ofNat 32 (64 * k.val))) S1x64x1024.size (k0_off2_inb (ypeer c) k)).toLoadRect.idx
        (ix3 (n0 := 1) (n1 := 64) (n2 := 1024) 0 a b) = rowIdx c k a b := by
  funext d
  refine Fin.ext ?_
  have h := (off2_ypeer c k).trans (k0_off1_eq c k)
  match d with
  | ⟨0, _⟩ =>
    show k0_off2 (ypeer c) (BitVec.ofNat 32 (64 * k.val)) 0 + 1 * 0 = 0
    rw [h]; rfl
  | ⟨1, _⟩ =>
    show k0_off2 (ypeer c) (BitVec.ofNat 32 (64 * k.val)) 1 + 1 * a.val = 2048 * (c.val / 2) + 64 * k.val + a.val
    rw [h]
    show 2048 * (c.val / 2) + 64 * k.val + 1 * a.val = _
    omega
  | ⟨2, _⟩ =>
    show k0_off2 (ypeer c) (BitVec.ofNat 32 (64 * k.val)) 2 + 1 * b.val = 1024 * (c.val % 2) + b.val
    rw [h]
    show 1024 * (c.val % 2) + 1 * b.val = _
    omega

theorem casts3 : S1x64x1024.ShapeCasts S64x1024 := by decide

/-- The squeezed index (a, b) sits at the row-major position of (0, a, b). -/
theorem rm_eq (a : Fin 64) (b : Fin 1024) :
    (S1x64x1024.rowMajor (ix3 (n0 := 1) (n1 := 64) (n2 := 1024) 0 a b)).val = (S64x1024.rowMajor (ix2 a b)).val := by
  rw [Shape.rowMajor_val_three, Shape.rowMajor_val_two]
  show ((0 * 64 + a.val) * 1024 + b.val) = a.val * 1024 + b.val
  omega

variable (m : (ℓ : Loc nD τ sig) → Buf (Elt F) ℓ)

/-- Chunk `k` of the own rows, own column half, entry by entry. -/
theorem ownChunk_apply (c : Dev nD) (k : Fin 32) (a : Fin 64) (b : Fin 1024) :
    ownChunk m c k (ix2 a b) = m ((c : Thread nD τ).loc main_arg0) (rowIdx c k a b) := by
  unfold ownChunk
  rw [Memref.read_squeeze_slice (hc := casts3), shapeCast_apply _ casts3 (ix2 a b) _ (rm_eq a b), View.readAt_apply, own_idx]
  rfl

/-- Chunk `k` of the neighbour's rows in the other mesh column, its other column half. -/
theorem peerChunk_apply (c : Dev nD) (k : Fin 32) (a : Fin 64) (b : Fin 1024) :
    peerChunk m (ypeer c) k (ix2 a b) = m ((ypeer c : Thread nD τ).loc main_arg0) (rowIdx c k a b) := by
  unfold peerChunk
  rw [Memref.read_squeeze_slice (hc := casts3), shapeCast_apply _ casts3 (ix2 a b) _ (rm_eq a b), View.readAt_apply, peer_idx]
  rfl

/-- Chunk `k` of the partial sums, entry by entry. -/
theorem partChunk_apply (c : Dev nD) (k : Fin 32) (a : Fin 64) (b : Fin 1024) :
    partChunk m c k (ix2 a b) =
      FloatOps.addf (φ := .f32) (m ((c : Thread nD τ).loc main_arg0) (rowIdx c k a b))
        (m ((ypeer c : Thread nD τ).loc main_arg0) (rowIdx c k a b)) := by
  unfold partChunk k0_pay1
  show shapeCast S64x1024 (addf (ownChunk m c k) (peerChunk m (ypeer c) k)) _ (ix2 a b) = _
  rw [shapeCast_apply _ _ (ix2 a b) (ix2 a b) rfl]
  show FloatOps.addf (ownChunk m c k (ix2 a b)) (peerChunk m (ypeer c) k (ix2 a b)) = _
  rw [ownChunk_apply, peerChunk_apply]

/-- The rows [2048·x(c') + 64k, … + 64) of a result buffer, read at (a, b). -/
theorem read_outSl_apply (c c' : Dev nD) (k : Fin 32) (f : Buf (Elt F) ((c : Thread nD τ).loc main_v1))
    (a : Fin 64) (b : Fin 1024) :
    (outSl c' k).view.read (Elt F) f (ix2 a b) =
      f (ix2 (n0 := 4096) (n1 := 1024)
        ⟨2048 * (c'.val / 2) + 64 * k.val + a.val, row_lt c' k a⟩ b) := by
  rw [View.read_apply]
  show f _ = f _
  congr 1
  funext d
  refine Fin.ext ?_
  have h := k0_off3_eq c' k
  match d with
  | ⟨0, _⟩ =>
    show k0_off3 c' (BitVec.ofNat 32 (64 * k.val)) 0 + 1 * a.val = 2048 * (c'.val / 2) + 64 * k.val + a.val
    rw [h]
    show 2048 * (c'.val / 2) + 64 * k.val + 1 * a.val = _
    omega
  | ⟨1, _⟩ =>
    show k0_off3 c' (BitVec.ofNat 32 (64 * k.val)) 1 + 1 * b.val = b.val
    rw [h]
    show 0 + 1 * b.val = _
    omega

/-- The device of the mesh row of `c'` in the column of `c` is `c'` itself when the two share a column, -/
theorem colDev_same (c c' : Dev nD) (hcc : c'.val % 2 = c.val % 2) (a : ℕ) (ha : a < 2) (haa : a = c'.val / 2) :
    colDev c a ha = c' := by
  refine Fin.ext ?_
  rw [colDev_val]
  omega

/-- and the one in the other column is its neighbour there. -/
theorem colDev'_same (c c' : Dev nD) (hcc : c'.val % 2 = c.val % 2) (a : ℕ) (ha : a < 2) (haa : a = c'.val / 2) :
    colDev' c a ha = ypeer c' := by
  refine Fin.ext ?_
  rw [colDev'_val]
  have h1 := ypeer_val_mod c'
  have h2 := ypeer_val_div c'
  have := (ypeer c').isLt
  have := c'.isLt
  omega

/-- Chunk `k` of the row half of device `c'`, in the result of a device `c` of the same mesh column:
    the partial sums of `c'`. -/
theorem read_out_col (c c' : Dev nD) (hcc : c'.val % 2 = c.val % 2) (k : Fin 32) :
    (outSl c' k).view.read (Elt F) (outVal m c) = partChunk m c' k := by
  funext idx
  obtain ⟨a, b, rfl⟩ : ∃ (a : Fin 64) (b : Fin 1024), idx = ix2 a b := ⟨idx 0, idx 1, eq_ix2 idx⟩
  rw [read_outSl_apply, outVal_apply, partChunk_apply]
  have hrow : (2048 * (c'.val / 2) + 64 * k.val + a.val) / 2048 = c'.val / 2 := by
    have := k.isLt; have := a.isLt; omega
  have hidx : argIdx c ⟨2048 * (c'.val / 2) + 64 * k.val + a.val, row_lt c' k a⟩ b
      = rowIdx c' k a b := by
    unfold argIdx rowIdx
    exact congrArg (ix3 (n0 := 1) (n1 := 4096) (n2 := 2048) 0 _)
      (Fin.ext (by show 1024 * (c.val % 2) + b.val = 1024 * (c'.val % 2) + b.val; rw [hcc]))
  rw [hidx, colDev_same c c' hcc _ _ hrow, colDev'_same c c' hcc _ _ hrow]

/-- Chunk `k` of device `c`'s own row half of its result: its own partial sums. -/
theorem read_out_own (c : Dev nD) (k : Fin 32) :
    (outSl c k).view.read (Elt F) (outVal m c) = partChunk m c k :=
  read_out_col m c c rfl k

/-- Chunk `k` of the other row half: the partial sums of the neighbour in the other mesh row. -/
theorem read_out_peer (c : Dev nD) (k : Fin 32) :
    (outSl (xpeer c) k).view.read (Elt F) (outVal m c) = partChunk m (xpeer c) k :=
  read_out_col m c (xpeer c) (xpeer_val_mod c) k

/-- info: 'Cert.KernelIdeal.RS.read_out_peer' depends on axioms: [propext, Classical.choice, Quot.sound] -/
#guard_msgs in #print axioms read_out_peer

end Cert.KernelIdeal.RS

end
-- ==== Proof.RegionLib.lean ====
/-
  The geometry of the result buffer's chunks. Chunk `k` of the row half of a device `c'` is the rows
  `[2048 x(c') + 64 k, 2048 x(c') + 64 k + 64)`, every column. The 32 chunks of a device's own row half and the 32 of the
  other row half are pairwise disjoint and cover the 4096 rows: a row `r` lies in chunk `(r % 2048) / 64` of the half `r / 2048`.
-/
import proofs.«900309_g7700000000000310_dist_rs_v7x_xy2x2_y_m4096_n1024_f32_1_alg».proof.Proof.Cells
import proofs.«900309_g7700000000000310_dist_rs_v7x_xy2x2_y_m4096_n1024_f32_1_alg».proof.Proof.Mesh

namespace Cert.KernelIdeal.RS

open Cert.KernelIdeal Cert.KernelIdeal.Gen
open Idealize.ShloMosaic Idealize.ShloMosaic.TcCoe

/-! ## Rows, as numbers -/

/-- A row below 4096 lies in its chunk of the half `x` or of the other half. -/
theorem row_cover (r x : ℕ) (hr : r < 4096) (hx : x < 2) :
    (2048 * x + 64 * (r % 2048 / 64) ≤ r ∧ r < 2048 * x + 64 * (r % 2048 / 64) + 64)
      ∨ (2048 * (1 - x) + 64 * (r % 2048 / 64) ≤ r ∧ r < 2048 * (1 - x) + 64 * (r % 2048 / 64) + 64) := by
  omega

/-- Two chunks of one half at different indices share no row. -/
theorem row_disj_same (r x a b : ℕ) (hab : a ≠ b)
    (h1 : 2048 * x + 64 * a ≤ r ∧ r < 2048 * x + 64 * a + 64) (h2 : 2048 * x + 64 * b ≤ r ∧ r < 2048 * x + 64 * b + 64) : False := by
  omega

/-- A chunk of one half and a chunk of the other share no row. -/
theorem row_disj_other (r x a b : ℕ) (hx : x < 2) (ha : a < 32) (hb : b < 32)
    (h1 : 2048 * x + 64 * a ≤ r ∧ r < 2048 * x + 64 * a + 64)
    (h2 : 2048 * (1 - x) + 64 * b ≤ r ∧ r < 2048 * (1 - x) + 64 * b + 64) : False := by
  omega

theorem half_lt (c : Dev nD) : c.val / 2 < 2 := by revert c; decide

/-! ## The chunks' element sets -/

theorem out_set (c' : Dev nD) (k : Fin 32) :
    (outSl c' k).view.set
      = (Rect.unit (s := S4096x1024) (k0_off3 c' (BitVec.ofNat 32 (64 * k.val))) S64x1024.size (k0_off3_inb c' k)).set :=
  View.set_slice_whole main_v1 _

/-- Chunk `k` of the row half of `c'`: rows [2048·x(c') + 64k, … + 64), every column. -/
theorem mem_out (c' : Dev nD) (k : Fin 32) (i : S4096x1024.Idx) :
    i ∈ (outSl c' k).view.set ↔
      2048 * (c'.val / 2) + 64 * k.val ≤ (i 0).val ∧ (i 0).val < 2048 * (c'.val / 2) + 64 * k.val + 64 := by
  rw [out_set, Rect.mem_set_unit, k0_off3_eq]
  constructor
  · intro h; exact h 0
  · intro h a
    match a with
    | ⟨0, _⟩ => exact h
    | ⟨1, _⟩ => exact ⟨Nat.zero_le _, by have h1 : (i 1).val < 1024 := (i 1).isLt; show (i 1).val < 0 + 1024; omega⟩

theorem out_halves_disj (c : Dev nD) (k : Fin 32) : Disjoint (outSl c k).view.set (outSl (xpeer c) k).view.set := by
  rw [Finset.disjoint_left]
  intro i hi hj
  have h1 := (mem_out c k i).mp hi
  have h2 := (mem_out (xpeer c) k i).mp hj
  rw [xpeer_val_div] at h2
  exact row_disj_other (i 0).val (c.val / 2) k.val k.val (half_lt c) k.isLt k.isLt h1 h2

theorem out_pair_disj (c : Dev nD) (k k' : Fin 32) (h : k ≠ k') :
    Disjoint ((outSl c k).view.set ∪ (outSl (xpeer c) k).view.set) ((outSl c k').view.set ∪ (outSl (xpeer c) k').view.set) := by
  have hk : k.val ≠ k'.val := fun e => h (Fin.ext e)
  rw [Finset.disjoint_left]
  intro i hi hj
  rcases Finset.mem_union.mp hi with hi | hi <;> rcases Finset.mem_union.mp hj with hj | hj
  · exact row_disj_same _ _ _ _ hk ((mem_out c k i).mp hi) ((mem_out c k' i).mp hj)
  · have h2 := (mem_out (xpeer c) k' i).mp hj
    rw [xpeer_val_div] at h2
    exact row_disj_other _ _ _ _ (half_lt c) k.isLt k'.isLt ((mem_out c k i).mp hi) h2
  · have h1 := (mem_out (xpeer c) k i).mp hi
    rw [xpeer_val_div] at h1
    exact row_disj_other _ _ _ _ (half_lt c) k'.isLt k.isLt ((mem_out c k' i).mp hj) h1
  · exact row_disj_same _ _ _ _ hk ((mem_out (xpeer c) k i).mp hi) ((mem_out (xpeer c) k' i).mp hj)

theorem out_cover (c : Dev nD) :
    Finset.univ.biUnion (β := S4096x1024.Idx) (fun k : Fin 32 => (outSl c k).view.set ∪ (outSl (xpeer c) k).view.set) = Finset.univ := by
  refine Finset.eq_univ_iff_forall.mpr fun i => ?_
  have hi : (i 0).val < 4096 := (i 0).isLt
  have hq : (i 0).val % 2048 / 64 < 32 := by omega
  rcases row_cover (i 0).val (c.val / 2) hi (half_lt c) with h | h
  · exact Finset.mem_biUnion.mpr ⟨⟨_, hq⟩, Finset.mem_univ _, Finset.mem_union_left _ ((mem_out c ⟨_, hq⟩ i).mpr h)⟩
  · rw [← xpeer_val_div] at h
    exact Finset.mem_biUnion.mpr ⟨⟨_, hq⟩, Finset.mem_univ _, Finset.mem_union_right _ ((mem_out (xpeer c) ⟨_, hq⟩ i).mpr h)⟩

/-- The same, the index type read off the buffer's location. -/
theorem out_cover_loc (c : Dev nD) :
    Finset.univ.biUnion (β := Idx ((c : Thread nD τ).loc main_v1)) (fun k : Fin 32 => (outSl c k).view.set ∪ (outSl (xpeer c) k).view.set) = Finset.univ :=
  out_cover c

/-- info: 'Cert.KernelIdeal.RS.out_cover' depends on axioms: [propext, Classical.choice, Quot.sound] -/
#guard_msgs in #print axioms out_cover

end Cert.KernelIdeal.RS
-- ==== Proof.RegionLibArg.lean ====
/-
  The geometry of the argument block's chunks. On the device's own row half, chunk `k` of the own column half is the rows
  `[2048 x + 64 k, … + 64)` at the columns `[1024 y, 1024 y + 1024)`, and chunk `k` of the other column half the same rows at the
  columns `[1024 - 1024 y, … + 1024)`. The two halves of a chunk are disjoint, and chunks at different indices share no row.
-/
import proofs.«900309_g7700000000000310_dist_rs_v7x_xy2x2_y_m4096_n1024_f32_1_alg».proof.Proof.Cells
import proofs.«900309_g7700000000000310_dist_rs_v7x_xy2x2_y_m4096_n1024_f32_1_alg».proof.Proof.Mesh

namespace Cert.KernelIdeal.RS

open Cert.KernelIdeal Cert.KernelIdeal.Gen
open Idealize.ShloMosaic Idealize.ShloMosaic.TcCoe

/-- The two column halves share no column. -/
theorem col_disj (j y : ℕ) (hy : y < 2)
    (h1 : 1024 * y ≤ j ∧ j < 1024 * y + 1024) (h2 : 1024 - 1024 * y ≤ j ∧ j < 1024 - 1024 * y + 1024) : False := by
  omega

/-- Row ranges of 64 at different chunk indices share no row. -/
theorem row64_disj (r b a a' : ℕ) (h : a ≠ a') (h1 : b + 64 * a ≤ r ∧ r < b + 64 * a + 64) (h2 : b + 64 * a' ≤ r ∧ r < b + 64 * a' + 64) :
    False := by
  omega

theorem par_lt (c : Dev nD) : c.val % 2 < 2 := by revert c; decide

theorem own_set (c : Dev nD) (k : Fin 32) :
    (argOwnSl c k).view.set
      = (Rect.unit (s := S1x4096x2048) (k0_off1 c (BitVec.ofNat 32 (64 * k.val))) S1x64x1024.size (k0_off1_inb c k)).set := by
  exact Eq.trans (View.set_reshape _ _) (View.set_slice_whole main_arg0 _)

theorem peer_set (c : Dev nD) (k : Fin 32) :
    (argPeerSl c k).view.set
      = (Rect.unit (s := S1x4096x2048) (k0_off2 c (BitVec.ofNat 32 (64 * k.val))) S1x64x1024.size (k0_off2_inb c k)).set := by
  exact Eq.trans (View.set_reshape _ _) (View.set_slice_whole main_arg0 _)

/-- Chunk `k` of the own column half: rows [2048·x + 64k, … + 64), columns [1024·y, … + 1024). -/
theorem mem_own (c : Dev nD) (k : Fin 32) (i : S1x4096x2048.Idx) :
    i ∈ (argOwnSl c k).view.set ↔
      (2048 * (c.val / 2) + 64 * k.val ≤ (i 1).val ∧ (i 1).val < 2048 * (c.val / 2) + 64 * k.val + 64)
        ∧ (1024 * (c.val % 2) ≤ (i 2).val ∧ (i 2).val < 1024 * (c.val % 2) + 1024) := by
  rw [own_set, Rect.mem_set_unit, k0_off1_eq]
  constructor
  · intro h; exact ⟨h 1, h 2⟩
  · intro h a
    match a with
    | ⟨0, _⟩ => exact ⟨Nat.zero_le _, by have h0 : (i 0).val < 1 := (i 0).isLt; show (i 0).val < 0 + 1; omega⟩
    | ⟨1, _⟩ => exact h.1
    | ⟨2, _⟩ => exact h.2

/-- Chunk `k` of the other column half: the same rows, columns [1024·(1 - y), … + 1024). -/
theorem mem_peer (c : Dev nD) (k : Fin 32) (i : S1x4096x2048.Idx) :
    i ∈ (argPeerSl c k).view.set ↔
      (2048 * (c.val / 2) + 64 * k.val ≤ (i 1).val ∧ (i 1).val < 2048 * (c.val / 2) + 64 * k.val + 64)
        ∧ (1024 - 1024 * (c.val % 2) ≤ (i 2).val ∧ (i 2).val < 1024 - 1024 * (c.val % 2) + 1024) := by
  rw [peer_set, Rect.mem_set_unit, k0_off2_eq]
  constructor
  · intro h; exact ⟨h 1, h 2⟩
  · intro h a
    match a with
    | ⟨0, _⟩ => exact ⟨Nat.zero_le _, by have h0 : (i 0).val < 1 := (i 0).isLt; show (i 0).val < 0 + 1; omega⟩
    | ⟨1, _⟩ => exact h.1
    | ⟨2, _⟩ => exact h.2

theorem own_peer_disj (c : Dev nD) (k : Fin 32) : Disjoint (argOwnSl c k).view.set (argPeerSl c k).view.set := by
  rw [Finset.disjoint_left]
  intro i hi hj
  exact col_disj (i 2).val (c.val % 2) (par_lt c) ((mem_own c k i).mp hi).2 ((mem_peer c k i).mp hj).2

theorem arg_pair_disj (c : Dev nD) (k k' : Fin 32) (h : k ≠ k') :
    Disjoint ((argOwnSl c k).view.set ∪ (argPeerSl c k).view.set) ((argOwnSl c k').view.set ∪ (argPeerSl c k').view.set) := by
  have hk : k.val ≠ k'.val := fun e => h (Fin.ext e)
  rw [Finset.disjoint_left]
  intro i hi hj
  have r1 : 2048 * (c.val / 2) + 64 * k.val ≤ (i 1).val ∧ (i 1).val < 2048 * (c.val / 2) + 64 * k.val + 64 := by
    rcases Finset.mem_union.mp hi with hi | hi
    · exact ((mem_own c k i).mp hi).1
    · exact ((mem_peer c k i).mp hi).1
  have r2 : 2048 * (c.val / 2) + 64 * k'.val ≤ (i 1).val ∧ (i 1).val < 2048 * (c.val / 2) + 64 * k'.val + 64 := by
    rcases Finset.mem_union.mp hj with hj | hj
    · exact ((mem_own c k' i).mp hj).1
    · exact ((mem_peer c k' i).mp hj).1
  exact row64_disj (i 1).val (2048 * (c.val / 2)) k.val k'.val hk r1 r2

end Cert.KernelIdeal.RS
-- ==== Proof.RegionLibScratch.lean ====
/-
  The geometry of a scratch buffer's chunks. Chunk `k` of a buffer of 2048 rows is the rows `[64 k, 64 k + 64)`, every column: chunks
  at different indices share no row, and a row `r` lies in chunk `r / 64`, so the 32 chunks cover the buffer. The three scratch
  buffers are cut the same way.
-/
import proofs.«900309_g7700000000000310_dist_rs_v7x_xy2x2_y_m4096_n1024_f32_1_alg».proof.Proof.Cells
import proofs.«900309_g7700000000000310_dist_rs_v7x_xy2x2_y_m4096_n1024_f32_1_alg».proof.Proof.Mesh

namespace Cert.KernelIdeal.RS

open Cert.KernelIdeal Cert.KernelIdeal.Gen
open Idealize.ShloMosaic Idealize.ShloMosaic.TcCoe

/-- Row ranges of 64 from 0 at different chunk indices share no row. -/
theorem chunk_row_disj (r a a' : ℕ) (h : a ≠ a') (h1 : 64 * a ≤ r ∧ r < 64 * a + 64) (h2 : 64 * a' ≤ r ∧ r < 64 * a' + 64) : False := by
  omega

/-- A row lies in the chunk of its quotient by 64. -/
theorem chunk_row_mem (r : ℕ) : 64 * (r / 64) ≤ r ∧ r < 64 * (r / 64) + 64 := by
  omega

/-- Chunk `k`: rows [64k, 64k + 64), every column. -/
theorem mem_chunk (k : Fin 32) (i : S2048x1024.Idx) :
    i ∈ (chunkR k).set ↔ 64 * k.val ≤ (i 0).val ∧ (i 0).val < 64 * k.val + 64 := by
  rw [Rect.mem_set_unit]
  constructor
  · intro h; exact h 0
  · intro h a
    match a with
    | ⟨0, _⟩ => exact h
    | ⟨1, _⟩ => exact ⟨Nat.zero_le _, by have h1 : (i 1).val < 1024 := (i 1).isLt; show (i 1).val < 0 + 1024; omega⟩

theorem chunk_disj (k k' : Fin 32) (h : k ≠ k') : Disjoint (chunkR k).set (chunkR k').set := by
  have hk : k.val ≠ k'.val := fun e => h (Fin.ext e)
  rw [Finset.disjoint_left]
  intro i hi hj
  exact chunk_row_disj (i 0).val k.val k'.val hk ((mem_chunk k i).mp hi) ((mem_chunk k' i).mp hj)

/-- Every element lies in some chunk. -/
theorem chunk_cover_mem (i : S2048x1024.Idx) : ∃ k : Fin 32, i ∈ (chunkR k).set := by
  have hi : (i 0).val < 2048 := (i 0).isLt
  have hq : (i 0).val / 64 < 32 := by omega
  exact ⟨⟨_, hq⟩, (mem_chunk ⟨_, hq⟩ i).mpr (chunk_row_mem (i 0).val)⟩

theorem comm_set (k : Fin 32) : (commSl k).view.set = (chunkR k).set := View.set_slice_whole cc0_scratch0 (chunkR k)
theorem lin_set (k : Fin 32) : (linSl k).view.set = (chunkR k).set := View.set_slice_whole cc0_scratch1 (chunkR k)
theorem part_set (k : Fin 32) : (partSl k).view.set = (chunkR k).set := View.set_slice_whole cc0_scratch2 (chunkR k)

theorem comm_disj (k k' : Fin 32) (h : k ≠ k') : Disjoint (commSl k).view.set (commSl k').view.set := by
  rw [comm_set, comm_set]; exact chunk_disj k k' h
theorem lin_disj (k k' : Fin 32) (h : k ≠ k') : Disjoint (linSl k).view.set (linSl k').view.set := by
  rw [lin_set, lin_set]; exact chunk_disj k k' h
theorem part_disj (k k' : Fin 32) (h : k ≠ k') : Disjoint (partSl k).view.set (partSl k').view.set := by
  rw [part_set, part_set]; exact chunk_disj k k' h

theorem comm_cover (c : Dev nD) :
    Finset.univ.biUnion (β := Idx ((c : Thread nD τ).loc cc0_scratch0)) (fun k : Fin 32 => (commSl k).view.set) = Finset.univ := by
  refine Finset.eq_univ_iff_forall.mpr fun i => ?_
  obtain ⟨k, hk⟩ := chunk_cover_mem i
  exact Finset.mem_biUnion.mpr ⟨k, Finset.mem_univ _, by rw [comm_set]; exact hk⟩
theorem lin_cover (c : Dev nD) :
    Finset.univ.biUnion (β := Idx ((c : Thread nD τ).loc cc0_scratch1)) (fun k : Fin 32 => (linSl k).view.set) = Finset.univ := by
  refine Finset.eq_univ_iff_forall.mpr fun i => ?_
  obtain ⟨k, hk⟩ := chunk_cover_mem i
  exact Finset.mem_biUnion.mpr ⟨k, Finset.mem_univ _, by rw [lin_set]; exact hk⟩
theorem part_cover (c : Dev nD) :
    Finset.univ.biUnion (β := Idx ((c : Thread nD τ).loc cc0_scratch2)) (fun k : Fin 32 => (partSl k).view.set) = Finset.univ := by
  refine Finset.eq_univ_iff_forall.mpr fun i => ?_
  obtain ⟨k, hk⟩ := chunk_cover_mem i
  exact Finset.mem_biUnion.mpr ⟨k, Finset.mem_univ _, by rw [part_set]; exact hk⟩

/-- info: 'Cert.KernelIdeal.RS.comm_cover' depends on axioms: [propext, Classical.choice, Quot.sound] -/
#guard_msgs in #print axioms comm_cover

end Cert.KernelIdeal.RS
-- ==== Proof.Regions.lean ====
/-
  Each of the device's five buffers as its chunks. A scratch buffer is its 32 chunks of 64 rows. The argument block is, on the
  device's own row half, the 32 chunks of its own column half and the 32 of the other, and the other row half, which the device
  never touches. The result is the 32 chunks of the device's own row half and the 32 of the other. Splitting forgets nothing;
  rejoining the result's chunks, each holding its partial sums, gives the whole result at `outVal`.
-/
import proofs.«900309_g7700000000000310_dist_rs_v7x_xy2x2_y_m4096_n1024_f32_1_alg».proof.Proof.Phi
import proofs.«900309_g7700000000000310_dist_rs_v7x_xy2x2_y_m4096_n1024_f32_1_alg».proof.Proof.Vals
import proofs.«900309_g7700000000000310_dist_rs_v7x_xy2x2_y_m4096_n1024_f32_1_alg».proof.Proof.OutVal
import proofs.«900309_g7700000000000310_dist_rs_v7x_xy2x2_y_m4096_n1024_f32_1_alg».proof.Proof.RegionLib
import proofs.«900309_g7700000000000310_dist_rs_v7x_xy2x2_y_m4096_n1024_f32_1_alg».proof.Proof.RegionLibArg
import proofs.«900309_g7700000000000310_dist_rs_v7x_xy2x2_y_m4096_n1024_f32_1_alg».proof.Proof.RegionLibScratch
import Idealize.ShloMosaic.Lib.Ring
import Idealize.ShloMosaic.Lib.Exec.Geometry

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The elements of the argument block outside the device's own row half. -/
def argRestSet (c : Dev nD) : Finset (Idx ((c : Thread nD τ).loc main_arg0)) :=
  Finset.univ \ (Finset.univ.biUnion fun k : Fin 32 => (argOwnSl c k).view.set ∪ (argPeerSl c k).view.set)
def argRest (c : Dev nD) : sProp 𝕄 := ((c : Thread nD τ).loc main_arg0) ↦[argRestSet c]{fullShare} argBuf m c

/-! ## Pieces of one buffer -/

/-- Elements held at contents `f` are held at some contents. -/
theorem pts_any {ℓ : Loc nD τ sig} (S : Finset (Idx ℓ)) (f : Buf (Elt F) ℓ) :
    ((ℓ ↦[S]{fullShare} f) : sProp 𝕄) ⊢ iprop(∃ g, ℓ ↦[S]{fullShare} g) := by
  iintro H; iexists f; iexact H

theorem cast_inj' {α β : Type} (h : α = β) {x y : α} (hxy : cast h x = cast h y) : x = y := by
  subst h; exact hxy

section General

variable {ℓ : Loc nD τ sig} (K : Fin 32 → Finset (Idx ℓ)) (hd : ∀ k k', k ≠ k' → Disjoint (K k) (K k'))
  (hc : Finset.univ.biUnion K = Finset.univ)

include hd hc in
/-- A buffer held whole at contents `f` is held piece by piece, each piece at some contents. -/
theorem blocks_split_any (f : Buf (Elt F) ℓ) :
    ((ℓ ↦{fullShare} f) : sProp 𝕄) ⊢ bigSep Finset.univ fun k : Fin 32 => iprop(∃ g, ℓ ↦[K k]{fullShare} g) := by
  rw [Ring.pointsTo_blocks K hd hc f]
  exact bigSep_mono fun k _ => pts_any (K k) f

end General

/-- Contents that a view reads the same agree on the view's elements. -/
theorem eq_on_set_of_read_eq {κ : Kind} {sp : Space} {s : Shape} {e : EltTy} (v : View sig κ sp s e)
    {f g : v.ty.Contents (Elt F)} (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact cast_inj' _ hx

/-! ## A scratch buffer: 32 chunks of 64 rows -/

theorem comm_split (c : Dev nD) : anyBuf (F := F) c cc0_scratch0 ⊢ bigSep Finset.univ fun k : Fin 32 => anyPts (F := F) c (commSl k) fullShare := by
  unfold anyBuf
  iintro ⟨%f, H⟩
  iapply (blocks_split_any (F := F) (ℓ := (c : Thread nD τ).loc cc0_scratch0) (fun k : Fin 32 => (commSl k).view.set) comm_disj (comm_cover c) f)
  iexact H
theorem comm_join (c : Dev nD) : (bigSep Finset.univ fun k : Fin 32 => anyPts (F := F) c (commSl k) fullShare) ⊢ anyBuf (F := F) c cc0_scratch0 :=
  Ring.pointsTo_blocks_join_exists (ℓ := (c : Thread nD τ).loc cc0_scratch0) (fun k : Fin 32 => (commSl k).view.set) comm_disj (comm_cover c)
    (fun _ => default)
theorem lin_split (c : Dev nD) : anyBuf (F := F) c cc0_scratch1 ⊢ bigSep Finset.univ fun k : Fin 32 => anyPts (F := F) c (linSl k) fullShare := by
  unfold anyBuf
  iintro ⟨%f, H⟩
  iapply (blocks_split_any (F := F) (ℓ := (c : Thread nD τ).loc cc0_scratch1) (fun k : Fin 32 => (linSl k).view.set) lin_disj (lin_cover c) f)
  iexact H
theorem lin_join (c : Dev nD) : (bigSep Finset.univ fun k : Fin 32 => anyPts (F := F) c (linSl k) fullShare) ⊢ anyBuf (F := F) c cc0_scratch1 :=
  Ring.pointsTo_blocks_join_exists (ℓ := (c : Thread nD τ).loc cc0_scratch1) (fun k : Fin 32 => (linSl k).view.set) lin_disj (lin_cover c)
    (fun _ => default)
theorem part_split (c : Dev nD) : anyBuf (F := F) c cc0_scratch2 ⊢ bigSep Finset.univ fun k : Fin 32 => anyPts (F := F) c (partSl k) fullShare := by
  unfold anyBuf
  iintro ⟨%f, H⟩
  iapply (blocks_split_any (F := F) (ℓ := (c : Thread nD τ).loc cc0_scratch2) (fun k : Fin 32 => (partSl k).view.set) part_disj (part_cover c) f)
  iexact H
theorem part_join (c : Dev nD) : (bigSep Finset.univ fun k : Fin 32 => anyPts (F := F) c (partSl k) fullShare) ⊢ anyBuf (F := F) c cc0_scratch2 :=
  Ring.pointsTo_blocks_join_exists (ℓ := (c : Thread nD τ).loc cc0_scratch2) (fun k : Fin 32 => (partSl k).view.set) part_disj (part_cover c)
    (fun _ => default)

/-! ## The argument block: per chunk its own and its other column half, and the other row half -/

/-- The argument block is its 64 chunks and the other row half, all at the same contents. -/
theorem arg_eq (c : Dev nD) :
    ((((c : Thread nD τ).loc main_arg0) ↦{fullShare} argBuf m c) : sProp 𝕄)
      = iprop((bigSep Finset.univ fun k : Fin 32 => iprop(argOwnPts m c k fullShare ∗ argPeerPts m c k fullShare)) ∗ argRest m c) := by
  have h1 : ((((c : Thread nD τ).loc main_arg0) ↦{fullShare} argBuf m c) : sProp 𝕄)
      ⊣⊢ iprop((((c : Thread nD τ).loc main_arg0)
            ↦[Finset.univ.biUnion (β := Idx ((c : Thread nD τ).loc main_arg0)) fun k : Fin 32 => (argOwnSl c k).view.set ∪ (argPeerSl c k).view.set]{fullShare} argBuf m c)
          ∗ (((c : Thread nD τ).loc main_arg0) ↦[argRestSet c]{fullShare} argBuf m c)) :=
    pointsTo_split_subset (Finset.subset_univ _)
  rw [BI.equiv_iff.mp ⟨h1.1, h1.2⟩, pointsTo_biUnion Finset.univ _ (fun k _ k' _ h => arg_pair_disj c k k' h)]
  have h2 : (bigSep Finset.univ fun k : Fin 32 =>
        ((((c : Thread nD τ).loc main_arg0) ↦[(argOwnSl c k).view.set ∪ (argPeerSl c k).view.set]{fullShare} argBuf m c) : sProp 𝕄))
      = bigSep Finset.univ fun k : Fin 32 => iprop(argOwnPts m c k fullShare ∗ argPeerPts m c k fullShare) :=
    bigSep_congr fun k _ => by
      have hu : ((((c : Thread nD τ).loc main_arg0) ↦[(argOwnSl c k).view.set ∪ (argPeerSl c k).view.set]{fullShare} argBuf m c) : sProp 𝕄)
          ⊣⊢ iprop((((c : Thread nD τ).loc main_arg0) ↦[(argOwnSl c k).view.set]{fullShare} argBuf m c)
              ∗ (((c : Thread nD τ).loc main_arg0) ↦[(argPeerSl c k).view.set]{fullShare} argBuf m c)) :=
        pointsTo_union (own_peer_disj c k)
      exact BI.equiv_iff.mp ⟨hu.1, hu.2⟩
  rw [h2]
  rfl

theorem arg_split (c : Dev nD) :
    ((((c : Thread nD τ).loc main_arg0) ↦{fullShare} argBuf m c) : sProp 𝕄)
      ⊢ iprop((bigSep Finset.univ fun k : Fin 32 => iprop(argOwnPts m c k fullShare ∗ argPeerPts m c k fullShare)) ∗ argRest m c) :=
  Entails.of_eq (arg_eq m c)
theorem arg_join (c : Dev nD) :
    iprop((bigSep Finset.univ fun k : Fin 32 => iprop(argOwnPts m c k fullShare ∗ argPeerPts m c k fullShare)) ∗ argRest m c)
      ⊢ ((((c : Thread nD τ).loc main_arg0) ↦{fullShare} argBuf m c) : sProp 𝕄) :=
  Entails.of_eq (arg_eq m c).symm

/-! ## The result: per chunk the rows of the own row half and of the other -/

/-- The result buffer at contents `f` is its 64 chunks at `f`. -/
theorem out_eq (c : Dev nD) (f : Buf (Elt F) ((c : Thread nD τ).loc main_v1)) :
    ((((c : Thread nD τ).loc main_v1) ↦{fullShare} f) : sProp 𝕄)
      = bigSep Finset.univ fun k : Fin 32 =>
          iprop((((c : Thread nD τ).loc main_v1) ↦[(outSl c k).view.set]{fullShare} f)
            ∗ (((c : Thread nD τ).loc main_v1) ↦[(outSl (xpeer c) k).view.set]{fullShare} f)) := by
  rw [Ring.pointsTo_blocks (fun k : Fin 32 => (outSl c k).view.set ∪ (outSl (xpeer c) k).view.set)
    (fun k k' h => out_pair_disj c k k' h) (out_cover_loc c) f]
  exact bigSep_congr fun k _ => by
    have hu : ((((c : Thread nD τ).loc main_v1) ↦[(outSl c k).view.set ∪ (outSl (xpeer c) k).view.set]{fullShare} f) : sProp 𝕄)
        ⊣⊢ iprop((((c : Thread nD τ).loc main_v1) ↦[(outSl c k).view.set]{fullShare} f)
            ∗ (((c : Thread nD τ).loc main_v1) ↦[(outSl (xpeer c) k).view.set]{fullShare} f)) :=
      pointsTo_union (out_halves_disj c k)
    exact BI.equiv_iff.mp ⟨hu.1, hu.2⟩

theorem out_split_at (c : Dev nD) (f : Buf (Elt F) ((c : Thread nD τ).loc main_v1)) :
    ((((c : Thread nD τ).loc main_v1) ↦{fullShare} f) : sProp 𝕄)
      ⊢ bigSep Finset.univ fun k : Fin 32 => iprop(anyPts (F := F) c (outSl c k) fullShare ∗ anyPts (F := F) c (outSl (xpeer c) k) fullShare) := by
  rw [out_eq c f]
  exact bigSep_mono fun k _ => BI.sep_mono (pts_any _ f) (pts_any _ f)

theorem out_split (c : Dev nD) :
    anyBuf (F := F) c main_v1
      ⊢ bigSep Finset.univ fun k : Fin 32 => iprop(anyPts (F := F) c (outSl c k) fullShare ∗ anyPts (F := F) c (outSl (xpeer c) k) fullShare) := by
  unfold anyBuf
  iintro ⟨%f, H⟩
  ihave H' := (out_split_at (F := F) c f) $$ H
  iexact H'

/-- A chunk held at contents that read as the partial sums is held at `outVal`. -/
theorem owns_out (c c' : Dev nD) (hcc : c'.val % 2 = c.val % 2) (k : Fin 32) :
    (owns (c : Thread nD τ) (outSl c' k) fullShare (partChunk m c' k) : sProp 𝕄)
      ⊢ (((c : Thread nD τ).loc main_v1) ↦[(outSl c' k).view.set]{fullShare} outVal m c) := by
  unfold owns
  iintro ⟨%f, %hf, H⟩
  have e : ((((c : Thread nD τ).loc main_v1) ↦[(outSl c' k).view.set]{fullShare} f) : sProp 𝕄)
      = (((c : Thread nD τ).loc main_v1) ↦[(outSl c' k).view.set]{fullShare} outVal m c) :=
    pointsTo_congr (eq_on_set_of_read_eq (F := F) (outSl c' k).view (f := f) (g := outVal m c)
      (hf.trans (read_out_col m c c' hcc k).symm))
  ihave H' := (Entails.of_eq e) $$ H
  iexact H'

theorem out_join (c : Dev nD) :
    (bigSep Finset.univ fun k : Fin 32 => iprop(owns (c : Thread nD τ) (outSl c k) fullShare (partChunk m c k)
        ∗ owns (c : Thread nD τ) (outSl (xpeer c) k) fullShare (partChunk m (xpeer c) k)))
      ⊢ ((((c : Thread nD τ).loc main_v1) ↦{fullShare} outVal m c) : sProp 𝕄) := by
  rw [out_eq c (outVal m c)]
  exact bigSep_mono fun k _ => BI.sep_mono (owns_out m c c rfl k) (owns_out m c (xpeer c) (xpeer_val_mod c) k)

/-- info: 'Cert.KernelIdeal.RS.out_join' depends on axioms: [propext, Classical.choice, Quot.sound] -/
#guard_msgs in #print axioms out_join

end Cert.KernelIdeal.RS

end
-- ==== Proof.Body.lean ====
/-
  The body on device `c`, from what the launch hands it to what it hands back: the handshake, then each of the three
  passes over the 32 chunks by one rule per chunk, the per-chunk bundles regrouped between the passes, and at the end
  the chunks' cells closed and the five buffers rejoined.
-/
import proofs.«900309_g7700000000000310_dist_rs_v7x_xy2x2_y_m4096_n1024_f32_1_alg».proof.Proof.Phi
import proofs.«900309_g7700000000000310_dist_rs_v7x_xy2x2_y_m4096_n1024_f32_1_alg».proof.Proof.Ops
import proofs.«900309_g7700000000000310_dist_rs_v7x_xy2x2_y_m4096_n1024_f32_1_alg».proof.Proof.StepEntry
import proofs.«900309_g7700000000000310_dist_rs_v7x_xy2x2_y_m4096_n1024_f32_1_alg».proof.Proof.Step1
import proofs.«900309_g7700000000000310_dist_rs_v7x_xy2x2_y_m4096_n1024_f32_1_alg».proof.Proof.Step2
import proofs.«900309_g7700000000000310_dist_rs_v7x_xy2x2_y_m4096_n1024_f32_1_alg».proof.Proof.Step3
import proofs.«900309_g7700000000000310_dist_rs_v7x_xy2x2_y_m4096_n1024_f32_1_alg».proof.Proof.StepClose
import proofs.«900309_g7700000000000310_dist_rs_v7x_xy2x2_y_m4096_n1024_f32_1_alg».proof.Proof.Regions
import proofs.«900309_g7700000000000310_dist_rs_v7x_xy2x2_y_m4096_n1024_f32_1_alg».proof.Proof.Levels

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One pass over a list of chunks -/

/-- A pass whose step at chunk `k`, with the chunks `S ∋ k` still to come, takes `T k` and what is owed over `S` and leaves
    `D k` and what is owed over `S` without `k`, takes over a list of distinct chunks all their `T` and leaves all their `D`,
    owing at the end what is owed over no chunk. `R` is what the steps know for good. -/
theorem run_pass (c : Dev nD) (f : Fin 32 → P F PUnit → P F PUnit) (W : P F PUnit → sProp 𝕄)
    (R : sProp 𝕄) [BI.Persistent R] (T D : Fin 32 → sProp 𝕄) (O : Finset (Fin 32) → CellTallies nD τ sig Unit)
    (hrule : ∀ (k : Fin 32) (S : Finset (Fin 32)), k ∈ S → ∀ rest : P F PUnit,
      iprop(R ∗ T k ∗ owesAny (F := F) c (O S) ∗ ((D k ∗ owesAny (F := F) c (O (S.erase k))) -∗ W rest)) ⊢ W (f k rest))
    (l : List (Fin 32)) (hl : l.Nodup) (rest : P F PUnit) :
    iprop(R ∗ bigSep l.toFinset T ∗ owesAny (F := F) c (O l.toFinset)
        ∗ ((bigSep l.toFinset D ∗ owesAny (F := F) c (O ∅)) -∗ W rest))
      ⊢ W (overChunks f l rest) := by
  induction l with
  | nil =>
    simp only [List.toFinset_nil, bigSep_empty, overChunks]
    iintro ⟨-, -, Ho, Hk⟩
    iapply Hk
    isplitr
    · iempintro
    · iexact Ho
  | cons k ks ih =>
    obtain ⟨hk, hks⟩ := List.nodup_cons.mp hl
    have hk' : k ∉ ks.toFinset := fun h => hk (List.mem_toFinset.mp h)
    have eT : bigSep (insert k ks.toFinset) T = iprop(T k ∗ bigSep ks.toFinset T) := bigSep_insert hk'
    have eD : bigSep (insert k ks.toFinset) D = iprop(D k ∗ bigSep ks.toFinset D) := bigSep_insert hk'
    rw [List.toFinset_cons, eT, eD]
    show _ ⊢ W (f k (overChunks f ks rest))
    iintro ⟨#HR, ⟨HT, HTs⟩, Ho, Hk⟩
    iapply (hrule k (insert k ks.toFinset) (Finset.mem_insert_self _ _) (overChunks f ks rest))
    isplitr
    · iexact HR
    isplitl [HT]
    · iexact HT
    isplitl [Ho]
    · iexact Ho
    rw [Finset.erase_insert hk']
    iintro ⟨HD, Ho⟩
    iapply (ih hks)
    isplitr
    · iexact HR
    isplitl [HTs]
    · iexact HTs
    isplitl [Ho]
    · iexact Ho
    iintro ⟨HDs, Ho⟩
    iapply Hk
    isplitr [Ho]
    · isplitl [HD]
      · iexact HD
      · iexact HDs
    · iexact Ho

/-! ## The 32 chunks -/

theorem chunks_nodup : chunks.Nodup := by decide
theorem chunks_toFinset : chunks.toFinset = (Finset.univ : Finset (Fin 32)) := by decide

/-- `run_pass` at the 32 chunks in order, for the body's own weakest precondition. -/
theorem run_chunks (c : Dev nD) (Kt : PUnit → sProp 𝕄) (f : Fin 32 → P F PUnit → P F PUnit)
    (R : sProp 𝕄) [BI.Persistent R] (T D : Fin 32 → sProp 𝕄) (O : Finset (Fin 32) → CellTallies nD τ sig Unit)
    (hrule : ∀ (k : Fin 32) (S : Finset (Fin 32)), k ∈ S → ∀ rest : P F PUnit,
      iprop(R ∗ T k ∗ owesAny (F := F) c (O S) ∗ ((D k ∗ owesAny (F := F) c (O (S.erase k))) -∗ wp frame (wpE (defs₀ (F := F)) 𝒱₀ c none) Set.univ rest Kt))
        ⊢ wp frame (wpE (defs₀ (F := F)) 𝒱₀ c none) Set.univ (f k rest) Kt)
    (rest : P F PUnit) :
    iprop(R ∗ bigSep Finset.univ T ∗ owesAny (F := F) c (O Finset.univ)
        ∗ ((bigSep Finset.univ D ∗ owesAny (F := F) c (O ∅)) -∗ wp frame (wpE (defs₀ (F := F)) 𝒱₀ c none) Set.univ rest Kt))
      ⊢ wp frame (wpE (defs₀ (F := F)) 𝒱₀ c none) Set.univ (overChunks f chunks rest) Kt := by
  have h := run_pass c f (fun r => wp frame (wpE (defs₀ (F := F)) 𝒱₀ c none) Set.univ r Kt) R T D O hrule chunks chunks_nodup rest
  rw [chunks_toFinset] at h
  exact h

/-! ## The three passes, each over all chunks -/

section Passes
variable (K : Dev nD → SemLoc sig → ℕ) (c : Dev nD)

/-- Pass 1 takes every chunk's `T1` and leaves every chunk's `D1`; the column credits are paid, the row credits still owed. -/
theorem wp_all1 (rest : P F PUnit) (Kt : PUnit → sProp 𝕄) :
    iprop(known m K c ∗ bigSep Finset.univ (T1 m c) ∗ owesAny (F := F) c (O₁ c)
        ∗ ((bigSep Finset.univ (D1 (F := F) c) ∗ owesAny (F := F) c (Ox c Finset.univ)) -∗ wp frame (wpE (defs₀ (F := F)) 𝒱₀ c none) Set.univ rest Kt))
      ⊢ wp frame (wpE (defs₀ (F := F)) 𝒱₀ c none) Set.univ (overChunks (pass1 c) chunks rest) Kt := by
  have h := run_chunks c Kt (pass1 c) (known m K c) (T1 m c) (D1 (F := F) c) (fun S => Oy c S + Ox c Finset.univ)
    (fun k S hk rest => wp_pass1 m K c k S hk (Ox c Finset.univ) rest Kt) rest
  simp only [Oy_empty, zero_add] at h
  exact h

/-- Pass 2 takes every chunk's `T2` and leaves every chunk's `D2`; the row credits are paid. -/
theorem wp_all2 (rest : P F PUnit) (Kt : PUnit → sProp 𝕄) :
    iprop(known m K c ∗ levAts L lv ∗ bigSep Finset.univ (T2 (F := F) c) ∗ owesAny (F := F) c (Ox c Finset.univ)
        ∗ ((bigSep Finset.univ (D2 m c) ∗ owesAny (F := F) c 0) -∗ wp frame (wpE (defs₀ (F := F)) 𝒱₀ c none) Set.univ rest Kt))
      ⊢ wp frame (wpE (defs₀ (F := F)) 𝒱₀ c none) Set.univ (overChunks (pass2 c) chunks rest) Kt := by
  have h := run_chunks c Kt (pass2 c) iprop(known m K c ∗ levAts L lv) (T2 (F := F) c) (D2 m c) (fun S => Ox c S)
    (fun k S hk rest => by
      iintro ⟨⟨#Hk, #Hl⟩, HT, Ho, Hc⟩
      iapply (wp_pass2 m K c k S hk rest Kt)
      isplitr
      · iexact Hk
      isplitr
      · iexact Hl
      isplitl [HT]
      · iexact HT
      isplitl [Ho]
      · iexact Ho
      iexact Hc) rest
  simp only [Ox_empty] at h
  iintro ⟨#Hk, #Hl, HT, Ho, Hc⟩
  iapply h
  isplitr
  · isplitr
    · iexact Hk
    · iexact Hl
  isplitl [HT]
  · iexact HT
  isplitl [Ho]
  · iexact Ho
  iexact Hc

/-- Pass 3 takes every chunk's `T3` and leaves every chunk's `D3`. -/
theorem wp_all3 (rest : P F PUnit) (Kt : PUnit → sProp 𝕄) :
    iprop(known m K c ∗ bigSep Finset.univ (T3 (F := F) c) ∗ owesAny (F := F) c 0
        ∗ ((bigSep Finset.univ (D3 m c) ∗ owesAny (F := F) c 0) -∗ wp frame (wpE (defs₀ (F := F)) 𝒱₀ c none) Set.univ rest Kt))
      ⊢ wp frame (wpE (defs₀ (F := F)) 𝒱₀ c none) Set.univ (overChunks (pass3 c) chunks rest) Kt :=
  run_chunks c Kt (pass3 c) (known m K c) (T3 (F := F) c) (D3 m c) (fun _ => 0)
    (fun k S hk rest => wp_pass3 m K c k rest Kt) rest

/-- Every chunk's six cells, each past its one round, close under one update. -/
theorem close_all : iprop(known m K c ∗ bigSep Finset.univ (atEnd (F := F) c)) ⊢ |={Set.univ}=> bigSep Finset.univ (zeros (F := F) c) :=
  (bigSep_with_persistent (fun k _ => close_chunk m K c k)).trans (bigSep_fupd _ _)

end Passes

/-! ## The bundles of all chunks, piece by piece -/

theorem T1_eq (c : Dev nD) : bigSep Finset.univ (T1 m c) = iprop(
    (bigSep Finset.univ fun k : Fin 32 => argOwnPts m c k fullShare)
    ∗ (bigSep Finset.univ fun k : Fin 32 => argPeerPts m c k fullShare)
    ∗ (bigSep Finset.univ fun k : Fin 32 => anyPts (F := F) c (linSl k) fullShare)
    ∗ (bigSep Finset.univ fun k : Fin 32 => anyPts (F := F) (ypeer c) (commSl k) fullShare)
    ∗ (bigSep Finset.univ fun k : Fin 32 => dutyTok ER (linCell c k) 0 false)
    ∗ (bigSep Finset.univ fun k : Fin 32 => dutyTok ER (ySendCell c k) 0 false)
    ∗ (bigSep Finset.univ fun k : Fin 32 => dutyTok ER (yRecvCell (ypeer c) k) 0 false)) := by
  show bigSep Finset.univ (fun k => T1 m c k) = _
  simp only [T1, bigSep_sep']

theorem D1_eq (c : Dev nD) : bigSep Finset.univ (D1 (F := F) c) = iprop(
    (bigSep Finset.univ fun k : Fin 32 => cred (tallyAt (linCell c k) () N))
    ∗ (bigSep Finset.univ fun k : Fin 32 => cred (tallyAt (ySendCell c k) () N))) := by
  show bigSep Finset.univ (fun k => D1 (F := F) c k) = _
  simp only [D1, bigSep_sep']

theorem T2_eq (c : Dev nD) : bigSep Finset.univ (T2 (F := F) c) = iprop(
    (bigSep Finset.univ fun k : Fin 32 => cred (tallyAt (linCell c k) () N))
    ∗ (bigSep Finset.univ fun k : Fin 32 => cred (tallyAt (yRecvCell c k) () N))
    ∗ (bigSep Finset.univ fun k : Fin 32 => atPos ER (linCell c k) 0 ∅ 0)
    ∗ (bigSep Finset.univ fun k : Fin 32 => atPos ER (yRecvCell c k) 0 ∅ 0)
    ∗ (bigSep Finset.univ fun k : Fin 32 => anyPts (F := F) c (partSl k) fullShare)
    ∗ (bigSep Finset.univ fun k : Fin 32 => anyPts (F := F) (xpeer c) (outSl c k) fullShare)
    ∗ (bigSep Finset.univ fun k : Fin 32 => anyPts (F := F) c (outSl c k) fullShare)
    ∗ (bigSep Finset.univ fun k : Fin 32 => dutyTok ER (xSendCell c k) 0 false)
    ∗ (bigSep Finset.univ fun k : Fin 32 => dutyTok ER (xRecvCell (xpeer c) k) 0 false)
    ∗ (bigSep Finset.univ fun k : Fin 32 => dutyTok ER (outCell c k) 0 false)) := by
  show bigSep Finset.univ (fun k => T2 (F := F) c k) = _
  simp only [T2, bigSep_sep']

theorem D2_eq (c : Dev nD) : bigSep Finset.univ (D2 m c) = iprop(
    (bigSep Finset.univ fun k : Fin 32 => anyPts (F := F) c (linSl k) fullShare)
    ∗ (bigSep Finset.univ fun k : Fin 32 => anyPts (F := F) c (commSl k) fullShare)
    ∗ (bigSep Finset.univ fun k : Fin 32 => argOwnPts m c k fullShare)
    ∗ (bigSep Finset.univ fun k : Fin 32 => atPos ER (linCell c k) 1 ∅ 0)
    ∗ (bigSep Finset.univ fun k : Fin 32 => atPos ER (yRecvCell c k) 1 ∅ 0)
    ∗ (bigSep Finset.univ fun k : Fin 32 => cred (tallyAt (xSendCell c k) () N))
    ∗ (bigSep Finset.univ fun k : Fin 32 => cred (tallyAt (outCell c k) () N))) := by
  show bigSep Finset.univ (fun k => D2 m c k) = _
  simp only [D2, bigSep_sep']

theorem T3_eq (c : Dev nD) : bigSep Finset.univ (T3 (F := F) c) = iprop(
    (bigSep Finset.univ fun k : Fin 32 => cred (tallyAt (ySendCell c k) () N))
    ∗ (bigSep Finset.univ fun k : Fin 32 => cred (tallyAt (xSendCell c k) () N))
    ∗ (bigSep Finset.univ fun k : Fin 32 => cred (tallyAt (xRecvCell c k) () N))
    ∗ (bigSep Finset.univ fun k : Fin 32 => cred (tallyAt (outCell c k) () N))
    ∗ (bigSep Finset.univ fun k : Fin 32 => atPos ER (ySendCell c k) 0 ∅ 0)
    ∗ (bigSep Finset.univ fun k : Fin 32 => atPos ER (xSendCell c k) 0 ∅ 0)
    ∗ (bigSep Finset.univ fun k : Fin 32 => atPos ER (xRecvCell c k) 0 ∅ 0)
    ∗ (bigSep Finset.univ fun k : Fin 32 => atPos ER (outCell c k) 0 ∅ 0)) := by
  show bigSep Finset.univ (fun k => T3 (F := F) c k) = _
  simp only [T3, bigSep_sep']

theorem D3_eq (c : Dev nD) : bigSep Finset.univ (D3 m c) = iprop(
    (bigSep Finset.univ fun k : Fin 32 => argPeerPts m c k fullShare)
    ∗ (bigSep Finset.univ fun k : Fin 32 => anyPts (F := F) c (partSl k) fullShare)
    ∗ (bigSep Finset.univ fun k : Fin 32 => owns (c : Thread nD τ) (outSl c k) fullShare (partChunk m c k))
    ∗ (bigSep Finset.univ fun k : Fin 32 => owns (c : Thread nD τ) (outSl (xpeer c) k) fullShare (partChunk m (xpeer c) k))
    ∗ (bigSep Finset.univ fun k : Fin 32 => atPos ER (ySendCell c k) 1 ∅ 0)
    ∗ (bigSep Finset.univ fun k : Fin 32 => atPos ER (xSendCell c k) 1 ∅ 0)
    ∗ (bigSep Finset.univ fun k : Fin 32 => atPos ER (xRecvCell c k) 1 ∅ 0)
    ∗ (bigSep Finset.univ fun k : Fin 32 => atPos ER (outCell c k) 1 ∅ 0)) := by
  show bigSep Finset.univ (fun k => D3 m c k) = _
  simp only [D3, bigSep_sep']

theorem atEnd_eq (c : Dev nD) : bigSep Finset.univ (atEnd (F := F) c) = iprop(
    (bigSep Finset.univ fun k : Fin 32 => atPos ER (ySendCell c k) 1 ∅ 0)
    ∗ (bigSep Finset.univ fun k : Fin 32 => atPos ER (yRecvCell c k) 1 ∅ 0)
    ∗ (bigSep Finset.univ fun k : Fin 32 => atPos ER (xSendCell c k) 1 ∅ 0)
    ∗ (bigSep Finset.univ fun k : Fin 32 => atPos ER (xRecvCell c k) 1 ∅ 0)
    ∗ (bigSep Finset.univ fun k : Fin 32 => atPos ER (linCell c k) 1 ∅ 0)
    ∗ (bigSep Finset.univ fun k : Fin 32 => atPos ER (outCell c k) 1 ∅ 0)) := by
  show bigSep Finset.univ (fun k => atEnd (F := F) c k) = _
  simp only [atEnd, bigSep_sep']

/-! ## The argument block and the result, chunk family by chunk family -/

theorem arg_split' (c : Dev nD) :
    ((((c : Thread nD τ).loc main_arg0) ↦{fullShare} argBuf m c) : sProp 𝕄)
      ⊢ iprop((bigSep Finset.univ fun k : Fin 32 => argOwnPts m c k fullShare) ∗ (bigSep Finset.univ fun k : Fin 32 => argPeerPts m c k fullShare) ∗ argRest m c) := by
  have h := arg_split m c
  rw [bigSep_sep'] at h
  refine h.trans ?_
  iintro ⟨⟨H1, H2⟩, H3⟩
  isplitl [H1]
  · iexact H1
  isplitl [H2]
  · iexact H2
  iexact H3

theorem arg_join' (c : Dev nD) :
    iprop((bigSep Finset.univ fun k : Fin 32 => argOwnPts m c k fullShare) ∗ (bigSep Finset.univ fun k : Fin 32 => argPeerPts m c k fullShare) ∗ argRest m c)
      ⊢ ((((c : Thread nD τ).loc main_arg0) ↦{fullShare} argBuf m c) : sProp 𝕄) := by
  have h := arg_join m c
  rw [bigSep_sep'] at h
  refine .trans ?_ h
  iintro ⟨H1, H2, H3⟩
  isplitr [H3]
  · isplitl [H1]
    · iexact H1
    · iexact H2
  · iexact H3

theorem out_split' (c : Dev nD) :
    anyBuf (F := F) c main_v1
      ⊢ iprop((bigSep Finset.univ fun k : Fin 32 => anyPts (F := F) c (outSl c k) fullShare) ∗ (bigSep Finset.univ fun k : Fin 32 => anyPts (F := F) c (outSl (xpeer c) k) fullShare)) := by
  have h := out_split (F := F) c
  rw [bigSep_sep'] at h
  exact h

theorem out_join' (c : Dev nD) :
    iprop((bigSep Finset.univ fun k : Fin 32 => owns (c : Thread nD τ) (outSl c k) fullShare (partChunk m c k))
        ∗ (bigSep Finset.univ fun k : Fin 32 => owns (c : Thread nD τ) (outSl (xpeer c) k) fullShare (partChunk m (xpeer c) k)))
      ⊢ ((((c : Thread nD τ).loc main_v1) ↦{fullShare} outVal m c) : sProp 𝕄) := by
  have h := out_join m c
  rw [bigSep_sep'] at h
  exact h

/-! ## The body -/

/-- From `Φ₀` and the launch's tallies every execution of the printed body on device `c` reaches `Φ₁` owing nothing. -/
theorem sound_body (c : Dev nD) (Kt : PUnit → sProp 𝕄) :
    iprop(Φ₀ m c ∗ owesAny (F := F) c (O₀ c) ∗ ((Φ₁ m c ∗ owesAny (F := F) c 0) -∗ Kt ⟨⟩))
      ⊢ wp frame (wpE (defs₀ (F := F)) 𝒱₀ c none) Set.univ (bodyAt0 (F := F) t0_0) Kt := by
  rw [body_eq]; unfold bodyProg
  simp only [Prog.lift, Prog.bind_op, Prog.bind_ret, wp_deviceId]
  unfold bodyAt Φ₀ start ghost positions payToks credits
  simp only [bigSep_sep']
  iintro ⟨⟨⟨⟨%K, #Hkn, ⟨HpB, HpYS, HpYR, HpXS, HpXR, HpL, HpO⟩, ⟨HtBY, HtBX, HtYS, HtYR, HtXS, HtXR, HtL, HtO⟩⟩, ⟨HcB, HcYR, HcXR⟩, #Hlev, Harg, Hout⟩,
    Hcomm, Hlin, Hpart⟩, Ho, Hk⟩

  -- the five buffers as their chunks
  ihave Hcomm := (comm_split (F := F) c) $$ Hcomm
  ihave Hlin := (lin_split (F := F) c) $$ Hlin
  ihave Hpart := (part_split (F := F) c) $$ Hpart
  icases (arg_split' m c) $$ Harg with ⟨HargO, HargP, HargR⟩
  icases (out_split' (F := F) c) $$ Hout with ⟨HoutO, HoutX⟩
  -- the handshake
  iapply (wp_entry m K c _ Kt)
  isplitr
  · iexact Hkn
  isplitr
  · iexact Hlev
  isplitl [HtBY HtBX Hcomm HoutX HcB HpB]
  · unfold E0
    isplitl [HtBY]
    · iexact HtBY
    isplitl [HtBX]
    · iexact HtBX
    isplitl [Hcomm]
    · iexact Hcomm
    isplitl [HoutX]
    · iexact HoutX
    isplitl [HcB]
    · iexact HcB
    iexact HpB
  isplitl [Ho]
  · iexact Ho
  unfold E1
  iintro ⟨⟨HcommY, HoutXp, -⟩, Ho⟩
  -- pass 1
  iapply (wp_all1 m K c _ Kt)
  isplitr
  · iexact Hkn
  rw [T1_eq]
  isplitl [HargO HargP Hlin HcommY HtL HtYS HtYR]
  · isplitl [HargO]
    · iexact HargO
    isplitl [HargP]
    · iexact HargP
    isplitl [Hlin]
    · iexact Hlin
    isplitl [HcommY]
    · iexact HcommY
    isplitl [HtL]
    · iexact HtL
    isplitl [HtYS]
    · iexact HtYS
    iexact HtYR
  isplitl [Ho]
  · iexact Ho
  rw [D1_eq]
  iintro ⟨⟨HcL, HcYS⟩, Ho⟩
  -- pass 2
  iapply (wp_all2 m K c _ Kt)
  isplitr
  · iexact Hkn
  isplitr
  · iexact Hlev
  rw [T2_eq]
  isplitl [HcL HcYR HpL HpYR Hpart HoutXp HoutO HtXS HtXR HtO]
  · isplitl [HcL]
    · iexact HcL
    isplitl [HcYR]
    · iexact HcYR
    isplitl [HpL]
    · iexact HpL
    isplitl [HpYR]
    · iexact HpYR
    isplitl [Hpart]
    · iexact Hpart
    isplitl [HoutXp]
    · iexact HoutXp
    isplitl [HoutO]
    · iexact HoutO
    isplitl [HtXS]
    · iexact HtXS
    isplitl [HtXR]
    · iexact HtXR
    iexact HtO
  isplitl [Ho]
  · iexact Ho
  rw [D2_eq]
  iintro ⟨⟨Hlin, Hcomm, HargO, HpL1, HpYR1, HcXS, HcO⟩, Ho⟩
  -- pass 3
  iapply (wp_all3 m K c _ Kt)
  isplitr
  · iexact Hkn
  rw [T3_eq]
  isplitl [HcYS HcXS HcXR HcO HpYS HpXS HpXR HpO]
  · isplitl [HcYS]
    · iexact HcYS
    isplitl [HcXS]
    · iexact HcXS
    isplitl [HcXR]
    · iexact HcXR
    isplitl [HcO]
    · iexact HcO
    isplitl [HpYS]
    · iexact HpYS
    isplitl [HpXS]
    · iexact HpXS
    isplitl [HpXR]
    · iexact HpXR
    iexact HpO
  isplitl [Ho]
  · iexact Ho
  rw [D3_eq]
  iintro ⟨⟨HargP, Hpart, HoutO, HoutX, HpYS1, HpXS1, HpXR1, HpO1⟩, Ho⟩
  -- the end: the cells close, the buffers rejoin
  rw [wp_pure]
  imod (close_all m K c) $$ [HpYS1 HpYR1 HpXS1 HpXR1 HpL1 HpO1] with Hz
  · isplitr
    · iexact Hkn
    rw [atEnd_eq]
    isplitl [HpYS1]
    · iexact HpYS1
    isplitl [HpYR1]
    · iexact HpYR1
    isplitl [HpXS1]
    · iexact HpXS1
    isplitl [HpXR1]
    · iexact HpXR1
    isplitl [HpL1]
    · iexact HpL1
    iexact HpO1
  imodintro
  iapply Hk
  isplitr [Ho]
  · unfold Φ₁
    isplitl [Hcomm Hlin Hpart]
    · isplitl [Hcomm]
      · iapply (comm_join (F := F) c)
        iexact Hcomm
      isplitl [Hlin]
      · iapply (lin_join (F := F) c)
        iexact Hlin
      · iapply (part_join (F := F) c)
        iexact Hpart
    isplitl [Hz]
    · iexact Hz
    isplitl [HargO HargP HargR]
    · iapply (arg_join' m c)
      isplitl [HargO]
      · iexact HargO
      isplitl [HargP]
      · iexact HargP
      iexact HargR
    · iapply (out_join' m c)
      isplitl [HoutO]
      · iexact HoutO
      iexact HoutX
  · iexact Ho

/-- info: 'Cert.KernelIdeal.RS.sound_body' depends on axioms: [propext, Classical.choice, Quot.sound] -/
#guard_msgs in #print axioms sound_body

end Cert.KernelIdeal.RS

end
-- ==== Proof.Alloc.lean ====
/-
  The ghost state of the protocol at launch, and how it is dealt to the devices.
  A device has 193 semaphore cells: its barrier cell and its 192 DMA cells, six per chunk. The launch element holds,
  for every cell of every device, the round state at counter zero, the owner's position at round 0 and the fact
  that round 0 is reached, and one token per duty: the barrier cell's two and each DMA cell's one.
  With every counter at zero each cell's invariant is allocated at some name. The invariants and the reached facts
  are persistent, so every device may keep those of the cells it touches: its own, both neighbours' barrier cells
  and the receive cells of its column neighbour and of its row neighbour. The positions stay with the owners. The
  tokens go to the payers: a barrier cell's first token to the column neighbour, its second to the row neighbour,
  a column receive cell's to the column neighbour, a row receive cell's to the row neighbour; the column and the
  row neighbour maps are involutions of the mesh, so each device ends with exactly the tokens of the duties it pays.
-/
import proofs.«900309_g7700000000000310_dist_rs_v7x_xy2x2_y_m4096_n1024_f32_1_alg».proof.Proof.Phi
import proofs.«900309_g7700000000000310_dist_rs_v7x_xy2x2_y_m4096_n1024_f32_1_alg».proof.Proof.SemFacts
import proofs.«900309_g7700000000000310_dist_rs_v7x_xy2x2_y_m4096_n1024_f32_1_alg».proof.Proof.SchedLemmas

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores: all 192 DMA semaphores -/

def osem : DmaSem sig → SemLoc sig := fun i => .dma i

theorem dma_scoped : ∀ i : DmaSem sig, (SemLoc.dma i : SemLoc sig).isScoped .tc = true := by decide +kernel

theorem ownSemFacts : Pipeline.OwnSemFacts cfg0.spec osem :=
  ⟨dma_scoped, fun i j h => SemLoc.dma.inj h, fun k w s => (w : Fin 0).elim0⟩

/-! ## The cells and the tokens of the whole mesh -/

abbrev kcell (cs : Dev nD × SemLoc sig) : GSem nD τ sig := ((cs.1 : Thread nD τ), cs.2)

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl

def allCells : Finset (GSem nD τ sig) := Finset.univ.map ⟨kcell, kcell_injective⟩

/-- The duty tokens as minted: the barrier cell's second token, and the first token of every cell. -/
abbrev tokOf (cj : Dev nD × (Unit ⊕ SemLoc sig)) : GSem nD τ sig × ℕ × Bool := match cj.2 with
  | .inl _ => (barCell cj.1, 0, true)
  | .inr s => (kcell (cj.1, s), 0, false)

theorem tokOf_injective : Function.Injective (tokOf : Dev nD × (Unit ⊕ SemLoc sig) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  cases j with
  | inl u =>
    cases j' with
    | inl u' => rfl
    | inr s' => exact absurd (show true = false from congrArg (fun x : GSem nD τ sig × ℕ × Bool => x.2.2) h) (by decide)
  | inr s =>
    cases j' with
    | inl u' => exact absurd (show false = true from congrArg (fun x : GSem nD τ sig × ℕ × Bool => x.2.2) h) (by decide)
    | inr s' =>
      have h2 : s = s' := congrArg (fun x : GSem nD τ sig × ℕ × Bool => x.1.2) h
      subst h2; rfl

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  iprop(dutyTok ER (barCell c) 0 true ∗ bigSep Finset.univ fun s : SemLoc sig => dutyTok ER (kcell (c, s)) 0 false)

/-- What the launch element deals device c. -/
def G (c : Dev nD) : sProp 𝕄 :=
  iprop((bigSep Finset.univ fun s : SemLoc sig => roundState ER (rsRd m) (kcell (c, s)) 0)
    ∗ (bigSep Finset.univ fun s : SemLoc sig => iprop(atPos ER (kcell (c, s)) 0 ∅ 0 ∗ reached ER (kcell (c, s)) 0))
    ∗ toks (F := F) c)

/-- What the global step makes of it. -/
def G' (c : Dev nD) : sProp 𝕄 := iprop(∃ K, ghost m K c)

/-! ## A device's cells: the barrier cell, and six cells per chunk -/

theorem bigSep_semLoc (Φ : SemLoc sig → sProp 𝕄) :
    bigSep Finset.univ Φ = iprop(Φ (.reg barS) ∗ bigSep Finset.univ fun i : DmaSem sig => Φ (.dma i)) := by
  haveI : Subsingleton (Sem sig) := (inferInstance : Subsingleton (Fin 1))
  rw [bigSep_univ_equiv (SemLoc.equivSum sig).symm Φ, bigSep_univ_sum, bigSep_univ_of_subsingleton (barS : Sem sig)]
  rfl

/-- Semaphore number 32 a + k is the semaphore of chunk k in array a. -/
def dmaEquiv : Fin 6 × Fin 32 ≃ DmaSem sig where
  toFun p := ⟨32 * p.1.val + p.2.val, by have h1 := p.1.isLt; have h2 := p.2.isLt; show _ < 192; omega⟩
  invFun i := (⟨i.val / 32, by have h : i.val < 192 := i.isLt; omega⟩, ⟨i.val % 32, Nat.mod_lt _ (by decide)⟩)
  left_inv p := by
    have h1 := p.1.isLt; have h2 := p.2.isLt
    apply Prod.ext <;> apply Fin.ext
    · show (32 * p.1.val + p.2.val) / 32 = p.1.val; omega
    · show (32 * p.1.val + p.2.val) % 32 = p.2.val; omega
  right_inv i := by
    apply Fin.ext; show 32 * (i.val / 32) + i.val % 32 = i.val; omega

theorem dmaEquiv_0 (k : Fin 32) : dmaEquiv (0, k) = ySendS k :=
  Fin.ext (by rw [ySendS_val]; show 32 * 0 + k.val = k.val; omega)
theorem dmaEquiv_1 (k : Fin 32) : dmaEquiv (1, k) = yRecvS k :=
  Fin.ext (by rw [yRecvS_val]; show 32 * 1 + k.val = 32 + k.val; omega)
theorem dmaEquiv_2 (k : Fin 32) : dmaEquiv (2, k) = xSendS k :=
  Fin.ext (by rw [xSendS_val]; show 32 * 2 + k.val = 64 + k.val; omega)
theorem dmaEquiv_3 (k : Fin 32) : dmaEquiv (3, k) = xRecvS k :=
  Fin.ext (by rw [xRecvS_val]; show 32 * 3 + k.val = 96 + k.val; omega)
theorem dmaEquiv_4 (k : Fin 32) : dmaEquiv (4, k) = linS k :=
  Fin.ext (by rw [linS_val]; show 32 * 4 + k.val = 128 + k.val; omega)
theorem dmaEquiv_5 (k : Fin 32) : dmaEquiv (5, k) = outS k :=
  Fin.ext (by rw [outS_val]; show 32 * 5 + k.val = 160 + k.val; omega)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_dma (Φ : DmaSem sig → sProp 𝕄) :
    bigSep Finset.univ Φ = bigSep Finset.univ fun k : Fin 32 =>
      iprop(Φ (ySendS k) ∗ Φ (yRecvS k) ∗ Φ (xSendS k) ∗ Φ (xRecvS k) ∗ Φ (linS k) ∗ Φ (outS k)) := by
  rw [bigSep_univ_equiv dmaEquiv Φ, bigSep_univ_prod, bigSep_fin6]
  simp only [bigSep_sep', dmaEquiv_0, dmaEquiv_1, dmaEquiv_2, dmaEquiv_3, dmaEquiv_4, dmaEquiv_5]

/-- The barrier cell and the six cells of every chunk. -/
theorem bigSep_cells (Φ : SemLoc sig → sProp 𝕄) :
    bigSep Finset.univ Φ = iprop(Φ (.reg barS) ∗ bigSep Finset.univ fun k : Fin 32 =>
      iprop(Φ (.dma (ySendS k)) ∗ Φ (.dma (yRecvS k)) ∗ Φ (.dma (xSendS k)) ∗ Φ (.dma (xRecvS k)) ∗ Φ (.dma (linS k)) ∗ Φ (.dma (outS k)))) := by
  rw [bigSep_semLoc, bigSep_dma fun i => Φ (.dma i)]

/-! ## The launch element pays for it -/

theorem fund_all : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun s : SemLoc sig => Φ (kcell (c, s)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_of_subsingleton ()]; rfl
  iintro HX
  imod (Rounds.fund ER (rsRd m) allCells allToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

theorem ownSems0_dma (c : Dev nD) :
    (Pipeline.ownSems0 (Ix := Unit) (Name := ℕ) (U := UU) (Lvl := ℕ) (Val := Elt F) (τ := τ) osem c : sProp 𝕄)
      = bigSep Finset.univ fun i : DmaSem sig => semVal (kcell (c, .dma i)) 0 := rfl

/-- The 192 DMA semaphores are the kernel's own: six per chunk; -/
theorem ownSems0_eq (c : Dev nD) :
    (Pipeline.ownSems0 (Ix := Unit) (Name := ℕ) (U := UU) (Lvl := ℕ) (Val := Elt F) (τ := τ) osem c : sProp 𝕄)
      = bigSep Finset.univ fun k : Fin 32 => zeros (F := F) c k := by
  rw [ownSems0_dma, bigSep_dma]; rfl

theorem ownSems0_of_zeros (c : Dev nD) :
    (bigSep Finset.univ fun k : Fin 32 => zeros (F := F) c k)
      ⊢ (Pipeline.ownSems0 (Ix := Unit) (Name := ℕ) (U := UU) (Lvl := ℕ) (Val := Elt F) (τ := τ) osem c : sProp 𝕄) :=
  Entails.of_eq (ownSems0_eq c).symm

theorem unscoped_filter : (Finset.univ.filter fun sm : SemLoc sig => ¬ sm.isScoped .tc) = {SemLoc.reg barS} := by
  ext s
  rw [Finset.mem_filter, Finset.mem_singleton]
  cases s with
  | reg s =>
    have hs : s = barS := Subsingleton.elim (α := Fin 1) _ _
    rw [hs]
    exact ⟨fun _ => rfl, fun _ => ⟨Finset.mem_univ _, by decide⟩⟩
  | dma i => exact ⟨fun h => absurd (dma_scoped i) h.2, fun h => by cases h⟩

/-- the barrier semaphore is the one unscoped semaphore. -/
theorem unscopedSems0_eq (c : Dev nD) : (unscopedSems0 c : sProp 𝕄) = semVal (barCell c) 0 := by
  unfold unscopedSems0; rw [unscoped_filter, bigSep_singleton]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : SemLoc sig => semVal (kcell (c, s)) 0 : sProp 𝕄) := by
  rw [ownSems0_dma, unscopedSems0_eq, bigSep_semLoc]
  iintro ⟨HS, HB⟩
  isplitl [HB]; · iexact HB
  iexact HS

/-! ## Every cell's invariant, allocated -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (rsRd m) κ (kcell (c, s))))
          ∗ (bigSep Finset.univ fun s : SemLoc sig => iprop(atPos ER (kcell (c, s)) 0 ∅ 0 ∗ reached ER (kcell (c, s)) 0))
          ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun s : SemLoc sig => semVal (kcell (c, s)) 0)
        ∗ bigSep Finset.univ fun s : SemLoc sig => roundState ER (rsRd m) (kcell (c, s)) 0)
      ⊢ (|={Set.univ}=> bigSep Finset.univ fun s : SemLoc sig => iprop(∃ κ : ℕ, cellInv ER (rsRd m) κ (kcell (c, s))) : sProp 𝕄) from by
        rw [← bigSep_sep']
        exact (bigSep_mono fun s _ => (Rounds.body_intro ER (rsRd m) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-! ## What every device may keep: the invariants and the reached facts of all cells -/

def records (K : Dev nD × SemLoc sig → ℕ) : sProp 𝕄 :=
  iprop((bigSep Finset.univ fun cs : Dev nD × SemLoc sig => cellInv ER (rsRd m) (K cs) (kcell cs))
    ∗ bigSep Finset.univ fun cs : Dev nD × SemLoc sig => reached ER (kcell cs) 0)

instance records_persistent (K : Dev nD × SemLoc sig → ℕ) : BI.Persistent (records m K) := by unfold records; infer_instance

theorem inv_at (K : Dev nD × SemLoc sig → ℕ) (cs : Dev nD × SemLoc sig) :
    (bigSep Finset.univ fun cs : Dev nD × SemLoc sig => (cellInv ER (rsRd m) (K cs) (kcell cs) : sProp 𝕄)) ⊢ cellInv ER (rsRd m) (K cs) (kcell cs) :=
  bigSep_elim (Finset.mem_univ cs)

theorem reached_at (cs : Dev nD × SemLoc sig) :
    (bigSep Finset.univ fun cs : Dev nD × SemLoc sig => (reached ER (kcell cs) 0 : sProp 𝕄)) ⊢ reached ER (kcell cs) 0 :=
  bigSep_elim (Finset.mem_univ cs)

/-- The names as a function of device and semaphore. -/
abbrev nameOf (K : Dev nD × SemLoc sig → ℕ) : Dev nD → SemLoc sig → ℕ := fun c s => K (c, s)

theorem known_chunk (K : Dev nD × SemLoc sig → ℕ) (c : Dev nD) (k : Fin 32) :
    records m K ⊢ iprop(
        (cellInv ER (rsRd m) (nameOf K c (.dma (ySendS k))) (ySendCell c k) ∗ cellInv ER (rsRd m) (nameOf K c (.dma (yRecvS k))) (yRecvCell c k)
          ∗ cellInv ER (rsRd m) (nameOf K c (.dma (xSendS k))) (xSendCell c k) ∗ cellInv ER (rsRd m) (nameOf K c (.dma (xRecvS k))) (xRecvCell c k)
          ∗ cellInv ER (rsRd m) (nameOf K c (.dma (linS k))) (linCell c k) ∗ cellInv ER (rsRd m) (nameOf K c (.dma (outS k))) (outCell c k)
          ∗ cellInv ER (rsRd m) (nameOf K (ypeer c) (.dma (yRecvS k))) (yRecvCell (ypeer c) k)
          ∗ cellInv ER (rsRd m) (nameOf K (xpeer c) (.dma (xRecvS k))) (xRecvCell (xpeer c) k))
        ∗ (reached ER (ySendCell c k) 0 ∗ reached ER (yRecvCell c k) 0 ∗ reached ER (xSendCell c k) 0 ∗ reached ER (xRecvCell c k) 0
          ∗ reached ER (linCell c k) 0 ∗ reached ER (outCell c k) 0
          ∗ reached ER (yRecvCell (ypeer c) k) 0 ∗ reached ER (xRecvCell (xpeer c) k) 0)) := by
  unfold records
  iintro ⟨#HI, #HR⟩
  isplitr
  · isplitr; · iapply (inv_at m K (c, .dma (ySendS k))); iexact HI
    isplitr; · iapply (inv_at m K (c, .dma (yRecvS k))); iexact HI
    isplitr; · iapply (inv_at m K (c, .dma (xSendS k))); iexact HI
    isplitr; · iapply (inv_at m K (c, .dma (xRecvS k))); iexact HI
    isplitr; · iapply (inv_at m K (c, .dma (linS k))); iexact HI
    isplitr; · iapply (inv_at m K (c, .dma (outS k))); iexact HI
    isplitr; · iapply (inv_at m K (ypeer c, .dma (yRecvS k))); iexact HI
    iapply (inv_at m K (xpeer c, .dma (xRecvS k))); iexact HI
  · isplitr; · iapply (reached_at (F := F) (c, .dma (ySendS k))); iexact HR
    isplitr; · iapply (reached_at (F := F) (c, .dma (yRecvS k))); iexact HR
    isplitr; · iapply (reached_at (F := F) (c, .dma (xSendS k))); iexact HR
    isplitr; · iapply (reached_at (F := F) (c, .dma (xRecvS k))); iexact HR
    isplitr; · iapply (reached_at (F := F) (c, .dma (linS k))); iexact HR
    isplitr; · iapply (reached_at (F := F) (c, .dma (outS k))); iexact HR
    isplitr; · iapply (reached_at (F := F) (ypeer c, .dma (yRecvS k))); iexact HR
    iapply (reached_at (F := F) (xpeer c, .dma (xRecvS k))); iexact HR

theorem known_bar (K : Dev nD × SemLoc sig → ℕ) (c : Dev nD) :
    records m K ⊢ iprop(cellInv ER (rsRd m) (nameOf K c (.reg barS)) (barCell c) ∗ cellInv ER (rsRd m) (nameOf K (ypeer c) (.reg barS)) (barCell (ypeer c))
      ∗ cellInv ER (rsRd m) (nameOf K (xpeer c) (.reg barS)) (barCell (xpeer c))
      ∗ reached ER (barCell (ypeer c)) 0 ∗ reached ER (barCell (xpeer c)) 0) := by
  unfold records
  iintro ⟨#HI, #HR⟩
  isplitr; · iapply (inv_at m K (c, .reg barS)); iexact HI
  isplitr; · iapply (inv_at m K (ypeer c, .reg barS)); iexact HI
  isplitr; · iapply (inv_at m K (xpeer c, .reg barS)); iexact HI
  isplitr; · iapply (reached_at (F := F) (ypeer c, .reg barS)); iexact HR
  iapply (reached_at (F := F) (xpeer c, .reg barS)); iexact HR

theorem known_intro (K : Dev nD × SemLoc sig → ℕ) (c : Dev nD) : records m K ⊢ known m (nameOf K) c := by
  unfold known
  iintro #H
  isplitr
  · iapply (known_bar m K c); iexact H
  · iapply (bigSep_intro_persistent (R := records m K) (S := Finset.univ) fun k _ => known_chunk m K c k)
    iexact H

/-! ## The tokens, dealt to their payers -/

/-- What stays with device c: its positions, and the tokens of the duties it pays. -/
def linear (c : Dev nD) : sProp 𝕄 := iprop(positions (F := F) c ∗ payToks (F := F) c)

theorem ghost_intro (K : Dev nD × SemLoc sig → ℕ) (c : Dev nD) : iprop(records m K ∗ linear (F := F) c) ⊢ G' m c := by
  unfold linear G' ghost
  iintro ⟨#H, Hpos, Htok⟩
  iexists (nameOf K)
  isplitr; · iapply (known_intro m K c); iexact H
  isplitl [Hpos]; · iexact Hpos
  iexact Htok

theorem positions_eq (c : Dev nD) :
    (bigSep Finset.univ fun s : SemLoc sig => (atPos ER (kcell (c, s)) 0 ∅ 0 : sProp 𝕄)) = positions (F := F) c := by
  rw [bigSep_cells]; rfl

/-- The column and the row neighbour maps, as permutations of the mesh. -/
def yE : Dev nD ≃ Dev nD := ⟨ypeer, ypeer, ypeer_ypeer, ypeer_ypeer⟩
def xE : Dev nD ≃ Dev nD := ⟨xpeer, xpeer, xpeer_xpeer, xpeer_xpeer⟩
@[simp] theorem yE_apply (c : Dev nD) : yE c = ypeer c := rfl
@[simp] theorem xE_apply (c : Dev nD) : xE c = xpeer c := rfl

/-- A device's own cells' tokens, cell by cell. -/
def toks' (c : Dev nD) : sProp 𝕄 :=
  iprop(dutyTok ER (barCell c) 0 true ∗ dutyTok ER (barCell c) 0 false
    ∗ bigSep Finset.univ fun k : Fin 32 => iprop(dutyTok ER (ySendCell c k) 0 false ∗ dutyTok ER (yRecvCell c k) 0 false
        ∗ dutyTok ER (xSendCell c k) 0 false ∗ dutyTok ER (xRecvCell c k) 0 false
        ∗ dutyTok ER (linCell c k) 0 false ∗ dutyTok ER (outCell c k) 0 false))

theorem toks_eq (c : Dev nD) : (toks (F := F) c) = toks' (F := F) c := by
  unfold toks toks'; rw [bigSep_cells]

theorem toks_around : (bigSep Finset.univ fun c : Dev nD => (toks (F := F) c : sProp 𝕄)) ⊢ bigSep Finset.univ fun c : Dev nD => payToks (F := F) c := by
  rw [bigSep_congr (s := Finset.univ) fun (c : Dev nD) _ => toks_eq (F := F) c]
  unfold toks' payToks
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => bigSep Finset.univ fun k : Fin 32 => (dutyTok ER (yRecvCell c k) 0 false : sProp 𝕄)),
    bigSep_univ_equiv xE (fun c : Dev nD => bigSep Finset.univ fun k : Fin 32 => (dutyTok ER (xRecvCell c k) 0 false : sProp 𝕄))]
  simp only [yE_apply, xE_apply]
  iintro ⟨HbT, HbF, HyS, HyR, HxS, HxR, Hl, Ho⟩
  isplitl [HbF]; · iexact HbF
  isplitl [HbT]; · iexact HbT
  isplitl [HyS]; · iexact HyS
  isplitl [HyR]; · iexact HyR
  isplitl [HxS]; · iexact HxS
  isplitl [HxR]; · iexact HxR
  isplitl [Hl]; · iexact Hl
  iexact Ho

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : SemLoc sig => iprop(∃ κ : ℕ, cellInv ER (rsRd m) κ (kcell (c, s))))
          ∗ (bigSep Finset.univ fun s : SemLoc sig => iprop(atPos ER (kcell (c, s)) 0 ∅ 0 ∗ reached ER (kcell (c, s)) 0))
          ∗ toks (F := F) c) : sProp 𝕄)
      ⊢ bigSep Finset.univ (G' m) := by
  rw [bigSep_sep', bigSep_sep', ← bigSep_univ_prod (fun cs : Dev nD × SemLoc sig => iprop(∃ κ : ℕ, cellInv ER (rsRd m) κ (kcell cs))),
    bigSep_congr (s := Finset.univ) (fun (c : Dev nD) _ => bigSep_sep' Finset.univ (fun s : SemLoc sig => (atPos ER (kcell (c, s)) 0 ∅ 0 : sProp 𝕄)) (fun s => reached ER (kcell (c, s)) 0)),
    bigSep_sep', ← bigSep_univ_prod (fun cs : Dev nD × SemLoc sig => (reached ER (kcell cs) 0 : sProp 𝕄))]
  iintro ⟨HI, ⟨Hat, #HR⟩, Htok⟩
  ihave HK := (BI.bigSep_exists_pi Finset.univ (fun (cs : Dev nD × SemLoc sig) (κ : ℕ) => (cellInv ER (rsRd m) κ (kcell cs) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun s : SemLoc sig => (atPos ER (kcell (c, s)) 0 ∅ 0 : sProp 𝕄)) (payToks (F := F))).symm).trans
      (bigSep_mono fun c _ => show _ ⊢ linear (F := F) c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the module rests on -/

/-- info: 'Cert.KernelIdeal.RS.ownSemFacts' depends on axioms: [propext, Classical.choice, Quot.sound] -/
#guard_msgs in #print axioms ownSemFacts

/-- info: 'Cert.KernelIdeal.RS.fund_all' depends on axioms: [propext, Classical.choice, Quot.sound] -/
#guard_msgs in #print axioms fund_all

/-- info: 'Cert.KernelIdeal.RS.ownSems0_eq' depends on axioms: [propext, Classical.choice, Quot.sound] -/
#guard_msgs in #print axioms ownSems0_eq

/-- info: 'Cert.KernelIdeal.RS.unscopedSems0_eq' depends on axioms: [propext, Classical.choice, Quot.sound] -/
#guard_msgs in #print axioms unscopedSems0_eq

/-- info: 'Cert.KernelIdeal.RS.glob' depends on axioms: [propext, Classical.choice, Quot.sound] -/
#guard_msgs in #print axioms glob

end Cert.KernelIdeal.RS

end
-- ==== Proof.Launch.lean ====
/-
  The launch. The four devices run the one region; what each holds at the region's entry is split into what the body
  starts from, the body's rule takes it to what it ends with, and the two unstaged arrays are read off the final state:
  the argument block as launched and the result at `outVal`.
-/
import proofs.«900309_g7700000000000310_dist_rs_v7x_xy2x2_y_m4096_n1024_f32_1_alg».proof.Proof.Body
import proofs.«900309_g7700000000000310_dist_rs_v7x_xy2x2_y_m4096_n1024_f32_1_alg».proof.Proof.Levels
import proofs.«900309_g7700000000000310_dist_rs_v7x_xy2x2_y_m4096_n1024_f32_1_alg».proof.Proof.Alloc

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's rule as the launch takes it -/

omit [FloatOps F] in
theorem bigSep_fin0 (Φ : Fin 0 → sProp 𝕄) : bigSep Finset.univ Φ = iprop(emp) := by
  rw [Finset.univ_eq_empty, BI.bigSep_empty]; rfl

/-- What the one point of the launch starts from: the invariant before it and what the device owes at launch. -/
def bodyPre' (c : Dev nD) : sProp 𝕄 := iprop(Φ₀ m c ∗ (dats m 0 c).owesAt () t0_0.castSucc ∗ emp)
/-- What it ends with: the invariant after it, owing nothing. -/
def bodyPost (c : Dev nD) : sProp 𝕄 := iprop(Φ₁ m c ∗ (dats m 0 c).owesAt () t0_0.succ ∗ emp)

set_option maxRecDepth 100000 in
/-- The body obligation on device `c`: there is no window, so the body is handed the invariant and the device's debts alone. -/
theorem body_obligation (c : Dev nD) : BodyObligation (dats (F := F) m 0 c) (defs₀ (F := F)) 𝒱₀ () Set.univ := fun t => by
  rw [fin_N0 t]
  rw [bigSep_fin0, bigSep_fin0]
  show bodyPre' m c ⊢ wp frame (wpE (defs₀ (F := F)) 𝒱₀ c none) Set.univ (bodyAt0 (F := F) t0_0) (fun _ => bodyPost m c)
  unfold bodyPre' Dat.owesAt Pipeline.owesWithin
  iintro ⟨HΦ, ⟨%W, -, HO⟩, -⟩
  iapply (sound_body m c fun _ => bodyPost m c)
  unfold owesAny
  isplitl [HΦ]; · iexact HΦ
  isplitl [HO]
  · iexists W; iexact HO
  · iintro ⟨HΦ, ⟨%W', HO⟩⟩
    unfold bodyPost Dat.owesAt Pipeline.owesWithin
    isplitl [HΦ]; · iexact HΦ
    isplitl [HO]
    · iexists W'
      isplitr; · ipureintro; exact fun _ _ => Or.inl trivial
      iexact HO
    · iempintro

/-! ## The theorem's side conditions -/

/-- The two unstaged arrays, the levels and the launch credit make what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds (F := F) c) $$ Hcr
  imodintro
  unfold start G' credits anyBuf
  isplitl
  · isplitl [HG]; · iexact HG
    isplitl [Hc]; · iexact Hc
    isplitl [Hlev]; · iexact Hlev
    isplitl [Ha]; · iexact Ha
    iexists _; iexact Hv
  · iempintro

/-- With the three scratch buffers at whatever they hold it is the invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ anyBuf
  iintro ⟨Hs, -, H0, H1, H2⟩
  isplitl [Hs]; · iexact Hs
  isplitl [H0]; · iexact H0
  isplitl [H1]; · iexact H1
  iexact H2

/-- The invariant after the point gives back the own semaphores at zero and the scratch buffers, and keeps the two arrays. -/
theorem phi1_exit (c : Dev nD) :
    (dats m 0 c).Φ (Fin.last cfg0.N) ⊢ iprop(iprop((((c : Thread nD τ).loc main_arg0) ↦{fullShare} argBuf m c) ∗ (((c : Thread nD τ).loc main_v1) ↦{fullShare} outVal m c))
      ∗ Pipeline.ownSems0 osem c ∗ Pipeline.scopedRest cfg0.spec c) := by
  rw [show (dats m 0 c).Φ (Fin.last cfg0.N) = Φ₁ m c from rfl, scopedRest0_eq, ownSems0_eq]
  unfold Φ₁ anyBuf
  iintro ⟨⟨H0, H1, H2⟩, Hz, Ha, Ho⟩
  isplitl [Ha Ho]
  · isplitl [Ha]; · iexact Ha
    iexact Ho
  isplitl [Hz]; · iexact Hz
  isplitl [H0]; · iexact H0
  isplitl [H1]; · iexact H1
  iexact H2

/-- No staging cell, so no wait of the loop's own. -/
theorem waits (c : Dev nD) : (levAts L lv : sProp 𝕄) ⊢ Pipeline.cellsWaits cfgs (dats m) () 0 c :=
  Pipeline.cellsWaits_intro cfgs (dats m) () 0 c fun w _ _ => w.elim0

/-! ## The run -/

set_option maxRecDepth 100000 in
/-- At the compiled mesh of four devices, for any float values, from any memory with zero counters: every weakly fair
    execution of @main terminates, and every final state has each device's result at `outVal` and its argument block
    as launched. -/
theorem run_main : θ_run defs (onTc (τ := τ) (main (F := F))) (s₀ m ρ)
    (fun r => ∀ c : Dev nD, r.2.mem ((c.tc : Thread nD τ).loc main_v1) = outVal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]
      · iexact HP
      · iexact HG)
    (hglob := glob m)
    (hA := fun _ w => w.elim0) (hpf := fun _ k => k.elim0)
    (X := start m)
    (Y := fun c => iprop((((c : Thread nD τ).loc main_arg0) ↦{fullShare} argBuf m c) ∗ (((c : Thread nD τ).loc main_v1) ↦{fullShare} outVal m c)))
    (Z := fun _ => iprop(emp))
    (hX := start_intro m ρ) (hin := phi0_intro m) (hout := phi1_exit m)
    (QY := fun c s => s.mem ((c : Thread nD τ).loc main_v1) = outVal m c ∧ s.mem ((c : Thread nD τ).loc main_arg0) = m ((c : Thread nD τ).loc main_arg0))
    (hY := fun c s' => by
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.KernelIdeal.RS.run_main' depends on axioms: [propext, Classical.choice, Quot.sound] -/
#guard_msgs in #print axioms run_main

end Cert.KernelIdeal.RS

end
-- ==== Proof.Bits.Cells.lean ====
/-
  The chunk-indexed views of the reduce-scatter kernel. The kernel moves its data in 32 chunks of 64 rows; chunk
  `k` of a 2048-row scratch buffer is the rows `[64 k, 64 k + 64)`, chunk `k` of the device's own row half of its
  argument block the rows `[2048 x + 64 k, …)` in its own column half (what it sums locally) or in the other column
  half (what it sends to the device of the other mesh column), and chunk `k` of its row half of the result the rows
  `[2048 x + 64 k, …)`. Each of the six semaphore arrays has one semaphore per chunk.
-/
import proofs.«900309_g7700000000000310_dist_rs_v7x_xy2x2_y_m4096_n1024_f32_1_alg».proof.Kernel
import proofs.«900309_g7700000000000310_dist_rs_v7x_xy2x2_y_m4096_n1024_f32_1_alg».proof.Proof.Gen.Kernel

noncomputable section

namespace Cert.Kernel.RS

open Cert.Kernel Cert.Kernel.Gen
open Idealize.ShloMosaic Idealize.ShloMosaic.TcCoe

/-! ## The five buffers, whole -/

abbrev argM : Memref sig .tc .hbm S1x4096x2048 .f32 := Memref.whole main_arg0
abbrev outM : Memref sig .tc .hbm S4096x1024 .f32 := Memref.whole main_v1
abbrev commM : Memref sig .tc .vmem S2048x1024 .f32 := Memref.whole cc0_scratch0
abbrev linM : Memref sig .tc .vmem S2048x1024 .f32 := Memref.whole cc0_scratch1
abbrev partM : Memref sig .tc .vmem S2048x1024 .f32 := Memref.whole cc0_scratch2

/-! ## Chunk `k` of a scratch buffer: rows `[64 k, 64 k + 64)`, all 1024 columns -/

theorem inb_chunk (k : Fin 32) : ∀ a, (![64 * k.val, 0] : Fin 2 → Nat) a + S64x1024.size a ≤ S2048x1024.size a := by
  intro a
  have hk := k.isLt
  match a with
  | ⟨0, _⟩ => show 64 * k.val + 64 ≤ 2048; omega
  | ⟨1, _⟩ => show 0 + 1024 ≤ 1024; omega

abbrev chunkR (k : Fin 32) : Rect S2048x1024 := Rect.unit (s := S2048x1024) ![64 * k.val, 0] S64x1024.size (inb_chunk k)

abbrev commSl (k : Fin 32) : Memref sig .tc .vmem S64x1024 .f32 := commM.slice (chunkR k) (fun _ => rfl)
abbrev linSl (k : Fin 32) : Memref sig .tc .vmem S64x1024 .f32 := linM.slice (chunkR k) (fun _ => rfl)
abbrev partSl (k : Fin 32) : Memref sig .tc .vmem S64x1024 .f32 := partM.slice (chunkR k) (fun _ => rfl)

/-! ## Chunk `k` of device `c`'s argument block and of its result, through the printed offset functions -/

/-- Rows `[2048 x(c) + 64 k, …)`, device `c`'s own column half: what `c` copies into its own `lin` buffer. -/
abbrev argOwnSl (c : Dev nD) (k : Fin 32) : Memref sig .tc .hbm S64x1024 .f32 :=
  (argM.slice (Rect.unit (s := S1x4096x2048) (k0_off1 c (BitVec.ofNat 32 (64 * k.val))) S1x64x1024.size (k0_off1_inb c k)) (fun _ => rfl)).squeeze
    S64x1024 squeezes_S1x64x1024_S64x1024
/-- The same rows, the other column half: what `c` sends into the `comm` buffer of the device of the other column. -/
abbrev argPeerSl (c : Dev nD) (k : Fin 32) : Memref sig .tc .hbm S64x1024 .f32 :=
  (argM.slice (Rect.unit (s := S1x4096x2048) (k0_off2 c (BitVec.ofNat 32 (64 * k.val))) S1x64x1024.size (k0_off2_inb c k)) (fun _ => rfl)).squeeze
    S64x1024 squeezes_S1x64x1024_S64x1024
/-- Rows `[2048 x(c) + 64 k, …)` of a result buffer: where `c`'s chunk `k` of partial sums goes, on `c` itself and on
    the device of the other mesh row. -/
abbrev outSl (c : Dev nD) (k : Fin 32) : Memref sig .tc .hbm S64x1024 .f32 :=
  outM.slice (Rect.unit (s := S4096x1024) (k0_off3 c (BitVec.ofNat 32 (64 * k.val))) S64x1024.size (k0_off3_inb c k)) (fun _ => rfl)

/-! ## The semaphores: one per chunk in each of the six arrays -/

theorem inb_sem (k : Fin 32) : ∀ a, (![k.val] : Fin 1 → Nat) a + S1.size a ≤ S32.size a := by
  intro a
  have hk := k.isLt
  match a with
  | ⟨0, _⟩ => show k.val + 1 ≤ 32; omega

abbrev semAt (A : DmaSems sig S32) (k : Fin 32) : DmaSems sig S_ :=
  (A.slice (Rect.unit (s := S32) ![k.val] S1.size (inb_sem k))).squeeze S_ squeezes_S1_S_

/-- send and receive semaphores of the transfers between the two mesh columns (`y`), -/
abbrev ySendS (k : Fin 32) : DmaSem sig := (semAt cc0_scratch3 k).sem
abbrev yRecvS (k : Fin 32) : DmaSem sig := (semAt cc0_scratch4 k).sem
/-- of the transfers between the two mesh rows (`x`), -/
abbrev xSendS (k : Fin 32) : DmaSem sig := (semAt cc0_scratch5 k).sem
abbrev xRecvS (k : Fin 32) : DmaSem sig := (semAt cc0_scratch6 k).sem
/-- of the local copies into `lin` and out of `part`. -/
abbrev linS (k : Fin 32) : DmaSem sig := (semAt cc0_scratch7 k).sem
abbrev outS (k : Fin 32) : DmaSem sig := (semAt cc0_scratch8 k).sem

/-- The runtime's barrier semaphore of the kernel's collective id. -/
abbrev barS : Sem sig := (SemArray.scalar (sig.barrier 0 rfl) : Sems sig S_).sem

/-! The chunk-indexed views at a literal chunk are the printed ones. -/

example : linSl 3 = (Memref.whole cc0_scratch1 : Memref sig .tc .vmem S2048x1024 .f32).slice
    (Rect.unit (s := S2048x1024) ![192, 0] S64x1024.size inb_S2048x1024_S64x1024_192_0) (fun _ => rfl) := rfl
example (c : Dev nD) : argOwnSl c 3 = ((Memref.whole main_arg0 : Memref sig .tc .hbm S1x4096x2048 .f32).slice
    (Rect.unit (s := S1x4096x2048) (k0_off1 c 192#32) S1x64x1024.size (k0_off1_inb c 3)) (fun _ => rfl)).squeeze S64x1024 squeezes_S1x64x1024_S64x1024 := rfl
example : linS 3 = ((cc0_scratch7.slice (Rect.unit (s := S32) ![3] S1.size inb_S32_S1_3)).squeeze S_ squeezes_S1_S_).sem := rfl

end Cert.Kernel.RS

end
-- ==== Proof.Bits.Mesh.lean ====
/- The 2×2 mesh: device `c` sits at position (x, y) = (c / 2, c % 2).  Two involutions move along one
   axis: `ypeer` keeps x and flips y, `xpeer` keeps y and flips x.  Every printed device chain of the
   program evaluates to one of the two, and the printed offset chains at a peer are the device's own
   with one coordinate flipped. -/
import proofs.«900309_g7700000000000310_dist_rs_v7x_xy2x2_y_m4096_n1024_f32_1_alg».proof.Kernel
import proofs.«900309_g7700000000000310_dist_rs_v7x_xy2x2_y_m4096_n1024_f32_1_alg».proof.Proof.Gen.Kernel

namespace Cert.Kernel.RS

open Cert.Kernel Cert.Kernel.Gen Idealize.ShloMosaic

/-- Same x, other y: position (c / 2, 1 - c % 2). -/
def ypeer (c : Dev nD) : Dev nD := ⟨(2 * (c.val / 2) + 1) - (c.val % 2), by revert c; decide⟩

/-- Other x, same y: position (1 - c / 2, c % 2). -/
def xpeer (c : Dev nD) : Dev nD := ⟨((c.val % 2) + 2) - 2 * (c.val / 2), by revert c; decide⟩

theorem ypeer_ypeer (c : Dev nD) : ypeer (ypeer c) = c := by revert c; decide
theorem xpeer_xpeer (c : Dev nD) : xpeer (xpeer c) = c := by revert c; decide
theorem xpeer_ypeer (c : Dev nD) : xpeer (ypeer c) = ypeer (xpeer c) := by revert c; decide
theorem ypeer_ne (c : Dev nD) : ypeer c ≠ c := by revert c; decide
theorem xpeer_ne (c : Dev nD) : xpeer c ≠ c := by revert c; decide
theorem ypeer_ne_xpeer (c : Dev nD) : ypeer c ≠ xpeer c := by revert c; decide

theorem ypeer_val_mod (c : Dev nD) : (ypeer c).val % 2 = 1 - c.val % 2 := by revert c; decide
theorem ypeer_val_div (c : Dev nD) : (ypeer c).val / 2 = c.val / 2 := by revert c; decide
theorem xpeer_val_mod (c : Dev nD) : (xpeer c).val % 2 = c.val % 2 := by revert c; decide
theorem xpeer_val_div (c : Dev nD) : (xpeer c).val / 2 = 1 - c.val / 2 := by revert c; decide

/-- The first barrier signal goes to the y-peer. -/
theorem dev1_eq (c : Dev nD) : (⟨k0_dev1 c, k0_dev1_lt c⟩ : Dev nD) = ypeer c :=
  Fin.ext (k0_dev1_eq c)

/-- The second barrier signal goes to the x-peer. -/
theorem dev2_eq (c : Dev nD) : (⟨k0_dev2 c, k0_dev2_lt c⟩ : Dev nD) = xpeer c :=
  Fin.ext (k0_dev2_eq c)

/-- The target of the transfer of row chunk `k` along the y axis, as printed. -/
def ydev (c : Dev nD) : Fin 32 → Dev nD
  | 0 => ⟨k0_dev3 c, k0_dev3_lt c⟩
  | 1 => ⟨k0_dev4 c, k0_dev4_lt c⟩
  | 2 => ⟨k0_dev5 c, k0_dev5_lt c⟩
  | 3 => ⟨k0_dev6 c, k0_dev6_lt c⟩
  | 4 => ⟨k0_dev7 c, k0_dev7_lt c⟩
  | 5 => ⟨k0_dev8 c, k0_dev8_lt c⟩
  | 6 => ⟨k0_dev9 c, k0_dev9_lt c⟩
  | 7 => ⟨k0_dev10 c, k0_dev10_lt c⟩
  | 8 => ⟨k0_dev11 c, k0_dev11_lt c⟩
  | 9 => ⟨k0_dev12 c, k0_dev12_lt c⟩
  | 10 => ⟨k0_dev13 c, k0_dev13_lt c⟩
  | 11 => ⟨k0_dev14 c, k0_dev14_lt c⟩
  | 12 => ⟨k0_dev15 c, k0_dev15_lt c⟩
  | 13 => ⟨k0_dev16 c, k0_dev16_lt c⟩
  | 14 => ⟨k0_dev17 c, k0_dev17_lt c⟩
  | 15 => ⟨k0_dev18 c, k0_dev18_lt c⟩
  | 16 => ⟨k0_dev19 c, k0_dev19_lt c⟩
  | 17 => ⟨k0_dev20 c, k0_dev20_lt c⟩
  | 18 => ⟨k0_dev21 c, k0_dev21_lt c⟩
  | 19 => ⟨k0_dev22 c, k0_dev22_lt c⟩
  | 20 => ⟨k0_dev23 c, k0_dev23_lt c⟩
  | 21 => ⟨k0_dev24 c, k0_dev24_lt c⟩
  | 22 => ⟨k0_dev25 c, k0_dev25_lt c⟩
  | 23 => ⟨k0_dev26 c, k0_dev26_lt c⟩
  | 24 => ⟨k0_dev27 c, k0_dev27_lt c⟩
  | 25 => ⟨k0_dev28 c, k0_dev28_lt c⟩
  | 26 => ⟨k0_dev29 c, k0_dev29_lt c⟩
  | 27 => ⟨k0_dev30 c, k0_dev30_lt c⟩
  | 28 => ⟨k0_dev31 c, k0_dev31_lt c⟩
  | 29 => ⟨k0_dev32 c, k0_dev32_lt c⟩
  | 30 => ⟨k0_dev33 c, k0_dev33_lt c⟩
  | 31 => ⟨k0_dev34 c, k0_dev34_lt c⟩
  | ⟨n + 32, h⟩ => absurd h (by omega)

/-- The target of the transfer of row chunk `k` along the x axis, as printed. -/
def xdev (c : Dev nD) : Fin 32 → Dev nD
  | 0 => ⟨k0_dev35 c, k0_dev35_lt c⟩
  | 1 => ⟨k0_dev36 c, k0_dev36_lt c⟩
  | 2 => ⟨k0_dev37 c, k0_dev37_lt c⟩
  | 3 => ⟨k0_dev38 c, k0_dev38_lt c⟩
  | 4 => ⟨k0_dev39 c, k0_dev39_lt c⟩
  | 5 => ⟨k0_dev40 c, k0_dev40_lt c⟩
  | 6 => ⟨k0_dev41 c, k0_dev41_lt c⟩
  | 7 => ⟨k0_dev42 c, k0_dev42_lt c⟩
  | 8 => ⟨k0_dev43 c, k0_dev43_lt c⟩
  | 9 => ⟨k0_dev44 c, k0_dev44_lt c⟩
  | 10 => ⟨k0_dev45 c, k0_dev45_lt c⟩
  | 11 => ⟨k0_dev46 c, k0_dev46_lt c⟩
  | 12 => ⟨k0_dev47 c, k0_dev47_lt c⟩
  | 13 => ⟨k0_dev48 c, k0_dev48_lt c⟩
  | 14 => ⟨k0_dev49 c, k0_dev49_lt c⟩
  | 15 => ⟨k0_dev50 c, k0_dev50_lt c⟩
  | 16 => ⟨k0_dev51 c, k0_dev51_lt c⟩
  | 17 => ⟨k0_dev52 c, k0_dev52_lt c⟩
  | 18 => ⟨k0_dev53 c, k0_dev53_lt c⟩
  | 19 => ⟨k0_dev54 c, k0_dev54_lt c⟩
  | 20 => ⟨k0_dev55 c, k0_dev55_lt c⟩
  | 21 => ⟨k0_dev56 c, k0_dev56_lt c⟩
  | 22 => ⟨k0_dev57 c, k0_dev57_lt c⟩
  | 23 => ⟨k0_dev58 c, k0_dev58_lt c⟩
  | 24 => ⟨k0_dev59 c, k0_dev59_lt c⟩
  | 25 => ⟨k0_dev60 c, k0_dev60_lt c⟩
  | 26 => ⟨k0_dev61 c, k0_dev61_lt c⟩
  | 27 => ⟨k0_dev62 c, k0_dev62_lt c⟩
  | 28 => ⟨k0_dev63 c, k0_dev63_lt c⟩
  | 29 => ⟨k0_dev64 c, k0_dev64_lt c⟩
  | 30 => ⟨k0_dev65 c, k0_dev65_lt c⟩
  | 31 => ⟨k0_dev66 c, k0_dev66_lt c⟩
  | ⟨n + 32, h⟩ => absurd h (by omega)

/-- Every transfer along the y axis goes to the y-peer. -/
theorem ydev_eq (c : Dev nD) : ∀ k : Fin 32, ydev c k = ypeer c
  | 0 => Fin.ext (k0_dev3_eq c)
  | 1 => Fin.ext (k0_dev4_eq c)
  | 2 => Fin.ext (k0_dev5_eq c)
  | 3 => Fin.ext (k0_dev6_eq c)
  | 4 => Fin.ext (k0_dev7_eq c)
  | 5 => Fin.ext (k0_dev8_eq c)
  | 6 => Fin.ext (k0_dev9_eq c)
  | 7 => Fin.ext (k0_dev10_eq c)
  | 8 => Fin.ext (k0_dev11_eq c)
  | 9 => Fin.ext (k0_dev12_eq c)
  | 10 => Fin.ext (k0_dev13_eq c)
  | 11 => Fin.ext (k0_dev14_eq c)
  | 12 => Fin.ext (k0_dev15_eq c)
  | 13 => Fin.ext (k0_dev16_eq c)
  | 14 => Fin.ext (k0_dev17_eq c)
  | 15 => Fin.ext (k0_dev18_eq c)
  | 16 => Fin.ext (k0_dev19_eq c)
  | 17 => Fin.ext (k0_dev20_eq c)
  | 18 => Fin.ext (k0_dev21_eq c)
  | 19 => Fin.ext (k0_dev22_eq c)
  | 20 => Fin.ext (k0_dev23_eq c)
  | 21 => Fin.ext (k0_dev24_eq c)
  | 22 => Fin.ext (k0_dev25_eq c)
  | 23 => Fin.ext (k0_dev26_eq c)
  | 24 => Fin.ext (k0_dev27_eq c)
  | 25 => Fin.ext (k0_dev28_eq c)
  | 26 => Fin.ext (k0_dev29_eq c)
  | 27 => Fin.ext (k0_dev30_eq c)
  | 28 => Fin.ext (k0_dev31_eq c)
  | 29 => Fin.ext (k0_dev32_eq c)
  | 30 => Fin.ext (k0_dev33_eq c)
  | 31 => Fin.ext (k0_dev34_eq c)
  | ⟨n + 32, h⟩ => absurd h (by omega)

/-- Every transfer along the x axis goes to the x-peer. -/
theorem xdev_eq (c : Dev nD) : ∀ k : Fin 32, xdev c k = xpeer c
  | 0 => Fin.ext (k0_dev35_eq c)
  | 1 => Fin.ext (k0_dev36_eq c)
  | 2 => Fin.ext (k0_dev37_eq c)
  | 3 => Fin.ext (k0_dev38_eq c)
  | 4 => Fin.ext (k0_dev39_eq c)
  | 5 => Fin.ext (k0_dev40_eq c)
  | 6 => Fin.ext (k0_dev41_eq c)
  | 7 => Fin.ext (k0_dev42_eq c)
  | 8 => Fin.ext (k0_dev43_eq c)
  | 9 => Fin.ext (k0_dev44_eq c)
  | 10 => Fin.ext (k0_dev45_eq c)
  | 11 => Fin.ext (k0_dev46_eq c)
  | 12 => Fin.ext (k0_dev47_eq c)
  | 13 => Fin.ext (k0_dev48_eq c)
  | 14 => Fin.ext (k0_dev49_eq c)
  | 15 => Fin.ext (k0_dev50_eq c)
  | 16 => Fin.ext (k0_dev51_eq c)
  | 17 => Fin.ext (k0_dev52_eq c)
  | 18 => Fin.ext (k0_dev53_eq c)
  | 19 => Fin.ext (k0_dev54_eq c)
  | 20 => Fin.ext (k0_dev55_eq c)
  | 21 => Fin.ext (k0_dev56_eq c)
  | 22 => Fin.ext (k0_dev57_eq c)
  | 23 => Fin.ext (k0_dev58_eq c)
  | 24 => Fin.ext (k0_dev59_eq c)
  | 25 => Fin.ext (k0_dev60_eq c)
  | 26 => Fin.ext (k0_dev61_eq c)
  | 27 => Fin.ext (k0_dev62_eq c)
  | 28 => Fin.ext (k0_dev63_eq c)
  | 29 => Fin.ext (k0_dev64_eq c)
  | 30 => Fin.ext (k0_dev65_eq c)
  | 31 => Fin.ext (k0_dev66_eq c)
  | ⟨n + 32, h⟩ => absurd h (by omega)

/-- The y-peer's other column half is the device's own column half, at the same rows (x is shared). -/
theorem off2_ypeer (c : Dev nD) (k : Fin 32) :
    k0_off2 (ypeer c) (BitVec.ofNat 32 (64 * k.val)) = k0_off1 c (BitVec.ofNat 32 (64 * k.val)) := by
  rw [k0_off2_eq, k0_off1_eq, ypeer_val_div, ypeer_val_mod]
  have h : 1024 - 1024 * (1 - c.val % 2) = 1024 * (c.val % 2) := by omega
  rw [h]

/-- The x-peer's row block starts at the other half of the rows. -/
theorem off3_xpeer_val (c : Dev nD) (k : Fin 32) :
    k0_off3 (xpeer c) (BitVec.ofNat 32 (64 * k.val)) = ![2048 * (1 - c.val / 2) + 64 * k.val, 0] := by
  rw [k0_off3_eq, xpeer_val_div]

/-- info: 'Cert.Kernel.RS.ydev_eq' depends on axioms: [propext, Quot.sound] -/
#guard_msgs in #print axioms ydev_eq

/-- info: 'Cert.Kernel.RS.off2_ypeer' depends on axioms: [propext, Classical.choice, Quot.sound] -/
#guard_msgs in #print axioms off2_ypeer

end Cert.Kernel.RS
-- ==== Proof.Bits.Sched.lean ====
/-
  The protocol of the reduce-scatter kernel under the rounds discipline: one round per cell.
  A device's barrier cell has two duties of one unit: `false`, paid by its neighbour in the other mesh column,
  hands it that neighbour's 32 chunks of `comm` (to write into) and that the neighbour's 32 receive cells stand at round
  0; `true`, paid by its neighbour in the other mesh row, hands it the 32 chunks of that neighbour's result at the
  device's own row half, likewise. Every DMA cell has the one duty `false` of a chunk's credit:
  a send cell's hands back the source share; the receive cell of the column transfers hands the device chunk `k` of
  `comm` holding the neighbour's other-column-half rows; the receive cell of the row transfers chunk `k` of the
  neighbour's row half of the result holding the neighbour's partial sums; a local copy's cell hands the destination
  written and the source share.
-/
import proofs.«900309_g7700000000000310_dist_rs_v7x_xy2x2_y_m4096_n1024_f32_1_alg».proof.Proof.Bits.Cells
import proofs.«900309_g7700000000000310_dist_rs_v7x_xy2x2_y_m4096_n1024_f32_1_alg».proof.Proof.Bits.Mesh
import proofs.«900309_g7700000000000310_dist_rs_v7x_xy2x2_y_m4096_n1024_f32_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev ySendCell (c : Dev nD) (k : Fin 32) : GSem nD τ sig := ((c : Thread nD τ), .dma (ySendS k))
abbrev yRecvCell (c : Dev nD) (k : Fin 32) : GSem nD τ sig := ((c : Thread nD τ), .dma (yRecvS k))
abbrev xSendCell (c : Dev nD) (k : Fin 32) : GSem nD τ sig := ((c : Thread nD τ), .dma (xSendS k))
abbrev xRecvCell (c : Dev nD) (k : Fin 32) : GSem nD τ sig := ((c : Thread nD τ), .dma (xRecvS k))
abbrev linCell (c : Dev nD) (k : Fin 32) : GSem nD τ sig := ((c : Thread nD τ), .dma (linS k))
abbrev outCell (c : Dev nD) (k : Fin 32) : GSem nD τ sig := ((c : Thread nD τ), .dma (outS k))

/-- A chunk's credit: every transfer of the kernel moves 64 × 1024 words. -/
abbrev N : ℕ := (linSl 0 : Memref sig .tc .vmem S64x1024 .f32).view.dmaCredit
theorem N_pos : 0 < N := View.dmaCredit_pos _ (by decide)

/-- The array a DMA semaphore belongs to (0 column-send, 1 column-receive, 2 row-send, 3 row-receive, 4 copy in,
    5 copy out) and its chunk: the six arrays are consecutive blocks of 32. -/
def arrOf (i : DmaSem sig) : ℕ := i.val / 32
def chunkOf (i : DmaSem sig) : Fin 32 := ⟨i.val % 32, Nat.mod_lt _ (by decide)⟩

/-! ## Contents -/

/-- Device `c`'s argument block as launched. -/
abbrev argBuf (c : Dev nD) : Buf (Elt F) ((c : Thread nD τ).loc main_arg0) := m ((c : Thread nD τ).loc main_arg0)

/-- Chunk `k` of `c`'s own row half, own column half; -/
def ownChunk (c : Dev nD) (k : Fin 32) : Vec F S64x1024 .f32 := (argOwnSl c k).view.read (Elt F) (argBuf m c)
/-- other column half: what `c` sends across the columns. -/
def peerChunk (c : Dev nD) (k : Fin 32) : Vec F S64x1024 .f32 := (argPeerSl c k).view.read (Elt F) (argBuf m c)
/-- Chunk `k` of `c`'s partial sums: its own chunk plus the one the neighbour in the other column sent. -/
def partChunk (c : Dev nD) (k : Fin 32) : Vec F S64x1024 .f32 := k0_pay1 (ownChunk m c k) (peerChunk m (ypeer c) k)

/-- A share of chunk `k` of the argument block's own column half, at the launch contents; -/
def argOwnPts (c : Dev nD) (k : Fin 32) (q : PosShare TreeShare) : sProp 𝕄 :=
  (argOwnSl c k).view.loc (c : Thread nD τ) ↦[(argOwnSl c k).view.set]{q} argBuf m c
/-- of the other column half. -/
def argPeerPts (c : Dev nD) (k : Fin 32) (q : PosShare TreeShare) : sProp 𝕄 :=
  (argPeerSl c k).view.loc (c : Thread nD τ) ↦[(argPeerSl c k).view.set]{q} argBuf m c
/-- A slice on device `c` at some contents. -/
def anyPts {sp : Space} (c : Dev nD) (v : Memref sig .tc sp S64x1024 .f32) (q : PosShare TreeShare) : sProp 𝕄 :=
  iprop(∃ f, v.view.loc (c : Thread nD τ) ↦[v.view.set]{q} f)

/-! ## The payloads -/

def ySendPay (c : Dev nD) (k : Fin 32) : sProp 𝕄 := argPeerPts m c k fullShare
def yRecvPay (c : Dev nD) (k : Fin 32) : sProp 𝕄 := owns (c : Thread nD τ) (commSl k) fullShare (peerChunk m (ypeer c) k)
def xSendPay (c : Dev nD) (k : Fin 32) : sProp 𝕄 := anyPts (F := F) c (partSl k) fullShare.left
def xRecvPay (c : Dev nD) (k : Fin 32) : sProp 𝕄 := owns (c : Thread nD τ) (outSl (xpeer c) k) fullShare (partChunk m (xpeer c) k)
def linPay (c : Dev nD) (k : Fin 32) : sProp 𝕄 :=
  iprop(owns (c : Thread nD τ) (linSl k) fullShare (ownChunk m c k) ∗ argOwnPts m c k fullShare)
def outPay (c : Dev nD) (k : Fin 32) : sProp 𝕄 :=
  iprop(owns (c : Thread nD τ) (outSl c k) fullShare (partChunk m c k) ∗ anyPts (F := F) c (partSl k) fullShare.right)

/-- What the neighbour in the other column hands device `o` with its barrier unit; -/
def barPayY (o : Dev nD) : sProp 𝕄 :=
  bigSep Finset.univ fun k : Fin 32 => iprop(anyPts (F := F) (ypeer o) (commSl k) fullShare ∗ reached ER (yRecvCell (ypeer o) k) 0)
/-- what the neighbour in the other row does. -/
def barPayX (o : Dev nD) : sProp 𝕄 :=
  bigSep Finset.univ fun k : Fin 32 => iprop(anyPts (F := F) (xpeer o) (outSl o k) fullShare ∗ reached ER (xRecvCell (xpeer o) k) 0)

def dmaPay (c : Dev nD) (a : ℕ) (k : Fin 32) : sProp 𝕄 :=
  match a with
  | 0 => ySendPay m c k
  | 1 => yRecvPay m c k
  | 2 => xSendPay (F := F) c k
  | 3 => xRecvPay m c k
  | 4 => linPay m c k
  | _ => outPay m c k

/-! ## The schedule: one round, round 0 -/

def rsRd : Rounds.Schedule (GSem nD τ sig) Bool 𝕄 where
  duties g r :=
    if r = 0 ∧ g.1.2 = .tc then
      (match g.2 with
        | .reg s => if s = barS then Finset.univ else ∅
        | .dma _ => {false})
    else ∅
  unitless _ := False
  amount g _ _ := match g.2 with
    | .reg _ => 1
    | .dma _ => N
  payload g _ d := match g.2 with
    | .reg _ => if d then barPayX (F := F) g.1.1 else barPayY (F := F) g.1.1
    | .dma i => dmaPay m g.1.1 (arrOf i) (chunkOf i)
  amount_pos g _ _ _ := by
    cases g.2 with
    | reg _ => exact Nat.one_pos
    | dma _ => exact N_pos

end Cert.Kernel.RS

end
-- ==== Proof.Bits.Ops.lean ====
/-
  The kernel's body as a program over the chunk-indexed views: the entry handshake on the barrier semaphore (one unit
  to each of the two neighbours, a wait for two), then three passes over the 32 chunks.
  Pass 1, chunk `k`: start the local copy of the device's own column half of the chunk's rows into `lin`, and the
  transfer of the other column half into the `comm` buffer of the neighbour in the other mesh column.
  Pass 2, chunk `k`: wait for the neighbour's chunk to land in `comm` and for the local copy; store their sum into
  `part`; start the transfer of that chunk of `part` into the result of the neighbour in the other mesh row, and its
  local copy into the device's own result, both at the rows of the device's own row half.
  Pass 3, chunk `k`: wait for both transfers' send sides, for the neighbour's chunk to land in the result, and for
  the local copy out.
  The printed body is this program: the printer's cut into parts and its per-chunk names unfold to it.
-/
import proofs.«900309_g7700000000000310_dist_rs_v7x_xy2x2_y_m4096_n1024_f32_1_alg».proof.Proof.Bits.Cells
import proofs.«900309_g7700000000000310_dist_rs_v7x_xy2x2_y_m4096_n1024_f32_1_alg».proof.Proof.Bits.Mesh
import proofs.«900309_g7700000000000310_dist_rs_v7x_xy2x2_y_m4096_n1024_f32_1_alg».proof.Proof.Gen.Kernel.Skeleton
import proofs.«900309_g7700000000000310_dist_rs_v7x_xy2x2_y_m4096_n1024_f32_1_alg».proof.Proof.Gen.Kernel.Points
import proofs.«900309_g7700000000000310_dist_rs_v7x_xy2x2_y_m4096_n1024_f32_1_alg».proof.Proof.Gen.Kernel.Launch

noncomputable section

namespace Cert.Kernel.RS

open Cert.Kernel Cert.Kernel.Gen
open Idealize.ShloMosaic Idealize.ShloMosaic.TcCoe Idealize.SL.Sem

variable {F : FTy → Type} [FloatOps F]

abbrev P (F : FTy → Type) [FloatOps F] (α : Type) : Type 1 := Prog (TpuEff nD τ sig (Elt F) Λ₀ .tc) α

/-- Pass 1 at chunk `k`. -/
def pass1 (c : Dev nD) (k : Fin 32) (rest : P F PUnit) : P F PUnit := do
  Prog.lift (.enqueueDma (argOwnSl c k) (.here (linSl k)) (.dma (linS k)) ((View.wordExact_bits rfl).reshape _ _) (View.wordExact_bits rfl) ⟨Or.inl rfl, trivial⟩)
  Prog.lift (.enqueueDma (argPeerSl c k) (.remote (Dev.tc (ydev c k)) (commSl k) (.dma (ySendS k))) (.dma (yRecvS k)) ((View.wordExact_bits rfl).reshape _ _) (View.wordExact_bits rfl) ⟨⟨rfl, Or.inl rfl⟩, trivial⟩)
  rest

/-- Pass 2 at chunk `k`. -/
def pass2 (c : Dev nD) (k : Fin 32) (rest : P F PUnit) : P F PUnit := do
  Prog.lift (.waitDma2 (yRecvS k) (argPeerSl c k) (commSl k) ((View.wordExact_bits rfl).reshape _ _) (View.wordExact_bits rfl))
  Prog.lift (.waitDma2 (linS k) (argOwnSl c k) (linSl k) ((View.wordExact_bits rfl).reshape _ _) (View.wordExact_bits rfl))
  let vl : Vec F S64x1024 .f32 ← Prog.lift (.load linM (chunkR k).toLoadRect (View.loadsAt_vmem h_S64x1024))
  let vc : Vec F S64x1024 .f32 ← Prog.lift (.load commM (chunkR k).toLoadRect (View.loadsAt_vmem h_S64x1024))
  let _vp : Vec F S64x1024 .f32 ← Prog.lift (.load partM (chunkR k).toLoadRect (View.loadsAt_vmem h_S64x1024))
  Prog.lift (.store partM (chunkR k) (k0_pay1 vl vc) Finset.univ (View.stores_vmem_bits_univ h_S64x1024 rfl) (.inl rfl))
  Prog.lift (.enqueueDma (partSl k) (.remote (Dev.tc (xdev c k)) (outSl c k) (.dma (xSendS k))) (.dma (xRecvS k)) (View.wordExact_bits rfl) (View.wordExact_bits rfl) ⟨⟨rfl, Or.inl rfl⟩, trivial⟩)
  Prog.lift (.enqueueDma (partSl k) (.here (outSl c k)) (.dma (outS k)) (View.wordExact_bits rfl) (View.wordExact_bits rfl) ⟨Or.inl rfl, trivial⟩)
  rest

/-- Pass 3 at chunk `k`. -/
def pass3 (c : Dev nD) (k : Fin 32) (rest : P F PUnit) : P F PUnit := do
  Prog.lift (.waitDma2 (ySendS k) (commSl k) (argPeerSl c k) (View.wordExact_bits rfl) ((View.wordExact_bits rfl).reshape _ _))
  Prog.lift (.waitDma2 (xSendS k) (outSl c k) (partSl k) (View.wordExact_bits rfl) (View.wordExact_bits rfl))
  Prog.lift (.waitDma2 (xRecvS k) (partSl k) (outSl c k) (View.wordExact_bits rfl) (View.wordExact_bits rfl))
  Prog.lift (.waitDma2 (outS k) (partSl k) (outSl c k) (View.wordExact_bits rfl) (View.wordExact_bits rfl))
  rest

/-- One pass over a list of chunks, in order, then `rest`. -/
def overChunks (f : Fin 32 → P F PUnit → P F PUnit) : List (Fin 32) → P F PUnit → P F PUnit
  | [], rest => rest
  | k :: ks, rest => f k (overChunks f ks rest)

/-- The 32 chunks in order. -/
def chunks : List (Fin 32) :=
  [0, 1, 2, 3, 4, 5, 6, 7, 8, 9, 10, 11, 12, 13, 14, 15, 16, 17, 18, 19, 20, 21, 22, 23, 24, 25, 26, 27, 28, 29, 30, 31]

/-- The entry handshake: one unit to each of the two neighbours' barrier semaphores, then a wait for two. -/
def entry (c : Dev nD) (rest : P F PUnit) : P F PUnit := do
  semSignalWord (⟨k0_dev1 c, k0_dev1_lt c⟩ : Dev nD) barS 1#32 hamt_1
  semSignalWord (⟨k0_dev2 c, k0_dev2_lt c⟩ : Dev nD) barS 1#32 hamt_1
  semWaitWord barS 2#32 hamt_2
  rest

/-- The body on device `c` after it has read its device id. -/
def bodyAt (c : Dev nD) : P F PUnit :=
  entry c (overChunks (pass1 c) chunks (overChunks (pass2 c) chunks (overChunks (pass3 c) chunks (pure ⟨⟩))))

/-- The body: read the device id, then `bodyAt`. -/
def bodyProg : P F PUnit := do
  let d0 : Dev nD ← Prog.lift .deviceId
  bodyAt d0

set_option maxRecDepth 1000000 in
set_option maxHeartbeats 4000000 in
/-- The printed body, called on the whole buffers and the six semaphore arrays, is `bodyProg`. -/
theorem body_eq : bodyAt0 (F := F) t0_0 = bodyProg (F := F) := rfl

end Cert.Kernel.RS

end
-- ==== Proof.Bits.State.lean ====
/-
  What a device holds between the steps of the protocol, and the rule each step obeys.
  A device owes, at launch, one unit to each neighbour's barrier cell and a chunk's credit to each of the 32 receive
  cells of its column neighbour and of its row neighbour; the sums over the chunks still to be sent shrink as the passes
  run. Levels: the barrier cells stand below the column receive cells, these below the row receive cells, and every
  other cell at the bottom, so that each wait is below everything the waiter still owes.
  Per chunk and pass: what the pass takes (`T`) and what it leaves (`D`).
-/
import proofs.«900309_g7700000000000310_dist_rs_v7x_xy2x2_y_m4096_n1024_f32_1_alg».proof.Proof.Bits.Sched
import proofs.«900309_g7700000000000310_dist_rs_v7x_xy2x2_y_m4096_n1024_f32_1_alg».proof.Proof.Bits.Ops

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What is owed, and the levels -/

/-- The credits device `c` still owes its column neighbour's receive cells, over the chunks `S` not yet sent; -/
def Oy (c : Dev nD) (S : Finset (Fin 32)) : CellTallies nD τ sig Unit := ∑ k ∈ S, tallyAt (yRecvCell (ypeer c) k) () N
/-- its row neighbour's. -/
def Ox (c : Dev nD) (S : Finset (Fin 32)) : CellTallies nD τ sig Unit := ∑ k ∈ S, tallyAt (xRecvCell (xpeer c) k) () N
/-- After the handshake: every chunk of both. -/
def O₁ (c : Dev nD) : CellTallies nD τ sig Unit := Oy c Finset.univ + Ox c Finset.univ
/-- At launch: those and one unit to each neighbour's barrier cell (the column neighbour's is signalled first). -/
def O₀ (c : Dev nD) : CellTallies nD τ sig Unit := O₁ c + tallyAt (barCell (xpeer c)) () 1 + tallyAt (barCell (ypeer c)) () 1

def L (g : GSem nD τ sig) : Finset Unit := if g.1.2 = .tc then {()} else ∅
def lv (g : GSem nD τ sig) (_ : Unit) : ℕ :=
  match g.2 with
  | .reg _ => 1
  | .dma i => if arrOf i = 1 then 2 else if arrOf i = 3 then 3 else 0

/-- What a device owes, the record of its past waits left open. -/
def owesAny (c : Dev nD) (O : CellTallies nD τ sig Unit) : sProp 𝕄 := iprop(∃ W, owes (c : Thread nD τ) O W)

/-! ## What a device knows for good: the invariants of the cells it touches, at the names `K`, and that each stands at round 0 -/

def known (K : Dev nD → SemLoc sig → ℕ) (c : Dev nD) : sProp 𝕄 :=
  iprop((cellInv ER (rsRd m) (K c (.reg barS)) (barCell c) ∗ cellInv ER (rsRd m) (K (ypeer c) (.reg barS)) (barCell (ypeer c))
      ∗ cellInv ER (rsRd m) (K (xpeer c) (.reg barS)) (barCell (xpeer c))
      ∗ reached ER (barCell (ypeer c)) 0 ∗ reached ER (barCell (xpeer c)) 0)
    ∗ bigSep Finset.univ fun k : Fin 32 => iprop(
        (cellInv ER (rsRd m) (K c (.dma (ySendS k))) (ySendCell c k) ∗ cellInv ER (rsRd m) (K c (.dma (yRecvS k))) (yRecvCell c k)
          ∗ cellInv ER (rsRd m) (K c (.dma (xSendS k))) (xSendCell c k) ∗ cellInv ER (rsRd m) (K c (.dma (xRecvS k))) (xRecvCell c k)
          ∗ cellInv ER (rsRd m) (K c (.dma (linS k))) (linCell c k) ∗ cellInv ER (rsRd m) (K c (.dma (outS k))) (outCell c k)
          ∗ cellInv ER (rsRd m) (K (ypeer c) (.dma (yRecvS k))) (yRecvCell (ypeer c) k)
          ∗ cellInv ER (rsRd m) (K (xpeer c) (.dma (xRecvS k))) (xRecvCell (xpeer c) k))
        ∗ (reached ER (ySendCell c k) 0 ∗ reached ER (yRecvCell c k) 0 ∗ reached ER (xSendCell c k) 0 ∗ reached ER (xRecvCell c k) 0
          ∗ reached ER (linCell c k) 0 ∗ reached ER (outCell c k) 0
          ∗ reached ER (yRecvCell (ypeer c) k) 0 ∗ reached ER (xRecvCell (xpeer c) k) 0)))

instance known_persistent (K : Dev nD → SemLoc sig → ℕ) (c : Dev nD) : BI.Persistent (known m K c) := by unfold known; infer_instance

/-! ## The handshake -/

/-- Before: the two tokens it pays the neighbours' barrier cells with, what it hands them (its 32 chunks of `comm`; the
    32 chunks of its result at the row neighbour's row half), its own barrier cell's two units of credit and position. -/
def E0 (c : Dev nD) : sProp 𝕄 :=
  iprop(dutyTok ER (barCell (ypeer c)) 0 false ∗ dutyTok ER (barCell (xpeer c)) 0 true
    ∗ (bigSep Finset.univ fun k : Fin 32 => anyPts (F := F) c (commSl k) fullShare)
    ∗ (bigSep Finset.univ fun k : Fin 32 => anyPts (F := F) c (outSl (xpeer c) k) fullShare)
    ∗ cred (tallyAt (barCell c) () 2) ∗ atPos ER (barCell c) 0 ∅ 0)
/-- After: the column neighbour's 32 chunks of `comm` and the row neighbour's 32 chunks of result at its own row half. -/
def E1 (c : Dev nD) : sProp 𝕄 :=
  iprop((bigSep Finset.univ fun k : Fin 32 => anyPts (F := F) (ypeer c) (commSl k) fullShare)
    ∗ (bigSep Finset.univ fun k : Fin 32 => anyPts (F := F) (xpeer c) (outSl c k) fullShare)
    ∗ atPos ER (barCell c) 1 ∅ 0)

/-! ## Pass 1, chunk `k` -/

def T1 (c : Dev nD) (k : Fin 32) : sProp 𝕄 :=
  iprop(argOwnPts m c k fullShare ∗ argPeerPts m c k fullShare ∗ anyPts (F := F) c (linSl k) fullShare
    ∗ anyPts (F := F) (ypeer c) (commSl k) fullShare
    ∗ dutyTok ER (linCell c k) 0 false ∗ dutyTok ER (ySendCell c k) 0 false ∗ dutyTok ER (yRecvCell (ypeer c) k) 0 false)
def D1 (c : Dev nD) (k : Fin 32) : sProp 𝕄 :=
  iprop(cred (tallyAt (linCell c k) () N) ∗ cred (tallyAt (ySendCell c k) () N))

/-! ## Pass 2, chunk `k` -/

def T2 (c : Dev nD) (k : Fin 32) : sProp 𝕄 :=
  iprop(cred (tallyAt (linCell c k) () N) ∗ cred (tallyAt (yRecvCell c k) () N)
    ∗ atPos ER (linCell c k) 0 ∅ 0 ∗ atPos ER (yRecvCell c k) 0 ∅ 0
    ∗ anyPts (F := F) c (partSl k) fullShare ∗ anyPts (F := F) (xpeer c) (outSl c k) fullShare ∗ anyPts (F := F) c (outSl c k) fullShare
    ∗ dutyTok ER (xSendCell c k) 0 false ∗ dutyTok ER (xRecvCell (xpeer c) k) 0 false ∗ dutyTok ER (outCell c k) 0 false)
def D2 (c : Dev nD) (k : Fin 32) : sProp 𝕄 :=
  iprop(anyPts (F := F) c (linSl k) fullShare ∗ anyPts (F := F) c (commSl k) fullShare ∗ argOwnPts m c k fullShare
    ∗ atPos ER (linCell c k) 1 ∅ 0 ∗ atPos ER (yRecvCell c k) 1 ∅ 0
    ∗ cred (tallyAt (xSendCell c k) () N) ∗ cred (tallyAt (outCell c k) () N))

/-! ## Pass 3, chunk `k` -/

def T3 (c : Dev nD) (k : Fin 32) : sProp 𝕄 :=
  iprop(cred (tallyAt (ySendCell c k) () N) ∗ cred (tallyAt (xSendCell c k) () N) ∗ cred (tallyAt (xRecvCell c k) () N)
    ∗ cred (tallyAt (outCell c k) () N)
    ∗ atPos ER (ySendCell c k) 0 ∅ 0 ∗ atPos ER (xSendCell c k) 0 ∅ 0 ∗ atPos ER (xRecvCell c k) 0 ∅ 0 ∗ atPos ER (outCell c k) 0 ∅ 0)
def D3 (c : Dev nD) (k : Fin 32) : sProp 𝕄 :=
  iprop(argPeerPts m c k fullShare ∗ anyPts (F := F) c (partSl k) fullShare
    ∗ owns (c : Thread nD τ) (outSl c k) fullShare (partChunk m c k)
    ∗ owns (c : Thread nD τ) (outSl (xpeer c) k) fullShare (partChunk m (xpeer c) k)
    ∗ atPos ER (ySendCell c k) 1 ∅ 0 ∗ atPos ER (xSendCell c k) 1 ∅ 0 ∗ atPos ER (xRecvCell c k) 1 ∅ 0 ∗ atPos ER (outCell c k) 1 ∅ 0)

/-- The six cells of chunk `k`, each past its one round. -/
def atEnd (c : Dev nD) (k : Fin 32) : sProp 𝕄 :=
  iprop(atPos ER (ySendCell c k) 1 ∅ 0 ∗ atPos ER (yRecvCell c k) 1 ∅ 0 ∗ atPos ER (xSendCell c k) 1 ∅ 0
    ∗ atPos ER (xRecvCell c k) 1 ∅ 0 ∗ atPos ER (linCell c k) 1 ∅ 0 ∗ atPos ER (outCell c k) 1 ∅ 0)
/-- Their counters at zero, the device's again. -/
def zeros (c : Dev nD) (k : Fin 32) : sProp 𝕄 :=
  iprop(semVal (ySendCell c k) 0 ∗ semVal (yRecvCell c k) 0 ∗ semVal (xSendCell c k) 0
    ∗ semVal (xRecvCell c k) 0 ∗ semVal (linCell c k) 0 ∗ semVal (outCell c k) 0)

end Cert.Kernel.RS

end
-- ==== Proof.Bits.Vals.lean ====
/-
  The result of the reduce-scatter on a 2 × 2 mesh, as a pure function of the devices'
  argument buffers.

  Device `c` sits at mesh position (row, column) = (c / 2, c % 2). Its argument buffer holds a
  1 × 4096 × 2048 array; its result buffer is 4096 × 1024. Row `i` of the result belongs to mesh
  row `a = i / 2048`. Entry (i, j) of device `c`'s result is the sum of two argument entries at
  the same place (0, i, 1024·(c % 2) + j): the one held by the device of mesh row `a` in `c`'s own
  column, and the one held by that device's neighbour in the other column.
-/
import proofs.«900309_g7700000000000310_dist_rs_v7x_xy2x2_y_m4096_n1024_f32_1_alg».proof.Kernel
import Idealize.ShloMosaic.Lib.ValueIdx

noncomputable section

namespace Cert.Kernel.RS

open Idealize.ShloMosaic Idealize.SL.Sem
open Idealize.ShloMosaic.TcCoe
open Idealize.ShloMosaic.ValueIdx

variable {F : FTy → Type} [FloatOps F]

/-- The device of mesh row `a` in `c`'s own mesh column. -/
def colDev (c : Dev nD) (a : ℕ) (ha : a < 2) : Dev nD :=
  ⟨2 * a + c.val % 2, by show 2 * a + c.val % 2 < 4; omega⟩

/-- The device of mesh row `a` in the other mesh column. -/
def colDev' (c : Dev nD) (a : ℕ) (ha : a < 2) : Dev nD :=
  ⟨2 * a + (1 - c.val % 2), by show 2 * a + (1 - c.val % 2) < 4; omega⟩

@[simp] theorem colDev_val (c : Dev nD) (a : ℕ) (ha : a < 2) : (colDev c a ha).val = 2 * a + c.val % 2 := rfl
@[simp] theorem colDev'_val (c : Dev nD) (a : ℕ) (ha : a < 2) : (colDev' c a ha).val = 2 * a + (1 - c.val % 2) := rfl

/-- The place (0, i, 1024·(c % 2) + j) of an argument buffer: row `i`, and column `j` of the
    half of the columns that device `c`'s result covers. -/
def argIdx (c : Dev nD) (i : Fin 4096) (j : Fin 1024) : S1x4096x2048.Idx :=
  ix3 (n0 := 1) (n1 := 4096) (n2 := 2048) 0 i
    ⟨1024 * (c.val % 2) + j.val, by have := j.isLt; omega⟩

@[simp] theorem argIdx_val0 (c : Dev nD) (i : Fin 4096) (j : Fin 1024) : (argIdx c i j 0).val = 0 := rfl
@[simp] theorem argIdx_val1 (c : Dev nD) (i : Fin 4096) (j : Fin 1024) : (argIdx c i j 1).val = i.val := rfl
@[simp] theorem argIdx_val2 (c : Dev nD) (i : Fin 4096) (j : Fin 1024) :
    (argIdx c i j 2).val = 1024 * (c.val % 2) + j.val := rfl

theorem row_half (i : Fin 4096) : i.val / 2048 < 2 := by have := i.isLt; omega

variable (m : (ℓ : Loc nD τ sig) → Buf (Elt F) ℓ)

/-- Device `d`'s argument buffer, read as an array of floats. -/
def argAt (d : Dev nD) : S1x4096x2048.Idx → F .f32 :=
  m ((d : Thread nD τ).loc main_arg0)

/-- The result as a function on pairs of coordinates. -/
def outFn (c : Dev nD) (i : Fin 4096) (j : Fin 1024) : F .f32 :=
  FloatOps.addf (φ := .f32)
    (argAt m (colDev c (i.val / 2048) (row_half i)) (argIdx c i j))
    (argAt m (colDev' c (i.val / 2048) (row_half i)) (argIdx c i j))

/-- What the kernel leaves in device `c`'s result buffer. -/
def outVal (c : Dev nD) : Buf (Elt F) ((c : Thread nD τ).loc main_v1) :=
  fun (idx : S4096x1024.Idx) => outFn m c ⟨(idx 0).val, idx2_lt0 idx⟩ ⟨(idx 1).val, idx2_lt1 idx⟩

/-- The result at any index, through the index's two coordinates. -/
theorem outVal_at (c : Dev nD) (idx : S4096x1024.Idx) :
    outVal m c idx = outFn m c ⟨(idx 0).val, idx2_lt0 idx⟩ ⟨(idx 1).val, idx2_lt1 idx⟩ := rfl

/-- Entry (i, j) of device `c`'s result: the two argument entries at (0, i, 1024·(c % 2) + j),
    of the device of mesh row `i / 2048` in `c`'s column and of its neighbour in the other column,
    added. -/
theorem outVal_apply (c : Dev nD) (i : Fin 4096) (j : Fin 1024) :
    outVal m c (ix2 i j) =
      FloatOps.addf (φ := .f32)
        (m ((colDev c (i.val / 2048) (row_half i) : Thread nD τ).loc main_arg0) (argIdx c i j))
        (m ((colDev' c (i.val / 2048) (row_half i) : Thread nD τ).loc main_arg0) (argIdx c i j)) := rfl

end Cert.Kernel.RS

end
-- ==== Proof.Bits.Phi.lean ====
/-
  The proof data of the one launch: what device `c` holds before the body and after it.
  Before: the ghost state of the protocol at some names (its knowledge, its positions at round 0 of its 193 cells, the tokens of
  the duties it pays), the launch credit of its barrier cell and of its 64 receive cells, the level facts, its argument block
  at the launch contents and its result at any, and the three scratch buffers at any contents.
  After: the scratch buffers at any contents, the 192 own semaphores' counters at zero, the argument block unchanged and the result
  holding `outVal`: on its own row half its partial sums, on the other the row neighbour's.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Vals

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens of the duties device `c` pays. -/
def payToks (c : Dev nD) : sProp 𝕄 :=
  iprop(dutyTok ER (barCell (ypeer c)) 0 false ∗ dutyTok ER (barCell (xpeer c)) 0 true
    ∗ bigSep Finset.univ fun k : Fin 32 => iprop(dutyTok ER (ySendCell c k) 0 false ∗ dutyTok ER (yRecvCell (ypeer c) k) 0 false
        ∗ dutyTok ER (xSendCell c k) 0 false ∗ dutyTok ER (xRecvCell (xpeer c) k) 0 false
        ∗ dutyTok ER (linCell c k) 0 false ∗ dutyTok ER (outCell c k) 0 false))

/-- Its positions: round 0 of its barrier cell and of the six cells of every chunk. -/
def positions (c : Dev nD) : sProp 𝕄 :=
  iprop(atPos ER (barCell c) 0 ∅ 0
    ∗ bigSep Finset.univ fun k : Fin 32 => iprop(atPos ER (ySendCell c k) 0 ∅ 0 ∗ atPos ER (yRecvCell c k) 0 ∅ 0
        ∗ atPos ER (xSendCell c k) 0 ∅ 0 ∗ atPos ER (xRecvCell c k) 0 ∅ 0 ∗ atPos ER (linCell c k) 0 ∅ 0 ∗ atPos ER (outCell c k) 0 ∅ 0))

def ghost (K : Dev nD → SemLoc sig → ℕ) (c : Dev nD) : sProp 𝕄 := iprop(known m K c ∗ positions (F := F) c ∗ payToks (F := F) c)

/-- The launch credit of `c`'s cells. -/
def credits (c : Dev nD) : sProp 𝕄 :=
  iprop(cred (tallyAt (barCell c) () 2)
    ∗ bigSep Finset.univ fun k : Fin 32 => iprop(cred (tallyAt (yRecvCell c k) () N) ∗ cred (tallyAt (xRecvCell c k) () N)))

/-- A whole buffer of device `c` at some contents. -/
def anyBuf (c : Dev nD) (b : Ref sig .tc) : sProp 𝕄 := iprop(∃ f : Buf (Elt F) ((c : Thread nD τ).loc b), ((c : Thread nD τ).loc b) ↦{fullShare} f)

/-- What the body starts from, the scratch buffers apart. -/
def start (c : Dev nD) : sProp 𝕄 :=
  iprop((∃ K, ghost m K c) ∗ credits (F := F) c ∗ levAts L lv
    ∗ (((c : Thread nD τ).loc main_arg0) ↦{fullShare} argBuf m c) ∗ anyBuf (F := F) c main_v1)

def Φ₀ (c : Dev nD) : sProp 𝕄 :=
  iprop(start m c ∗ anyBuf (F := F) c cc0_scratch0 ∗ anyBuf (F := F) c cc0_scratch1 ∗ anyBuf (F := F) c cc0_scratch2)

def Φ₁ (c : Dev nD) : sProp 𝕄 :=
  iprop((anyBuf (F := F) c cc0_scratch0 ∗ anyBuf (F := F) c cc0_scratch1 ∗ anyBuf (F := F) c cc0_scratch2)
    ∗ (bigSep Finset.univ fun k : Fin 32 => zeros (F := F) c k)
    ∗ (((c : Thread nD τ).loc main_arg0) ↦{fullShare} argBuf m c)
    ∗ (((c : Thread nD τ).loc main_v1) ↦{fullShare} outVal m c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.RS

end
-- ==== Proof.Bits.SemFacts.lean ====
/-
  The 192 DMA semaphores of a core are six consecutive arrays of 32, one semaphore per chunk: the semaphore of
  chunk `k` in array `a` has number `32 a + k`. Hence a semaphore is determined by its array and its chunk, the
  six families are injective in the chunk and pairwise disjoint, and together they are all the DMA semaphores.
-/
import proofs.«900309_g7700000000000310_dist_rs_v7x_xy2x2_y_m4096_n1024_f32_1_alg».proof.Proof.Bits.Sched

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The number of each semaphore -/

theorem ySendS_val (k : Fin 32) : (ySendS k).val = k.val := by revert k; decide +kernel
theorem yRecvS_val (k : Fin 32) : (yRecvS k).val = 32 + k.val := by revert k; decide +kernel
theorem xSendS_val (k : Fin 32) : (xSendS k).val = 64 + k.val := by revert k; decide +kernel
theorem xRecvS_val (k : Fin 32) : (xRecvS k).val = 96 + k.val := by revert k; decide +kernel
theorem linS_val (k : Fin 32) : (linS k).val = 128 + k.val := by revert k; decide +kernel
theorem outS_val (k : Fin 32) : (outS k).val = 160 + k.val := by revert k; decide +kernel

/-! ## Array and chunk of each -/

@[simp] theorem arrOf_ySendS (k : Fin 32) : arrOf (ySendS k) = 0 := by
  have := k.isLt; unfold arrOf; rw [ySendS_val]; omega
@[simp] theorem arrOf_yRecvS (k : Fin 32) : arrOf (yRecvS k) = 1 := by
  have := k.isLt; unfold arrOf; rw [yRecvS_val]; omega
@[simp] theorem arrOf_xSendS (k : Fin 32) : arrOf (xSendS k) = 2 := by
  have := k.isLt; unfold arrOf; rw [xSendS_val]; omega
@[simp] theorem arrOf_xRecvS (k : Fin 32) : arrOf (xRecvS k) = 3 := by
  have := k.isLt; unfold arrOf; rw [xRecvS_val]; omega
@[simp] theorem arrOf_linS (k : Fin 32) : arrOf (linS k) = 4 := by
  have := k.isLt; unfold arrOf; rw [linS_val]; omega
@[simp] theorem arrOf_outS (k : Fin 32) : arrOf (outS k) = 5 := by
  have := k.isLt; unfold arrOf; rw [outS_val]; omega

@[simp] theorem chunkOf_ySendS (k : Fin 32) : chunkOf (ySendS k) = k := by
  have := k.isLt; apply Fin.ext; show (ySendS k).val % 32 = k.val; rw [ySendS_val]; omega
@[simp] theorem chunkOf_yRecvS (k : Fin 32) : chunkOf (yRecvS k) = k := by
  have := k.isLt; apply Fin.ext; show (yRecvS k).val % 32 = k.val; rw [yRecvS_val]; omega
@[simp] theorem chunkOf_xSendS (k : Fin 32) : chunkOf (xSendS k) = k := by
  have := k.isLt; apply Fin.ext; show (xSendS k).val % 32 = k.val; rw [xSendS_val]; omega
@[simp] theorem chunkOf_xRecvS (k : Fin 32) : chunkOf (xRecvS k) = k := by
  have := k.isLt; apply Fin.ext; show (xRecvS k).val % 32 = k.val; rw [xRecvS_val]; omega
@[simp] theorem chunkOf_linS (k : Fin 32) : chunkOf (linS k) = k := by
  have := k.isLt; apply Fin.ext; show (linS k).val % 32 = k.val; rw [linS_val]; omega
@[simp] theorem chunkOf_outS (k : Fin 32) : chunkOf (outS k) = k := by
  have := k.isLt; apply Fin.ext; show (outS k).val % 32 = k.val; rw [outS_val]; omega

/-! ## A semaphore is its array and its chunk -/

theorem dmaSem_eq_iff (i j : DmaSem sig) : i = j ↔ arrOf i = arrOf j ∧ chunkOf i = chunkOf j := by
  constructor
  · rintro rfl; exact ⟨rfl, rfl⟩
  · rintro ⟨ha, hk⟩
    have hk' : i.val % 32 = j.val % 32 := congrArg Fin.val hk
    unfold arrOf at ha
    apply Fin.ext
    omega

theorem dmaSem_ne_of_arrOf {i j : DmaSem sig} (h : arrOf i ≠ arrOf j) : i ≠ j := fun e => h (e ▸ rfl)

theorem ySendS_inj {k k' : Fin 32} : ySendS k = ySendS k' ↔ k = k' := by
  rw [dmaSem_eq_iff]; simp
theorem yRecvS_inj {k k' : Fin 32} : yRecvS k = yRecvS k' ↔ k = k' := by
  rw [dmaSem_eq_iff]; simp
theorem xSendS_inj {k k' : Fin 32} : xSendS k = xSendS k' ↔ k = k' := by
  rw [dmaSem_eq_iff]; simp
theorem xRecvS_inj {k k' : Fin 32} : xRecvS k = xRecvS k' ↔ k = k' := by
  rw [dmaSem_eq_iff]; simp
theorem linS_inj {k k' : Fin 32} : linS k = linS k' ↔ k = k' := by
  rw [dmaSem_eq_iff]; simp
theorem outS_inj {k k' : Fin 32} : outS k = outS k' ↔ k = k' := by
  rw [dmaSem_eq_iff]; simp

/-! ## Semaphores of different arrays differ -/

theorem ySendS_ne_yRecvS (k k' : Fin 32) : ySendS k ≠ yRecvS k' := dmaSem_ne_of_arrOf (by simp)
theorem ySendS_ne_xSendS (k k' : Fin 32) : ySendS k ≠ xSendS k' := dmaSem_ne_of_arrOf (by simp)
theorem ySendS_ne_xRecvS (k k' : Fin 32) : ySendS k ≠ xRecvS k' := dmaSem_ne_of_arrOf (by simp)
theorem ySendS_ne_linS (k k' : Fin 32) : ySendS k ≠ linS k' := dmaSem_ne_of_arrOf (by simp)
theorem ySendS_ne_outS (k k' : Fin 32) : ySendS k ≠ outS k' := dmaSem_ne_of_arrOf (by simp)
theorem yRecvS_ne_xSendS (k k' : Fin 32) : yRecvS k ≠ xSendS k' := dmaSem_ne_of_arrOf (by simp)
theorem yRecvS_ne_xRecvS (k k' : Fin 32) : yRecvS k ≠ xRecvS k' := dmaSem_ne_of_arrOf (by simp)
theorem yRecvS_ne_linS (k k' : Fin 32) : yRecvS k ≠ linS k' := dmaSem_ne_of_arrOf (by simp)
theorem yRecvS_ne_outS (k k' : Fin 32) : yRecvS k ≠ outS k' := dmaSem_ne_of_arrOf (by simp)
theorem xSendS_ne_xRecvS (k k' : Fin 32) : xSendS k ≠ xRecvS k' := dmaSem_ne_of_arrOf (by simp)
theorem xSendS_ne_linS (k k' : Fin 32) : xSendS k ≠ linS k' := dmaSem_ne_of_arrOf (by simp)
theorem xSendS_ne_outS (k k' : Fin 32) : xSendS k ≠ outS k' := dmaSem_ne_of_arrOf (by simp)
theorem xRecvS_ne_linS (k k' : Fin 32) : xRecvS k ≠ linS k' := dmaSem_ne_of_arrOf (by simp)
theorem xRecvS_ne_outS (k k' : Fin 32) : xRecvS k ≠ outS k' := dmaSem_ne_of_arrOf (by simp)
theorem linS_ne_outS (k k' : Fin 32) : linS k ≠ outS k' := dmaSem_ne_of_arrOf (by simp)

/-! ## The six families are all the DMA semaphores -/

theorem dma_cases (i : DmaSem sig) :
    (∃ k, i = ySendS k) ∨ (∃ k, i = yRecvS k) ∨ (∃ k, i = xSendS k) ∨ (∃ k, i = xRecvS k) ∨
      (∃ k, i = linS k) ∨ (∃ k, i = outS k) := by
  have hlt : i.val < 192 := i.isLt
  have ha : arrOf i = 0 ∨ arrOf i = 1 ∨ arrOf i = 2 ∨ arrOf i = 3 ∨ arrOf i = 4 ∨ arrOf i = 5 := by
    unfold arrOf; omega
  rcases ha with h | h | h | h | h | h
  · exact .inl ⟨chunkOf i, (dmaSem_eq_iff _ _).2 ⟨by rw [h, arrOf_ySendS], by rw [chunkOf_ySendS]⟩⟩
  · exact .inr (.inl ⟨chunkOf i, (dmaSem_eq_iff _ _).2 ⟨by rw [h, arrOf_yRecvS], by rw [chunkOf_yRecvS]⟩⟩)
  · exact .inr (.inr (.inl ⟨chunkOf i, (dmaSem_eq_iff _ _).2 ⟨by rw [h, arrOf_xSendS], by rw [chunkOf_xSendS]⟩⟩))
  · exact .inr (.inr (.inr (.inl ⟨chunkOf i, (dmaSem_eq_iff _ _).2 ⟨by rw [h, arrOf_xRecvS], by rw [chunkOf_xRecvS]⟩⟩)))
  · exact .inr (.inr (.inr (.inr (.inl ⟨chunkOf i, (dmaSem_eq_iff _ _).2 ⟨by rw [h, arrOf_linS], by rw [chunkOf_linS]⟩⟩))))
  · exact .inr (.inr (.inr (.inr (.inr ⟨chunkOf i, (dmaSem_eq_iff _ _).2 ⟨by rw [h, arrOf_outS], by rw [chunkOf_outS]⟩⟩))))

end Cert.Kernel.RS

end
-- ==== Proof.Bits.Levels.lean ====
/-
  The levels make every wait sit below what the waiter still owes: at the barrier wait a device owes receive credits only
  (levels 2 and 3 against the barrier's 1); at a column receive wait and at a local copy's wait of pass 2 it owes row receive
  credits only (level 3 against 2 and 0); in pass 3 it owes nothing. And the sums of what the four devices owe a cell at
  launch are that cell's launch credit.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.SemFacts

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
theorem Oy_erase (c : Dev nD) (S : Finset (Fin 32)) (k : Fin 32) (hk : k ∈ S) :
    Oy c S = Oy c (S.erase k) + tallyAt (yRecvCell (ypeer c) k) () N :=
  (Finset.sum_erase_add S (fun k => (tallyAt (yRecvCell (ypeer c) k) () N : CellTallies nD τ sig Unit)) hk).symm
omit [FloatOps F] in
theorem Ox_erase (c : Dev nD) (S : Finset (Fin 32)) (k : Fin 32) (hk : k ∈ S) :
    Ox c S = Ox c (S.erase k) + tallyAt (xRecvCell (xpeer c) k) () N :=
  (Finset.sum_erase_add S (fun k => (tallyAt (xRecvCell (xpeer c) k) () N : CellTallies nD τ sig Unit)) hk).symm
omit [FloatOps F] in
theorem Oy_empty (c : Dev nD) : Oy c ∅ = 0 := Finset.sum_empty
omit [FloatOps F] in
theorem Ox_empty (c : Dev nD) : Ox c ∅ = 0 := Finset.sum_empty

omit [FloatOps F] in
/-- A column tally is positive only at a column receive cell of the column neighbour, at a chunk still to be sent; -/
theorem Oy_pos {c : Dev nD} {S : Finset (Fin 32)} {g : GSem nD τ sig} {u : Unit} (h : 0 < Oy c S g u) :
    ∃ k ∈ S, g = yRecvCell (ypeer c) k := by
  obtain ⟨k, hk, hp⟩ := Pipeline.sum_pos_exists (s := S) (D := fun k => tallyAt (yRecvCell (ypeer c) k) () N) h
  exact ⟨k, hk, (Pipeline.tallyAt_pos hp).1⟩
omit [FloatOps F] in
/-- a row tally only at a row receive cell of the row neighbour. -/
theorem Ox_pos {c : Dev nD} {S : Finset (Fin 32)} {g : GSem nD τ sig} {u : Unit} (h : 0 < Ox c S g u) :
    ∃ k ∈ S, g = xRecvCell (xpeer c) k := by
  obtain ⟨k, hk, hp⟩ := Pipeline.sum_pos_exists (s := S) (D := fun k => tallyAt (xRecvCell (xpeer c) k) () N) h
  exact ⟨k, hk, (Pipeline.tallyAt_pos hp).1⟩

/-! The levels of the cells that are waited on or owed to. -/
theorem lv_bar (c : Dev nD) : lv (barCell c) () = 1 := rfl
theorem lv_yRecv (c : Dev nD) (k : Fin 32) : lv (yRecvCell c k) () = 2 := by
  show (if arrOf (yRecvS k) = 1 then 2 else if arrOf (yRecvS k) = 3 then 3 else 0) = 2
  rw [arrOf_yRecvS]; rfl
theorem lv_xRecv (c : Dev nD) (k : Fin 32) : lv (xRecvCell c k) () = 3 := by
  show (if arrOf (xRecvS k) = 1 then 2 else if arrOf (xRecvS k) = 3 then 3 else 0) = 3
  rw [arrOf_xRecvS]; rfl
theorem lv_lin (c : Dev nD) (k : Fin 32) : lv (linCell c k) () = 0 := by
  show (if arrOf (linS k) = 1 then 2 else if arrOf (linS k) = 3 then 3 else 0) = 0
  rw [arrOf_linS]; rfl

theorem unit_mem_L (c : Dev nD) (sm : SemLoc sig) (u : Unit) : u ∈ L ((c : Thread nD τ), sm) := by
  rw [L_tc]; exact Finset.mem_singleton_self _

omit [FloatOps F] in
/-- A wait on a cell below level 3 is allowed while only row receive credits are owed. -/
theorem mayWait_Ox (c : Dev nD) (sm : SemLoc sig) (S : Finset (Fin 32)) (hlv : lv ((c : Thread nD τ), sm) () < 3) :
    (levAts L lv : sProp 𝕄) ⊢ MayWait (c : Thread nD τ) sm () (Ox c S) := by
  refine Pipeline.mayWait_of_levAts (unit_mem_L c sm ()) fun g u hg => ?_
  obtain ⟨k, -, rfl⟩ := Ox_pos hg
  exact ⟨unit_mem_L _ _ u, by rw [lv_xRecv]; exact hlv⟩

omit [FloatOps F] in
/-- At its barrier wait a device owes receive credits only. -/
theorem mayWait_bar (c : Dev nD) : (levAts L lv : sProp 𝕄) ⊢ MayWait (c : Thread nD τ) (.reg barS) () (O₁ c) := by
  refine Pipeline.mayWait_of_levAts (unit_mem_L c (.reg barS) ()) fun g u hg => ?_
  have hg' : 0 < (Oy c Finset.univ + Ox c Finset.univ) g u := hg
  rcases Pipeline.add_pos_cases hg' with h | h
  · obtain ⟨k, -, rfl⟩ := Oy_pos h
    exact ⟨unit_mem_L _ _ u, by rw [lv_yRecv]; exact (by decide : (1 : ℕ) < 2)⟩
  · obtain ⟨k, -, rfl⟩ := Ox_pos h
    exact ⟨unit_mem_L _ _ u, by rw [lv_xRecv]; exact (by decide : (1 : ℕ) < 3)⟩
omit [FloatOps F] in
/-- At a column receive wait of pass 2 it owes row receive credits only. -/
theorem mayWait_yRecv (c : Dev nD) (k : Fin 32) (S : Finset (Fin 32)) :
    (levAts L lv : sProp 𝕄) ⊢ MayWait (c : Thread nD τ) (.dma (yRecvS k)) () (Ox c S) :=
  mayWait_Ox c (.dma (yRecvS k)) S (by rw [lv_yRecv]; decide)
omit [FloatOps F] in
/-- Likewise at the wait for its local copy into `lin`. -/
theorem mayWait_lin (c : Dev nD) (k : Fin 32) (S : Finset (Fin 32)) :
    (levAts L lv : sProp 𝕄) ⊢ MayWait (c : Thread nD τ) (.dma (linS k)) () (Ox c S) :=
  mayWait_Ox c (.dma (linS k)) S (by rw [lv_lin]; decide)

omit [FloatOps F] in
/-- The launch credit of a device's cells: two units on its barrier cell, a chunk's credit on each receive cell. -/
theorem creds (c : Dev nD) :
    (Pipeline.launchCred O₀ c : sProp 𝕄) ⊢ iprop(cred (tallyAt (barCell c) () 2)
      ∗ bigSep Finset.univ fun k : Fin 32 => iprop(cred (tallyAt (yRecvCell c k) () N) ∗ cred (tallyAt (xRecvCell c k) () N))) := by
  -- the launch tallies are a sum of four families; the launch credit splits along the sum
  have h1 : (Pipeline.launchCred O₀ c : sProp 𝕄)
      = iprop(Pipeline.launchCred (fun d => O₁ d + tallyAt (barCell (xpeer d)) () 1) c
          ∗ Pipeline.launchCred (fun d => tallyAt (barCell (ypeer d)) () 1) c) :=
    Pipeline.launchCred_add (fun d => O₁ d + tallyAt (barCell (xpeer d)) () 1) (fun d => tallyAt (barCell (ypeer d)) () 1) c
  have h2 : (Pipeline.launchCred (fun d => O₁ d + tallyAt (barCell (xpeer d)) () 1) c : sProp 𝕄)
      = iprop(Pipeline.launchCred O₁ c ∗ Pipeline.launchCred (fun d => tallyAt (barCell (xpeer d)) () 1) c) :=
    Pipeline.launchCred_add O₁ (fun d => tallyAt (barCell (xpeer d)) () 1) c
  have h3 : (Pipeline.launchCred O₁ c : sProp 𝕄)
      = iprop(Pipeline.launchCred (fun d => Oy d Finset.univ) c ∗ Pipeline.launchCred (fun d => Ox d Finset.univ) c) :=
    Pipeline.launchCred_add (fun d => Oy d Finset.univ) (fun d => Ox d Finset.univ) c
  have h4 : (Pipeline.launchCred (fun d => Oy d Finset.univ) c : sProp 𝕄)
      = bigSep Finset.univ fun k : Fin 32 => Pipeline.launchCred (fun d => tallyAt (yRecvCell (ypeer d) k) () N) c :=
    Pipeline.launchCred_sum Finset.univ (fun (k : Fin 32) d => tallyAt (yRecvCell (ypeer d) k) () N) c
  have h5 : (Pipeline.launchCred (fun d => Ox d Finset.univ) c : sProp 𝕄)
      = bigSep Finset.univ fun k : Fin 32 => Pipeline.launchCred (fun d => tallyAt (xRecvCell (xpeer d) k) () N) c :=
    Pipeline.launchCred_sum Finset.univ (fun (k : Fin 32) d => tallyAt (xRecvCell (xpeer d) k) () N) c
  -- each family is one tally per device at a cell of its neighbour; both neighbour maps are involutions
  have hy (k : Fin 32) : (Pipeline.launchCred (fun d => tallyAt (yRecvCell (ypeer d) k) () N) c : sProp 𝕄)
      ⊢ cred (tallyAt (yRecvCell c k) () N) :=
    Pipeline.launchCred_tallyAt (.dma (yRecvS k)) ypeer ypeer ypeer_ypeer ypeer_ypeer () N c
  have hx (k : Fin 32) : (Pipeline.launchCred (fun d => tallyAt (xRecvCell (xpeer d) k) () N) c : sProp 𝕄)
      ⊢ cred (tallyAt (xRecvCell c k) () N) :=
    Pipeline.launchCred_tallyAt (.dma (xRecvS k)) xpeer xpeer xpeer_xpeer xpeer_xpeer () N c
  have hbx : (Pipeline.launchCred (fun d => tallyAt (barCell (xpeer d)) () 1) c : sProp 𝕄) ⊢ cred (tallyAt (barCell c) () 1) :=
    Pipeline.launchCred_tallyAt (.reg barS) xpeer xpeer xpeer_xpeer xpeer_xpeer () 1 c
  have hby : (Pipeline.launchCred (fun d => tallyAt (barCell (ypeer d)) () 1) c : sProp 𝕄) ⊢ cred (tallyAt (barCell c) () 1) :=
    Pipeline.launchCred_tallyAt (.reg barS) ypeer ypeer ypeer_ypeer ypeer_ypeer () 1 c
  have e2 : (tallyAt (barCell c) () 2 : CellTallies nD τ sig Unit) = tallyAt (barCell c) () 1 + tallyAt (barCell c) () 1 :=
    (tallyAt_add (barCell c) () 1 1).symm
  rw [h1, h2, h3, h4, h5, e2, bigSep_sep']
  refine (sep_mono (sep_mono (sep_mono (bigSep_mono fun k _ => hy k) (bigSep_mono fun k _ => hx k)) hbx) hby).trans ?_
  iintro ⟨⟨⟨HA, HB⟩, HX⟩, HY⟩
  isplitl [HX HY]
  · iapply (cred_add _ _).2
    isplitl [HX]
    · iexact HX
    · iexact HY
  · isplitl [HA]
    · iexact HA
    · iexact HB

/-- info: 'Cert.Kernel.RS.creds' depends on axioms: [propext, Classical.choice, Quot.sound] -/
#guard_msgs in #print axioms creds

/-- info: 'Cert.Kernel.RS.mayWait_bar' depends on axioms: [propext, Classical.choice, Quot.sound] -/
#guard_msgs in #print axioms mayWait_bar

/-- info: 'Cert.Kernel.RS.mayWait_Ox' depends on axioms: [propext, Classical.choice, Quot.sound] -/
#guard_msgs in #print axioms mayWait_Ox

end Cert.Kernel.RS

end
-- ==== Proof.Bits.SchedLemmas.lean ====
/-
  The schedule read cell by cell: every cell has the one round 0. A DMA cell's round is the one duty `false` of a
  chunk's credit, whose payload is the cell kind's; the barrier cell's round is the two duties of one unit each, the
  column neighbour's and the row neighbour's. Every payload is made of points-to assertions, round facts and big
  separating conjunctions of them, so it can be stored in a cell's invariant.
-/
import proofs.«900309_g7700000000000310_dist_rs_v7x_xy2x2_y_m4096_n1024_f32_1_alg».proof.Proof.Bits.SemFacts

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A chunk's credit does not depend on the buffer -/

theorem amount_linSl (k : Fin 32) (i : DmaSem sig) : (linSl k).view.amount (.dma i) = N := rfl
theorem amount_commSl (k : Fin 32) (i : DmaSem sig) : (commSl k).view.amount (.dma i) = N := rfl
theorem amount_partSl (k : Fin 32) (i : DmaSem sig) : (partSl k).view.amount (.dma i) = N := rfl
theorem amount_outSl (c : Dev nD) (k : Fin 32) (i : DmaSem sig) : (outSl c k).view.amount (.dma i) = N := rfl

/-! ## The payloads can be stored -/

instance anyPts_storable {sp : Space} (c : Dev nD) (v : Memref sig .tc sp S64x1024 .f32) (q : PosShare TreeShare) :
    BI.Storable (upEmb : UEmb _ 𝕄) (anyPts (F := F) c v q) := by unfold anyPts; infer_instance
instance argOwnPts_storable (c : Dev nD) (k : Fin 32) (q : PosShare TreeShare) :
    BI.Storable (upEmb : UEmb _ 𝕄) (argOwnPts m c k q) := by unfold argOwnPts; infer_instance
instance argPeerPts_storable (c : Dev nD) (k : Fin 32) (q : PosShare TreeShare) :
    BI.Storable (upEmb : UEmb _ 𝕄) (argPeerPts m c k q) := by unfold argPeerPts; infer_instance
instance ySendPay_storable (c : Dev nD) (k : Fin 32) : BI.Storable (upEmb : UEmb _ 𝕄) (ySendPay m c k) := by
  unfold ySendPay; infer_instance
instance yRecvPay_storable (c : Dev nD) (k : Fin 32) : BI.Storable (upEmb : UEmb _ 𝕄) (yRecvPay m c k) := by
  unfold yRecvPay owns; infer_instance
instance xSendPay_storable (c : Dev nD) (k : Fin 32) : BI.Storable (upEmb : UEmb _ 𝕄) (xSendPay (F := F) c k) := by
  unfold xSendPay; infer_instance
instance xRecvPay_storable (c : Dev nD) (k : Fin 32) : BI.Storable (upEmb : UEmb _ 𝕄) (xRecvPay m c k) := by
  unfold xRecvPay owns; infer_instance
instance linPay_storable (c : Dev nD) (k : Fin 32) : BI.Storable (upEmb : UEmb _ 𝕄) (linPay m c k) := by
  unfold linPay owns; infer_instance
instance outPay_storable (c : Dev nD) (k : Fin 32) : BI.Storable (upEmb : UEmb _ 𝕄) (outPay m c k) := by
  unfold outPay owns; infer_instance
instance dmaPay_storable (c : Dev nD) (a : ℕ) (k : Fin 32) : BI.Storable (upEmb : UEmb _ 𝕄) (dmaPay m c a k) := by
  unfold dmaPay; split <;> infer_instance

instance rsRd_payload_storable (g : GSem nD τ sig) (r : ℕ) (d : Bool) :
    BI.Storable (upEmb : UEmb _ 𝕄) ((rsRd (F := F) m).payload g r d) := by
  obtain ⟨t, s⟩ := g
  cases s with
  | reg s =>
    show BI.Storable upEmb (if d then barPayX (F := F) t.1 else barPayY (F := F) t.1)
    unfold barPayX barPayY
    split <;> infer_instance
  | dma i =>
    show BI.Storable upEmb (dmaPay m t.1 (arrOf i) (chunkOf i))
    infer_instance

section Sched
variable (c : Dev nD) (k : Fin 32)

/-! ## The send cell of the transfers between the columns -/

theorem duties_ySend : (rsRd (F := F) m).duties (ySendCell c k) 0 = {false} := by
  dsimp only [rsRd]; exact if_pos ⟨rfl, rfl⟩
theorem amount_ySend (d : Bool) : (rsRd (F := F) m).amount (ySendCell c k) 0 d = N := rfl
theorem expect_ySend : (rsRd (F := F) m).expect (ySendCell c k) 0 = N := by
  unfold Schedule.expect Schedule.amountOf; rw [duties_ySend, Finset.sum_singleton, amount_ySend]
theorem payload_ySend (d : Bool) : (rsRd (F := F) m).payload (ySendCell c k) 0 d = ySendPay m c k := by
  show dmaPay m c (arrOf (ySendS k)) (chunkOf (ySendS k)) = _
  rw [arrOf_ySendS, chunkOf_ySendS]; rfl
theorem rest_ySend : bigSep ((rsRd (F := F) m).duties (ySendCell c k) 0 \ ∅) (fun d => (rsRd (F := F) m).payload (ySendCell c k) 0 d)
    = ySendPay m c k := by
  rw [Finset.sdiff_empty, duties_ySend, bigSep_singleton, payload_ySend]

/-! ## Their receive cell -/

theorem duties_yRecv : (rsRd (F := F) m).duties (yRecvCell c k) 0 = {false} := by
  dsimp only [rsRd]; exact if_pos ⟨rfl, rfl⟩
theorem amount_yRecv (d : Bool) : (rsRd (F := F) m).amount (yRecvCell c k) 0 d = N := rfl
theorem expect_yRecv : (rsRd (F := F) m).expect (yRecvCell c k) 0 = N := by
  unfold Schedule.expect Schedule.amountOf; rw [duties_yRecv, Finset.sum_singleton, amount_yRecv]
theorem payload_yRecv (d : Bool) : (rsRd (F := F) m).payload (yRecvCell c k) 0 d = yRecvPay m c k := by
  show dmaPay m c (arrOf (yRecvS k)) (chunkOf (yRecvS k)) = _
  rw [arrOf_yRecvS, chunkOf_yRecvS]; rfl
theorem rest_yRecv : bigSep ((rsRd (F := F) m).duties (yRecvCell c k) 0 \ ∅) (fun d => (rsRd (F := F) m).payload (yRecvCell c k) 0 d)
    = yRecvPay m c k := by
  rw [Finset.sdiff_empty, duties_yRecv, bigSep_singleton, payload_yRecv]

/-! ## The send cell of the transfers between the rows -/

theorem duties_xSend : (rsRd (F := F) m).duties (xSendCell c k) 0 = {false} := by
  dsimp only [rsRd]; exact if_pos ⟨rfl, rfl⟩
theorem amount_xSend (d : Bool) : (rsRd (F := F) m).amount (xSendCell c k) 0 d = N := rfl
theorem expect_xSend : (rsRd (F := F) m).expect (xSendCell c k) 0 = N := by
  unfold Schedule.expect Schedule.amountOf; rw [duties_xSend, Finset.sum_singleton, amount_xSend]
theorem payload_xSend (d : Bool) : (rsRd (F := F) m).payload (xSendCell c k) 0 d = xSendPay (F := F) c k := by
  show dmaPay m c (arrOf (xSendS k)) (chunkOf (xSendS k)) = _
  rw [arrOf_xSendS, chunkOf_xSendS]; rfl
theorem rest_xSend : bigSep ((rsRd (F := F) m).duties (xSendCell c k) 0 \ ∅) (fun d => (rsRd (F := F) m).payload (xSendCell c k) 0 d)
    = xSendPay (F := F) c k := by
  rw [Finset.sdiff_empty, duties_xSend, bigSep_singleton, payload_xSend]

/-! ## Their receive cell -/

theorem duties_xRecv : (rsRd (F := F) m).duties (xRecvCell c k) 0 = {false} := by
  dsimp only [rsRd]; exact if_pos ⟨rfl, rfl⟩
theorem amount_xRecv (d : Bool) : (rsRd (F := F) m).amount (xRecvCell c k) 0 d = N := rfl
theorem expect_xRecv : (rsRd (F := F) m).expect (xRecvCell c k) 0 = N := by
  unfold Schedule.expect Schedule.amountOf; rw [duties_xRecv, Finset.sum_singleton, amount_xRecv]
theorem payload_xRecv (d : Bool) : (rsRd (F := F) m).payload (xRecvCell c k) 0 d = xRecvPay m c k := by
  show dmaPay m c (arrOf (xRecvS k)) (chunkOf (xRecvS k)) = _
  rw [arrOf_xRecvS, chunkOf_xRecvS]; rfl
theorem rest_xRecv : bigSep ((rsRd (F := F) m).duties (xRecvCell c k) 0 \ ∅) (fun d => (rsRd (F := F) m).payload (xRecvCell c k) 0 d)
    = xRecvPay m c k := by
  rw [Finset.sdiff_empty, duties_xRecv, bigSep_singleton, payload_xRecv]

/-! ## The cell of the local copy in -/

theorem duties_lin : (rsRd (F := F) m).duties (linCell c k) 0 = {false} := by
  dsimp only [rsRd]; exact if_pos ⟨rfl, rfl⟩
theorem amount_lin (d : Bool) : (rsRd (F := F) m).amount (linCell c k) 0 d = N := rfl
theorem expect_lin : (rsRd (F := F) m).expect (linCell c k) 0 = N := by
  unfold Schedule.expect Schedule.amountOf; rw [duties_lin, Finset.sum_singleton, amount_lin]
theorem payload_lin (d : Bool) : (rsRd (F := F) m).payload (linCell c k) 0 d = linPay m c k := by
  show dmaPay m c (arrOf (linS k)) (chunkOf (linS k)) = _
  rw [arrOf_linS, chunkOf_linS]; rfl
theorem rest_lin : bigSep ((rsRd (F := F) m).duties (linCell c k) 0 \ ∅) (fun d => (rsRd (F := F) m).payload (linCell c k) 0 d)
    = linPay m c k := by
  rw [Finset.sdiff_empty, duties_lin, bigSep_singleton, payload_lin]

/-! ## The cell of the local copy out -/

theorem duties_out : (rsRd (F := F) m).duties (outCell c k) 0 = {false} := by
  dsimp only [rsRd]; exact if_pos ⟨rfl, rfl⟩
theorem amount_out (d : Bool) : (rsRd (F := F) m).amount (outCell c k) 0 d = N := rfl
theorem expect_out : (rsRd (F := F) m).expect (outCell c k) 0 = N := by
  unfold Schedule.expect Schedule.amountOf; rw [duties_out, Finset.sum_singleton, amount_out]
theorem payload_out (d : Bool) : (rsRd (F := F) m).payload (outCell c k) 0 d = outPay m c k := by
  show dmaPay m c (arrOf (outS k)) (chunkOf (outS k)) = _
  rw [arrOf_outS, chunkOf_outS]; rfl
theorem rest_out : bigSep ((rsRd (F := F) m).duties (outCell c k) 0 \ ∅) (fun d => (rsRd (F := F) m).payload (outCell c k) 0 d)
    = outPay m c k := by
  rw [Finset.sdiff_empty, duties_out, bigSep_singleton, payload_out]

/-! ## The barrier cell -/

theorem duties_bar : (rsRd (F := F) m).duties (barCell c) 0 = Finset.univ := by
  dsimp only [rsRd]; rw [if_pos ⟨rfl, rfl⟩]; exact if_pos rfl
theorem amount_bar (d : Bool) : (rsRd (F := F) m).amount (barCell c) 0 d = 1 := rfl
theorem expect_bar : (rsRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem payload_bar_false : (rsRd (F := F) m).payload (barCell c) 0 false = barPayY (F := F) c := rfl
theorem payload_bar_true : (rsRd (F := F) m).payload (barCell c) 0 true = barPayX (F := F) c := rfl
theorem rest_bar : bigSep ((rsRd (F := F) m).duties (barCell c) 0 \ ∅) (fun d => (rsRd (F := F) m).payload (barCell c) 0 d)
    = iprop(barPayY (F := F) c ∗ barPayX (F := F) c) := by
  rw [Finset.sdiff_empty, duties_bar, bigSep_univ_eq_bigSepL [false, true] (by decide) (by decide), bigSepL_cons_cons, bigSepL_singleton,
    payload_bar_false, payload_bar_true]
  rfl

/-! ## No cell has a later round -/

theorem duties_later (g : GSem nD τ sig) : ∀ r, 1 ≤ r → (rsRd (F := F) m).duties g r = ∅ :=
  fun r hr => by dsimp only [rsRd]; rw [if_neg fun h => by omega]

end Sched

end Cert.Kernel.RS

end
-- ==== Proof.Bits.StepEntry.lean ====
/-
  The entry handshake: a device pays one unit to the barrier cell of its neighbour in the other mesh column, handing over its
  32 chunks of `comm`, and one to the barrier cell of its neighbour in the other mesh row, handing over the 32 chunks of its
  result at that neighbour's row half; then it waits for the two units of its own barrier cell, which bring the column
  neighbour's chunks of `comm` and the row neighbour's chunks of result at its own row half.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.SchedLemmas

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the two signals hand over, and what the wait brings -/

section
variable (K : Dev nD → SemLoc sig → ℕ) (c : Dev nD)

/-- The column neighbour's barrier duty: the device's chunks of `comm`, and that its column receive cells stand at round 0. -/
private theorem payY_intro :
    iprop(known m K c ∗ bigSep Finset.univ fun k : Fin 32 => anyPts (F := F) c (commSl k) fullShare)
      ⊢ barPayY (F := F) (ypeer c) := by
  unfold barPayY
  rw [ypeer_ypeer]
  refine bigSep_with_persistent (fun k _ => ?_)
  iintro ⟨#Hk, H⟩
  isplitl [H]; · iexact H
  unfold known
  rw [bigSep_univ_at _ k]
  icases Hk with ⟨-, ⟨-, -, Hr, -⟩, -⟩
  iexact Hr

/-- The row neighbour's: the chunks of the device's result at the neighbour's row half, and its row receive cells at round 0. -/
private theorem payX_intro :
    iprop(known m K c ∗ bigSep Finset.univ fun k : Fin 32 => anyPts (F := F) c (outSl (xpeer c) k) fullShare)
      ⊢ barPayX (F := F) (xpeer c) := by
  unfold barPayX
  rw [xpeer_xpeer]
  refine bigSep_with_persistent (fun k _ => ?_)
  iintro ⟨#Hk, H⟩
  isplitl [H]; · iexact H
  unfold known
  rw [bigSep_univ_at _ k]
  icases Hk with ⟨-, ⟨-, -, -, -, Hr, -⟩, -⟩
  iexact Hr

private theorem payY_elim :
    barPayY (F := F) c ⊢ bigSep Finset.univ fun k : Fin 32 => anyPts (F := F) (ypeer c) (commSl k) fullShare := by
  unfold barPayY
  exact bigSep_mono (fun k _ => sep_and.trans and_elimL)

private theorem payX_elim :
    barPayX (F := F) c ⊢ bigSep Finset.univ fun k : Fin 32 => anyPts (F := F) (xpeer c) (outSl c k) fullShare := by
  unfold barPayX
  exact bigSep_mono (fun k _ => sep_and.trans and_elimL)

/-- The two payloads of the barrier cell's round. -/
private theorem bar_pays :
    bigSep (Finset.univ : Finset Bool) (fun d => (rsRd m).payload (barCell c) 0 d) = iprop(barPayY (F := F) c ∗ barPayX (F := F) c) := by
  have h := rest_bar m c
  rwa [duties_bar, Finset.sdiff_empty] at h

/-! ## The rule -/

attribute [local sl_rounds] expect_bar rest_bar duties_bar amount_bar payload_bar_false payload_bar_true

theorem wp_entry (rest : P F PUnit) (Kt : PUnit → sProp 𝕄) :
    iprop(known m K c ∗ levAts L lv ∗ E0 (F := F) c ∗ owesAny (F := F) c (O₀ c)
        ∗ ((E1 (F := F) c ∗ owesAny (F := F) c (O₁ c)) -∗ wp frame (wpE (defs₀ (F := F)) 𝒱₀ c none) Set.univ rest Kt))
      ⊢ wp frame (wpE (defs₀ (F := F)) 𝒱₀ c none) Set.univ (entry c rest) Kt := by
  unfold entry
  simp only [semSignalWord, semWaitWord, Prog.lift, Prog.bind_op, Prog.bind_ret, Prog.pure_eq_ret, dev1_eq c, dev2_eq c,
    show (1#32 : BitVec 32).toNat = 1 from rfl, show (2#32 : BitVec 32).toNat = 2 from rfl]
  iintro ⟨#Hk, Hlev, HE0, HO, Hrest⟩
  unfold E0
  icases HE0 with ⟨HtY, HtX, Hcomm, Hout, Hcr, Hat⟩
  ihave HpY := (payY_intro m K c) $$ [Hcomm]
  · isplitr; · iexact Hk
    iexact Hcomm
  ihave HpX := (payX_intro m K c) $$ [Hout]
  · isplitr; · iexact Hk
    iexact Hout
  unfold owesAny
  icases HO with ⟨%W, HO⟩
  unfold known
  icases Hk with ⟨⟨#Ibar, #IbarY, #IbarX, #rBY, #rBX⟩, -⟩
  unfold O₀
  ihave HMW := (mayWait_bar (F := F) c) $$ Hlev
  -- the two signals and the wait: each cell's invariant, the duty's token and payload, the reached round, what is owed, the
  -- credit, the position and the level evidence are at hand
  sl_exec
  ihave Hp := (Entails.of_eq (bar_pays m c)) $$ Hat_pay1
  icases Hp with ⟨HY, HX⟩
  iapply Hrest
  isplitr [HO]
  · unfold E1
    isplitl [HY]; · iapply (payY_elim c); iexact HY
    isplitl [HX]; · iapply (payX_elim c); iexact HX
    iexact Hat
  · iexists _; iexact HO

end

/-- info: 'Cert.Kernel.RS.wp_entry' depends on axioms: [propext, Classical.choice, Quot.sound] -/
#guard_msgs in #print axioms wp_entry

end Cert.Kernel.RS

end
-- ==== Proof.Bits.Step1.lean ====
/-
  Pass 1 of the protocol at a chunk `k`. The device starts two copies of the chunk's 64 rows of its own row half of its
  argument block: its own column half goes into chunk `k` of `lin` by a local copy, which pays the one duty of the copy's cell
  with `lin`'s chunk holding those rows and the source share; the other column half goes into chunk `k` of `comm` on the
  neighbour in the other mesh column, which pays the send cell's duty with the source share and the neighbour's receive cell's
  duty with `comm`'s chunk holding the rows sent. The chunk's credit on the neighbour's receive cell comes off what the device
  owes; the credits on the copy's cell and on the send cell are what the pass leaves for the later waits.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.SchedLemmas

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Pass 1 at chunk `k`: the local copy into `lin` and the transfer into the column neighbour's `comm` -/

/-- A slice rewritten everywhere with `w` is owned at `w`. -/
theorem landed_owns {sp : Space} (t : Dev nD) (v : Memref sig .tc sp S64x1024 .f32)
    (fd : Buf (Elt F) (v.view.loc (t : Thread nD τ))) (w : Vec F S64x1024 .f32) :
    (v.view.loc (t : Thread nD τ) ↦[v.view.set]{fullShare} (v.view.write (Elt F) fd w Finset.univ) : sProp 𝕄)
      ⊢ owns (t : Thread nD τ) v fullShare w := by
  have h := owns_intro (Val := Elt F) (Ix := Unit) (Name := ℕ) (U := UU) (Lvl := ℕ) (t : Thread nD τ) v fullShare (v.view.write (Elt F) fd w Finset.univ)
  rwa [View.read_write_univ] at h

section Step1
variable (K : Dev nD → SemLoc sig → ℕ) (c : Dev nD)

/-- What pass 1 at chunk `k` uses of the standing facts: the invariants of the three cells it pays, each at round 0. -/
theorem known_pass1 (k : Fin 32) :
    known m K c ⊢ iprop(cellInv ER (rsRd m) (K c (.dma (linS k))) (linCell c k) ∗ reached ER (linCell c k) 0
      ∗ cellInv ER (rsRd m) (K c (.dma (ySendS k))) (ySendCell c k) ∗ reached ER (ySendCell c k) 0
      ∗ cellInv ER (rsRd m) (K (ypeer c) (.dma (yRecvS k))) (yRecvCell (ypeer c) k) ∗ reached ER (yRecvCell (ypeer c) k) 0) := by
  have hel : ∀ Φ : Fin 32 → sProp 𝕄, bigSep Finset.univ Φ ⊢ Φ k := fun Φ => bigSep_elim (Finset.mem_univ k)
  unfold known
  iintro ⟨_, Hb⟩
  ihave Hk := hel _ $$ Hb
  icases Hk with ⟨⟨#Is, _, _, _, #Il, _, #Ir, _⟩, ⟨#Rs, _, _, _, #Rl, _, #Rr, _⟩⟩
  isplit; · iexact Il
  isplit; · iexact Rl
  isplit; · iexact Is
  isplit; · iexact Rs
  isplit; · iexact Ir
  iexact Rr

/-- The local copy of chunk `k` of the device's own column half into `lin`: it pays the one duty of the copy's cell,
    whose payload is `lin`'s chunk holding the argument's and the source share back. -/
theorem wp_copy_lin (k : Fin 32) {hsrc : (argOwnSl c k).view.WordExact} {hdst : (linSl k).view.WordExact}
    {hsem : DmaTarget.Typed (nD := nD) (τ := τ) (p := (c : Thread nD τ).2) .hbm (.dma (linS k)) (.here (linSl k))}
    {α : Type} {Q : α → sProp 𝕄} {kk : PUnit → Prog (TpuEff nD τ sig (Elt F) Λ₀ .tc) α}
    (fd : Buf (Elt F) ((linSl k).view.loc (c : Thread nD τ))) :
    iprop(cellInv ER (rsRd m) (K c (.dma (linS k))) (linCell c k) ∗ argOwnPts m c k fullShare
        ∗ ((linSl k).view.loc (c : Thread nD τ) ↦[(linSl k).view.set]{fullShare} fd)
        ∗ dutyTok ER (linCell c k) 0 false ∗ reached ER (linCell c k) 0)
      ⊢ iprop((cred (tallyAt (linCell c k) () N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (argOwnSl c k) (.here (linSl k)) (.dma (linS k)) hsrc hdst hsem) kk) Q) := by
  unfold argOwnPts
  exact Rounds.wp_copy_pointsTo 𝒱₀ ER (rsRd m) (c : Thread nD τ) none (src := argOwnSl c k) (dst := linSl k)
    (q := fullShare) (fs := argBuf m c) (fd := fd) (r := 0) (d := false) (κ := K c (.dma (linS k)))
    (by rw [duties_lin]; exact Finset.mem_singleton_self _) () N (amount_linSl k (linS k)) (amount_lin m c k false)
    (by rw [payload_lin]; unfold linPay argOwnPts; exact sep_mono_left (landed_owns c (linSl k) fd _))

/-- The transfer of chunk `k` of the other column half into the column neighbour's `comm`, addressed to `n`, which is
    that neighbour: it pays the send cell's duty with the source share and the neighbour's receive cell's with `comm`'s chunk
    holding the rows sent, and takes the chunk's credit off what the device owes. -/
theorem wp_send_comm (k : Fin 32) (n : Dev nD) (hn : n = ypeer c)
    {hsc : (commSl k : Memref sig (Dev.tc n : Thread nD τ).2.kind .vmem S64x1024 .f32).view.ref.isScScratch = false}
    {hsrc : (argPeerSl c k).view.WordExact} {hdst : (commSl k).view.WordExact}
    {hsem : DmaTarget.Typed .hbm (.dma (yRecvS k)) (.remote (Dev.tc n : Thread nD τ) (commSl k : Memref sig .tc .vmem S64x1024 .f32) (.dma (ySendS k)) hsc)}
    {α : Type} {Q : α → sProp 𝕄} {kk : PUnit → Prog (TpuEff nD τ sig (Elt F) Λ₀ .tc) α}
    (fd : Buf (Elt F) ((commSl k).view.loc (ypeer c : Thread nD τ))) {O₀ : CellTallies nD τ sig Unit} (O : CellTallies nD τ sig Unit)
    (hO : O₀ = O + tallyAt (yRecvCell (ypeer c) k) () N) (W : Waits sig Unit) :
    iprop(cellInv ER (rsRd m) (K c (.dma (ySendS k))) (ySendCell c k)
        ∗ cellInv ER (rsRd m) (K (ypeer c) (.dma (yRecvS k))) (yRecvCell (ypeer c) k)
        ∗ argPeerPts m c k fullShare
        ∗ ((commSl k).view.loc (ypeer c : Thread nD τ) ↦[(commSl k).view.set]{fullShare} fd)
        ∗ owes (c : Thread nD τ) O₀ W
        ∗ dutyTok ER (ySendCell c k) 0 false ∗ reached ER (ySendCell c k) 0
        ∗ dutyTok ER (yRecvCell (ypeer c) k) 0 false ∗ reached ER (yRecvCell (ypeer c) k) 0)
      ⊢ iprop(((cred (tallyAt (ySendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (argPeerSl c k) (.remote (Dev.tc n : Thread nD τ) (commSl k) (.dma (ySendS k)) hsc) (.dma (yRecvS k)) hsrc hdst hsem) kk) Q) := by
  subst hn
  unfold argPeerPts
  exact Rounds.wp_send_pointsTo 𝒱₀ ER (rsRd m) (c : Thread nD τ) none (c' := (ypeer c : Thread nD τ))
    (src := argPeerSl c k) (dst := commSl k) (q := fullShare) (fs := argBuf m c) (fd := fd)
    (κ₁ := K c (.dma (ySendS k))) (κ₂ := K (ypeer c) (.dma (yRecvS k))) (r₁ := 0) (r₂ := 0) (d₁ := false) (d₂ := false)
    (by rw [duties_ySend]; exact Finset.mem_singleton_self _) (by rw [duties_yRecv]; exact Finset.mem_singleton_self _)
    () () N (amount_commSl k (yRecvS k)) (amount_ySend m c k false) (amount_yRecv m (ypeer c) k false) O hO (W := W)
    (by rw [payload_ySend]; unfold ySendPay argPeerPts; exact BI.Entails.refl _)
    (by rw [payload_yRecv]; unfold yRecvPay; rw [ypeer_ypeer]; exact landed_owns (ypeer c) (commSl k) fd _)

theorem wp_pass1 (k : Fin 32) (S : Finset (Fin 32)) (hk : k ∈ S) (R : CellTallies nD τ sig Unit) (rest : P F PUnit) (Kt : PUnit → sProp 𝕄) :
    iprop(known m K c ∗ T1 m c k ∗ owesAny (F := F) c (Oy c S + R)
        ∗ ((D1 (F := F) c k ∗ owesAny (F := F) c (Oy c (S.erase k) + R)) -∗ wp frame (wpE (defs₀ (F := F)) 𝒱₀ c none) Set.univ rest Kt))
      ⊢ wp frame (wpE (defs₀ (F := F)) 𝒱₀ c none) Set.univ (pass1 c k rest) Kt := by
  have hO : Oy c S + R = (Oy c (S.erase k) + R) + tallyAt (yRecvCell (ypeer c) k) () N := by
    rw [Oy_erase c S k hk]; exact add_right_comm _ _ _
  unfold T1 D1 owesAny anyPts
  simp only [pass1, Prog.lift, Prog.bind_op, Prog.bind_ret, Prog.pure_eq_ret]
  iintro ⟨#Hkn, ⟨Hown, Hpeer, ⟨%fl, Hlin⟩, ⟨%fc, Hcomm⟩, Htl, Hts, Htr⟩, ⟨%W, HO⟩, Hk⟩
  ihave Hc := known_pass1 m K c k $$ Hkn
  icases Hc with ⟨#Il, #Rl, #Is, #Rs, #Ir, #Rr⟩
  iapply (wp_copy_lin m K c k fl) $$ [Hown Hlin Htl]
  · isplitr; · iexact Il
    isplitl [Hown]; · iexact Hown
    isplitl [Hlin]; · iexact Hlin
    isplitl [Htl]; · iexact Htl
    iexact Rl
  iintro Hcl
  iapply (wp_send_comm m K c k (ydev c k) (ydev_eq c k) fc (Oy c (S.erase k) + R) hO W) $$ [Hpeer Hcomm HO Hts Htr]
  · isplitr; · iexact Is
    isplitr; · iexact Ir
    isplitl [Hpeer]; · iexact Hpeer
    isplitl [Hcomm]; · iexact Hcomm
    isplitl [HO]; · iexact HO
    isplitl [Hts]; · iexact Hts
    isplitr; · iexact Rs
    isplitl [Htr]; · iexact Htr
    iexact Rr
  iintro ⟨Hcs, HO'⟩
  iapply Hk
  isplitl [Hcl Hcs]
  · isplitl [Hcl]; · iexact Hcl
    iexact Hcs
  iexists W; iexact HO'

end Step1

/-- info: 'Cert.Kernel.RS.wp_pass1' depends on axioms: [propext, Classical.choice, Quot.sound] -/
#guard_msgs in #print axioms wp_pass1

end Cert.Kernel.RS

end
-- ==== Proof.Bits.ViewFacts.lean ====
/-
  Small facts about views and shares. A points-to over a view's elements at contents that read, through the view, as
  `X` is `owns … X`; what a transfer or a store writes through a view reads back as the payload. Chunk `k` of a whole
  scratch buffer is the buffer accessed at the chunk's rectangle: the same elements, the same read and write. A full
  share is its two halves, and two halves held at different contents agree and join.
-/
import proofs.«900309_g7700000000000310_dist_rs_v7x_xy2x2_y_m4096_n1024_f32_1_alg».proof.Proof.Bits.Sched

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents read through a view -/

/-- A view's elements at contents that read as `X` are owned at `X`. -/
theorem owns_of_pts {c : Thread nD τ} {sp : Space} {sh : Shape} {e : EltTy} (v : Memref sig c.2.kind sp sh e)
    (q : PosShare TreeShare) (f : Buf (Elt F) (v.view.loc c)) {X : sh.Idx → Elt F e} (hX : v.view.read (Elt F) f = X) :
    (v.view.loc c ↦[v.view.set]{q} f : sProp 𝕄) ⊢ owns c v q X := by
  subst hX; exact owns_intro c v q f

/-- What was written through a view on every index reads back as the payload. -/
theorem owns_of_landed {c : Thread nD τ} {sp : Space} {sh : Shape} {e : EltTy} (dst : Memref sig c.2.kind sp sh e)
    (q : PosShare TreeShare) (fd : Buf (Elt F) (dst.view.loc c)) (X : sh.Idx → Elt F e) :
    (dst.view.loc c ↦[dst.view.set]{q} dst.view.write (Elt F) fd X Finset.univ : sProp 𝕄) ⊢ owns c dst q X :=
  owns_of_pts dst q _ (View.read_write_univ fd X)

/-- Forgetting the contents. -/
theorem anyPts_of_pts {sp : Space} (c : Dev nD) (v : Memref sig .tc sp S64x1024 .f32) (q : PosShare TreeShare)
    (f : Buf (Elt F) (v.view.loc (c : Thread nD τ))) :
    (v.view.loc (c : Thread nD τ) ↦[v.view.set]{q} f : sProp 𝕄) ⊢ anyPts c v q := by
  unfold anyPts; iintro H; iexists f; iexact H

theorem anyPts_of_owns {sp : Space} (c : Dev nD) (v : Memref sig .tc sp S64x1024 .f32) (q : PosShare TreeShare)
    (X : S64x1024.Idx → Elt F .f32) :
    (owns (c : Thread nD τ) v q X : sProp 𝕄) ⊢ anyPts c v q := by
  unfold owns anyPts; iintro ⟨%f, -, H⟩; iexists f; iexact H

/-! ## Chunk `k` of a whole scratch buffer `M`: the slice's view is `M` accessed at the chunk's rectangle -/

section Chunk

variable (M : Memref sig .tc .vmem S2048x1024 .f32) (k : Fin 32)

theorem view_chunk : (M.slice (chunkR k) (fun _ => rfl)).view = M.access (chunkR k) := rfl

/-- The elements a load of `M` at the chunk's rectangle reads are the slice's. -/
theorem load_chunk_sub : M.view.setOn (chunkR k).toLoadRect.set ⊆ (M.slice (chunkR k) (fun _ => rfl)).view.set := by
  show M.view.setOn (chunkR k).set ⊆ (M.view.slice (chunkR k)).set
  rw [View.set_slice]; exact Finset.Subset.refl _

/-- Such a load reads what the slice's view reads. -/
theorem readAt_chunk (f : M.view.ty.Contents (Elt F)) :
    M.view.readAt (Elt F) (chunkR k).toLoadRect f = (M.slice (chunkR k) (fun _ => rfl)).view.read (Elt F) f := rfl

/-- The elements an unmasked store to `M` at the chunk's rectangle writes are the slice's. -/
theorem store_chunk_sub : (M.access (chunkR k)).setOn Finset.univ ⊆ (M.slice (chunkR k) (fun _ => rfl)).view.set :=
  Finset.Subset.refl _

/-- What it writes reads back, through the slice, as the payload. -/
theorem read_store_chunk (f : M.view.ty.Contents (Elt F)) (w : S64x1024.Idx → Elt F .f32) :
    (M.slice (chunkR k) (fun _ => rfl)).view.read (Elt F) ((M.access (chunkR k)).write (Elt F) f w Finset.univ) = w :=
  View.read_write_univ (v := M.access (chunkR k)) f w

/-- After the store the chunk is owned at the payload. -/
theorem owns_of_stored (c : Dev nD) (f : Buf (Elt F) ((M.access (chunkR k)).loc (c : Thread nD τ))) (w : S64x1024.Idx → Elt F .f32) :
    ((M.access (chunkR k)).loc (c : Thread nD τ) ↦[(M.slice (chunkR k) (fun _ => rfl)).view.set]{fullShare}
        (M.access (chunkR k)).write (Elt F) f w Finset.univ : sProp 𝕄)
      ⊢ owns (c : Thread nD τ) (M.slice (chunkR k) (fun _ => rfl)) fullShare w :=
  owns_of_landed (c := (c : Thread nD τ)) (M.slice (chunkR k) (fun _ => rfl)) fullShare f w

end Chunk

/-! ## Shares -/

section Shares

variable {ℓ : Loc nD τ sig} (S : Finset (Idx ℓ)) (f g : Buf (Elt F) ℓ)

/-- A full share is its two halves. -/
theorem pts_split_half :
    (ℓ ↦[S]{fullShare} f : sProp 𝕄) ⊣⊢ iprop((ℓ ↦[S]{fullShare.left} f) ∗ ℓ ↦[S]{fullShare.right} f) :=
  pointsTo_share (PosShare.mem_left_op_right fullShare)

/-- Two halves, whatever contents each was held at, agree on the elements and join to the full share. -/
theorem pts_join_half :
    iprop((ℓ ↦[S]{fullShare.left} f) ∗ ℓ ↦[S]{fullShare.right} g) ⊢ (ℓ ↦[S]{fullShare} f : sProp 𝕄) := by
  refine pure_elim _ (pointsTo_agree (I := S) (J := S) (q₁ := fullShare.left) (q₂ := fullShare.right) (f := f) (g := g)) fun hag => ?_
  rw [← pointsTo_congr (q := fullShare.right) (I := S) (f := f) (g := g) fun i hi => (hag i (Finset.mem_inter.mpr ⟨hi, hi⟩)).1]
  exact (pts_split_half S f).2

end Shares

/-- The two halves of a slice, each at some contents, are the slice at some contents. -/
theorem anyPts_join_half {sp : Space} (c : Dev nD) (v : Memref sig .tc sp S64x1024 .f32) :
    (iprop(anyPts (F := F) c v fullShare.left ∗ anyPts (F := F) c v fullShare.right) : sProp 𝕄) ⊢ anyPts c v fullShare := by
  unfold anyPts
  iintro ⟨⟨%f, Hl⟩, ⟨%g, Hr⟩⟩
  iexists f
  iapply (pts_join_half (F := F) v.view.set f g)
  isplitl [Hl]
  · iexact Hl
  · iexact Hr

theorem anyPts_split_half {sp : Space} (c : Dev nD) (v : Memref sig .tc sp S64x1024 .f32) :
    (anyPts (F := F) c v fullShare : sProp 𝕄) ⊢ iprop(anyPts (F := F) c v fullShare.left ∗ anyPts (F := F) c v fullShare.right) := by
  unfold anyPts
  iintro ⟨%f, H⟩
  ihave H2 := (pts_split_half (F := F) v.view.set f).1 $$ H
  icases H2 with ⟨Hl, Hr⟩
  isplitl [Hl]
  · iexists f; iexact Hl
  · iexists f; iexact Hr

/-- Owning a view at the full share is owning it at the two halves, at the same contents. -/
theorem owns_split_half {c : Thread nD τ} {sp : Space} {sh : Shape} {e : EltTy} (v : Memref sig c.2.kind sp sh e) (X : sh.Idx → Elt F e) :
    (owns c v fullShare X : sProp 𝕄) ⊢ iprop(owns c v fullShare.left X ∗ owns c v fullShare.right X) := by
  unfold owns
  iintro ⟨%f, %hX, H⟩
  ihave H2 := (pts_split_half (F := F) v.view.set f).1 $$ H
  icases H2 with ⟨Hl, Hr⟩
  isplitl [Hl]
  · iexists f; isplitr
    · ipureintro; exact hX
    · iexact Hl
  · iexists f; isplitr
    · ipureintro; exact hX
    · iexact Hr

/-- info: 'Cert.Kernel.RS.anyPts_join_half' depends on axioms: [propext, Classical.choice, Quot.sound] -/
#guard_msgs in #print axioms anyPts_join_half

/-- info: 'Cert.Kernel.RS.owns_of_stored' depends on axioms: [propext, Classical.choice, Quot.sound] -/
#guard_msgs in #print axioms owns_of_stored

/-- info: 'Cert.Kernel.RS.owns_split_half' depends on axioms: [propext, Classical.choice, Quot.sound] -/
#guard_msgs in #print axioms owns_split_half

end Cert.Kernel.RS

end
-- ==== Proof.Bits.Step2b.lean ====
/-
  The tail of pass 2 at a chunk `k`, after the partial sums have been stored into chunk `k` of `part`. The device holds
  that chunk whole; it splits the share in two halves. With the left half it sends the chunk into its own row half of
  the result on the neighbour in the other mesh row: this pays the send cell's duty with the half share and the
  neighbour's receive cell's with the neighbour's result rows holding the device's partial sums, and the chunk's
  credit on that receive cell comes off what the device owes. With the right half it copies the chunk into the same
  rows of its own result: this pays the copy's cell with the result rows holding the partial sums and the half share.
  The credits on the send cell and on the copy's cell are what the tail leaves for the waits of pass 3.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.SchedLemmas
import proofs.«900309_g7700000000000310_dist_rs_v7x_xy2x2_y_m4096_n1024_f32_1_alg».proof.Proof.Bits.ViewFacts

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tail of pass 2 at chunk `k` after the store: the row transfer and the local copy of the partial sums. -/
def pass2b (c : Dev nD) (k : Fin 32) (rest : P F PUnit) : P F PUnit := do
  Prog.lift (.enqueueDma (partSl k) (.remote (Dev.tc (xdev c k)) (outSl c k) (.dma (xSendS k))) (.dma (xRecvS k)) (View.wordExact_bits rfl) (View.wordExact_bits rfl) ⟨⟨rfl, Or.inl rfl⟩, trivial⟩)
  Prog.lift (.enqueueDma (partSl k) (.here (outSl c k)) (.dma (outS k)) (View.wordExact_bits rfl) (View.wordExact_bits rfl) ⟨Or.inl rfl, trivial⟩)
  rest

section Step2b
variable (K : Dev nD → SemLoc sig → ℕ) (c : Dev nD)

/-- What the tail uses of the standing facts: the invariants of the three cells it pays, each at round 0. -/
theorem known_pass2b (k : Fin 32) :
    known m K c ⊢ iprop(cellInv ER (rsRd m) (K c (.dma (xSendS k))) (xSendCell c k) ∗ reached ER (xSendCell c k) 0
      ∗ cellInv ER (rsRd m) (K (xpeer c) (.dma (xRecvS k))) (xRecvCell (xpeer c) k) ∗ reached ER (xRecvCell (xpeer c) k) 0
      ∗ cellInv ER (rsRd m) (K c (.dma (outS k))) (outCell c k) ∗ reached ER (outCell c k) 0) := by
  have hel : ∀ Φ : Fin 32 → sProp 𝕄, bigSep Finset.univ Φ ⊢ Φ k := fun Φ => bigSep_elim (Finset.mem_univ k)
  unfold known
  iintro ⟨_, Hb⟩
  ihave Hk := hel _ $$ Hb
  icases Hk with ⟨⟨_, _, #Ixs, _, _, #Io, _, #Ixr⟩, ⟨_, _, #Rxs, _, _, #Ro, _, #Rxr⟩⟩
  isplit; · iexact Ixs
  isplit; · iexact Rxs
  isplit; · iexact Ixr
  isplit; · iexact Rxr
  isplit; · iexact Io
  iexact Ro

/-- The transfer of chunk `k` of the partial sums, held at the left half share, into the row neighbour's result at the
    device's own row half, addressed to `n`, which is that neighbour. -/
theorem wp_send_part (k : Fin 32) (n : Dev nD) (hn : n = xpeer c)
    {hsc : (outSl c k : Memref sig (Dev.tc n : Thread nD τ).2.kind .hbm S64x1024 .f32).view.ref.isScScratch = false}
    {hsrc : (partSl k).view.WordExact} {hdst : (outSl c k).view.WordExact}
    {hsem : DmaTarget.Typed .vmem (.dma (xRecvS k)) (.remote (Dev.tc n : Thread nD τ) (outSl c k : Memref sig .tc .hbm S64x1024 .f32) (.dma (xSendS k)) hsc)}
    {α : Type} {Q : α → sProp 𝕄} {kk : PUnit → Prog (TpuEff nD τ sig (Elt F) Λ₀ .tc) α}
    (fs : Buf (Elt F) ((partSl k).view.loc (c : Thread nD τ))) (hread : (partSl k).view.read (Elt F) fs = partChunk m c k)
    (fd : Buf (Elt F) ((outSl c k).view.loc (xpeer c : Thread nD τ))) {O₀ : CellTallies nD τ sig Unit} (O : CellTallies nD τ sig Unit)
    (hO : O₀ = O + tallyAt (xRecvCell (xpeer c) k) () N) (W : Waits sig Unit) :
    iprop(cellInv ER (rsRd m) (K c (.dma (xSendS k))) (xSendCell c k)
        ∗ cellInv ER (rsRd m) (K (xpeer c) (.dma (xRecvS k))) (xRecvCell (xpeer c) k)
        ∗ ((partSl k).view.loc (c : Thread nD τ) ↦[(partSl k).view.set]{fullShare.left} fs)
        ∗ ((outSl c k).view.loc (xpeer c : Thread nD τ) ↦[(outSl c k).view.set]{fullShare} fd)
        ∗ owes (c : Thread nD τ) O₀ W
        ∗ dutyTok ER (xSendCell c k) 0 false ∗ reached ER (xSendCell c k) 0
        ∗ dutyTok ER (xRecvCell (xpeer c) k) 0 false ∗ reached ER (xRecvCell (xpeer c) k) 0)
      ⊢ iprop(((cred (tallyAt (xSendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (partSl k) (.remote (Dev.tc n : Thread nD τ) (outSl c k) (.dma (xSendS k)) hsc) (.dma (xRecvS k)) hsrc hdst hsem) kk) Q) := by
  subst hn
  exact Rounds.wp_send_pointsTo 𝒱₀ ER (rsRd m) (c : Thread nD τ) none (c' := (xpeer c : Thread nD τ))
    (src := partSl k) (dst := outSl c k) (q := fullShare.left) (fs := fs) (fd := fd)
    (κ₁ := K c (.dma (xSendS k))) (κ₂ := K (xpeer c) (.dma (xRecvS k))) (r₁ := 0) (r₂ := 0) (d₁ := false) (d₂ := false)
    (by rw [duties_xSend]; exact Finset.mem_singleton_self _) (by rw [duties_xRecv]; exact Finset.mem_singleton_self _)
    () () N (amount_outSl c k (xRecvS k)) (amount_xSend m c k false) (amount_xRecv m (xpeer c) k false) O hO (W := W)
    (by rw [payload_xSend]; unfold xSendPay; exact anyPts_of_pts c (partSl k) fullShare.left fs)
    (by rw [payload_xRecv]; unfold xRecvPay; rw [xpeer_xpeer, ← hread]
        exact owns_of_landed (c := (xpeer c : Thread nD τ)) (outSl c k) fullShare fd _)

/-- The local copy of chunk `k` of the partial sums, held at the right half share, into the device's own result. -/
theorem wp_copy_out (k : Fin 32) {hsrc : (partSl k).view.WordExact} {hdst : (outSl c k).view.WordExact}
    {hsem : DmaTarget.Typed (nD := nD) (τ := τ) (p := (c : Thread nD τ).2) .vmem (.dma (outS k)) (.here (outSl c k))}
    {α : Type} {Q : α → sProp 𝕄} {kk : PUnit → Prog (TpuEff nD τ sig (Elt F) Λ₀ .tc) α}
    (fs : Buf (Elt F) ((partSl k).view.loc (c : Thread nD τ))) (hread : (partSl k).view.read (Elt F) fs = partChunk m c k)
    (fd : Buf (Elt F) ((outSl c k).view.loc (c : Thread nD τ))) :
    iprop(cellInv ER (rsRd m) (K c (.dma (outS k))) (outCell c k)
        ∗ ((partSl k).view.loc (c : Thread nD τ) ↦[(partSl k).view.set]{fullShare.right} fs)
        ∗ ((outSl c k).view.loc (c : Thread nD τ) ↦[(outSl c k).view.set]{fullShare} fd)
        ∗ dutyTok ER (outCell c k) 0 false ∗ reached ER (outCell c k) 0)
      ⊢ iprop((cred (tallyAt (outCell c k) () N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (partSl k) (.here (outSl c k)) (.dma (outS k)) hsrc hdst hsem) kk) Q) :=
  Rounds.wp_copy_pointsTo 𝒱₀ ER (rsRd m) (c : Thread nD τ) none (src := partSl k) (dst := outSl c k)
    (q := fullShare.right) (fs := fs) (fd := fd) (r := 0) (d := false) (κ := K c (.dma (outS k)))
    (by rw [duties_out]; exact Finset.mem_singleton_self _) () N (amount_outSl c k (outS k)) (amount_out m c k false)
    (by rw [payload_out]; unfold outPay; rw [← hread]
        exact Idealize.SL.BI.sep_mono (owns_of_landed (c := (c : Thread nD τ)) (outSl c k) fullShare fd _) (anyPts_of_pts c (partSl k) fullShare.right fs))

theorem wp_pass2b (k : Fin 32) (S : Finset (Fin 32)) (hk : k ∈ S) (rest : P F PUnit) (Kt : PUnit → sProp 𝕄) :
    iprop(known m K c ∗ owns (c : Thread nD τ) (partSl k) fullShare (partChunk m c k)
        ∗ anyPts (F := F) (xpeer c) (outSl c k) fullShare ∗ anyPts (F := F) c (outSl c k) fullShare
        ∗ dutyTok ER (xSendCell c k) 0 false ∗ dutyTok ER (xRecvCell (xpeer c) k) 0 false ∗ dutyTok ER (outCell c k) 0 false
        ∗ owesAny (F := F) c (Ox c S)
        ∗ ((cred (tallyAt (xSendCell c k) () N) ∗ cred (tallyAt (outCell c k) () N) ∗ owesAny (F := F) c (Ox c (S.erase k)))
            -∗ wp frame (wpE (defs₀ (F := F)) 𝒱₀ c none) Set.univ rest Kt))
      ⊢ wp frame (wpE (defs₀ (F := F)) 𝒱₀ c none) Set.univ (pass2b c k rest) Kt := by
  unfold owesAny anyPts owns
  simp only [pass2b, Prog.lift, Prog.bind_op, Prog.bind_ret, Prog.pure_eq_ret]
  iintro ⟨#Hkn, ⟨%fs, %hread, Hpart⟩, ⟨%fx, Hox⟩, ⟨%fo, Hoc⟩, Ttx, Ttr, Tto, ⟨%W, HO⟩, Hk⟩
  ihave Hc := known_pass2b m K c k $$ Hkn
  icases Hc with ⟨#Ixs, #Rxs, #Ixr, #Rxr, #Io, #Ro⟩
  ihave Hh := (pts_split_half (F := F) (partSl k).view.set fs).1 $$ Hpart
  icases Hh with ⟨Hl, Hr⟩
  iapply (wp_send_part m K c k (xdev c k) (xdev_eq c k) fs hread fx (Ox c (S.erase k)) (Ox_erase c S k hk) W) $$ [Hl Hox HO Ttx Ttr]
  · isplitr; · iexact Ixs
    isplitr; · iexact Ixr
    isplitl [Hl]; · iexact Hl
    isplitl [Hox]; · iexact Hox
    isplitl [HO]; · iexact HO
    isplitl [Ttx]; · iexact Ttx
    isplitr; · iexact Rxs
    isplitl [Ttr]; · iexact Ttr
    iexact Rxr
  iintro ⟨Hcs, HO'⟩
  iapply (wp_copy_out m K c k fs hread fo) $$ [Hr Hoc Tto]
  · isplitr; · iexact Io
    isplitl [Hr]; · iexact Hr
    isplitl [Hoc]; · iexact Hoc
    isplitl [Tto]; · iexact Tto
    iexact Ro
  iintro Hco
  iapply Hk
  isplitl [Hcs]; · iexact Hcs
  isplitl [Hco]; · iexact Hco
  iexists W; iexact HO'

end Step2b

/-- info: 'Cert.Kernel.RS.wp_pass2b' depends on axioms: [propext, Classical.choice, Quot.sound] -/
#guard_msgs in #print axioms wp_pass2b

end Cert.Kernel.RS

end
-- ==== Proof.Bits.Step2.lean ====
/-
  Pass 2 at a chunk: the two waits hand the device its column neighbour's chunk in `comm` and its own chunk in `lin`;
  the three loads read them (and the old chunk of `part`, unused); the store leaves their sum in chunk `k` of `part`;
  that chunk, split into two half shares, is the source of the transfer into the row neighbour's result and of the
  local copy into the device's own result, both at the rows of the device's own row half.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.SchedLemmas
import proofs.«900309_g7700000000000310_dist_rs_v7x_xy2x2_y_m4096_n1024_f32_1_alg».proof.Proof.Bits.Step2b

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] expect_yRecv rest_yRecv duties_yRecv expect_lin rest_lin duties_lin

section Rules
variable (K : Dev nD → SemLoc sig → ℕ) (c : Dev nD)

/-- Of what a device knows for good, the invariants of the two cells pass 2 waits on at chunk `k`. -/
theorem known_chunk2 (k : Fin 32) :
    known m K c ⊢ iprop(cellInv ER (rsRd m) (K c (.dma (yRecvS k))) (yRecvCell c k)
      ∗ cellInv ER (rsRd m) (K c (.dma (linS k))) (linCell c k)) := by
  unfold known
  rw [bigSep_univ_at _ k]
  iintro ⟨-, ⟨⟨-, #IyRecv, -, -, #Ilin, -, -, -⟩, -⟩, -⟩
  isplitr; · iexact IyRecv
  iexact Ilin

/-- What a device owes, with the record of its waits named; -/
theorem owesAny_open (O : CellTallies nD τ sig Unit) :
    owesAny (F := F) c O ⊢ iprop(∃ W, owes (c : Thread nD τ) O W) := .rfl
/-- and forgotten again. -/
theorem owesAny_of_owes (O : CellTallies nD τ sig Unit) (W : Waits sig Unit) :
    (owes (c : Thread nD τ) O W : sProp 𝕄) ⊢ owesAny (F := F) c O := by
  unfold owesAny; iintro H; iexists W; iexact H

/-- A slice at some contents, the contents named. -/
theorem anyPts_open {sp : Space} (v : Memref sig .tc sp S64x1024 .f32) (q : PosShare TreeShare) :
    anyPts (F := F) c v q ⊢ iprop(∃ f, v.view.loc (c : Thread nD τ) ↦[v.view.set]{q} f) := .rfl

/-- What the column receive cell's duty hands over: chunk `k` of `comm`, read as the column neighbour's chunk. -/
theorem pay_yRecv_open (k : Fin 32) :
    (rsRd (F := F) m).payload (yRecvCell c k) 0 false
      ⊢ iprop(∃ f, ⌜(commSl k).view.read (Elt F) f = peerChunk m (ypeer c) k⌝
          ∗ ((commSl k).view.loc (c : Thread nD τ) ↦[(commSl k).view.set]{fullShare} f)) := by
  rw [payload_yRecv]; exact .rfl

/-- What the duty of the local copy in hands over: chunk `k` of `lin`, read as the device's own chunk, and the source share. -/
theorem pay_lin_open (k : Fin 32) :
    (rsRd (F := F) m).payload (linCell c k) 0 false
      ⊢ iprop((∃ f, ⌜(linSl k).view.read (Elt F) f = ownChunk m c k⌝
          ∗ ((linSl k).view.loc (c : Thread nD τ) ↦[(linSl k).view.set]{fullShare} f)) ∗ argOwnPts m c k fullShare) := by
  rw [payload_lin]; exact .rfl

/-- A slice just written whole with `w` is owned at `w`. -/
theorem stored_owns {sp : Space} (v : Memref sig .tc sp S64x1024 .f32) (f : Buf (Elt F) (v.view.loc (c : Thread nD τ)))
    (w X : Vec F S64x1024 .f32) (h : w = X) :
    (v.view.loc (c : Thread nD τ) ↦[v.view.set]{fullShare} (v.view.write (Elt F) f w Finset.univ) : sProp 𝕄)
      ⊢ owns (c : Thread nD τ) v fullShare X := by
  subst h
  unfold owns
  iintro H
  iexists (v.view.write (Elt F) f w Finset.univ)
  isplitr
  · ipureintro; exact View.read_write_univ f w
  iexact H

set_option maxHeartbeats 1000000 in
theorem wp_pass2 (k : Fin 32) (S : Finset (Fin 32)) (hk : k ∈ S) (rest : P F PUnit) (Kt : PUnit → sProp 𝕄) :
    iprop(known m K c ∗ levAts L lv ∗ T2 (F := F) c k ∗ owesAny (F := F) c (Ox c S)
        ∗ ((D2 m c k ∗ owesAny (F := F) c (Ox c (S.erase k))) -∗ wp frame (wpE (defs₀ (F := F)) 𝒱₀ c none) Set.univ rest Kt))
      ⊢ wp frame (wpE (defs₀ (F := F)) 𝒱₀ c none) Set.univ (pass2 c k rest) Kt := by
  have htail := wp_pass2b m K c k S hk rest Kt
  simp only [pass2b, Prog.lift, Prog.bind_op, Prog.bind_ret, Prog.pure_eq_ret] at htail
  unfold T2 D2
  iintro ⟨#Hkn, #Hlev, HT, HOA, Hk⟩
  ihave Hch := (known_chunk2 m K c k) $$ Hkn
  icases Hch with ⟨#IyRecv, #Ilin⟩
  icases HT with ⟨Clin, CyRecv, Plin, PyRecv, Apart, AoutX, Aout, TxSend, TxRecv, Tout⟩
  ihave HO' := (owesAny_open c (Ox c S)) $$ HOA
  icases HO' with ⟨%W, HO⟩
  -- what the device still owes sits above both cells it waits on
  ihave HM1 : MayWait (c : Thread nD τ) (.dma (yRecvS k)) () (Ox c S) $$ []
  · iapply (mayWait_yRecv c k S); iexact Hlev
  ihave HM2 : MayWait (c : Thread nD τ) (.dma (linS k)) () (Ox c S) $$ []
  · iapply (mayWait_lin c k S); iexact Hlev
  simp only [pass2, Prog.lift, Prog.bind_op, Prog.bind_ret, Prog.pure_eq_ret]
  -- the two waits, each for the whole of its cell's one round
  sl_exec
  ihave Hpc := (pay_yRecv_open m c k) $$ PyRecv_pay1
  icases Hpc with ⟨%fc, %hfc, Hcomm⟩
  ihave Hpl := (pay_lin_open m c k) $$ Plin_pay1
  icases Hpl with ⟨⟨%fl, %hfl, Hlin⟩, HargOwn⟩
  ihave Hp' := (anyPts_open c (partSl k) fullShare) $$ Apart
  icases Hp' with ⟨%fp, Hpart⟩
  -- the three loads
  iapply (wp_load_rect (defs := defs₀ (F := F)) 𝒱₀ (c : Thread nD τ) none Set.univ (m := linM) (r := chunkR k)
      (S := (linSl k).view.set) (q := fullShare) (f := fl) (Finset.Subset.refl _)) $$ Hlin
  iintro Hlin
  iapply (wp_load_rect (defs := defs₀ (F := F)) 𝒱₀ (c : Thread nD τ) none Set.univ (m := commM) (r := chunkR k)
      (S := (commSl k).view.set) (q := fullShare) (f := fc) (Finset.Subset.refl _)) $$ Hcomm
  iintro Hcomm
  iapply (wp_load_rect (defs := defs₀ (F := F)) 𝒱₀ (c : Thread nD τ) none Set.univ (m := partM) (r := chunkR k)
      (S := (partSl k).view.set) (q := fullShare) (f := fp) (Finset.Subset.refl _)) $$ Hpart
  iintro Hpart
  -- the store of the sum: chunk `k` of `part` now reads the device's partial sums
  iapply (wp_store (defs := defs₀ (F := F)) 𝒱₀ (c : Thread nD τ) none Set.univ (m := partM) (r := chunkR k)
      (S := (partSl k).view.set) (f := fp) (Finset.Subset.refl _)) $$ Hpart
  iintro Hpart
  have hsum : k0_pay1 ((linM.access (chunkR k)).read (Elt F) fl) ((commM.access (chunkR k)).read (Elt F) fc) = partChunk m c k := by
    unfold partChunk; exact congrArg₂ _ hfl hfc
  ihave Hown := (stored_owns c (partSl k) fp _ (partChunk m c k) hsum) $$ Hpart
  -- the transfer into the row neighbour's result and the local copy into the device's own
  iapply htail
  isplitr; · iexact Hkn
  isplitl [Hown]; · iexact Hown
  isplitl [AoutX]; · iexact AoutX
  isplitl [Aout]; · iexact Aout
  isplitl [TxSend]; · iexact TxSend
  isplitl [TxRecv]; · iexact TxRecv
  isplitl [Tout]; · iexact Tout
  isplitl [HO]; · iapply (owesAny_of_owes c (Ox c S) _); iexact HO
  iintro ⟨CxSend, Cout, HOA⟩
  iapply Hk
  isplitr [HOA]
  · isplitl [Hlin]; · iapply (anyPts_of_pts c (linSl k) fullShare fl); iexact Hlin
    isplitl [Hcomm]; · iapply (anyPts_of_pts c (commSl k) fullShare fc); iexact Hcomm
    isplitl [HargOwn]; · iexact HargOwn
    isplitl [Plin]; · iexact Plin
    isplitl [PyRecv]; · iexact PyRecv
    isplitl [CxSend]; · iexact CxSend
    iexact Cout
  iexact HOA

end Rules

/-- info: 'Cert.Kernel.RS.wp_pass2' depends on axioms: [propext, Classical.choice, Quot.sound] -/
#guard_msgs in #print axioms wp_pass2

end Cert.Kernel.RS

end
-- ==== Proof.Bits.Step3.lean ====
/-
  Pass 3 of the protocol at a chunk: the four waits that end the chunk's four transfers, after which the device holds
  its argument's sent rows again, its chunk of partial sums whole, and the two chunks of the result written.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.SchedLemmas

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A chunk's credit is the same on every buffer of the kernel -/

theorem credit_argPeerSl (c : Dev nD) (k : Fin 32) : (argPeerSl c k).view.dmaCredit = N := rfl
theorem credit_partSl (k : Fin 32) : (partSl k).view.dmaCredit = N := rfl
theorem credit_outSl (c : Dev nD) (k : Fin 32) : (outSl c k).view.dmaCredit = N := rfl

/-! ## Two half shares of one slice, at whatever contents, are the full share at one contents -/

/-- The two holders agree on the slice's elements, so the second half can be restated at the first half's contents,
    and the halves of one share at one contents are that share. -/
theorem anyPts_join {sp : Space} (c : Dev nD) (v : Memref sig .tc sp S64x1024 .f32) :
    iprop(anyPts (F := F) c v fullShare.left ∗ anyPts (F := F) c v fullShare.right) ⊢ anyPts (F := F) c v fullShare := by
  unfold anyPts
  iintro ⟨⟨%f, Hf⟩, ⟨%g, Hg⟩⟩
  ihave H := (persistent_entails_right Region.is_agree) $$ [Hf Hg]
  · isplitl [Hf] <;> iassumption
  icases H with ⟨%h, Hf, Hg⟩
  have e : (v.view.loc (c : Thread nD τ) ↦[v.view.set]{fullShare.right} g : sProp 𝕄)
      = (v.view.loc (c : Thread nD τ) ↦[v.view.set]{fullShare.right} f) :=
    Region.is_congr fun i hi => ((h i (Finset.mem_inter.mpr ⟨hi, hi⟩)).1).symm
  ihave Hg' := (Entails.of_eq e) $$ Hg
  iexists f
  iapply (Region.is_share (PosShare.mem_left_op_right fullShare)).2
  isplitl [Hf] <;> iassumption

/-! ## Pass 3 at chunk `k` -/

attribute [local sl_rounds] expect_ySend rest_ySend expect_xSend rest_xSend expect_xRecv rest_xRecv expect_out rest_out
  duties_ySend duties_xSend duties_xRecv duties_out

section Rules
variable (K : Dev nD → SemLoc sig → ℕ) (c : Dev nD)

/-- Of what a device knows for good, the invariants of its own six cells of chunk `k`. -/
theorem known_cells (k : Fin 32) : known m K c ⊢ iprop(
    cellInv ER (rsRd m) (K c (.dma (ySendS k))) (ySendCell c k) ∗ cellInv ER (rsRd m) (K c (.dma (yRecvS k))) (yRecvCell c k)
      ∗ cellInv ER (rsRd m) (K c (.dma (xSendS k))) (xSendCell c k) ∗ cellInv ER (rsRd m) (K c (.dma (xRecvS k))) (xRecvCell c k)
      ∗ cellInv ER (rsRd m) (K c (.dma (linS k))) (linCell c k) ∗ cellInv ER (rsRd m) (K c (.dma (outS k))) (outCell c k)) := by
  unfold known
  rw [bigSep_univ_at _ k]
  iintro ⟨-, ⟨⟨I1, I2, I3, I4, I5, I6, -, -⟩, -⟩, -⟩
  isplitl [I1]; · iexact I1
  isplitl [I2]; · iexact I2
  isplitl [I3]; · iexact I3
  isplitl [I4]; · iexact I4
  isplitl [I5]; · iexact I5
  iexact I6

/-- Pass 3 is four waits, each for the whole of its cell's one round; the device owes nothing any more, so each wait
    is allowed. The send cell of the column transfer gives the source share back; the send cell of the row transfer and
    the cell of the local copy out give back the two halves of the chunk of partial sums; the receive cell of the row
    transfer and the cell of the copy out give the two chunks of the result written. -/
theorem wp_pass3 (k : Fin 32) (rest : P F PUnit) (Kt : PUnit → sProp 𝕄) :
    iprop(known m K c ∗ T3 (F := F) c k ∗ owesAny (F := F) c 0
        ∗ ((D3 m c k ∗ owesAny (F := F) c 0) -∗ wp frame (wpE (defs₀ (F := F)) 𝒱₀ c none) Set.univ rest Kt))
      ⊢ wp frame (wpE (defs₀ (F := F)) 𝒱₀ c none) Set.univ (pass3 c k rest) Kt := by
  iintro ⟨Hk, HT, HO, Hrest⟩
  ihave Hc := (known_cells m K c k) $$ Hk
  icases Hc with ⟨#IyS, -, #IxS, #IxR, -, #Io⟩
  unfold T3
  icases HT with ⟨HcYS, HcXS, HcXR, HcO, HaYS, HaXS, HaXR, HaO⟩
  unfold owesAny
  icases HO with ⟨%W, HO⟩
  -- the device owes nothing any more, so each of the four waits is allowed
  ihave HM1 : MayWait (c : Thread nD τ) (.dma (ySendS k)) () (0 : CellTallies nD τ sig Unit) $$ []
  · rw [MayWait_zero]; iempintro
  ihave HM2 : MayWait (c : Thread nD τ) (.dma (xSendS k)) () (0 : CellTallies nD τ sig Unit) $$ []
  · rw [MayWait_zero]; iempintro
  ihave HM3 : MayWait (c : Thread nD τ) (.dma (xRecvS k)) () (0 : CellTallies nD τ sig Unit) $$ []
  · rw [MayWait_zero]; iempintro
  ihave HM4 : MayWait (c : Thread nD τ) (.dma (outS k)) () (0 : CellTallies nD τ sig Unit) $$ []
  · rw [MayWait_zero]; iempintro
  simp only [pass3, Prog.lift, Prog.bind_op, Prog.bind_ret, Prog.pure_eq_ret]
  -- the four waits, each for the whole of its cell's one round
  sl_exec
  ihave HpY := (Entails.of_eq (payload_ySend m c k false)) $$ HaYS_pay1
  ihave HpXS := (Entails.of_eq (payload_xSend m c k false)) $$ HaXS_pay1
  ihave HpXR := (Entails.of_eq (payload_xRecv m c k false)) $$ HaXR_pay1
  ihave HpO := (Entails.of_eq (payload_out m c k false)) $$ HaO_pay1
  unfold ySendPay xSendPay xRecvPay outPay
  icases HpO with ⟨Hown, HpR⟩
  ihave Hpart := (anyPts_join (F := F) c (partSl k)) $$ [HpXS HpR]
  · isplitl [HpXS] <;> iassumption
  iapply Hrest
  isplitr [HO]
  · unfold D3
    isplitl [HpY]; · iexact HpY
    isplitl [Hpart]; · iexact Hpart
    isplitl [Hown]; · iexact Hown
    isplitl [HpXR]; · iexact HpXR
    isplitl [HaYS]; · iexact HaYS
    isplitl [HaXS]; · iexact HaXS
    isplitl [HaXR]; · iexact HaXR
    iexact HaO
  · iexists _
    iexact HO

end Rules

/-- info: 'Cert.Kernel.RS.wp_pass3' depends on axioms: [propext, Classical.choice, Quot.sound] -/
#guard_msgs in #print axioms wp_pass3

end Cert.Kernel.RS

end
-- ==== Proof.Bits.StepClose.lean ====
/-
  The end of a chunk: each of its six cells stands past its one round with nothing taken of a later one, and no later
  round has a duty, so the cell closes and its counter, at zero, is the device's again.
-/
import proofs.«900309_g7700000000000310_dist_rs_v7x_xy2x2_y_m4096_n1024_f32_1_alg».proof.Proof.Bits.State
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.SchedLemmas
import proofs.«900309_g7700000000000310_dist_rs_v7x_xy2x2_y_m4096_n1024_f32_1_alg».proof.Proof.Bits.Step3

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing chunk `k`'s cells -/

section Rules
variable (K : Dev nD → SemLoc sig → ℕ) (c : Dev nD)

/-- Past its one round, a cell closes: its counter at zero comes back. -/
theorem close_chunk (k : Fin 32) : iprop(known m K c ∗ atEnd (F := F) c k) ⊢ |={Set.univ}=> zeros (F := F) c k := by
  iintro ⟨#Hk, HE⟩
  ihave Hc := (known_cells m K c k) $$ Hk
  icases Hc with ⟨#IyS, #IyR, #IxS, #IxR, #Il, #Io⟩
  unfold atEnd
  icases HE with ⟨HaYS, HaYR, HaXS, HaXR, HaL, HaO⟩
  -- no round after the first has a duty, so each cell, standing past its one round with nothing taken, closes
  imod (Rounds.cell_close ER (rsRd m) (Set.mem_univ (K c (.dma (ySendS k)))) (fun h => h) (R := 0 + 1) (duties_later m (ySendCell c k))) $$ [HaYS] with HzYS
  · isplitr; · iexact IyS
    iexact HaYS
  imod (Rounds.cell_close ER (rsRd m) (Set.mem_univ (K c (.dma (yRecvS k)))) (fun h => h) (R := 0 + 1) (duties_later m (yRecvCell c k))) $$ [HaYR] with HzYR
  · isplitr; · iexact IyR
    iexact HaYR
  imod (Rounds.cell_close ER (rsRd m) (Set.mem_univ (K c (.dma (xSendS k)))) (fun h => h) (R := 0 + 1) (duties_later m (xSendCell c k))) $$ [HaXS] with HzXS
  · isplitr; · iexact IxS
    iexact HaXS
  imod (Rounds.cell_close ER (rsRd m) (Set.mem_univ (K c (.dma (xRecvS k)))) (fun h => h) (R := 0 + 1) (duties_later m (xRecvCell c k))) $$ [HaXR] with HzXR
  · isplitr; · iexact IxR
    iexact HaXR
  imod (Rounds.cell_close ER (rsRd m) (Set.mem_univ (K c (.dma (linS k)))) (fun h => h) (R := 0 + 1) (duties_later m (linCell c k))) $$ [HaL] with HzL
  · isplitr; · iexact Il
    iexact HaL
  imod (Rounds.cell_close ER (rsRd m) (Set.mem_univ (K c (.dma (outS k)))) (fun h => h) (R := 0 + 1) (duties_later m (outCell c k))) $$ [HaO] with HzO
  · isplitr; · iexact Io
    iexact HaO
  imodintro
  unfold zeros
  isplitl [HzYS]; · iexact HzYS
  isplitl [HzYR]; · iexact HzYR
  isplitl [HzXS]; · iexact HzXS
  isplitl [HzXR]; · iexact HzXR
  isplitl [HzL]; · iexact HzL
  iexact HzO

end Rules

/-- info: 'Cert.Kernel.RS.close_chunk' depends on axioms: [propext, Classical.choice, Quot.sound] -/
#guard_msgs in #print axioms close_chunk

end Cert.Kernel.RS

end
-- ==== Proof.Bits.OutVal.lean ====
/-
  The result array, chunk by chunk. The kernel moves data in 32 chunks of 64 rows. Chunk `k` of
  the partial sums of a device `c'` is, entry by entry, its own rows [2048·x(c') + 64k, … + 64)
  in its own column half plus the same rows of its neighbour in the other mesh column, read in
  that same column half. The rows [2048·x(c') + 64k, … + 64) of the result of any device `c` of
  the same mesh column as `c'` hold exactly those sums: for `c' = c` this is `c`'s own row half,
  for the neighbour in the other mesh row the other half.
-/
import proofs.«900309_g7700000000000310_dist_rs_v7x_xy2x2_y_m4096_n1024_f32_1_alg».proof.Proof.Bits.Vals
import proofs.«900309_g7700000000000310_dist_rs_v7x_xy2x2_y_m4096_n1024_f32_1_alg».proof.Proof.Bits.Sched
import Idealize.ShloMosaic.Lib.Pipeline.Value
import Idealize.ShloMosaic.Lib.ValueIdx

noncomputable section

namespace Cert.Kernel.RS

open Cert.Kernel Cert.Kernel.Gen
open Idealize.ShloMosaic Idealize.ShloMosaic.TcCoe
open Idealize.ShloMosaic.ValueIdx

variable {F : FTy → Type} [FloatOps F]

theorem row_lt (c : Dev nD) (k : Fin 32) (a : Fin 64) : 2048 * (c.val / 2) + 64 * k.val + a.val < 4096 := by
  have hc : c.val < 4 := c.isLt
  have := k.isLt; have := a.isLt; omega

/-- The place of an argument buffer that entry (a, b) of chunk `k` of device `c`'s own row half and
    own column half is read from: (0, 2048·x(c) + 64k + a, 1024·y(c) + b). -/
def rowIdx (c : Dev nD) (k : Fin 32) (a : Fin 64) (b : Fin 1024) : S1x4096x2048.Idx :=
  ix3 (n0 := 1) (n1 := 4096) (n2 := 2048) 0
    ⟨2048 * (c.val / 2) + 64 * k.val + a.val, row_lt c k a⟩
    ⟨1024 * (c.val % 2) + b.val, by have := b.isLt; omega⟩

/-- The rectangle of chunk `k` of the own column half, placed in the argument buffer. -/
theorem own_idx (c : Dev nD) (k : Fin 32) (a : Fin 64) (b : Fin 1024) :
    (Rect.unit (s := S1x4096x2048) (k0_off1 c (BitVec.ofNat 32 (64 * k.val))) S1x64x1024.size (k0_off1_inb c k)).toLoadRect.idx
        (ix3 (n0 := 1) (n1 := 64) (n2 := 1024) 0 a b) = rowIdx c k a b := by
  funext d
  refine Fin.ext ?_
  have h := k0_off1_eq c k
  match d with
  | ⟨0, _⟩ =>
    show k0_off1 c (BitVec.ofNat 32 (64 * k.val)) 0 + 1 * 0 = 0
    rw [h]; rfl
  | ⟨1, _⟩ =>
    show k0_off1 c (BitVec.ofNat 32 (64 * k.val)) 1 + 1 * a.val = 2048 * (c.val / 2) + 64 * k.val + a.val
    rw [h]
    show 2048 * (c.val / 2) + 64 * k.val + 1 * a.val = _
    omega
  | ⟨2, _⟩ =>
    show k0_off1 c (BitVec.ofNat 32 (64 * k.val)) 2 + 1 * b.val = 1024 * (c.val % 2) + b.val
    rw [h]
    show 1024 * (c.val % 2) + 1 * b.val = _
    omega

/-- The rectangle of chunk `k` of the other column half, on the neighbour in the other mesh column:
    the same place. -/
theorem peer_idx (c : Dev nD) (k : Fin 32) (a : Fin 64) (b : Fin 1024) :
    (Rect.unit (s := S1x4096x2048) (k0_off2 (ypeer c) (BitVec.ofNat 32 (64 * k.val))) S1x64x1024.size (k0_off2_inb (ypeer c) k)).toLoadRect.idx
        (ix3 (n0 := 1) (n1 := 64) (n2 := 1024) 0 a b) = rowIdx c k a b := by
  funext d
  refine Fin.ext ?_
  have h := (off2_ypeer c k).trans (k0_off1_eq c k)
  match d with
  | ⟨0, _⟩ =>
    show k0_off2 (ypeer c) (BitVec.ofNat 32 (64 * k.val)) 0 + 1 * 0 = 0
    rw [h]; rfl
  | ⟨1, _⟩ =>
    show k0_off2 (ypeer c) (BitVec.ofNat 32 (64 * k.val)) 1 + 1 * a.val = 2048 * (c.val / 2) + 64 * k.val + a.val
    rw [h]
    show 2048 * (c.val / 2) + 64 * k.val + 1 * a.val = _
    omega
  | ⟨2, _⟩ =>
    show k0_off2 (ypeer c) (BitVec.ofNat 32 (64 * k.val)) 2 + 1 * b.val = 1024 * (c.val % 2) + b.val
    rw [h]
    show 1024 * (c.val % 2) + 1 * b.val = _
    omega

theorem casts3 : S1x64x1024.ShapeCasts S64x1024 := by decide

/-- The squeezed index (a, b) sits at the row-major position of (0, a, b). -/
theorem rm_eq (a : Fin 64) (b : Fin 1024) :
    (S1x64x1024.rowMajor (ix3 (n0 := 1) (n1 := 64) (n2 := 1024) 0 a b)).val = (S64x1024.rowMajor (ix2 a b)).val := by
  rw [Shape.rowMajor_val_three, Shape.rowMajor_val_two]
  show ((0 * 64 + a.val) * 1024 + b.val) = a.val * 1024 + b.val
  omega

variable (m : (ℓ : Loc nD τ sig) → Buf (Elt F) ℓ)

/-- Chunk `k` of the own rows, own column half, entry by entry. -/
theorem ownChunk_apply (c : Dev nD) (k : Fin 32) (a : Fin 64) (b : Fin 1024) :
    ownChunk m c k (ix2 a b) = m ((c : Thread nD τ).loc main_arg0) (rowIdx c k a b) := by
  unfold ownChunk
  rw [Memref.read_squeeze_slice (hc := casts3), shapeCast_apply _ casts3 (ix2 a b) _ (rm_eq a b), View.readAt_apply, own_idx]
  rfl

/-- Chunk `k` of the neighbour's rows in the other mesh column, its other column half. -/
theorem peerChunk_apply (c : Dev nD) (k : Fin 32) (a : Fin 64) (b : Fin 1024) :
    peerChunk m (ypeer c) k (ix2 a b) = m ((ypeer c : Thread nD τ).loc main_arg0) (rowIdx c k a b) := by
  unfold peerChunk
  rw [Memref.read_squeeze_slice (hc := casts3), shapeCast_apply _ casts3 (ix2 a b) _ (rm_eq a b), View.readAt_apply, peer_idx]
  rfl

/-- Chunk `k` of the partial sums, entry by entry. -/
theorem partChunk_apply (c : Dev nD) (k : Fin 32) (a : Fin 64) (b : Fin 1024) :
    partChunk m c k (ix2 a b) =
      FloatOps.addf (φ := .f32) (m ((c : Thread nD τ).loc main_arg0) (rowIdx c k a b))
        (m ((ypeer c : Thread nD τ).loc main_arg0) (rowIdx c k a b)) := by
  unfold partChunk k0_pay1
  show shapeCast S64x1024 (addf (ownChunk m c k) (peerChunk m (ypeer c) k)) _ (ix2 a b) = _
  rw [shapeCast_apply _ _ (ix2 a b) (ix2 a b) rfl]
  show FloatOps.addf (ownChunk m c k (ix2 a b)) (peerChunk m (ypeer c) k (ix2 a b)) = _
  rw [ownChunk_apply, peerChunk_apply]

/-- The rows [2048·x(c') + 64k, … + 64) of a result buffer, read at (a, b). -/
theorem read_outSl_apply (c c' : Dev nD) (k : Fin 32) (f : Buf (Elt F) ((c : Thread nD τ).loc main_v1))
    (a : Fin 64) (b : Fin 1024) :
    (outSl c' k).view.read (Elt F) f (ix2 a b) =
      f (ix2 (n0 := 4096) (n1 := 1024)
        ⟨2048 * (c'.val / 2) + 64 * k.val + a.val, row_lt c' k a⟩ b) := by
  rw [View.read_apply]
  show f _ = f _
  congr 1
  funext d
  refine Fin.ext ?_
  have h := k0_off3_eq c' k
  match d with
  | ⟨0, _⟩ =>
    show k0_off3 c' (BitVec.ofNat 32 (64 * k.val)) 0 + 1 * a.val = 2048 * (c'.val / 2) + 64 * k.val + a.val
    rw [h]
    show 2048 * (c'.val / 2) + 64 * k.val + 1 * a.val = _
    omega
  | ⟨1, _⟩ =>
    show k0_off3 c' (BitVec.ofNat 32 (64 * k.val)) 1 + 1 * b.val = b.val
    rw [h]
    show 0 + 1 * b.val = _
    omega

/-- The device of the mesh row of `c'` in the column of `c` is `c'` itself when the two share a column, -/
theorem colDev_same (c c' : Dev nD) (hcc : c'.val % 2 = c.val % 2) (a : ℕ) (ha : a < 2) (haa : a = c'.val / 2) :
    colDev c a ha = c' := by
  refine Fin.ext ?_
  rw [colDev_val]
  omega

/-- and the one in the other column is its neighbour there. -/
theorem colDev'_same (c c' : Dev nD) (hcc : c'.val % 2 = c.val % 2) (a : ℕ) (ha : a < 2) (haa : a = c'.val / 2) :
    colDev' c a ha = ypeer c' := by
  refine Fin.ext ?_
  rw [colDev'_val]
  have h1 := ypeer_val_mod c'
  have h2 := ypeer_val_div c'
  have := (ypeer c').isLt
  have := c'.isLt
  omega

/-- Chunk `k` of the row half of device `c'`, in the result of a device `c` of the same mesh column:
    the partial sums of `c'`. -/
theorem read_out_col (c c' : Dev nD) (hcc : c'.val % 2 = c.val % 2) (k : Fin 32) :
    (outSl c' k).view.read (Elt F) (outVal m c) = partChunk m c' k := by
  funext idx
  obtain ⟨a, b, rfl⟩ : ∃ (a : Fin 64) (b : Fin 1024), idx = ix2 a b := ⟨idx 0, idx 1, eq_ix2 idx⟩
  rw [read_outSl_apply, outVal_apply, partChunk_apply]
  have hrow : (2048 * (c'.val / 2) + 64 * k.val + a.val) / 2048 = c'.val / 2 := by
    have := k.isLt; have := a.isLt; omega
  have hidx : argIdx c ⟨2048 * (c'.val / 2) + 64 * k.val + a.val, row_lt c' k a⟩ b
      = rowIdx c' k a b := by
    unfold argIdx rowIdx
    exact congrArg (ix3 (n0 := 1) (n1 := 4096) (n2 := 2048) 0 _)
      (Fin.ext (by show 1024 * (c.val % 2) + b.val = 1024 * (c'.val % 2) + b.val; rw [hcc]))
  rw [hidx, colDev_same c c' hcc _ _ hrow, colDev'_same c c' hcc _ _ hrow]

/-- Chunk `k` of device `c`'s own row half of its result: its own partial sums. -/
theorem read_out_own (c : Dev nD) (k : Fin 32) :
    (outSl c k).view.read (Elt F) (outVal m c) = partChunk m c k :=
  read_out_col m c c rfl k

/-- Chunk `k` of the other row half: the partial sums of the neighbour in the other mesh row. -/
theorem read_out_peer (c : Dev nD) (k : Fin 32) :
    (outSl (xpeer c) k).view.read (Elt F) (outVal m c) = partChunk m (xpeer c) k :=
  read_out_col m c (xpeer c) (xpeer_val_mod c) k

/-- info: 'Cert.Kernel.RS.read_out_peer' depends on axioms: [propext, Classical.choice, Quot.sound] -/
#guard_msgs in #print axioms read_out_peer

end Cert.Kernel.RS

end
-- ==== Proof.Bits.RegionLib.lean ====
/-
  The geometry of the result buffer's chunks. Chunk `k` of the row half of a device `c'` is the rows
  `[2048 x(c') + 64 k, 2048 x(c') + 64 k + 64)`, every column. The 32 chunks of a device's own row half and the 32 of the
  other row half are pairwise disjoint and cover the 4096 rows: a row `r` lies in chunk `(r % 2048) / 64` of the half `r / 2048`.
-/
import proofs.«900309_g7700000000000310_dist_rs_v7x_xy2x2_y_m4096_n1024_f32_1_alg».proof.Proof.Bits.Cells
import proofs.«900309_g7700000000000310_dist_rs_v7x_xy2x2_y_m4096_n1024_f32_1_alg».proof.Proof.Bits.Mesh

namespace Cert.Kernel.RS

open Cert.Kernel Cert.Kernel.Gen
open Idealize.ShloMosaic Idealize.ShloMosaic.TcCoe

/-! ## Rows, as numbers -/

/-- A row below 4096 lies in its chunk of the half `x` or of the other half. -/
theorem row_cover (r x : ℕ) (hr : r < 4096) (hx : x < 2) :
    (2048 * x + 64 * (r % 2048 / 64) ≤ r ∧ r < 2048 * x + 64 * (r % 2048 / 64) + 64)
      ∨ (2048 * (1 - x) + 64 * (r % 2048 / 64) ≤ r ∧ r < 2048 * (1 - x) + 64 * (r % 2048 / 64) + 64) := by
  omega

/-- Two chunks of one half at different indices share no row. -/
theorem row_disj_same (r x a b : ℕ) (hab : a ≠ b)
    (h1 : 2048 * x + 64 * a ≤ r ∧ r < 2048 * x + 64 * a + 64) (h2 : 2048 * x + 64 * b ≤ r ∧ r < 2048 * x + 64 * b + 64) : False := by
  omega

/-- A chunk of one half and a chunk of the other share no row. -/
theorem row_disj_other (r x a b : ℕ) (hx : x < 2) (ha : a < 32) (hb : b < 32)
    (h1 : 2048 * x + 64 * a ≤ r ∧ r < 2048 * x + 64 * a + 64)
    (h2 : 2048 * (1 - x) + 64 * b ≤ r ∧ r < 2048 * (1 - x) + 64 * b + 64) : False := by
  omega

theorem half_lt (c : Dev nD) : c.val / 2 < 2 := by revert c; decide

/-! ## The chunks' element sets -/

theorem out_set (c' : Dev nD) (k : Fin 32) :
    (outSl c' k).view.set
      = (Rect.unit (s := S4096x1024) (k0_off3 c' (BitVec.ofNat 32 (64 * k.val))) S64x1024.size (k0_off3_inb c' k)).set :=
  View.set_slice_whole main_v1 _

/-- Chunk `k` of the row half of `c'`: rows [2048·x(c') + 64k, … + 64), every column. -/
theorem mem_out (c' : Dev nD) (k : Fin 32) (i : S4096x1024.Idx) :
    i ∈ (outSl c' k).view.set ↔
      2048 * (c'.val / 2) + 64 * k.val ≤ (i 0).val ∧ (i 0).val < 2048 * (c'.val / 2) + 64 * k.val + 64 := by
  rw [out_set, Rect.mem_set_unit, k0_off3_eq]
  constructor
  · intro h; exact h 0
  · intro h a
    match a with
    | ⟨0, _⟩ => exact h
    | ⟨1, _⟩ => exact ⟨Nat.zero_le _, by have h1 : (i 1).val < 1024 := (i 1).isLt; show (i 1).val < 0 + 1024; omega⟩

theorem out_halves_disj (c : Dev nD) (k : Fin 32) : Disjoint (outSl c k).view.set (outSl (xpeer c) k).view.set := by
  rw [Finset.disjoint_left]
  intro i hi hj
  have h1 := (mem_out c k i).mp hi
  have h2 := (mem_out (xpeer c) k i).mp hj
  rw [xpeer_val_div] at h2
  exact row_disj_other (i 0).val (c.val / 2) k.val k.val (half_lt c) k.isLt k.isLt h1 h2

theorem out_pair_disj (c : Dev nD) (k k' : Fin 32) (h : k ≠ k') :
    Disjoint ((outSl c k).view.set ∪ (outSl (xpeer c) k).view.set) ((outSl c k').view.set ∪ (outSl (xpeer c) k').view.set) := by
  have hk : k.val ≠ k'.val := fun e => h (Fin.ext e)
  rw [Finset.disjoint_left]
  intro i hi hj
  rcases Finset.mem_union.mp hi with hi | hi <;> rcases Finset.mem_union.mp hj with hj | hj
  · exact row_disj_same _ _ _ _ hk ((mem_out c k i).mp hi) ((mem_out c k' i).mp hj)
  · have h2 := (mem_out (xpeer c) k' i).mp hj
    rw [xpeer_val_div] at h2
    exact row_disj_other _ _ _ _ (half_lt c) k.isLt k'.isLt ((mem_out c k i).mp hi) h2
  · have h1 := (mem_out (xpeer c) k i).mp hi
    rw [xpeer_val_div] at h1
    exact row_disj_other _ _ _ _ (half_lt c) k'.isLt k.isLt ((mem_out c k' i).mp hj) h1
  · exact row_disj_same _ _ _ _ hk ((mem_out (xpeer c) k i).mp hi) ((mem_out (xpeer c) k' i).mp hj)

theorem out_cover (c : Dev nD) :
    Finset.univ.biUnion (β := S4096x1024.Idx) (fun k : Fin 32 => (outSl c k).view.set ∪ (outSl (xpeer c) k).view.set) = Finset.univ := by
  refine Finset.eq_univ_iff_forall.mpr fun i => ?_
  have hi : (i 0).val < 4096 := (i 0).isLt
  have hq : (i 0).val % 2048 / 64 < 32 := by omega
  rcases row_cover (i 0).val (c.val / 2) hi (half_lt c) with h | h
  · exact Finset.mem_biUnion.mpr ⟨⟨_, hq⟩, Finset.mem_univ _, Finset.mem_union_left _ ((mem_out c ⟨_, hq⟩ i).mpr h)⟩
  · rw [← xpeer_val_div] at h
    exact Finset.mem_biUnion.mpr ⟨⟨_, hq⟩, Finset.mem_univ _, Finset.mem_union_right _ ((mem_out (xpeer c) ⟨_, hq⟩ i).mpr h)⟩

/-- The same, the index type read off the buffer's location. -/
theorem out_cover_loc (c : Dev nD) :
    Finset.univ.biUnion (β := Idx ((c : Thread nD τ).loc main_v1)) (fun k : Fin 32 => (outSl c k).view.set ∪ (outSl (xpeer c) k).view.set) = Finset.univ :=
  out_cover c

/-- info: 'Cert.Kernel.RS.out_cover' depends on axioms: [propext, Classical.choice, Quot.sound] -/
#guard_msgs in #print axioms out_cover

end Cert.Kernel.RS
-- ==== Proof.Bits.RegionLibArg.lean ====
/-
  The geometry of the argument block's chunks. On the device's own row half, chunk `k` of the own column half is the rows
  `[2048 x + 64 k, … + 64)` at the columns `[1024 y, 1024 y + 1024)`, and chunk `k` of the other column half the same rows at the
  columns `[1024 - 1024 y, … + 1024)`. The two halves of a chunk are disjoint, and chunks at different indices share no row.
-/
import proofs.«900309_g7700000000000310_dist_rs_v7x_xy2x2_y_m4096_n1024_f32_1_alg».proof.Proof.Bits.Cells
import proofs.«900309_g7700000000000310_dist_rs_v7x_xy2x2_y_m4096_n1024_f32_1_alg».proof.Proof.Bits.Mesh

namespace Cert.Kernel.RS

open Cert.Kernel Cert.Kernel.Gen
open Idealize.ShloMosaic Idealize.ShloMosaic.TcCoe

/-- The two column halves share no column. -/
theorem col_disj (j y : ℕ) (hy : y < 2)
    (h1 : 1024 * y ≤ j ∧ j < 1024 * y + 1024) (h2 : 1024 - 1024 * y ≤ j ∧ j < 1024 - 1024 * y + 1024) : False := by
  omega

/-- Row ranges of 64 at different chunk indices share no row. -/
theorem row64_disj (r b a a' : ℕ) (h : a ≠ a') (h1 : b + 64 * a ≤ r ∧ r < b + 64 * a + 64) (h2 : b + 64 * a' ≤ r ∧ r < b + 64 * a' + 64) :
    False := by
  omega

theorem par_lt (c : Dev nD) : c.val % 2 < 2 := by revert c; decide

theorem own_set (c : Dev nD) (k : Fin 32) :
    (argOwnSl c k).view.set
      = (Rect.unit (s := S1x4096x2048) (k0_off1 c (BitVec.ofNat 32 (64 * k.val))) S1x64x1024.size (k0_off1_inb c k)).set := by
  exact Eq.trans (View.set_reshape _ _) (View.set_slice_whole main_arg0 _)

theorem peer_set (c : Dev nD) (k : Fin 32) :
    (argPeerSl c k).view.set
      = (Rect.unit (s := S1x4096x2048) (k0_off2 c (BitVec.ofNat 32 (64 * k.val))) S1x64x1024.size (k0_off2_inb c k)).set := by
  exact Eq.trans (View.set_reshape _ _) (View.set_slice_whole main_arg0 _)

/-- Chunk `k` of the own column half: rows [2048·x + 64k, … + 64), columns [1024·y, … + 1024). -/
theorem mem_own (c : Dev nD) (k : Fin 32) (i : S1x4096x2048.Idx) :
    i ∈ (argOwnSl c k).view.set ↔
      (2048 * (c.val / 2) + 64 * k.val ≤ (i 1).val ∧ (i 1).val < 2048 * (c.val / 2) + 64 * k.val + 64)
        ∧ (1024 * (c.val % 2) ≤ (i 2).val ∧ (i 2).val < 1024 * (c.val % 2) + 1024) := by
  rw [own_set, Rect.mem_set_unit, k0_off1_eq]
  constructor
  · intro h; exact ⟨h 1, h 2⟩
  · intro h a
    match a with
    | ⟨0, _⟩ => exact ⟨Nat.zero_le _, by have h0 : (i 0).val < 1 := (i 0).isLt; show (i 0).val < 0 + 1; omega⟩
    | ⟨1, _⟩ => exact h.1
    | ⟨2, _⟩ => exact h.2

/-- Chunk `k` of the other column half: the same rows, columns [1024·(1 - y), … + 1024). -/
theorem mem_peer (c : Dev nD) (k : Fin 32) (i : S1x4096x2048.Idx) :
    i ∈ (argPeerSl c k).view.set ↔
      (2048 * (c.val / 2) + 64 * k.val ≤ (i 1).val ∧ (i 1).val < 2048 * (c.val / 2) + 64 * k.val + 64)
        ∧ (1024 - 1024 * (c.val % 2) ≤ (i 2).val ∧ (i 2).val < 1024 - 1024 * (c.val % 2) + 1024) := by
  rw [peer_set, Rect.mem_set_unit, k0_off2_eq]
  constructor
  · intro h; exact ⟨h 1, h 2⟩
  · intro h a
    match a with
    | ⟨0, _⟩ => exact ⟨Nat.zero_le _, by have h0 : (i 0).val < 1 := (i 0).isLt; show (i 0).val < 0 + 1; omega⟩
    | ⟨1, _⟩ => exact h.1
    | ⟨2, _⟩ => exact h.2

theorem own_peer_disj (c : Dev nD) (k : Fin 32) : Disjoint (argOwnSl c k).view.set (argPeerSl c k).view.set := by
  rw [Finset.disjoint_left]
  intro i hi hj
  exact col_disj (i 2).val (c.val % 2) (par_lt c) ((mem_own c k i).mp hi).2 ((mem_peer c k i).mp hj).2

theorem arg_pair_disj (c : Dev nD) (k k' : Fin 32) (h : k ≠ k') :
    Disjoint ((argOwnSl c k).view.set ∪ (argPeerSl c k).view.set) ((argOwnSl c k').view.set ∪ (argPeerSl c k').view.set) := by
  have hk : k.val ≠ k'.val := fun e => h (Fin.ext e)
  rw [Finset.disjoint_left]
  intro i hi hj
  have r1 : 2048 * (c.val / 2) + 64 * k.val ≤ (i 1).val ∧ (i 1).val < 2048 * (c.val / 2) + 64 * k.val + 64 := by
    rcases Finset.mem_union.mp hi with hi | hi
    · exact ((mem_own c k i).mp hi).1
    · exact ((mem_peer c k i).mp hi).1
  have r2 : 2048 * (c.val / 2) + 64 * k'.val ≤ (i 1).val ∧ (i 1).val < 2048 * (c.val / 2) + 64 * k'.val + 64 := by
    rcases Finset.mem_union.mp hj with hj | hj
    · exact ((mem_own c k' i).mp hj).1
    · exact ((mem_peer c k' i).mp hj).1
  exact row64_disj (i 1).val (2048 * (c.val / 2)) k.val k'.val hk r1 r2

end Cert.Kernel.RS
-- ==== Proof.Bits.RegionLibScratch.lean ====
/-
  The geometry of a scratch buffer's chunks. Chunk `k` of a buffer of 2048 rows is the rows `[64 k, 64 k + 64)`, every column: chunks
  at different indices share no row, and a row `r` lies in chunk `r / 64`, so the 32 chunks cover the buffer. The three scratch
  buffers are cut the same way.
-/
import proofs.«900309_g7700000000000310_dist_rs_v7x_xy2x2_y_m4096_n1024_f32_1_alg».proof.Proof.Bits.Cells
import proofs.«900309_g7700000000000310_dist_rs_v7x_xy2x2_y_m4096_n1024_f32_1_alg».proof.Proof.Bits.Mesh

namespace Cert.Kernel.RS

open Cert.Kernel Cert.Kernel.Gen
open Idealize.ShloMosaic Idealize.ShloMosaic.TcCoe

/-- Row ranges of 64 from 0 at different chunk indices share no row. -/
theorem chunk_row_disj (r a a' : ℕ) (h : a ≠ a') (h1 : 64 * a ≤ r ∧ r < 64 * a + 64) (h2 : 64 * a' ≤ r ∧ r < 64 * a' + 64) : False := by
  omega

/-- A row lies in the chunk of its quotient by 64. -/
theorem chunk_row_mem (r : ℕ) : 64 * (r / 64) ≤ r ∧ r < 64 * (r / 64) + 64 := by
  omega

/-- Chunk `k`: rows [64k, 64k + 64), every column. -/
theorem mem_chunk (k : Fin 32) (i : S2048x1024.Idx) :
    i ∈ (chunkR k).set ↔ 64 * k.val ≤ (i 0).val ∧ (i 0).val < 64 * k.val + 64 := by
  rw [Rect.mem_set_unit]
  constructor
  · intro h; exact h 0
  · intro h a
    match a with
    | ⟨0, _⟩ => exact h
    | ⟨1, _⟩ => exact ⟨Nat.zero_le _, by have h1 : (i 1).val < 1024 := (i 1).isLt; show (i 1).val < 0 + 1024; omega⟩

theorem chunk_disj (k k' : Fin 32) (h : k ≠ k') : Disjoint (chunkR k).set (chunkR k').set := by
  have hk : k.val ≠ k'.val := fun e => h (Fin.ext e)
  rw [Finset.disjoint_left]
  intro i hi hj
  exact chunk_row_disj (i 0).val k.val k'.val hk ((mem_chunk k i).mp hi) ((mem_chunk k' i).mp hj)

/-- Every element lies in some chunk. -/
theorem chunk_cover_mem (i : S2048x1024.Idx) : ∃ k : Fin 32, i ∈ (chunkR k).set := by
  have hi : (i 0).val < 2048 := (i 0).isLt
  have hq : (i 0).val / 64 < 32 := by omega
  exact ⟨⟨_, hq⟩, (mem_chunk ⟨_, hq⟩ i).mpr (chunk_row_mem (i 0).val)⟩

theorem comm_set (k : Fin 32) : (commSl k).view.set = (chunkR k).set := View.set_slice_whole cc0_scratch0 (chunkR k)
theorem lin_set (k : Fin 32) : (linSl k).view.set = (chunkR k).set := View.set_slice_whole cc0_scratch1 (chunkR k)
theorem part_set (k : Fin 32) : (partSl k).view.set = (chunkR k).set := View.set_slice_whole cc0_scratch2 (chunkR k)

theorem comm_disj (k k' : Fin 32) (h : k ≠ k') : Disjoint (commSl k).view.set (commSl k').view.set := by
  rw [comm_set, comm_set]; exact chunk_disj k k' h
theorem lin_disj (k k' : Fin 32) (h : k ≠ k') : Disjoint (linSl k).view.set (linSl k').view.set := by
  rw [lin_set, lin_set]; exact chunk_disj k k' h
theorem part_disj (k k' : Fin 32) (h : k ≠ k') : Disjoint (partSl k).view.set (partSl k').view.set := by
  rw [part_set, part_set]; exact chunk_disj k k' h

theorem comm_cover (c : Dev nD) :
    Finset.univ.biUnion (β := Idx ((c : Thread nD τ).loc cc0_scratch0)) (fun k : Fin 32 => (commSl k).view.set) = Finset.univ := by
  refine Finset.eq_univ_iff_forall.mpr fun i => ?_
  obtain ⟨k, hk⟩ := chunk_cover_mem i
  exact Finset.mem_biUnion.mpr ⟨k, Finset.mem_univ _, by rw [comm_set]; exact hk⟩
theorem lin_cover (c : Dev nD) :
    Finset.univ.biUnion (β := Idx ((c : Thread nD τ).loc cc0_scratch1)) (fun k : Fin 32 => (linSl k).view.set) = Finset.univ := by
  refine Finset.eq_univ_iff_forall.mpr fun i => ?_
  obtain ⟨k, hk⟩ := chunk_cover_mem i
  exact Finset.mem_biUnion.mpr ⟨k, Finset.mem_univ _, by rw [lin_set]; exact hk⟩
theorem part_cover (c : Dev nD) :
    Finset.univ.biUnion (β := Idx ((c : Thread nD τ).loc cc0_scratch2)) (fun k : Fin 32 => (partSl k).view.set) = Finset.univ := by
  refine Finset.eq_univ_iff_forall.mpr fun i => ?_
  obtain ⟨k, hk⟩ := chunk_cover_mem i
  exact Finset.mem_biUnion.mpr ⟨k, Finset.mem_univ _, by rw [part_set]; exact hk⟩

/-- info: 'Cert.Kernel.RS.comm_cover' depends on axioms: [propext, Classical.choice, Quot.sound] -/
#guard_msgs in #print axioms comm_cover

end Cert.Kernel.RS
-- ==== Proof.Bits.Regions.lean ====
/-
  Each of the device's five buffers as its chunks. A scratch buffer is its 32 chunks of 64 rows. The argument block is, on the
  device's own row half, the 32 chunks of its own column half and the 32 of the other, and the other row half, which the device
  never touches. The result is the 32 chunks of the device's own row half and the 32 of the other. Splitting forgets nothing;
  rejoining the result's chunks, each holding its partial sums, gives the whole result at `outVal`.
-/
import proofs.«900309_g7700000000000310_dist_rs_v7x_xy2x2_y_m4096_n1024_f32_1_alg».proof.Proof.Bits.Phi
import proofs.«900309_g7700000000000310_dist_rs_v7x_xy2x2_y_m4096_n1024_f32_1_alg».proof.Proof.Bits.Vals
import proofs.«900309_g7700000000000310_dist_rs_v7x_xy2x2_y_m4096_n1024_f32_1_alg».proof.Proof.Bits.OutVal
import proofs.«900309_g7700000000000310_dist_rs_v7x_xy2x2_y_m4096_n1024_f32_1_alg».proof.Proof.Bits.RegionLib
import proofs.«900309_g7700000000000310_dist_rs_v7x_xy2x2_y_m4096_n1024_f32_1_alg».proof.Proof.Bits.RegionLibArg
import proofs.«900309_g7700000000000310_dist_rs_v7x_xy2x2_y_m4096_n1024_f32_1_alg».proof.Proof.Bits.RegionLibScratch
import Idealize.ShloMosaic.Lib.Ring
import Idealize.ShloMosaic.Lib.Exec.Geometry

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The elements of the argument block outside the device's own row half. -/
def argRestSet (c : Dev nD) : Finset (Idx ((c : Thread nD τ).loc main_arg0)) :=
  Finset.univ \ (Finset.univ.biUnion fun k : Fin 32 => (argOwnSl c k).view.set ∪ (argPeerSl c k).view.set)
def argRest (c : Dev nD) : sProp 𝕄 := ((c : Thread nD τ).loc main_arg0) ↦[argRestSet c]{fullShare} argBuf m c

/-! ## Pieces of one buffer -/

/-- Elements held at contents `f` are held at some contents. -/
theorem pts_any {ℓ : Loc nD τ sig} (S : Finset (Idx ℓ)) (f : Buf (Elt F) ℓ) :
    ((ℓ ↦[S]{fullShare} f) : sProp 𝕄) ⊢ iprop(∃ g, ℓ ↦[S]{fullShare} g) := by
  iintro H; iexists f; iexact H

theorem cast_inj' {α β : Type} (h : α = β) {x y : α} (hxy : cast h x = cast h y) : x = y := by
  subst h; exact hxy

section General

variable {ℓ : Loc nD τ sig} (K : Fin 32 → Finset (Idx ℓ)) (hd : ∀ k k', k ≠ k' → Disjoint (K k) (K k'))
  (hc : Finset.univ.biUnion K = Finset.univ)

include hd hc in
/-- A buffer held whole at contents `f` is held piece by piece, each piece at some contents. -/
theorem blocks_split_any (f : Buf (Elt F) ℓ) :
    ((ℓ ↦{fullShare} f) : sProp 𝕄) ⊢ bigSep Finset.univ fun k : Fin 32 => iprop(∃ g, ℓ ↦[K k]{fullShare} g) := by
  rw [Ring.pointsTo_blocks K hd hc f]
  exact bigSep_mono fun k _ => pts_any (K k) f

end General

/-- Contents that a view reads the same agree on the view's elements. -/
theorem eq_on_set_of_read_eq {κ : Kind} {sp : Space} {s : Shape} {e : EltTy} (v : View sig κ sp s e)
    {f g : v.ty.Contents (Elt F)} (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact cast_inj' _ hx

/-! ## A scratch buffer: 32 chunks of 64 rows -/

theorem comm_split (c : Dev nD) : anyBuf (F := F) c cc0_scratch0 ⊢ bigSep Finset.univ fun k : Fin 32 => anyPts (F := F) c (commSl k) fullShare := by
  unfold anyBuf
  iintro ⟨%f, H⟩
  iapply (blocks_split_any (F := F) (ℓ := (c : Thread nD τ).loc cc0_scratch0) (fun k : Fin 32 => (commSl k).view.set) comm_disj (comm_cover c) f)
  iexact H
theorem comm_join (c : Dev nD) : (bigSep Finset.univ fun k : Fin 32 => anyPts (F := F) c (commSl k) fullShare) ⊢ anyBuf (F := F) c cc0_scratch0 :=
  Ring.pointsTo_blocks_join_exists (ℓ := (c : Thread nD τ).loc cc0_scratch0) (fun k : Fin 32 => (commSl k).view.set) comm_disj (comm_cover c)
    (fun _ => default)
theorem lin_split (c : Dev nD) : anyBuf (F := F) c cc0_scratch1 ⊢ bigSep Finset.univ fun k : Fin 32 => anyPts (F := F) c (linSl k) fullShare := by
  unfold anyBuf
  iintro ⟨%f, H⟩
  iapply (blocks_split_any (F := F) (ℓ := (c : Thread nD τ).loc cc0_scratch1) (fun k : Fin 32 => (linSl k).view.set) lin_disj (lin_cover c) f)
  iexact H
theorem lin_join (c : Dev nD) : (bigSep Finset.univ fun k : Fin 32 => anyPts (F := F) c (linSl k) fullShare) ⊢ anyBuf (F := F) c cc0_scratch1 :=
  Ring.pointsTo_blocks_join_exists (ℓ := (c : Thread nD τ).loc cc0_scratch1) (fun k : Fin 32 => (linSl k).view.set) lin_disj (lin_cover c)
    (fun _ => default)
theorem part_split (c : Dev nD) : anyBuf (F := F) c cc0_scratch2 ⊢ bigSep Finset.univ fun k : Fin 32 => anyPts (F := F) c (partSl k) fullShare := by
  unfold anyBuf
  iintro ⟨%f, H⟩
  iapply (blocks_split_any (F := F) (ℓ := (c : Thread nD τ).loc cc0_scratch2) (fun k : Fin 32 => (partSl k).view.set) part_disj (part_cover c) f)
  iexact H
theorem part_join (c : Dev nD) : (bigSep Finset.univ fun k : Fin 32 => anyPts (F := F) c (partSl k) fullShare) ⊢ anyBuf (F := F) c cc0_scratch2 :=
  Ring.pointsTo_blocks_join_exists (ℓ := (c : Thread nD τ).loc cc0_scratch2) (fun k : Fin 32 => (partSl k).view.set) part_disj (part_cover c)
    (fun _ => default)

/-! ## The argument block: per chunk its own and its other column half, and the other row half -/

/-- The argument block is its 64 chunks and the other row half, all at the same contents. -/
theorem arg_eq (c : Dev nD) :
    ((((c : Thread nD τ).loc main_arg0) ↦{fullShare} argBuf m c) : sProp 𝕄)
      = iprop((bigSep Finset.univ fun k : Fin 32 => iprop(argOwnPts m c k fullShare ∗ argPeerPts m c k fullShare)) ∗ argRest m c) := by
  have h1 : ((((c : Thread nD τ).loc main_arg0) ↦{fullShare} argBuf m c) : sProp 𝕄)
      ⊣⊢ iprop((((c : Thread nD τ).loc main_arg0)
            ↦[Finset.univ.biUnion (β := Idx ((c : Thread nD τ).loc main_arg0)) fun k : Fin 32 => (argOwnSl c k).view.set ∪ (argPeerSl c k).view.set]{fullShare} argBuf m c)
          ∗ (((c : Thread nD τ).loc main_arg0) ↦[argRestSet c]{fullShare} argBuf m c)) :=
    pointsTo_split_subset (Finset.subset_univ _)
  rw [BI.equiv_iff.mp ⟨h1.1, h1.2⟩, pointsTo_biUnion Finset.univ _ (fun k _ k' _ h => arg_pair_disj c k k' h)]
  have h2 : (bigSep Finset.univ fun k : Fin 32 =>
        ((((c : Thread nD τ).loc main_arg0) ↦[(argOwnSl c k).view.set ∪ (argPeerSl c k).view.set]{fullShare} argBuf m c) : sProp 𝕄))
      = bigSep Finset.univ fun k : Fin 32 => iprop(argOwnPts m c k fullShare ∗ argPeerPts m c k fullShare) :=
    bigSep_congr fun k _ => by
      have hu : ((((c : Thread nD τ).loc main_arg0) ↦[(argOwnSl c k).view.set ∪ (argPeerSl c k).view.set]{fullShare} argBuf m c) : sProp 𝕄)
          ⊣⊢ iprop((((c : Thread nD τ).loc main_arg0) ↦[(argOwnSl c k).view.set]{fullShare} argBuf m c)
              ∗ (((c : Thread nD τ).loc main_arg0) ↦[(argPeerSl c k).view.set]{fullShare} argBuf m c)) :=
        pointsTo_union (own_peer_disj c k)
      exact BI.equiv_iff.mp ⟨hu.1, hu.2⟩
  rw [h2]
  rfl

theorem arg_split (c : Dev nD) :
    ((((c : Thread nD τ).loc main_arg0) ↦{fullShare} argBuf m c) : sProp 𝕄)
      ⊢ iprop((bigSep Finset.univ fun k : Fin 32 => iprop(argOwnPts m c k fullShare ∗ argPeerPts m c k fullShare)) ∗ argRest m c) :=
  Entails.of_eq (arg_eq m c)
theorem arg_join (c : Dev nD) :
    iprop((bigSep Finset.univ fun k : Fin 32 => iprop(argOwnPts m c k fullShare ∗ argPeerPts m c k fullShare)) ∗ argRest m c)
      ⊢ ((((c : Thread nD τ).loc main_arg0) ↦{fullShare} argBuf m c) : sProp 𝕄) :=
  Entails.of_eq (arg_eq m c).symm

/-! ## The result: per chunk the rows of the own row half and of the other -/

/-- The result buffer at contents `f` is its 64 chunks at `f`. -/
theorem out_eq (c : Dev nD) (f : Buf (Elt F) ((c : Thread nD τ).loc main_v1)) :
    ((((c : Thread nD τ).loc main_v1) ↦{fullShare} f) : sProp 𝕄)
      = bigSep Finset.univ fun k : Fin 32 =>
          iprop((((c : Thread nD τ).loc main_v1) ↦[(outSl c k).view.set]{fullShare} f)
            ∗ (((c : Thread nD τ).loc main_v1) ↦[(outSl (xpeer c) k).view.set]{fullShare} f)) := by
  rw [Ring.pointsTo_blocks (fun k : Fin 32 => (outSl c k).view.set ∪ (outSl (xpeer c) k).view.set)
    (fun k k' h => out_pair_disj c k k' h) (out_cover_loc c) f]
  exact bigSep_congr fun k _ => by
    have hu : ((((c : Thread nD τ).loc main_v1) ↦[(outSl c k).view.set ∪ (outSl (xpeer c) k).view.set]{fullShare} f) : sProp 𝕄)
        ⊣⊢ iprop((((c : Thread nD τ).loc main_v1) ↦[(outSl c k).view.set]{fullShare} f)
            ∗ (((c : Thread nD τ).loc main_v1) ↦[(outSl (xpeer c) k).view.set]{fullShare} f)) :=
      pointsTo_union (out_halves_disj c k)
    exact BI.equiv_iff.mp ⟨hu.1, hu.2⟩

theorem out_split_at (c : Dev nD) (f : Buf (Elt F) ((c : Thread nD τ).loc main_v1)) :
    ((((c : Thread nD τ).loc main_v1) ↦{fullShare} f) : sProp 𝕄)
      ⊢ bigSep Finset.univ fun k : Fin 32 => iprop(anyPts (F := F) c (outSl c k) fullShare ∗ anyPts (F := F) c (outSl (xpeer c) k) fullShare) := by
  rw [out_eq c f]
  exact bigSep_mono fun k _ => BI.sep_mono (pts_any _ f) (pts_any _ f)

theorem out_split (c : Dev nD) :
    anyBuf (F := F) c main_v1
      ⊢ bigSep Finset.univ fun k : Fin 32 => iprop(anyPts (F := F) c (outSl c k) fullShare ∗ anyPts (F := F) c (outSl (xpeer c) k) fullShare) := by
  unfold anyBuf
  iintro ⟨%f, H⟩
  ihave H' := (out_split_at (F := F) c f) $$ H
  iexact H'

/-- A chunk held at contents that read as the partial sums is held at `outVal`. -/
theorem owns_out (c c' : Dev nD) (hcc : c'.val % 2 = c.val % 2) (k : Fin 32) :
    (owns (c : Thread nD τ) (outSl c' k) fullShare (partChunk m c' k) : sProp 𝕄)
      ⊢ (((c : Thread nD τ).loc main_v1) ↦[(outSl c' k).view.set]{fullShare} outVal m c) := by
  unfold owns
  iintro ⟨%f, %hf, H⟩
  have e : ((((c : Thread nD τ).loc main_v1) ↦[(outSl c' k).view.set]{fullShare} f) : sProp 𝕄)
      = (((c : Thread nD τ).loc main_v1) ↦[(outSl c' k).view.set]{fullShare} outVal m c) :=
    pointsTo_congr (eq_on_set_of_read_eq (F := F) (outSl c' k).view (f := f) (g := outVal m c)
      (hf.trans (read_out_col m c c' hcc k).symm))
  ihave H' := (Entails.of_eq e) $$ H
  iexact H'

theorem out_join (c : Dev nD) :
    (bigSep Finset.univ fun k : Fin 32 => iprop(owns (c : Thread nD τ) (outSl c k) fullShare (partChunk m c k)
        ∗ owns (c : Thread nD τ) (outSl (xpeer c) k) fullShare (partChunk m (xpeer c) k)))
      ⊢ ((((c : Thread nD τ).loc main_v1) ↦{fullShare} outVal m c) : sProp 𝕄) := by
  rw [out_eq c (outVal m c)]
  exact bigSep_mono fun k _ => BI.sep_mono (owns_out m c c rfl k) (owns_out m c (xpeer c) (xpeer_val_mod c) k)

/-- info: 'Cert.Kernel.RS.out_join' depends on axioms: [propext, Classical.choice, Quot.sound] -/
#guard_msgs in #print axioms out_join

end Cert.Kernel.RS

end
-- ==== Proof.Bits.Body.lean ====
/-
  The body on device `c`, from what the launch hands it to what it hands back: the handshake, then each of the three
  passes over the 32 chunks by one rule per chunk, the per-chunk bundles regrouped between the passes, and at the end
  the chunks' cells closed and the five buffers rejoined.
-/
import proofs.«900309_g7700000000000310_dist_rs_v7x_xy2x2_y_m4096_n1024_f32_1_alg».proof.Proof.Bits.Phi
import proofs.«900309_g7700000000000310_dist_rs_v7x_xy2x2_y_m4096_n1024_f32_1_alg».proof.Proof.Bits.Ops
import proofs.«900309_g7700000000000310_dist_rs_v7x_xy2x2_y_m4096_n1024_f32_1_alg».proof.Proof.Bits.StepEntry
import proofs.«900309_g7700000000000310_dist_rs_v7x_xy2x2_y_m4096_n1024_f32_1_alg».proof.Proof.Bits.Step1
import proofs.«900309_g7700000000000310_dist_rs_v7x_xy2x2_y_m4096_n1024_f32_1_alg».proof.Proof.Bits.Step2
import proofs.«900309_g7700000000000310_dist_rs_v7x_xy2x2_y_m4096_n1024_f32_1_alg».proof.Proof.Bits.Step3
import proofs.«900309_g7700000000000310_dist_rs_v7x_xy2x2_y_m4096_n1024_f32_1_alg».proof.Proof.Bits.StepClose
import proofs.«900309_g7700000000000310_dist_rs_v7x_xy2x2_y_m4096_n1024_f32_1_alg».proof.Proof.Bits.Regions
import proofs.«900309_g7700000000000310_dist_rs_v7x_xy2x2_y_m4096_n1024_f32_1_alg».proof.Proof.Bits.Levels

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One pass over a list of chunks -/

/-- A pass whose step at chunk `k`, with the chunks `S ∋ k` still to come, takes `T k` and what is owed over `S` and leaves
    `D k` and what is owed over `S` without `k`, takes over a list of distinct chunks all their `T` and leaves all their `D`,
    owing at the end what is owed over no chunk. `R` is what the steps know for good. -/
theorem run_pass (c : Dev nD) (f : Fin 32 → P F PUnit → P F PUnit) (W : P F PUnit → sProp 𝕄)
    (R : sProp 𝕄) [BI.Persistent R] (T D : Fin 32 → sProp 𝕄) (O : Finset (Fin 32) → CellTallies nD τ sig Unit)
    (hrule : ∀ (k : Fin 32) (S : Finset (Fin 32)), k ∈ S → ∀ rest : P F PUnit,
      iprop(R ∗ T k ∗ owesAny (F := F) c (O S) ∗ ((D k ∗ owesAny (F := F) c (O (S.erase k))) -∗ W rest)) ⊢ W (f k rest))
    (l : List (Fin 32)) (hl : l.Nodup) (rest : P F PUnit) :
    iprop(R ∗ bigSep l.toFinset T ∗ owesAny (F := F) c (O l.toFinset)
        ∗ ((bigSep l.toFinset D ∗ owesAny (F := F) c (O ∅)) -∗ W rest))
      ⊢ W (overChunks f l rest) := by
  induction l with
  | nil =>
    simp only [List.toFinset_nil, bigSep_empty, overChunks]
    iintro ⟨-, -, Ho, Hk⟩
    iapply Hk
    isplitr
    · iempintro
    · iexact Ho
  | cons k ks ih =>
    obtain ⟨hk, hks⟩ := List.nodup_cons.mp hl
    have hk' : k ∉ ks.toFinset := fun h => hk (List.mem_toFinset.mp h)
    have eT : bigSep (insert k ks.toFinset) T = iprop(T k ∗ bigSep ks.toFinset T) := bigSep_insert hk'
    have eD : bigSep (insert k ks.toFinset) D = iprop(D k ∗ bigSep ks.toFinset D) := bigSep_insert hk'
    rw [List.toFinset_cons, eT, eD]
    show _ ⊢ W (f k (overChunks f ks rest))
    iintro ⟨#HR, ⟨HT, HTs⟩, Ho, Hk⟩
    iapply (hrule k (insert k ks.toFinset) (Finset.mem_insert_self _ _) (overChunks f ks rest))
    isplitr
    · iexact HR
    isplitl [HT]
    · iexact HT
    isplitl [Ho]
    · iexact Ho
    rw [Finset.erase_insert hk']
    iintro ⟨HD, Ho⟩
    iapply (ih hks)
    isplitr
    · iexact HR
    isplitl [HTs]
    · iexact HTs
    isplitl [Ho]
    · iexact Ho
    iintro ⟨HDs, Ho⟩
    iapply Hk
    isplitr [Ho]
    · isplitl [HD]
      · iexact HD
      · iexact HDs
    · iexact Ho

/-! ## The 32 chunks -/

theorem chunks_nodup : chunks.Nodup := by decide
theorem chunks_toFinset : chunks.toFinset = (Finset.univ : Finset (Fin 32)) := by decide

/-- `run_pass` at the 32 chunks in order, for the body's own weakest precondition. -/
theorem run_chunks (c : Dev nD) (Kt : PUnit → sProp 𝕄) (f : Fin 32 → P F PUnit → P F PUnit)
    (R : sProp 𝕄) [BI.Persistent R] (T D : Fin 32 → sProp 𝕄) (O : Finset (Fin 32) → CellTallies nD τ sig Unit)
    (hrule : ∀ (k : Fin 32) (S : Finset (Fin 32)), k ∈ S → ∀ rest : P F PUnit,
      iprop(R ∗ T k ∗ owesAny (F := F) c (O S) ∗ ((D k ∗ owesAny (F := F) c (O (S.erase k))) -∗ wp frame (wpE (defs₀ (F := F)) 𝒱₀ c none) Set.univ rest Kt))
        ⊢ wp frame (wpE (defs₀ (F := F)) 𝒱₀ c none) Set.univ (f k rest) Kt)
    (rest : P F PUnit) :
    iprop(R ∗ bigSep Finset.univ T ∗ owesAny (F := F) c (O Finset.univ)
        ∗ ((bigSep Finset.univ D ∗ owesAny (F := F) c (O ∅)) -∗ wp frame (wpE (defs₀ (F := F)) 𝒱₀ c none) Set.univ rest Kt))
      ⊢ wp frame (wpE (defs₀ (F := F)) 𝒱₀ c none) Set.univ (overChunks f chunks rest) Kt := by
  have h := run_pass c f (fun r => wp frame (wpE (defs₀ (F := F)) 𝒱₀ c none) Set.univ r Kt) R T D O hrule chunks chunks_nodup rest
  rw [chunks_toFinset] at h
  exact h

/-! ## The three passes, each over all chunks -/

section Passes
variable (K : Dev nD → SemLoc sig → ℕ) (c : Dev nD)

/-- Pass 1 takes every chunk's `T1` and leaves every chunk's `D1`; the column credits are paid, the row credits still owed. -/
theorem wp_all1 (rest : P F PUnit) (Kt : PUnit → sProp 𝕄) :
    iprop(known m K c ∗ bigSep Finset.univ (T1 m c) ∗ owesAny (F := F) c (O₁ c)
        ∗ ((bigSep Finset.univ (D1 (F := F) c) ∗ owesAny (F := F) c (Ox c Finset.univ)) -∗ wp frame (wpE (defs₀ (F := F)) 𝒱₀ c none) Set.univ rest Kt))
      ⊢ wp frame (wpE (defs₀ (F := F)) 𝒱₀ c none) Set.univ (overChunks (pass1 c) chunks rest) Kt := by
  have h := run_chunks c Kt (pass1 c) (known m K c) (T1 m c) (D1 (F := F) c) (fun S => Oy c S + Ox c Finset.univ)
    (fun k S hk rest => wp_pass1 m K c k S hk (Ox c Finset.univ) rest Kt) rest
  simp only [Oy_empty, zero_add] at h
  exact h

/-- Pass 2 takes every chunk's `T2` and leaves every chunk's `D2`; the row credits are paid. -/
theorem wp_all2 (rest : P F PUnit) (Kt : PUnit → sProp 𝕄) :
    iprop(known m K c ∗ levAts L lv ∗ bigSep Finset.univ (T2 (F := F) c) ∗ owesAny (F := F) c (Ox c Finset.univ)
        ∗ ((bigSep Finset.univ (D2 m c) ∗ owesAny (F := F) c 0) -∗ wp frame (wpE (defs₀ (F := F)) 𝒱₀ c none) Set.univ rest Kt))
      ⊢ wp frame (wpE (defs₀ (F := F)) 𝒱₀ c none) Set.univ (overChunks (pass2 c) chunks rest) Kt := by
  have h := run_chunks c Kt (pass2 c) iprop(known m K c ∗ levAts L lv) (T2 (F := F) c) (D2 m c) (fun S => Ox c S)
    (fun k S hk rest => by
      iintro ⟨⟨#Hk, #Hl⟩, HT, Ho, Hc⟩
      iapply (wp_pass2 m K c k S hk rest Kt)
      isplitr
      · iexact Hk
      isplitr
      · iexact Hl
      isplitl [HT]
      · iexact HT
      isplitl [Ho]
      · iexact Ho
      iexact Hc) rest
  simp only [Ox_empty] at h
  iintro ⟨#Hk, #Hl, HT, Ho, Hc⟩
  iapply h
  isplitr
  · isplitr
    · iexact Hk
    · iexact Hl
  isplitl [HT]
  · iexact HT
  isplitl [Ho]
  · iexact Ho
  iexact Hc

/-- Pass 3 takes every chunk's `T3` and leaves every chunk's `D3`. -/
theorem wp_all3 (rest : P F PUnit) (Kt : PUnit → sProp 𝕄) :
    iprop(known m K c ∗ bigSep Finset.univ (T3 (F := F) c) ∗ owesAny (F := F) c 0
        ∗ ((bigSep Finset.univ (D3 m c) ∗ owesAny (F := F) c 0) -∗ wp frame (wpE (defs₀ (F := F)) 𝒱₀ c none) Set.univ rest Kt))
      ⊢ wp frame (wpE (defs₀ (F := F)) 𝒱₀ c none) Set.univ (overChunks (pass3 c) chunks rest) Kt :=
  run_chunks c Kt (pass3 c) (known m K c) (T3 (F := F) c) (D3 m c) (fun _ => 0)
    (fun k S hk rest => wp_pass3 m K c k rest Kt) rest

/-- Every chunk's six cells, each past its one round, close under one update. -/
theorem close_all : iprop(known m K c ∗ bigSep Finset.univ (atEnd (F := F) c)) ⊢ |={Set.univ}=> bigSep Finset.univ (zeros (F := F) c) :=
  (bigSep_with_persistent (fun k _ => close_chunk m K c k)).trans (bigSep_fupd _ _)

end Passes

/-! ## The bundles of all chunks, piece by piece -/

theorem T1_eq (c : Dev nD) : bigSep Finset.univ (T1 m c) = iprop(
    (bigSep Finset.univ fun k : Fin 32 => argOwnPts m c k fullShare)
    ∗ (bigSep Finset.univ fun k : Fin 32 => argPeerPts m c k fullShare)
    ∗ (bigSep Finset.univ fun k : Fin 32 => anyPts (F := F) c (linSl k) fullShare)
    ∗ (bigSep Finset.univ fun k : Fin 32 => anyPts (F := F) (ypeer c) (commSl k) fullShare)
    ∗ (bigSep Finset.univ fun k : Fin 32 => dutyTok ER (linCell c k) 0 false)
    ∗ (bigSep Finset.univ fun k : Fin 32 => dutyTok ER (ySendCell c k) 0 false)
    ∗ (bigSep Finset.univ fun k : Fin 32 => dutyTok ER (yRecvCell (ypeer c) k) 0 false)) := by
  show bigSep Finset.univ (fun k => T1 m c k) = _
  simp only [T1, bigSep_sep']

theorem D1_eq (c : Dev nD) : bigSep Finset.univ (D1 (F := F) c) = iprop(
    (bigSep Finset.univ fun k : Fin 32 => cred (tallyAt (linCell c k) () N))
    ∗ (bigSep Finset.univ fun k : Fin 32 => cred (tallyAt (ySendCell c k) () N))) := by
  show bigSep Finset.univ (fun k => D1 (F := F) c k) = _
  simp only [D1, bigSep_sep']

theorem T2_eq (c : Dev nD) : bigSep Finset.univ (T2 (F := F) c) = iprop(
    (bigSep Finset.univ fun k : Fin 32 => cred (tallyAt (linCell c k) () N))
    ∗ (bigSep Finset.univ fun k : Fin 32 => cred (tallyAt (yRecvCell c k) () N))
    ∗ (bigSep Finset.univ fun k : Fin 32 => atPos ER (linCell c k) 0 ∅ 0)
    ∗ (bigSep Finset.univ fun k : Fin 32 => atPos ER (yRecvCell c k) 0 ∅ 0)
    ∗ (bigSep Finset.univ fun k : Fin 32 => anyPts (F := F) c (partSl k) fullShare)
    ∗ (bigSep Finset.univ fun k : Fin 32 => anyPts (F := F) (xpeer c) (outSl c k) fullShare)
    ∗ (bigSep Finset.univ fun k : Fin 32 => anyPts (F := F) c (outSl c k) fullShare)
    ∗ (bigSep Finset.univ fun k : Fin 32 => dutyTok ER (xSendCell c k) 0 false)
    ∗ (bigSep Finset.univ fun k : Fin 32 => dutyTok ER (xRecvCell (xpeer c) k) 0 false)
    ∗ (bigSep Finset.univ fun k : Fin 32 => dutyTok ER (outCell c k) 0 false)) := by
  show bigSep Finset.univ (fun k => T2 (F := F) c k) = _
  simp only [T2, bigSep_sep']

theorem D2_eq (c : Dev nD) : bigSep Finset.univ (D2 m c) = iprop(
    (bigSep Finset.univ fun k : Fin 32 => anyPts (F := F) c (linSl k) fullShare)
    ∗ (bigSep Finset.univ fun k : Fin 32 => anyPts (F := F) c (commSl k) fullShare)
    ∗ (bigSep Finset.univ fun k : Fin 32 => argOwnPts m c k fullShare)
    ∗ (bigSep Finset.univ fun k : Fin 32 => atPos ER (linCell c k) 1 ∅ 0)
    ∗ (bigSep Finset.univ fun k : Fin 32 => atPos ER (yRecvCell c k) 1 ∅ 0)
    ∗ (bigSep Finset.univ fun k : Fin 32 => cred (tallyAt (xSendCell c k) () N))
    ∗ (bigSep Finset.univ fun k : Fin 32 => cred (tallyAt (outCell c k) () N))) := by
  show bigSep Finset.univ (fun k => D2 m c k) = _
  simp only [D2, bigSep_sep']

theorem T3_eq (c : Dev nD) : bigSep Finset.univ (T3 (F := F) c) = iprop(
    (bigSep Finset.univ fun k : Fin 32 => cred (tallyAt (ySendCell c k) () N))
    ∗ (bigSep Finset.univ fun k : Fin 32 => cred (tallyAt (xSendCell c k) () N))
    ∗ (bigSep Finset.univ fun k : Fin 32 => cred (tallyAt (xRecvCell c k) () N))
    ∗ (bigSep Finset.univ fun k : Fin 32 => cred (tallyAt (outCell c k) () N))
    ∗ (bigSep Finset.univ fun k : Fin 32 => atPos ER (ySendCell c k) 0 ∅ 0)
    ∗ (bigSep Finset.univ fun k : Fin 32 => atPos ER (xSendCell c k) 0 ∅ 0)
    ∗ (bigSep Finset.univ fun k : Fin 32 => atPos ER (xRecvCell c k) 0 ∅ 0)
    ∗ (bigSep Finset.univ fun k : Fin 32 => atPos ER (outCell c k) 0 ∅ 0)) := by
  show bigSep Finset.univ (fun k => T3 (F := F) c k) = _
  simp only [T3, bigSep_sep']

theorem D3_eq (c : Dev nD) : bigSep Finset.univ (D3 m c) = iprop(
    (bigSep Finset.univ fun k : Fin 32 => argPeerPts m c k fullShare)
    ∗ (bigSep Finset.univ fun k : Fin 32 => anyPts (F := F) c (partSl k) fullShare)
    ∗ (bigSep Finset.univ fun k : Fin 32 => owns (c : Thread nD τ) (outSl c k) fullShare (partChunk m c k))
    ∗ (bigSep Finset.univ fun k : Fin 32 => owns (c : Thread nD τ) (outSl (xpeer c) k) fullShare (partChunk m (xpeer c) k))
    ∗ (bigSep Finset.univ fun k : Fin 32 => atPos ER (ySendCell c k) 1 ∅ 0)
    ∗ (bigSep Finset.univ fun k : Fin 32 => atPos ER (xSendCell c k) 1 ∅ 0)
    ∗ (bigSep Finset.univ fun k : Fin 32 => atPos ER (xRecvCell c k) 1 ∅ 0)
    ∗ (bigSep Finset.univ fun k : Fin 32 => atPos ER (outCell c k) 1 ∅ 0)) := by
  show bigSep Finset.univ (fun k => D3 m c k) = _
  simp only [D3, bigSep_sep']

theorem atEnd_eq (c : Dev nD) : bigSep Finset.univ (atEnd (F := F) c) = iprop(
    (bigSep Finset.univ fun k : Fin 32 => atPos ER (ySendCell c k) 1 ∅ 0)
    ∗ (bigSep Finset.univ fun k : Fin 32 => atPos ER (yRecvCell c k) 1 ∅ 0)
    ∗ (bigSep Finset.univ fun k : Fin 32 => atPos ER (xSendCell c k) 1 ∅ 0)
    ∗ (bigSep Finset.univ fun k : Fin 32 => atPos ER (xRecvCell c k) 1 ∅ 0)
    ∗ (bigSep Finset.univ fun k : Fin 32 => atPos ER (linCell c k) 1 ∅ 0)
    ∗ (bigSep Finset.univ fun k : Fin 32 => atPos ER (outCell c k) 1 ∅ 0)) := by
  show bigSep Finset.univ (fun k => atEnd (F := F) c k) = _
  simp only [atEnd, bigSep_sep']

/-! ## The argument block and the result, chunk family by chunk family -/

theorem arg_split' (c : Dev nD) :
    ((((c : Thread nD τ).loc main_arg0) ↦{fullShare} argBuf m c) : sProp 𝕄)
      ⊢ iprop((bigSep Finset.univ fun k : Fin 32 => argOwnPts m c k fullShare) ∗ (bigSep Finset.univ fun k : Fin 32 => argPeerPts m c k fullShare) ∗ argRest m c) := by
  have h := arg_split m c
  rw [bigSep_sep'] at h
  refine h.trans ?_
  iintro ⟨⟨H1, H2⟩, H3⟩
  isplitl [H1]
  · iexact H1
  isplitl [H2]
  · iexact H2
  iexact H3

theorem arg_join' (c : Dev nD) :
    iprop((bigSep Finset.univ fun k : Fin 32 => argOwnPts m c k fullShare) ∗ (bigSep Finset.univ fun k : Fin 32 => argPeerPts m c k fullShare) ∗ argRest m c)
      ⊢ ((((c : Thread nD τ).loc main_arg0) ↦{fullShare} argBuf m c) : sProp 𝕄) := by
  have h := arg_join m c
  rw [bigSep_sep'] at h
  refine .trans ?_ h
  iintro ⟨H1, H2, H3⟩
  isplitr [H3]
  · isplitl [H1]
    · iexact H1
    · iexact H2
  · iexact H3

theorem out_split' (c : Dev nD) :
    anyBuf (F := F) c main_v1
      ⊢ iprop((bigSep Finset.univ fun k : Fin 32 => anyPts (F := F) c (outSl c k) fullShare) ∗ (bigSep Finset.univ fun k : Fin 32 => anyPts (F := F) c (outSl (xpeer c) k) fullShare)) := by
  have h := out_split (F := F) c
  rw [bigSep_sep'] at h
  exact h

theorem out_join' (c : Dev nD) :
    iprop((bigSep Finset.univ fun k : Fin 32 => owns (c : Thread nD τ) (outSl c k) fullShare (partChunk m c k))
        ∗ (bigSep Finset.univ fun k : Fin 32 => owns (c : Thread nD τ) (outSl (xpeer c) k) fullShare (partChunk m (xpeer c) k)))
      ⊢ ((((c : Thread nD τ).loc main_v1) ↦{fullShare} outVal m c) : sProp 𝕄) := by
  have h := out_join m c
  rw [bigSep_sep'] at h
  exact h

/-! ## The body -/

/-- From `Φ₀` and the launch's tallies every execution of the printed body on device `c` reaches `Φ₁` owing nothing. -/
theorem sound_body (c : Dev nD) (Kt : PUnit → sProp 𝕄) :
    iprop(Φ₀ m c ∗ owesAny (F := F) c (O₀ c) ∗ ((Φ₁ m c ∗ owesAny (F := F) c 0) -∗ Kt ⟨⟩))
      ⊢ wp frame (wpE (defs₀ (F := F)) 𝒱₀ c none) Set.univ (bodyAt0 (F := F) t0_0) Kt := by
  rw [body_eq]; unfold bodyProg
  simp only [Prog.lift, Prog.bind_op, Prog.bind_ret, wp_deviceId]
  unfold bodyAt Φ₀ start ghost positions payToks credits
  simp only [bigSep_sep']
  iintro ⟨⟨⟨⟨%K, #Hkn, ⟨HpB, HpYS, HpYR, HpXS, HpXR, HpL, HpO⟩, ⟨HtBY, HtBX, HtYS, HtYR, HtXS, HtXR, HtL, HtO⟩⟩, ⟨HcB, HcYR, HcXR⟩, #Hlev, Harg, Hout⟩,
    Hcomm, Hlin, Hpart⟩, Ho, Hk⟩

  -- the five buffers as their chunks
  ihave Hcomm := (comm_split (F := F) c) $$ Hcomm
  ihave Hlin := (lin_split (F := F) c) $$ Hlin
  ihave Hpart := (part_split (F := F) c) $$ Hpart
  icases (arg_split' m c) $$ Harg with ⟨HargO, HargP, HargR⟩
  icases (out_split' (F := F) c) $$ Hout with ⟨HoutO, HoutX⟩
  -- the handshake
  iapply (wp_entry m K c _ Kt)
  isplitr
  · iexact Hkn
  isplitr
  · iexact Hlev
  isplitl [HtBY HtBX Hcomm HoutX HcB HpB]
  · unfold E0
    isplitl [HtBY]
    · iexact HtBY
    isplitl [HtBX]
    · iexact HtBX
    isplitl [Hcomm]
    · iexact Hcomm
    isplitl [HoutX]
    · iexact HoutX
    isplitl [HcB]
    · iexact HcB
    iexact HpB
  isplitl [Ho]
  · iexact Ho
  unfold E1
  iintro ⟨⟨HcommY, HoutXp, -⟩, Ho⟩
  -- pass 1
  iapply (wp_all1 m K c _ Kt)
  isplitr
  · iexact Hkn
  rw [T1_eq]
  isplitl [HargO HargP Hlin HcommY HtL HtYS HtYR]
  · isplitl [HargO]
    · iexact HargO
    isplitl [HargP]
    · iexact HargP
    isplitl [Hlin]
    · iexact Hlin
    isplitl [HcommY]
    · iexact HcommY
    isplitl [HtL]
    · iexact HtL
    isplitl [HtYS]
    · iexact HtYS
    iexact HtYR
  isplitl [Ho]
  · iexact Ho
  rw [D1_eq]
  iintro ⟨⟨HcL, HcYS⟩, Ho⟩
  -- pass 2
  iapply (wp_all2 m K c _ Kt)
  isplitr
  · iexact Hkn
  isplitr
  · iexact Hlev
  rw [T2_eq]
  isplitl [HcL HcYR HpL HpYR Hpart HoutXp HoutO HtXS HtXR HtO]
  · isplitl [HcL]
    · iexact HcL
    isplitl [HcYR]
    · iexact HcYR
    isplitl [HpL]
    · iexact HpL
    isplitl [HpYR]
    · iexact HpYR
    isplitl [Hpart]
    · iexact Hpart
    isplitl [HoutXp]
    · iexact HoutXp
    isplitl [HoutO]
    · iexact HoutO
    isplitl [HtXS]
    · iexact HtXS
    isplitl [HtXR]
    · iexact HtXR
    iexact HtO
  isplitl [Ho]
  · iexact Ho
  rw [D2_eq]
  iintro ⟨⟨Hlin, Hcomm, HargO, HpL1, HpYR1, HcXS, HcO⟩, Ho⟩
  -- pass 3
  iapply (wp_all3 m K c _ Kt)
  isplitr
  · iexact Hkn
  rw [T3_eq]
  isplitl [HcYS HcXS HcXR HcO HpYS HpXS HpXR HpO]
  · isplitl [HcYS]
    · iexact HcYS
    isplitl [HcXS]
    · iexact HcXS
    isplitl [HcXR]
    · iexact HcXR
    isplitl [HcO]
    · iexact HcO
    isplitl [HpYS]
    · iexact HpYS
    isplitl [HpXS]
    · iexact HpXS
    isplitl [HpXR]
    · iexact HpXR
    iexact HpO
  isplitl [Ho]
  · iexact Ho
  rw [D3_eq]
  iintro ⟨⟨HargP, Hpart, HoutO, HoutX, HpYS1, HpXS1, HpXR1, HpO1⟩, Ho⟩
  -- the end: the cells close, the buffers rejoin
  rw [wp_pure]
  imod (close_all m K c) $$ [HpYS1 HpYR1 HpXS1 HpXR1 HpL1 HpO1] with Hz
  · isplitr
    · iexact Hkn
    rw [atEnd_eq]
    isplitl [HpYS1]
    · iexact HpYS1
    isplitl [HpYR1]
    · iexact HpYR1
    isplitl [HpXS1]
    · iexact HpXS1
    isplitl [HpXR1]
    · iexact HpXR1
    isplitl [HpL1]
    · iexact HpL1
    iexact HpO1
  imodintro
  iapply Hk
  isplitr [Ho]
  · unfold Φ₁
    isplitl [Hcomm Hlin Hpart]
    · isplitl [Hcomm]
      · iapply (comm_join (F := F) c)
        iexact Hcomm
      isplitl [Hlin]
      · iapply (lin_join (F := F) c)
        iexact Hlin
      · iapply (part_join (F := F) c)
        iexact Hpart
    isplitl [Hz]
    · iexact Hz
    isplitl [HargO HargP HargR]
    · iapply (arg_join' m c)
      isplitl [HargO]
      · iexact HargO
      isplitl [HargP]
      · iexact HargP
      iexact HargR
    · iapply (out_join' m c)
      isplitl [HoutO]
      · iexact HoutO
      iexact HoutX
  · iexact Ho

/-- info: 'Cert.Kernel.RS.sound_body' depends on axioms: [propext, Classical.choice, Quot.sound] -/
#guard_msgs in #print axioms sound_body

end Cert.Kernel.RS

end
-- ==== Proof.Bits.Alloc.lean ====
/-
  The ghost state of the protocol at launch, and how it is dealt to the devices.
  A device has 193 semaphore cells: its barrier cell and its 192 DMA cells, six per chunk. The launch element holds,
  for every cell of every device, the round state at counter zero, the owner's position at round 0 and the fact
  that round 0 is reached, and one token per duty: the barrier cell's two and each DMA cell's one.
  With every counter at zero each cell's invariant is allocated at some name. The invariants and the reached facts
  are persistent, so every device may keep those of the cells it touches: its own, both neighbours' barrier cells
  and the receive cells of its column neighbour and of its row neighbour. The positions stay with the owners. The
  tokens go to the payers: a barrier cell's first token to the column neighbour, its second to the row neighbour,
  a column receive cell's to the column neighbour, a row receive cell's to the row neighbour; the column and the
  row neighbour maps are involutions of the mesh, so each device ends with exactly the tokens of the duties it pays.
-/
import proofs.«900309_g7700000000000310_dist_rs_v7x_xy2x2_y_m4096_n1024_f32_1_alg».proof.Proof.Bits.Phi
import proofs.«900309_g7700000000000310_dist_rs_v7x_xy2x2_y_m4096_n1024_f32_1_alg».proof.Proof.Bits.SemFacts
import proofs.«900309_g7700000000000310_dist_rs_v7x_xy2x2_y_m4096_n1024_f32_1_alg».proof.Proof.Bits.SchedLemmas

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores: all 192 DMA semaphores -/

def osem : DmaSem sig → SemLoc sig := fun i => .dma i

theorem dma_scoped : ∀ i : DmaSem sig, (SemLoc.dma i : SemLoc sig).isScoped .tc = true := by decide +kernel

theorem ownSemFacts : Pipeline.OwnSemFacts cfg0.spec osem :=
  ⟨dma_scoped, fun i j h => SemLoc.dma.inj h, fun k w s => (w : Fin 0).elim0⟩

/-! ## The cells and the tokens of the whole mesh -/

abbrev kcell (cs : Dev nD × SemLoc sig) : GSem nD τ sig := ((cs.1 : Thread nD τ), cs.2)

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl

def allCells : Finset (GSem nD τ sig) := Finset.univ.map ⟨kcell, kcell_injective⟩

/-- The duty tokens as minted: the barrier cell's second token, and the first token of every cell. -/
abbrev tokOf (cj : Dev nD × (Unit ⊕ SemLoc sig)) : GSem nD τ sig × ℕ × Bool := match cj.2 with
  | .inl _ => (barCell cj.1, 0, true)
  | .inr s => (kcell (cj.1, s), 0, false)

theorem tokOf_injective : Function.Injective (tokOf : Dev nD × (Unit ⊕ SemLoc sig) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  cases j with
  | inl u =>
    cases j' with
    | inl u' => rfl
    | inr s' => exact absurd (show true = false from congrArg (fun x : GSem nD τ sig × ℕ × Bool => x.2.2) h) (by decide)
  | inr s =>
    cases j' with
    | inl u' => exact absurd (show false = true from congrArg (fun x : GSem nD τ sig × ℕ × Bool => x.2.2) h) (by decide)
    | inr s' =>
      have h2 : s = s' := congrArg (fun x : GSem nD τ sig × ℕ × Bool => x.1.2) h
      subst h2; rfl

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  iprop(dutyTok ER (barCell c) 0 true ∗ bigSep Finset.univ fun s : SemLoc sig => dutyTok ER (kcell (c, s)) 0 false)

/-- What the launch element deals device c. -/
def G (c : Dev nD) : sProp 𝕄 :=
  iprop((bigSep Finset.univ fun s : SemLoc sig => roundState ER (rsRd m) (kcell (c, s)) 0)
    ∗ (bigSep Finset.univ fun s : SemLoc sig => iprop(atPos ER (kcell (c, s)) 0 ∅ 0 ∗ reached ER (kcell (c, s)) 0))
    ∗ toks (F := F) c)

/-- What the global step makes of it. -/
def G' (c : Dev nD) : sProp 𝕄 := iprop(∃ K, ghost m K c)

/-! ## A device's cells: the barrier cell, and six cells per chunk -/

theorem bigSep_semLoc (Φ : SemLoc sig → sProp 𝕄) :
    bigSep Finset.univ Φ = iprop(Φ (.reg barS) ∗ bigSep Finset.univ fun i : DmaSem sig => Φ (.dma i)) := by
  haveI : Subsingleton (Sem sig) := (inferInstance : Subsingleton (Fin 1))
  rw [bigSep_univ_equiv (SemLoc.equivSum sig).symm Φ, bigSep_univ_sum, bigSep_univ_of_subsingleton (barS : Sem sig)]
  rfl

/-- Semaphore number 32 a + k is the semaphore of chunk k in array a. -/
def dmaEquiv : Fin 6 × Fin 32 ≃ DmaSem sig where
  toFun p := ⟨32 * p.1.val + p.2.val, by have h1 := p.1.isLt; have h2 := p.2.isLt; show _ < 192; omega⟩
  invFun i := (⟨i.val / 32, by have h : i.val < 192 := i.isLt; omega⟩, ⟨i.val % 32, Nat.mod_lt _ (by decide)⟩)
  left_inv p := by
    have h1 := p.1.isLt; have h2 := p.2.isLt
    apply Prod.ext <;> apply Fin.ext
    · show (32 * p.1.val + p.2.val) / 32 = p.1.val; omega
    · show (32 * p.1.val + p.2.val) % 32 = p.2.val; omega
  right_inv i := by
    apply Fin.ext; show 32 * (i.val / 32) + i.val % 32 = i.val; omega

theorem dmaEquiv_0 (k : Fin 32) : dmaEquiv (0, k) = ySendS k :=
  Fin.ext (by rw [ySendS_val]; show 32 * 0 + k.val = k.val; omega)
theorem dmaEquiv_1 (k : Fin 32) : dmaEquiv (1, k) = yRecvS k :=
  Fin.ext (by rw [yRecvS_val]; show 32 * 1 + k.val = 32 + k.val; omega)
theorem dmaEquiv_2 (k : Fin 32) : dmaEquiv (2, k) = xSendS k :=
  Fin.ext (by rw [xSendS_val]; show 32 * 2 + k.val = 64 + k.val; omega)
theorem dmaEquiv_3 (k : Fin 32) : dmaEquiv (3, k) = xRecvS k :=
  Fin.ext (by rw [xRecvS_val]; show 32 * 3 + k.val = 96 + k.val; omega)
theorem dmaEquiv_4 (k : Fin 32) : dmaEquiv (4, k) = linS k :=
  Fin.ext (by rw [linS_val]; show 32 * 4 + k.val = 128 + k.val; omega)
theorem dmaEquiv_5 (k : Fin 32) : dmaEquiv (5, k) = outS k :=
  Fin.ext (by rw [outS_val]; show 32 * 5 + k.val = 160 + k.val; omega)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_dma (Φ : DmaSem sig → sProp 𝕄) :
    bigSep Finset.univ Φ = bigSep Finset.univ fun k : Fin 32 =>
      iprop(Φ (ySendS k) ∗ Φ (yRecvS k) ∗ Φ (xSendS k) ∗ Φ (xRecvS k) ∗ Φ (linS k) ∗ Φ (outS k)) := by
  rw [bigSep_univ_equiv dmaEquiv Φ, bigSep_univ_prod, bigSep_fin6]
  simp only [bigSep_sep', dmaEquiv_0, dmaEquiv_1, dmaEquiv_2, dmaEquiv_3, dmaEquiv_4, dmaEquiv_5]

/-- The barrier cell and the six cells of every chunk. -/
theorem bigSep_cells (Φ : SemLoc sig → sProp 𝕄) :
    bigSep Finset.univ Φ = iprop(Φ (.reg barS) ∗ bigSep Finset.univ fun k : Fin 32 =>
      iprop(Φ (.dma (ySendS k)) ∗ Φ (.dma (yRecvS k)) ∗ Φ (.dma (xSendS k)) ∗ Φ (.dma (xRecvS k)) ∗ Φ (.dma (linS k)) ∗ Φ (.dma (outS k)))) := by
  rw [bigSep_semLoc, bigSep_dma fun i => Φ (.dma i)]

/-! ## The launch element pays for it -/

theorem fund_all : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun s : SemLoc sig => Φ (kcell (c, s)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_of_subsingleton ()]; rfl
  iintro HX
  imod (Rounds.fund ER (rsRd m) allCells allToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

theorem ownSems0_dma (c : Dev nD) :
    (Pipeline.ownSems0 (Ix := Unit) (Name := ℕ) (U := UU) (Lvl := ℕ) (Val := Elt F) (τ := τ) osem c : sProp 𝕄)
      = bigSep Finset.univ fun i : DmaSem sig => semVal (kcell (c, .dma i)) 0 := rfl

/-- The 192 DMA semaphores are the kernel's own: six per chunk; -/
theorem ownSems0_eq (c : Dev nD) :
    (Pipeline.ownSems0 (Ix := Unit) (Name := ℕ) (U := UU) (Lvl := ℕ) (Val := Elt F) (τ := τ) osem c : sProp 𝕄)
      = bigSep Finset.univ fun k : Fin 32 => zeros (F := F) c k := by
  rw [ownSems0_dma, bigSep_dma]; rfl

theorem ownSems0_of_zeros (c : Dev nD) :
    (bigSep Finset.univ fun k : Fin 32 => zeros (F := F) c k)
      ⊢ (Pipeline.ownSems0 (Ix := Unit) (Name := ℕ) (U := UU) (Lvl := ℕ) (Val := Elt F) (τ := τ) osem c : sProp 𝕄) :=
  Entails.of_eq (ownSems0_eq c).symm

theorem unscoped_filter : (Finset.univ.filter fun sm : SemLoc sig => ¬ sm.isScoped .tc) = {SemLoc.reg barS} := by
  ext s
  rw [Finset.mem_filter, Finset.mem_singleton]
  cases s with
  | reg s =>
    have hs : s = barS := Subsingleton.elim (α := Fin 1) _ _
    rw [hs]
    exact ⟨fun _ => rfl, fun _ => ⟨Finset.mem_univ _, by decide⟩⟩
  | dma i => exact ⟨fun h => absurd (dma_scoped i) h.2, fun h => by cases h⟩

/-- the barrier semaphore is the one unscoped semaphore. -/
theorem unscopedSems0_eq (c : Dev nD) : (unscopedSems0 c : sProp 𝕄) = semVal (barCell c) 0 := by
  unfold unscopedSems0; rw [unscoped_filter, bigSep_singleton]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : SemLoc sig => semVal (kcell (c, s)) 0 : sProp 𝕄) := by
  rw [ownSems0_dma, unscopedSems0_eq, bigSep_semLoc]
  iintro ⟨HS, HB⟩
  isplitl [HB]; · iexact HB
  iexact HS

/-! ## Every cell's invariant, allocated -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (rsRd m) κ (kcell (c, s))))
          ∗ (bigSep Finset.univ fun s : SemLoc sig => iprop(atPos ER (kcell (c, s)) 0 ∅ 0 ∗ reached ER (kcell (c, s)) 0))
          ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun s : SemLoc sig => semVal (kcell (c, s)) 0)
        ∗ bigSep Finset.univ fun s : SemLoc sig => roundState ER (rsRd m) (kcell (c, s)) 0)
      ⊢ (|={Set.univ}=> bigSep Finset.univ fun s : SemLoc sig => iprop(∃ κ : ℕ, cellInv ER (rsRd m) κ (kcell (c, s))) : sProp 𝕄) from by
        rw [← bigSep_sep']
        exact (bigSep_mono fun s _ => (Rounds.body_intro ER (rsRd m) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-! ## What every device may keep: the invariants and the reached facts of all cells -/

def records (K : Dev nD × SemLoc sig → ℕ) : sProp 𝕄 :=
  iprop((bigSep Finset.univ fun cs : Dev nD × SemLoc sig => cellInv ER (rsRd m) (K cs) (kcell cs))
    ∗ bigSep Finset.univ fun cs : Dev nD × SemLoc sig => reached ER (kcell cs) 0)

instance records_persistent (K : Dev nD × SemLoc sig → ℕ) : BI.Persistent (records m K) := by unfold records; infer_instance

theorem inv_at (K : Dev nD × SemLoc sig → ℕ) (cs : Dev nD × SemLoc sig) :
    (bigSep Finset.univ fun cs : Dev nD × SemLoc sig => (cellInv ER (rsRd m) (K cs) (kcell cs) : sProp 𝕄)) ⊢ cellInv ER (rsRd m) (K cs) (kcell cs) :=
  bigSep_elim (Finset.mem_univ cs)

theorem reached_at (cs : Dev nD × SemLoc sig) :
    (bigSep Finset.univ fun cs : Dev nD × SemLoc sig => (reached ER (kcell cs) 0 : sProp 𝕄)) ⊢ reached ER (kcell cs) 0 :=
  bigSep_elim (Finset.mem_univ cs)

/-- The names as a function of device and semaphore. -/
abbrev nameOf (K : Dev nD × SemLoc sig → ℕ) : Dev nD → SemLoc sig → ℕ := fun c s => K (c, s)

theorem known_chunk (K : Dev nD × SemLoc sig → ℕ) (c : Dev nD) (k : Fin 32) :
    records m K ⊢ iprop(
        (cellInv ER (rsRd m) (nameOf K c (.dma (ySendS k))) (ySendCell c k) ∗ cellInv ER (rsRd m) (nameOf K c (.dma (yRecvS k))) (yRecvCell c k)
          ∗ cellInv ER (rsRd m) (nameOf K c (.dma (xSendS k))) (xSendCell c k) ∗ cellInv ER (rsRd m) (nameOf K c (.dma (xRecvS k))) (xRecvCell c k)
          ∗ cellInv ER (rsRd m) (nameOf K c (.dma (linS k))) (linCell c k) ∗ cellInv ER (rsRd m) (nameOf K c (.dma (outS k))) (outCell c k)
          ∗ cellInv ER (rsRd m) (nameOf K (ypeer c) (.dma (yRecvS k))) (yRecvCell (ypeer c) k)
          ∗ cellInv ER (rsRd m) (nameOf K (xpeer c) (.dma (xRecvS k))) (xRecvCell (xpeer c) k))
        ∗ (reached ER (ySendCell c k) 0 ∗ reached ER (yRecvCell c k) 0 ∗ reached ER (xSendCell c k) 0 ∗ reached ER (xRecvCell c k) 0
          ∗ reached ER (linCell c k) 0 ∗ reached ER (outCell c k) 0
          ∗ reached ER (yRecvCell (ypeer c) k) 0 ∗ reached ER (xRecvCell (xpeer c) k) 0)) := by
  unfold records
  iintro ⟨#HI, #HR⟩
  isplitr
  · isplitr; · iapply (inv_at m K (c, .dma (ySendS k))); iexact HI
    isplitr; · iapply (inv_at m K (c, .dma (yRecvS k))); iexact HI
    isplitr; · iapply (inv_at m K (c, .dma (xSendS k))); iexact HI
    isplitr; · iapply (inv_at m K (c, .dma (xRecvS k))); iexact HI
    isplitr; · iapply (inv_at m K (c, .dma (linS k))); iexact HI
    isplitr; · iapply (inv_at m K (c, .dma (outS k))); iexact HI
    isplitr; · iapply (inv_at m K (ypeer c, .dma (yRecvS k))); iexact HI
    iapply (inv_at m K (xpeer c, .dma (xRecvS k))); iexact HI
  · isplitr; · iapply (reached_at (F := F) (c, .dma (ySendS k))); iexact HR
    isplitr; · iapply (reached_at (F := F) (c, .dma (yRecvS k))); iexact HR
    isplitr; · iapply (reached_at (F := F) (c, .dma (xSendS k))); iexact HR
    isplitr; · iapply (reached_at (F := F) (c, .dma (xRecvS k))); iexact HR
    isplitr; · iapply (reached_at (F := F) (c, .dma (linS k))); iexact HR
    isplitr; · iapply (reached_at (F := F) (c, .dma (outS k))); iexact HR
    isplitr; · iapply (reached_at (F := F) (ypeer c, .dma (yRecvS k))); iexact HR
    iapply (reached_at (F := F) (xpeer c, .dma (xRecvS k))); iexact HR

theorem known_bar (K : Dev nD × SemLoc sig → ℕ) (c : Dev nD) :
    records m K ⊢ iprop(cellInv ER (rsRd m) (nameOf K c (.reg barS)) (barCell c) ∗ cellInv ER (rsRd m) (nameOf K (ypeer c) (.reg barS)) (barCell (ypeer c))
      ∗ cellInv ER (rsRd m) (nameOf K (xpeer c) (.reg barS)) (barCell (xpeer c))
      ∗ reached ER (barCell (ypeer c)) 0 ∗ reached ER (barCell (xpeer c)) 0) := by
  unfold records
  iintro ⟨#HI, #HR⟩
  isplitr; · iapply (inv_at m K (c, .reg barS)); iexact HI
  isplitr; · iapply (inv_at m K (ypeer c, .reg barS)); iexact HI
  isplitr; · iapply (inv_at m K (xpeer c, .reg barS)); iexact HI
  isplitr; · iapply (reached_at (F := F) (ypeer c, .reg barS)); iexact HR
  iapply (reached_at (F := F) (xpeer c, .reg barS)); iexact HR

theorem known_intro (K : Dev nD × SemLoc sig → ℕ) (c : Dev nD) : records m K ⊢ known m (nameOf K) c := by
  unfold known
  iintro #H
  isplitr
  · iapply (known_bar m K c); iexact H
  · iapply (bigSep_intro_persistent (R := records m K) (S := Finset.univ) fun k _ => known_chunk m K c k)
    iexact H

/-! ## The tokens, dealt to their payers -/

/-- What stays with device c: its positions, and the tokens of the duties it pays. -/
def linear (c : Dev nD) : sProp 𝕄 := iprop(positions (F := F) c ∗ payToks (F := F) c)

theorem ghost_intro (K : Dev nD × SemLoc sig → ℕ) (c : Dev nD) : iprop(records m K ∗ linear (F := F) c) ⊢ G' m c := by
  unfold linear G' ghost
  iintro ⟨#H, Hpos, Htok⟩
  iexists (nameOf K)
  isplitr; · iapply (known_intro m K c); iexact H
  isplitl [Hpos]; · iexact Hpos
  iexact Htok

theorem positions_eq (c : Dev nD) :
    (bigSep Finset.univ fun s : SemLoc sig => (atPos ER (kcell (c, s)) 0 ∅ 0 : sProp 𝕄)) = positions (F := F) c := by
  rw [bigSep_cells]; rfl

/-- The column and the row neighbour maps, as permutations of the mesh. -/
def yE : Dev nD ≃ Dev nD := ⟨ypeer, ypeer, ypeer_ypeer, ypeer_ypeer⟩
def xE : Dev nD ≃ Dev nD := ⟨xpeer, xpeer, xpeer_xpeer, xpeer_xpeer⟩
@[simp] theorem yE_apply (c : Dev nD) : yE c = ypeer c := rfl
@[simp] theorem xE_apply (c : Dev nD) : xE c = xpeer c := rfl

/-- A device's own cells' tokens, cell by cell. -/
def toks' (c : Dev nD) : sProp 𝕄 :=
  iprop(dutyTok ER (barCell c) 0 true ∗ dutyTok ER (barCell c) 0 false
    ∗ bigSep Finset.univ fun k : Fin 32 => iprop(dutyTok ER (ySendCell c k) 0 false ∗ dutyTok ER (yRecvCell c k) 0 false
        ∗ dutyTok ER (xSendCell c k) 0 false ∗ dutyTok ER (xRecvCell c k) 0 false
        ∗ dutyTok ER (linCell c k) 0 false ∗ dutyTok ER (outCell c k) 0 false))

theorem toks_eq (c : Dev nD) : (toks (F := F) c) = toks' (F := F) c := by
  unfold toks toks'; rw [bigSep_cells]

theorem toks_around : (bigSep Finset.univ fun c : Dev nD => (toks (F := F) c : sProp 𝕄)) ⊢ bigSep Finset.univ fun c : Dev nD => payToks (F := F) c := by
  rw [bigSep_congr (s := Finset.univ) fun (c : Dev nD) _ => toks_eq (F := F) c]
  unfold toks' payToks
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => bigSep Finset.univ fun k : Fin 32 => (dutyTok ER (yRecvCell c k) 0 false : sProp 𝕄)),
    bigSep_univ_equiv xE (fun c : Dev nD => bigSep Finset.univ fun k : Fin 32 => (dutyTok ER (xRecvCell c k) 0 false : sProp 𝕄))]
  simp only [yE_apply, xE_apply]
  iintro ⟨HbT, HbF, HyS, HyR, HxS, HxR, Hl, Ho⟩
  isplitl [HbF]; · iexact HbF
  isplitl [HbT]; · iexact HbT
  isplitl [HyS]; · iexact HyS
  isplitl [HyR]; · iexact HyR
  isplitl [HxS]; · iexact HxS
  isplitl [HxR]; · iexact HxR
  isplitl [Hl]; · iexact Hl
  iexact Ho

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : SemLoc sig => iprop(∃ κ : ℕ, cellInv ER (rsRd m) κ (kcell (c, s))))
          ∗ (bigSep Finset.univ fun s : SemLoc sig => iprop(atPos ER (kcell (c, s)) 0 ∅ 0 ∗ reached ER (kcell (c, s)) 0))
          ∗ toks (F := F) c) : sProp 𝕄)
      ⊢ bigSep Finset.univ (G' m) := by
  rw [bigSep_sep', bigSep_sep', ← bigSep_univ_prod (fun cs : Dev nD × SemLoc sig => iprop(∃ κ : ℕ, cellInv ER (rsRd m) κ (kcell cs))),
    bigSep_congr (s := Finset.univ) (fun (c : Dev nD) _ => bigSep_sep' Finset.univ (fun s : SemLoc sig => (atPos ER (kcell (c, s)) 0 ∅ 0 : sProp 𝕄)) (fun s => reached ER (kcell (c, s)) 0)),
    bigSep_sep', ← bigSep_univ_prod (fun cs : Dev nD × SemLoc sig => (reached ER (kcell cs) 0 : sProp 𝕄))]
  iintro ⟨HI, ⟨Hat, #HR⟩, Htok⟩
  ihave HK := (BI.bigSep_exists_pi Finset.univ (fun (cs : Dev nD × SemLoc sig) (κ : ℕ) => (cellInv ER (rsRd m) κ (kcell cs) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun s : SemLoc sig => (atPos ER (kcell (c, s)) 0 ∅ 0 : sProp 𝕄)) (payToks (F := F))).symm).trans
      (bigSep_mono fun c _ => show _ ⊢ linear (F := F) c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the module rests on -/

/-- info: 'Cert.Kernel.RS.ownSemFacts' depends on axioms: [propext, Classical.choice, Quot.sound] -/
#guard_msgs in #print axioms ownSemFacts

/-- info: 'Cert.Kernel.RS.fund_all' depends on axioms: [propext, Classical.choice, Quot.sound] -/
#guard_msgs in #print axioms fund_all

/-- info: 'Cert.Kernel.RS.ownSems0_eq' depends on axioms: [propext, Classical.choice, Quot.sound] -/
#guard_msgs in #print axioms ownSems0_eq

/-- info: 'Cert.Kernel.RS.unscopedSems0_eq' depends on axioms: [propext, Classical.choice, Quot.sound] -/
#guard_msgs in #print axioms unscopedSems0_eq

/-- info: 'Cert.Kernel.RS.glob' depends on axioms: [propext, Classical.choice, Quot.sound] -/
#guard_msgs in #print axioms glob

end Cert.Kernel.RS

end
-- ==== Proof.Bits.Launch.lean ====
/-
  The launch. The four devices run the one region; what each holds at the region's entry is split into what the body
  starts from, the body's rule takes it to what it ends with, and the two unstaged arrays are read off the final state:
  the argument block as launched and the result at `outVal`.
-/
import proofs.«900309_g7700000000000310_dist_rs_v7x_xy2x2_y_m4096_n1024_f32_1_alg».proof.Proof.Bits.Body
import proofs.«900309_g7700000000000310_dist_rs_v7x_xy2x2_y_m4096_n1024_f32_1_alg».proof.Proof.Bits.Levels
import proofs.«900309_g7700000000000310_dist_rs_v7x_xy2x2_y_m4096_n1024_f32_1_alg».proof.Proof.Bits.Alloc

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's rule as the launch takes it -/

omit [FloatOps F] in
theorem bigSep_fin0 (Φ : Fin 0 → sProp 𝕄) : bigSep Finset.univ Φ = iprop(emp) := by
  rw [Finset.univ_eq_empty, BI.bigSep_empty]; rfl

/-- What the one point of the launch starts from: the invariant before it and what the device owes at launch. -/
def bodyPre' (c : Dev nD) : sProp 𝕄 := iprop(Φ₀ m c ∗ (dats m 0 c).owesAt () t0_0.castSucc ∗ emp)
/-- What it ends with: the invariant after it, owing nothing. -/
def bodyPost (c : Dev nD) : sProp 𝕄 := iprop(Φ₁ m c ∗ (dats m 0 c).owesAt () t0_0.succ ∗ emp)

set_option maxRecDepth 100000 in
/-- The body obligation on device `c`: there is no window, so the body is handed the invariant and the device's debts alone. -/
theorem body_obligation (c : Dev nD) : BodyObligation (dats (F := F) m 0 c) (defs₀ (F := F)) 𝒱₀ () Set.univ := fun t => by
  rw [fin_N0 t]
  rw [bigSep_fin0, bigSep_fin0]
  show bodyPre' m c ⊢ wp frame (wpE (defs₀ (F := F)) 𝒱₀ c none) Set.univ (bodyAt0 (F := F) t0_0) (fun _ => bodyPost m c)
  unfold bodyPre' Dat.owesAt Pipeline.owesWithin
  iintro ⟨HΦ, ⟨%W, -, HO⟩, -⟩
  iapply (sound_body m c fun _ => bodyPost m c)
  unfold owesAny
  isplitl [HΦ]; · iexact HΦ
  isplitl [HO]
  · iexists W; iexact HO
  · iintro ⟨HΦ, ⟨%W', HO⟩⟩
    unfold bodyPost Dat.owesAt Pipeline.owesWithin
    isplitl [HΦ]; · iexact HΦ
    isplitl [HO]
    · iexists W'
      isplitr; · ipureintro; exact fun _ _ => Or.inl trivial
      iexact HO
    · iempintro

/-! ## The theorem's side conditions -/

/-- The two unstaged arrays, the levels and the launch credit make what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds (F := F) c) $$ Hcr
  imodintro
  unfold start G' credits anyBuf
  isplitl
  · isplitl [HG]; · iexact HG
    isplitl [Hc]; · iexact Hc
    isplitl [Hlev]; · iexact Hlev
    isplitl [Ha]; · iexact Ha
    iexists _; iexact Hv
  · iempintro

/-- With the three scratch buffers at whatever they hold it is the invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ anyBuf
  iintro ⟨Hs, -, H0, H1, H2⟩
  isplitl [Hs]; · iexact Hs
  isplitl [H0]; · iexact H0
  isplitl [H1]; · iexact H1
  iexact H2

/-- The invariant after the point gives back the own semaphores at zero and the scratch buffers, and keeps the two arrays. -/
theorem phi1_exit (c : Dev nD) :
    (dats m 0 c).Φ (Fin.last cfg0.N) ⊢ iprop(iprop((((c : Thread nD τ).loc main_arg0) ↦{fullShare} argBuf m c) ∗ (((c : Thread nD τ).loc main_v1) ↦{fullShare} outVal m c))
      ∗ Pipeline.ownSems0 osem c ∗ Pipeline.scopedRest cfg0.spec c) := by
  rw [show (dats m 0 c).Φ (Fin.last cfg0.N) = Φ₁ m c from rfl, scopedRest0_eq, ownSems0_eq]
  unfold Φ₁ anyBuf
  iintro ⟨⟨H0, H1, H2⟩, Hz, Ha, Ho⟩
  isplitl [Ha Ho]
  · isplitl [Ha]; · iexact Ha
    iexact Ho
  isplitl [Hz]; · iexact Hz
  isplitl [H0]; · iexact H0
  isplitl [H1]; · iexact H1
  iexact H2

/-- No staging cell, so no wait of the loop's own. -/
theorem waits (c : Dev nD) : (levAts L lv : sProp 𝕄) ⊢ Pipeline.cellsWaits cfgs (dats m) () 0 c :=
  Pipeline.cellsWaits_intro cfgs (dats m) () 0 c fun w _ _ => w.elim0

/-! ## The run -/

set_option maxRecDepth 100000 in
/-- At the compiled mesh of four devices, for any float values, from any memory with zero counters: every weakly fair
    execution of @main terminates, and every final state has each device's result at `outVal` and its argument block
    as launched. -/
theorem run_main : θ_run defs (onTc (τ := τ) (main (F := F))) (s₀ m ρ)
    (fun r => ∀ c : Dev nD, r.2.mem ((c.tc : Thread nD τ).loc main_v1) = outVal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]
      · iexact HP
      · iexact HG)
    (hglob := glob m)
    (hA := fun _ w => w.elim0) (hpf := fun _ k => k.elim0)
    (X := start m)
    (Y := fun c => iprop((((c : Thread nD τ).loc main_arg0) ↦{fullShare} argBuf m c) ∗ (((c : Thread nD τ).loc main_v1) ↦{fullShare} outVal m c)))
    (Z := fun _ => iprop(emp))
    (hX := start_intro m ρ) (hin := phi0_intro m) (hout := phi1_exit m)
    (QY := fun c s => s.mem ((c : Thread nD τ).loc main_v1) = outVal m c ∧ s.mem ((c : Thread nD τ).loc main_arg0) = m ((c : Thread nD τ).loc main_arg0))
    (hY := fun c s' => by
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.Kernel.RS.run_main' depends on axioms: [propext, Classical.choice, Quot.sound] -/
#guard_msgs in #print axioms run_main

end Cert.Kernel.RS

end
-- ==== Proof.RefRun.lean ====
/-
  The reference program's run. It has one device, whose argument array has shape 2 × 4096 × 2048;
  the program adds its two 4096 × 2048 blocks entry by entry, starting from a zero. Every weakly
  fair execution terminates with the result array holding that sum and the argument unchanged.
-/
import proofs.«900309_g7700000000000310_dist_rs_v7x_xy2x2_y_m4096_n1024_f32_1_alg».proof.Defs
import proofs.«900309_g7700000000000310_dist_rs_v7x_xy2x2_y_m4096_n1024_f32_1_alg».proof.Proof.Gen.ReferenceIdeal
import proofs.«900309_g7700000000000310_dist_rs_v7x_xy2x2_y_m4096_n1024_f32_1_alg».proof.Proof.Gen.Pre_finite_inputs_ReferenceIdeal
import proofs.«900309_g7700000000000310_dist_rs_v7x_xy2x2_y_m4096_n1024_f32_1_alg».proof.Proof.Gen.ReferenceIdeal.Run
import proofs.«900309_g7700000000000310_dist_rs_v7x_xy2x2_y_m4096_n1024_f32_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen
open Idealize.ShloMosaic Idealize.SL.Sem
open Idealize.ShloMosaic.TcCoe
open Idealize.ShloMosaic.ValueIdx
open scoped BigOperators

variable {F : FTy → Type} [FloatOps F]

/-- The result of the reference, as a function of its whole argument array: the sum along the
    first axis, from the zero literal. -/
def refOut (X : (⟨S2x4096x2048, .f32⟩ : BufTy).Contents (Elt F)) : (⟨S4096x2048, .f32⟩ : BufTy).Contents (Elt F) :=
  Host.reduceAdd X (constant S_ .f32 0x00000000#32) reducesTo_S2x4096x2048_S4096x2048_d0 h_S_

/-- It is the last stage of the program read one operation at a time. -/
theorem refOut_eq_val (X : (⟨S2x4096x2048, .f32⟩ : BufTy).Contents (Elt F)) :
    refOut X = Read.val_main_v0 (F := F) X := rfl

/-- The place of the argument that block `k` contributes to entry (i, j) of the sum is (k, i, j). -/
theorem idx_eq (i : Fin 4096) (j : Fin 2048) (k : Fin 2) :
    Read.idx_main_v0 (ix2 i j) k = ix3 (n0 := 2) k i j := by
  funext a
  match a with
  | ⟨0, _⟩ => rfl
  | ⟨1, _⟩ => rfl
  | ⟨2, _⟩ => rfl

/-- With exact arithmetic, entry (i, j) of the result is the sum of the entries (0, i, j) and
    (1, i, j) of the argument. -/
theorem refOut_apply (X : (⟨S2x4096x2048, .f32⟩ : BufTy).Contents (Elt Ideal)) (i : Fin 4096) (j : Fin 2048) :
    refOut (F := Ideal) X (ix2 i j) =
      (show EReal from X (ix3 (n0 := 2) 0 i j)) + (show EReal from X (ix3 (n0 := 2) 1 i j)) := by
  rw [refOut_eq_val, Read.val_main_v0_apply, Read.val_main_cst_apply, Fin.sum_univ_two]
  show Ideal.ofBits .f32 0x00000000#32 + _ = _
  rw [Ideal.ofBits_zero_f32, zero_add, idx_eq, idx_eq]

/-- The run: the result array ends as `refOut` of the argument, and the argument is unchanged. -/
theorem run_ri (m : (ℓ : Loc nD τ sig) → Buf (Elt Ideal) ℓ) (ρ : Dev nD → PrngReg) :
    θ_run (defs (F := Ideal)) (onTc (τ := τ) (main (F := Ideal))) ⟨m, fun _ => 0, ρ⟩ (fun r =>
      r.2.mem (((0 : Dev nD).tc : Thread nD τ).loc main_v0)
          = refOut (F := Ideal) (m (((0 : Dev nD).tc : Thread nD τ).loc main_arg0))
      ∧ r.2.mem (((0 : Dev nD).tc : Thread nD τ).loc main_arg0)
          = m (((0 : Dev nD).tc : Thread nD τ).loc main_arg0)) :=
  (θ_run defs _ _).mono (fun _ h => h 0) (Cert.ReferenceIdeal.Value.run (F := Ideal) m ρ)

/-- The frame: the same run with the result dropped. -/
theorem frame_ri :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

end Cert.ReferenceIdeal.RefValue

end
-- ==== Proof.Bridge.lean ====
/-
  The kernel's result against the reference's, with exact arithmetic.

  Device `c` sits at mesh position (c / 2, c % 2) and holds block `c % 2` of the whole argument
  array X (cut along its first axis), so the entry (0, i, col) of the buffer of a device in mesh
  column y is X (y, i, col). Entry (i, j) of device `c`'s result adds such an entry from `c`'s own
  column and one from the other column, at col = 1024·(c % 2) + j: that is X (c % 2, i, col) plus
  X (1 - c % 2, i, col). The reference's entry (i, col) is X (0, i, col) + X (1, i, col), and block
  `c % 2` of the reference's result along the columns reads it at exactly that col. The two sums
  have the same two terms, in the same or in the opposite order.
-/
import proofs.«900309_g7700000000000310_dist_rs_v7x_xy2x2_y_m4096_n1024_f32_1_alg».proof.Proof.Vals
import proofs.«900309_g7700000000000310_dist_rs_v7x_xy2x2_y_m4096_n1024_f32_1_alg».proof.Proof.RefRun
import Idealize.ShloMosaic.Lib.Layout

noncomputable section

namespace Cert.KernelIdeal.RS

open Idealize.ShloMosaic Idealize.SL.Sem
open Idealize.ShloMosaic.TcCoe
open Idealize.ShloMosaic.ValueIdx
open Cert.ReferenceIdeal.RefValue (refOut refOut_apply)

/-- The two blocks of the whole array at one place, taken in either order, add up to the same. -/
theorem sum_two_blocks (X : (⟨3, ![2, 4096, 2048]⟩ : Shape).Idx → EReal) (i : Fin 4096) (col : Fin 2048)
    (p q : Fin 2) (hpq : p.val + q.val = 1) :
    X (ix3 p i col) + X (ix3 q i col) = X (ix3 (n0 := 2) 0 i col) + X (ix3 (n0 := 2) 1 i col) := by
  have hp := p.isLt
  have hq := q.isLt
  rcases Nat.eq_zero_or_pos p.val with h0 | h0
  · have hp0 : p = 0 := Fin.ext h0
    have hq1 : q = 1 := Fin.ext (by show q.val = 1; omega)
    rw [hp0, hq1]
  · have hp1 : p = 1 := Fin.ext (by show p.val = 1; omega)
    have hq0 : q = 0 := Fin.ext (by show q.val = 0; omega)
    rw [hp1, hq0]
    exact add_comm (G := EReal) _ _

/-- Where the place (0, i, 1024·(c % 2) + j) of device `d`'s block lies in the whole argument array:
    at block `d % 2` along the first axis, the other two coordinates unchanged. -/
theorem arg_idx_eq
    (h : Layout.TilesN ⟨3, ![1, 4096, 2048]⟩ ⟨3, ![2, 4096, 2048]⟩
      (fun b => Layout.cutSize [2, 2] ((![[1], [], []] : Fin 3 → List ℕ) b)))
    (d c : Dev nD) (i : Fin 4096) (j : Fin 1024) :
    h.idx (Layout.meshBlock [2, 2] ![[1], [], []] d) (argIdx c i j)
      = ix3 (n0 := 2) (n1 := 4096) (n2 := 2048) ⟨d.val % 2, Nat.mod_lt _ (by decide)⟩ i
          ⟨1024 * (c.val % 2) + j.val, by have := j.isLt; omega⟩ := by
  funext b
  match b with
  | ⟨0, _⟩ =>
    refine Fin.ext ?_
    show Layout.meshLin [2, 2] d.val [1] * 1 + 0 = d.val % 2
    simp [Layout.meshLin, Layout.meshCoord, Layout.cutSize]
  | ⟨1, _⟩ =>
    refine Fin.ext ?_
    show Layout.meshLin [2, 2] d.val [] * 4096 + i.val = i.val
    simp [Layout.meshLin]
  | ⟨2, _⟩ =>
    refine Fin.ext ?_
    show Layout.meshLin [2, 2] d.val [] * 2048 + (1024 * (c.val % 2) + j.val) = 1024 * (c.val % 2) + j.val
    simp [Layout.meshLin]

/-- Where entry (i, j) of device `c`'s block of the result lies in the whole result: same row,
    column 1024·(c % 2) + j. -/
theorem out_idx_eq
    (h : Layout.TilesN ⟨2, ![4096, 1024]⟩ ⟨2, ![4096, 2048]⟩
      (fun b => Layout.cutSize [2, 2] ((![[], [1]] : Fin 2 → List ℕ) b)))
    (c : Dev nD) (i : Fin 4096) (j : Fin 1024) :
    h.idx (Layout.meshBlock [2, 2] ![[], [1]] c) (ix2 i j)
      = ix2 (n0 := 4096) (n1 := 2048) i ⟨1024 * (c.val % 2) + j.val, by have := j.isLt; omega⟩ := by
  funext b
  match b with
  | ⟨0, _⟩ =>
    refine Fin.ext ?_
    show Layout.meshLin [2, 2] c.val [] * 4096 + i.val = i.val
    simp [Layout.meshLin]
  | ⟨1, _⟩ =>
    refine Fin.ext ?_
    show Layout.meshLin [2, 2] c.val [1] * 1024 + j.val = 1024 * (c.val % 2) + j.val
    simp [Layout.meshLin, Layout.meshCoord, Layout.cutSize]
    omega

/-- Device `c`'s result is its block of the reference's result, whenever every device's argument
    buffer is its block of the reference's argument. -/
theorem bridge (m : (ℓ : Loc nD τ sig) → Buf (Elt Ideal) ℓ)
    (X : (⟨3, ![2, 4096, 2048]⟩ : Shape).Idx → EReal)
    (hagree : ∀ c : Dev Cert.KernelIdeal.nD,
      m ((c.tc : Thread Cert.KernelIdeal.nD Cert.KernelIdeal.τ).loc Cert.KernelIdeal.main_arg0)
        = Layout.blockN ⟨3, ![1, 4096, 2048]⟩ ⟨3, ![2, 4096, 2048]⟩ (Layout.meshBlock [2, 2] ![[1], [], []] c) X)
    (c : Dev Cert.KernelIdeal.nD) :
    outVal (F := Ideal) m c
      = Layout.blockN ⟨2, ![4096, 1024]⟩ ⟨2, ![4096, 2048]⟩ (Layout.meshBlock [2, 2] ![[], [1]] c)
          (refOut (F := Ideal) X) := by
  funext idx
  obtain ⟨i, j, rfl⟩ : ∃ (i : Fin 4096) (j : Fin 1024), idx = ix2 i j := ⟨idx 0, idx 1, eq_ix2 idx⟩
  -- the two entries the kernel adds, as entries of the whole array
  have hA := congrFun (hagree (colDev c (i.val / 2048) (row_half i))) (argIdx c i j)
  have hB := congrFun (hagree (colDev' c (i.val / 2048) (row_half i))) (argIdx c i j)
  rw [Layout.blockN_apply, arg_idx_eq] at hA hB
  -- the reference's entry
  rw [Layout.blockN_apply, out_idx_eq, refOut_apply, outVal_apply, hA, hB]
  refine sum_two_blocks X i _ _ _ ?_
  show (2 * (i.val / 2048) + c.val % 2) % 2 + (2 * (i.val / 2048) + (1 - c.val % 2)) % 2 = 1
  omega

/-- The same, read off the two memories: the whole argument array is the one device of the
    reference's argument buffer. -/
theorem bridge_claim (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0)))
    (c : Dev Cert.KernelIdeal.nD) :
    outVal (F := Ideal) m c
      = Layout.blockN ⟨2, ![4096, 1024]⟩ ⟨2, ![4096, 2048]⟩ (Layout.meshBlock [2, 2] ![[], [1]] c)
          (refOut (F := Ideal) (m' (((0 : Dev Cert.ReferenceIdeal.nD).tc : Thread Cert.ReferenceIdeal.nD Cert.ReferenceIdeal.τ).loc Cert.ReferenceIdeal.main_arg0))) :=
  bridge m _ hagree c

/-- info: 'Cert.KernelIdeal.RS.bridge_claim' depends on axioms: [propext, Classical.choice, Quot.sound] -/
#guard_msgs in #print axioms bridge_claim

end Cert.KernelIdeal.RS

end
-- ==== Proof.lean ====
/- The proof of `Cert.Claim`: frame_Kernel ∧ frame_KernelIdeal ∧ frame_ReferenceIdeal ∧ preserves_Kernel_KernelIdeal ∧ algebraic_KernelIdeal_ReferenceIdeal.
   The kernel's run on the four devices is proved once, at any float instance, with the strongest post: every device's
   result ends at `outVal`, a pure function of the devices' argument blocks, and its argument block as launched. Each
   frame is that run with the value dropped; the algebraic claim is its instance at the extended reals, the value joined
   to the reference's by the index equation between a device's result and its block of the whole sum. -/
import proofs.«900309_g7700000000000310_dist_rs_v7x_xy2x2_y_m4096_n1024_f32_1_alg».proof.Defs
import proofs.«900309_g7700000000000310_dist_rs_v7x_xy2x2_y_m4096_n1024_f32_1_alg».proof.Proof.Gen.Kernel
import proofs.«900309_g7700000000000310_dist_rs_v7x_xy2x2_y_m4096_n1024_f32_1_alg».proof.Proof.Gen.Kernel.Skeleton
import proofs.«900309_g7700000000000310_dist_rs_v7x_xy2x2_y_m4096_n1024_f32_1_alg».proof.Proof.Gen.Kernel.Launch
import proofs.«900309_g7700000000000310_dist_rs_v7x_xy2x2_y_m4096_n1024_f32_1_alg».proof.Proof.Gen.Kernel.Points
import proofs.«900309_g7700000000000310_dist_rs_v7x_xy2x2_y_m4096_n1024_f32_1_alg».proof.Proof.Gen.Kernel.Frame
import proofs.«900309_g7700000000000310_dist_rs_v7x_xy2x2_y_m4096_n1024_f32_1_alg».proof.Proof.Gen.KernelIdeal
import proofs.«900309_g7700000000000310_dist_rs_v7x_xy2x2_y_m4096_n1024_f32_1_alg».proof.Proof.Gen.KernelIdeal.Skeleton
import proofs.«900309_g7700000000000310_dist_rs_v7x_xy2x2_y_m4096_n1024_f32_1_alg».proof.Proof.Gen.KernelIdeal.Launch
import proofs.«900309_g7700000000000310_dist_rs_v7x_xy2x2_y_m4096_n1024_f32_1_alg».proof.Proof.Gen.KernelIdeal.Points
import proofs.«900309_g7700000000000310_dist_rs_v7x_xy2x2_y_m4096_n1024_f32_1_alg».proof.Proof.Gen.KernelIdeal.Frame
import proofs.«900309_g7700000000000310_dist_rs_v7x_xy2x2_y_m4096_n1024_f32_1_alg».proof.Proof.Gen.ReferenceIdeal
import proofs.«900309_g7700000000000310_dist_rs_v7x_xy2x2_y_m4096_n1024_f32_1_alg».proof.Proof.Gen.Pre_finite_inputs_Kernel
import proofs.«900309_g7700000000000310_dist_rs_v7x_xy2x2_y_m4096_n1024_f32_1_alg».proof.Proof.Gen.Pre_finite_inputs_ReferenceIdeal
import Idealize.ShloMosaic.Adequacy
import Idealize.ShloMosaic.Init
import proofs.«900309_g7700000000000310_dist_rs_v7x_xy2x2_y_m4096_n1024_f32_1_alg».proof.Proof.Launch
import proofs.«900309_g7700000000000310_dist_rs_v7x_xy2x2_y_m4096_n1024_f32_1_alg».proof.Proof.Bits.Launch
import proofs.«900309_g7700000000000310_dist_rs_v7x_xy2x2_y_m4096_n1024_f32_1_alg».proof.Proof.Bridge
import proofs.«900309_g7700000000000310_dist_rs_v7x_xy2x2_y_m4096_n1024_f32_1_alg».proof.Proof.RefRun

noncomputable section

namespace Cert.Proof

open Idealize.ShloMosaic Idealize.SL.Sem Cert.Kernel

/-- The word-level program runs and leaves every argument block as launched. -/
theorem frame_k : Cert.frame_Kernel (hKernel := Cert.Kernel.Gen.facts) (hPre_finite_inputs_Kernel := Cert.Pre_finite_inputs_Kernel.Gen.facts) :=
  fun m g _ => (θ_run Cert.Kernel.defs _ _).mono (fun _ h c => (h c).2) (Cert.Kernel.RS.run_main (F := Bits) m g)

/-- So does the program read at the extended reals. -/
theorem frame_ki : Cert.frame_KernelIdeal (hKernelIdeal := Cert.KernelIdeal.Gen.facts) (hPre_finite_inputs_Kernel := Cert.Pre_finite_inputs_Kernel.Gen.facts) :=
  fun m g _ => (θ_run Cert.KernelIdeal.defs _ _).mono (fun _ h c => (h c).2) (Cert.KernelIdeal.RS.run_main (F := Ideal) m g)

/-- At the extended reals each device's result is its block of the reference's result. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m g m' g' _ hagree =>
    ⟨Cert.ReferenceIdeal.RefValue.refOut (F := Ideal) (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨(h c).1.trans (Cert.KernelIdeal.RS.bridge_claim m m' hagree c), (h c).2⟩)
        (Cert.KernelIdeal.RS.run_main (F := Ideal) m g),
      Cert.ReferenceIdeal.RefValue.run_ri m' g'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceIdeal.RefValue.frame_ri, trivial, algebraic⟩

end Cert.Proof

end
